-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v253)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v253) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v225) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x32x32 : Shape := ⟨4, ![128, 64, 32, 32]⟩
abbrev S64x3x3 : Shape := ⟨3, ![64, 3, 3]⟩
abbrev S64x64 : Shape := ⟨2, ![64, 64]⟩
abbrev S64 : Shape := ⟨1, ![64]⟩
abbrev S_ : Shape := ⟨0, ![]⟩

class Facts : Prop where
  bcast_S_S128x64x32x32 : S_.BroadcastsInDim S128x64x32x32 (![] : Fin 0 → Fin S128x64x32x32.rank)
  reducesTo_S128x64x32x32_S_d0_1_2_3 : S128x64x32x32.ReducesTo [0, 1, 2, 3] S_
  h_S_ : 0 < S_.numel
  bcast_S_S64x3x3 : S_.BroadcastsInDim S64x3x3 (![] : Fin 0 → Fin S64x3x3.rank)
  reducesTo_S64x3x3_S_d0_1_2 : S64x3x3.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S128x64x32x32 .f32) (main_arg1 : FVec F S64x3x3 .f32) (main_arg2 : FVec F S64x64 .f32) (main_arg3 : FVec F S64 .f32) (main_arg4 : FVec F S64 .f32) : IVec S_ 1 :=
  let main_v0 : FVec F S128x64x32x32 .f32 := Host.absf main_arg0
  let main_cst : FVec F S_ .f32 := constant S_ .f32 0x7F800000#32
  let main_v1 : FVec F S128x64x32x32 .f32 := broadcastInDim S128x64x32x32 ![] bcast_S_S128x64x32x32 main_cst
  let main_v2 : IVec S128x64x32x32 1 := cmpf .olt main_v0 main_v1
  let main_c : IVec S_ 1 := constantI S_ 1 1#1
  let main_v3 : IVec S_ 1 := (fun x v => Host.reduce IntOp.andi x v reducesTo_S128x64x32x32_S_d0_1_2_3 h_S_) main_v2 main_c
  let main_v4 : FVec F S64x3x3 .f32 := Host.absf main_arg1
  let main_cst_0 : FVec F S_ .f32 := constant S_ .f32 0x7F800000#32
  let main_v5 : FVec F S64x3x3 .f32 := broadcastInDim S64x3x3 ![] bcast_S_S64x3x3 main_cst_0
  let main_v6 : IVec S64x3x3 1 := cmpf .olt main_v4 main_v5
  let main_c_1 : IVec S_ 1 := constantI S_ 1 1#1
  let main_v7 : IVec S_ 1 := (fun x v => Host.reduce IntOp.andi x v reducesTo_S64x3x3_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S128x64x32x32 : Shape := ⟨4, ![128, 64, 32, 32]⟩
abbrev S64x3x3 : Shape := ⟨3, ![64, 3, 3]⟩
abbrev S64x64 : Shape := ⟨2, ![64, 64]⟩
abbrev S64 : Shape := ⟨1, ![64]⟩
abbrev S8192x1024 : Shape := ⟨2, ![8192, 1024]⟩
abbrev S64x9 : Shape := ⟨2, ![64, 9]⟩
abbrev S1x64x1x9 : Shape := ⟨4, ![1, 64, 1, 9]⟩
abbrev S8x64x1x9 : Shape := ⟨4, ![8, 64, 1, 9]⟩
abbrev S512x9 : Shape := ⟨2, ![512, 9]⟩
abbrev S_ : Shape := ⟨0, ![]⟩
abbrev S64x1 : Shape := ⟨2, ![64, 1]⟩
abbrev S1x64x1x1 : Shape := ⟨4, ![1, 64, 1, 1]⟩
abbrev S8x64x1x1 : Shape := ⟨4, ![8, 64, 1, 1]⟩
abbrev S512x1 : Shape := ⟨2, ![512, 1]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S1x1024 : Shape := ⟨2, ![1, 1024]⟩
abbrev S9x1024 : Shape := ⟨2, ![9, 1024]⟩
abbrev S16x64x64 : Shape := ⟨3, ![16, 64, 64]⟩
abbrev S16x64x1 : Shape := ⟨3, ![16, 64, 1]⟩
abbrev S512x1024 : Shape := ⟨2, ![512, 1024]⟩
abbrev S1x64x64 : Shape := ⟨3, ![1, 64, 64]⟩
abbrev S1x64x1 : Shape := ⟨3, ![1, 64, 1]⟩
abbrev S64x1024 : Shape := ⟨2, ![64, 1024]⟩

abbrev nBuf : Space → Nat
  | .hbm => 342
  | .vmem => 17
  | .smem => 0
  | _ => 0

abbrev hbmTy0_0 (i : Nat) : BufTy := match i % 128 with
  | 0 => ⟨S128x64x32x32, .f32⟩
  | 1 => ⟨S64x3x3, .f32⟩
  | 2 => ⟨S64x64, .f32⟩
  | 3 => ⟨S64, .f32⟩
  | 4 => ⟨S64, .f32⟩
  | 5 => ⟨S8192x1024, .f32⟩
  | 6 => ⟨S64x9, .f32⟩
  | 7 => ⟨S1x64x1x9, .f32⟩
  | 8 => ⟨S8x64x1x9, .f32⟩
  | 9 => ⟨S512x9, .f32⟩
  | 10 => ⟨S_, .f32⟩
  | 11 => ⟨S64, .f32⟩
  | 12 => ⟨S_, .f32⟩
  | 13 => ⟨S64, .f32⟩
  | 14 => ⟨S64, .f32⟩
  | 15 => ⟨S64x1, .f32⟩
  | 16 => ⟨S1x64x1x1, .f32⟩
  | 17 => ⟨S8x64x1x1, .f32⟩
  | 18 => ⟨S512x1, .f32⟩
  | 19 => ⟨S32, .i32⟩
  | 20 => ⟨S32x1, .i32⟩
  | 21 => ⟨S32, .i32⟩
  | 22 => ⟨S1x32, .i32⟩
  | 23 => ⟨S_, .i32⟩
  | 24 => ⟨S32x1, .i32⟩
  | 25 => ⟨S32x1, .i32⟩
  | 26 => ⟨S_, .i32⟩
  | 27 => ⟨S32x1, .i32⟩
  | 28 => ⟨S32x1, .i1⟩
  | 29 => ⟨S_, .i32⟩
  | 30 => ⟨S32x1, .i32⟩
  | 31 => ⟨S32x1, .i32⟩
  | 32 => ⟨S_, .i32⟩
  | 33 => ⟨S32x1, .i32⟩
  | 34 => ⟨S32x1, .i1⟩
  | 35 => ⟨S32x1, .i1⟩
  | 36 => ⟨S_, .i32⟩
  | 37 => ⟨S1x32, .i32⟩
  | 38 => ⟨S1x32, .i32⟩
  | 39 => ⟨S_, .i32⟩
  | 40 => ⟨S1x32, .i32⟩
  | 41 => ⟨S1x32, .i1⟩
  | 42 => ⟨S32x32, .i1⟩
  | 43 => ⟨S32x32, .i1⟩
  | 44 => ⟨S32x32, .i1⟩
  | 45 => ⟨S_, .i32⟩
  | 46 => ⟨S1x32, .i32⟩
  | 47 => ⟨S1x32, .i32⟩
  | 48 => ⟨S_, .i32⟩
  | 49 => ⟨S1x32, .i32⟩
  | 50 => ⟨S1x32, .i1⟩
  | 51 => ⟨S32x32, .i1⟩
  | 52 => ⟨S32x32, .i1⟩
  | 53 => ⟨S1x1024, .i1⟩
  | 54 => ⟨S_, .i32⟩
  | 55 => ⟨S32x1, .i32⟩
  | 56 => ⟨S32x1, .i32⟩
  | 57 => ⟨S_, .i32⟩
  | 58 => ⟨S32x1, .i32⟩
  | 59 => ⟨S32x1, .i1⟩
  | 60 => ⟨S_, .i32⟩
  | 61 => ⟨S32x1, .i32⟩
  | 62 => ⟨S32x1, .i32⟩
  | 63 => ⟨S_, .i32⟩
  | 64 => ⟨S32x1, .i32⟩
  | 65 => ⟨S32x1, .i1⟩
  | 66 => ⟨S32x1, .i1⟩
  | 67 => ⟨S_, .i32⟩
  | 68 => ⟨S1x32, .i32⟩
  | 69 => ⟨S1x32, .i32⟩
  | 70 => ⟨S_, .i32⟩
  | 71 => ⟨S1x32, .i32⟩
  | 72 => ⟨S1x32, .i1⟩
  | 73 => ⟨S32x32, .i1⟩
  | 74 => ⟨S32x32, .i1⟩
  | 75 => ⟨S32x32, .i1⟩
  | 76 => ⟨S_, .i32⟩
  | 77 => ⟨S1x32, .i32⟩
  | 78 => ⟨S1x32, .i32⟩
  | 79 => ⟨S_, .i32⟩
  | 80 => ⟨S1x32, .i32⟩
  | 81 => ⟨S1x32, .i1⟩
  | 82 => ⟨S32x32, .i1⟩
  | 83 => ⟨S32x32, .i1⟩
  | 84 => ⟨S1x1024, .i1⟩
  | 85 => ⟨S_, .i32⟩
  | 86 => ⟨S32x1, .i32⟩
  | 87 => ⟨S32x1, .i32⟩
  | 88 => ⟨S_, .i32⟩
  | 89 => ⟨S32x1, .i32⟩
  | 90 => ⟨S32x1, .i1⟩
  | 91 => ⟨S_, .i32⟩
  | 92 => ⟨S32x1, .i32⟩
  | 93 => ⟨S32x1, .i32⟩
  | 94 => ⟨S_, .i32⟩
  | 95 => ⟨S32x1, .i32⟩
  | 96 => ⟨S32x1, .i1⟩
  | 97 => ⟨S32x1, .i1⟩
  | 98 => ⟨S_, .i32⟩
  | 99 => ⟨S1x32, .i32⟩
  | 100 => ⟨S1x32, .i32⟩
  | 101 => ⟨S_, .i32⟩
  | 102 => ⟨S1x32, .i32⟩
  | 103 => ⟨S1x32, .i1⟩
  | 104 => ⟨S32x32, .i1⟩
  | 105 => ⟨S32x32, .i1⟩
  | 106 => ⟨S32x32, .i1⟩
  | 107 => ⟨S_, .i32⟩
  | 108 => ⟨S1x32, .i32⟩
  | 109 => ⟨S1x32, .i32⟩
  | 110 => ⟨S_, .i32⟩
  | 111 => ⟨S1x32, .i32⟩
  | 112 => ⟨S1x32, .i1⟩
  | 113 => ⟨S32x32, .i1⟩
  | 114 => ⟨S32x32, .i1⟩
  | 115 => ⟨S1x1024, .i1⟩
  | 116 => ⟨S_, .i32⟩
  | 117 => ⟨S32x1, .i32⟩
  | 118 => ⟨S32x1, .i32⟩
  | 119 => ⟨S_, .i32⟩
  | 120 => ⟨S32x1, .i32⟩
  | 121 => ⟨S32x1, .i1⟩
  | 122 => ⟨S_, .i32⟩
  | 123 => ⟨S32x1, .i32⟩
  | 124 => ⟨S32x1, .i32⟩
  | 125 => ⟨S_, .i32⟩
  | 126 => ⟨S32x1, .i32⟩
  | 127 => ⟨S32x1, .i1⟩
  | _ => ⟨S128x64x32x32, .f32⟩

abbrev hbmTy0_1 (i : Nat) : BufTy := match i % 128 with
  | 0 => ⟨S32x1, .i1⟩
  | 1 => ⟨S_, .i32⟩
  | 2 => ⟨S1x32, .i32⟩
  | 3 => ⟨S1x32, .i32⟩
  | 4 => ⟨S_, .i32⟩
  | 5 => ⟨S1x32, .i32⟩
  | 6 => ⟨S1x32, .i1⟩
  | 7 => ⟨S32x32, .i1⟩
  | 8 => ⟨S32x32, .i1⟩
  | 9 => ⟨S32x32, .i1⟩
  | 10 => ⟨S_, .i32⟩
  | 11 => ⟨S1x32, .i32⟩
  | 12 => ⟨S1x32, .i32⟩
  | 13 => ⟨S_, .i32⟩
  | 14 => ⟨S1x32, .i32⟩
  | 15 => ⟨S1x32, .i1⟩
  | 16 => ⟨S32x32, .i1⟩
  | 17 => ⟨S32x32, .i1⟩
  | 18 => ⟨S1x1024, .i1⟩
  | 19 => ⟨S_, .i32⟩
  | 20 => ⟨S32x1, .i32⟩
  | 21 => ⟨S32x1, .i32⟩
  | 22 => ⟨S_, .i32⟩
  | 23 => ⟨S32x1, .i32⟩
  | 24 => ⟨S32x1, .i1⟩
  | 25 => ⟨S_, .i32⟩
  | 26 => ⟨S32x1, .i32⟩
  | 27 => ⟨S32x1, .i32⟩
  | 28 => ⟨S_, .i32⟩
  | 29 => ⟨S32x1, .i32⟩
  | 30 => ⟨S32x1, .i1⟩
  | 31 => ⟨S32x1, .i1⟩
  | 32 => ⟨S_, .i32⟩
  | 33 => ⟨S1x32, .i32⟩
  | 34 => ⟨S1x32, .i32⟩
  | 35 => ⟨S_, .i32⟩
  | 36 => ⟨S1x32, .i32⟩
  | 37 => ⟨S1x32, .i1⟩
  | 38 => ⟨S32x32, .i1⟩
  | 39 => ⟨S32x32, .i1⟩
  | 40 => ⟨S32x32, .i1⟩
  | 41 => ⟨S_, .i32⟩
  | 42 => ⟨S1x32, .i32⟩
  | 43 => ⟨S1x32, .i32⟩
  | 44 => ⟨S_, .i32⟩
  | 45 => ⟨S1x32, .i32⟩
  | 46 => ⟨S1x32, .i1⟩
  | 47 => ⟨S32x32, .i1⟩
  | 48 => ⟨S32x32, .i1⟩
  | 49 => ⟨S1x1024, .i1⟩
  | 50 => ⟨S_, .i32⟩
  | 51 => ⟨S32x1, .i32⟩
  | 52 => ⟨S32x1, .i32⟩
  | 53 => ⟨S_, .i32⟩
  | 54 => ⟨S32x1, .i32⟩
  | 55 => ⟨S32x1, .i1⟩
  | 56 => ⟨S_, .i32⟩
  | 57 => ⟨S32x1, .i32⟩
  | 58 => ⟨S32x1, .i32⟩
  | 59 => ⟨S_, .i32⟩
  | 60 => ⟨S32x1, .i32⟩
  | 61 => ⟨S32x1, .i1⟩
  | 62 => ⟨S32x1, .i1⟩
  | 63 => ⟨S_, .i32⟩
  | 64 => ⟨S1x32, .i32⟩
  | 65 => ⟨S1x32, .i32⟩
  | 66 => ⟨S_, .i32⟩
  | 67 => ⟨S1x32, .i32⟩
  | 68 => ⟨S1x32, .i1⟩
  | 69 => ⟨S32x32, .i1⟩
  | 70 => ⟨S32x32, .i1⟩
  | 71 => ⟨S32x32, .i1⟩
  | 72 => ⟨S_, .i32⟩
  | 73 => ⟨S1x32, .i32⟩
  | 74 => ⟨S1x32, .i32⟩
  | 75 => ⟨S_, .i32⟩
  | 76 => ⟨S1x32, .i32⟩
  | 77 => ⟨S1x32, .i1⟩
  | 78 => ⟨S32x32, .i1⟩
  | 79 => ⟨S32x32, .i1⟩
  | 80 => ⟨S1x1024, .i1⟩
  | 81 => ⟨S_, .i32⟩
  | 82 => ⟨S32x1, .i32⟩
  | 83 => ⟨S32x1, .i32⟩
  | 84 => ⟨S_, .i32⟩
  | 85 => ⟨S32x1, .i32⟩
  | 86 => ⟨S32x1, .i1⟩
  | 87 => ⟨S_, .i32⟩
  | 88 => ⟨S32x1, .i32⟩
  | 89 => ⟨S32x1, .i32⟩
  | 90 => ⟨S_, .i32⟩
  | 91 => ⟨S32x1, .i32⟩
  | 92 => ⟨S32x1, .i1⟩
  | 93 => ⟨S32x1, .i1⟩
  | 94 => ⟨S_, .i32⟩
  | 95 => ⟨S1x32, .i32⟩
  | 96 => ⟨S1x32, .i32⟩
  | 97 => ⟨S_, .i32⟩
  | 98 => ⟨S1x32, .i32⟩
  | 99 => ⟨S1x32, .i1⟩
  | 100 => ⟨S32x32, .i1⟩
  | 101 => ⟨S32x32, .i1⟩
  | 102 => ⟨S32x32, .i1⟩
  | 103 => ⟨S_, .i32⟩
  | 104 => ⟨S1x32, .i32⟩
  | 105 => ⟨S1x32, .i32⟩
  | 106 => ⟨S_, .i32⟩
  | 107 => ⟨S1x32, .i32⟩
  | 108 => ⟨S1x32, .i1⟩
  | 109 => ⟨S32x32, .i1⟩
  | 110 => ⟨S32x32, .i1⟩
  | 111 => ⟨S1x1024, .i1⟩
  | 112 => ⟨S_, .i32⟩
  | 113 => ⟨S32x1, .i32⟩
  | 114 => ⟨S32x1, .i32⟩
  | 115 => ⟨S_, .i32⟩
  | 116 => ⟨S32x1, .i32⟩
  | 117 => ⟨S32x1, .i1⟩
  | 118 => ⟨S_, .i32⟩
  | 119 => ⟨S32x1, .i32⟩
  | 120 => ⟨S32x1, .i32⟩
  | 121 => ⟨S_, .i32⟩
  | 122 => ⟨S32x1, .i32⟩
  | 123 => ⟨S32x1, .i1⟩
  | 124 => ⟨S32x1, .i1⟩
  | 125 => ⟨S_, .i32⟩
  | 126 => ⟨S1x32, .i32⟩
  | 127 => ⟨S1x32, .i32⟩
  | _ => ⟨S128x64x32x32, .f32⟩

abbrev hbmTy0_2 (i : Nat) : BufTy := match i % 128 with
  | 0 => ⟨S_, .i32⟩
  | 1 => ⟨S1x32, .i32⟩
  | 2 => ⟨S1x32, .i1⟩
  | 3 => ⟨S32x32, .i1⟩
  | 4 => ⟨S32x32, .i1⟩
  | 5 => ⟨S32x32, .i1⟩
  | 6 => ⟨S_, .i32⟩
  | 7 => ⟨S1x32, .i32⟩
  | 8 => ⟨S1x32, .i32⟩
  | 9 => ⟨S_, .i32⟩
  | 10 => ⟨S1x32, .i32⟩
  | 11 => ⟨S1x32, .i1⟩
  | 12 => ⟨S32x32, .i1⟩
  | 13 => ⟨S32x32, .i1⟩
  | 14 => ⟨S1x1024, .i1⟩
  | 15 => ⟨S_, .i32⟩
  | 16 => ⟨S32x1, .i32⟩
  | 17 => ⟨S32x1, .i32⟩
  | 18 => ⟨S_, .i32⟩
  | 19 => ⟨S32x1, .i32⟩
  | 20 => ⟨S32x1, .i1⟩
  | 21 => ⟨S_, .i32⟩
  | 22 => ⟨S32x1, .i32⟩
  | 23 => ⟨S32x1, .i32⟩
  | 24 => ⟨S_, .i32⟩
  | 25 => ⟨S32x1, .i32⟩
  | 26 => ⟨S32x1, .i1⟩
  | 27 => ⟨S32x1, .i1⟩
  | 28 => ⟨S_, .i32⟩
  | 29 => ⟨S1x32, .i32⟩
  | 30 => ⟨S1x32, .i32⟩
  | 31 => ⟨S_, .i32⟩
  | 32 => ⟨S1x32, .i32⟩
  | 33 => ⟨S1x32, .i1⟩
  | 34 => ⟨S32x32, .i1⟩
  | 35 => ⟨S32x32, .i1⟩
  | 36 => ⟨S32x32, .i1⟩
  | 37 => ⟨S_, .i32⟩
  | 38 => ⟨S1x32, .i32⟩
  | 39 => ⟨S1x32, .i32⟩
  | 40 => ⟨S_, .i32⟩
  | 41 => ⟨S1x32, .i32⟩
  | 42 => ⟨S1x32, .i1⟩
  | 43 => ⟨S32x32, .i1⟩
  | 44 => ⟨S32x32, .i1⟩
  | 45 => ⟨S1x1024, .i1⟩
  | 46 => ⟨S9x1024, .i1⟩
  | 47 => ⟨S9x1024, .f32⟩
  | 48 => ⟨S8192x1024, .bf16⟩
  | 49 => ⟨S16x64x64, .f32⟩
  | 50 => ⟨S16x64x1, .f32⟩
  | 51 => ⟨S_, .f32⟩
  | 52 => ⟨S64x64, .f32⟩
  | 53 => ⟨S_, .f32⟩
  | 54 => ⟨S64x1, .f32⟩
  | 55 => ⟨S_, .f32⟩
  | 56 => ⟨S64x64, .f32⟩
  | 57 => ⟨S64x64, .f32⟩
  | 58 => ⟨S64x1, .f32⟩
  | 59 => ⟨S_, .f32⟩
  | 60 => ⟨S64x1, .f32⟩
  | 61 => ⟨S64x1, .f32⟩
  | 62 => ⟨S64x64, .f32⟩
  | 63 => ⟨S64x64, .f32⟩
  | 64 => ⟨S_, .f32⟩
  | 65 => ⟨S64, .f32⟩
  | 66 => ⟨S64x1, .f32⟩
  | 67 => ⟨S_, .f32⟩
  | 68 => ⟨S64x1, .f32⟩
  | 69 => ⟨S64x1, .f32⟩
  | 70 => ⟨S64x1, .f32⟩
  | 71 => ⟨S64x1, .f32⟩
  | 72 => ⟨S64x1, .f32⟩
  | 73 => ⟨S_, .f32⟩
  | 74 => ⟨S64x1, .f32⟩
  | 75 => ⟨S64x1, .f32⟩
  | 76 => ⟨S64x1, .f32⟩
  | 77 => ⟨S64x1, .f32⟩
  | 78 => ⟨S64x1, .f32⟩
  | 79 => ⟨S64x1, .f32⟩
  | 80 => ⟨S64x1, .f32⟩
  | 81 => ⟨S64x64, .f32⟩
  | 82 => ⟨S64x64, .f32⟩
  | 83 => ⟨S64x64, .bf16⟩
  | 84 => ⟨S8192x1024, .f32⟩
  | 85 => ⟨S128x64x32x32, .f32⟩
  | _ => ⟨S128x64x32x32, .f32⟩

abbrev hbmTy (i : Nat) : BufTy := match i / 128 with
  | 0 => hbmTy0_0 i
  | 1 => hbmTy0_1 i
  | 2 => hbmTy0_2 i
  | _ => ⟨S128x64x32x32, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x9, .f32⟩
  | .local _ .vmem, ⟨3, _⟩ => ⟨S512x1, .f32⟩
  | .local _ .vmem, ⟨4, _⟩ => ⟨S9x1024, .f32⟩
  | .local _ .vmem, ⟨5, _⟩ => ⟨S512x1024, .bf16⟩
  | .local _ .vmem, ⟨6, _⟩ => ⟨S512x1024, .bf16⟩
  | .local _ .vmem, ⟨7, _⟩ => ⟨S1x64x64, .f32⟩
  | .local _ .vmem, ⟨8, _⟩ => ⟨S1x64x64, .f32⟩
  | .local _ .vmem, ⟨9, _⟩ => ⟨S1x64x1, .f32⟩
  | .local _ .vmem, ⟨10, _⟩ => ⟨S1x64x1, .f32⟩
  | .local _ .vmem, ⟨11, _⟩ => ⟨S512x1024, .bf16⟩
  | .local _ .vmem, ⟨12, _⟩ => ⟨S512x1024, .bf16⟩
  | .local _ .vmem, ⟨13, _⟩ => ⟨S64x64, .bf16⟩
  | .local _ .vmem, ⟨14, _⟩ => ⟨S64x1, .f32⟩
  | .local _ .vmem, ⟨15, _⟩ => ⟨S512x1024, .f32⟩
  | .local _ .vmem, ⟨16, _⟩ => ⟨S512x1024, .f32⟩
  | _, _ => ⟨S128x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_6 : Ref sig .tc := ⟨.hbm, 45, rfl⟩
abbrev main_v32 : Ref sig .tc := ⟨.hbm, 46, rfl⟩
abbrev main_v33 : Ref sig .tc := ⟨.hbm, 47, rfl⟩
abbrev main_c_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_8 : Ref sig .tc := ⟨.hbm, 54, rfl⟩
abbrev main_v39 : Ref sig .tc := ⟨.hbm, 55, rfl⟩
abbrev main_v40 : Ref sig .tc := ⟨.hbm, 56, rfl⟩
abbrev main_c_9 : Ref sig .tc := ⟨.hbm, 57, rfl⟩
abbrev main_v41 : Ref sig .tc := ⟨.hbm, 58, rfl⟩
abbrev main_v42 : Ref sig .tc := ⟨.hbm, 59, rfl⟩
abbrev main_c_10 : Ref sig .tc := ⟨.hbm, 60, rfl⟩
abbrev main_v43 : Ref sig .tc := ⟨.hbm, 61, rfl⟩
abbrev main_v44 : Ref sig .tc := ⟨.hbm, 62, rfl⟩
abbrev main_c_11 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_12 : Ref sig .tc := ⟨.hbm, 67, rfl⟩
abbrev main_v48 : Ref sig .tc := ⟨.hbm, 68, rfl⟩
abbrev main_v49 : Ref sig .tc := ⟨.hbm, 69, rfl⟩
abbrev main_c_13 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_14 : Ref sig .tc := ⟨.hbm, 76, rfl⟩
abbrev main_v55 : Ref sig .tc := ⟨.hbm, 77, rfl⟩
abbrev main_v56 : Ref sig .tc := ⟨.hbm, 78, rfl⟩
abbrev main_c_15 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_16 : Ref sig .tc := ⟨.hbm, 85, rfl⟩
abbrev main_v62 : Ref sig .tc := ⟨.hbm, 86, rfl⟩
abbrev main_v63 : Ref sig .tc := ⟨.hbm, 87, rfl⟩
abbrev main_c_17 : Ref sig .tc := ⟨.hbm, 88, rfl⟩
abbrev main_v64 : Ref sig .tc := ⟨.hbm, 89, rfl⟩
abbrev main_v65 : Ref sig .tc := ⟨.hbm, 90, rfl⟩
abbrev main_c_18 : Ref sig .tc := ⟨.hbm, 91, rfl⟩
abbrev main_v66 : Ref sig .tc := ⟨.hbm, 92, rfl⟩
abbrev main_v67 : Ref sig .tc := ⟨.hbm, 93, rfl⟩
abbrev main_c_19 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_20 : Ref sig .tc := ⟨.hbm, 98, rfl⟩
abbrev main_v71 : Ref sig .tc := ⟨.hbm, 99, rfl⟩
abbrev main_v72 : Ref sig .tc := ⟨.hbm, 100, rfl⟩
abbrev main_c_21 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_22 : Ref sig .tc := ⟨.hbm, 107, rfl⟩
abbrev main_v78 : Ref sig .tc := ⟨.hbm, 108, rfl⟩
abbrev main_v79 : Ref sig .tc := ⟨.hbm, 109, rfl⟩
abbrev main_c_23 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_c_24 : Ref sig .tc := ⟨.hbm, 116, rfl⟩
abbrev main_v85 : Ref sig .tc := ⟨.hbm, 117, rfl⟩
abbrev main_v86 : Ref sig .tc := ⟨.hbm, 118, rfl⟩
abbrev main_c_25 : Ref sig .tc := ⟨.hbm, 119, rfl⟩
abbrev main_v87 : Ref sig .tc := ⟨.hbm, 120, rfl⟩
abbrev main_v88 : Ref sig .tc := ⟨.hbm, 121, rfl⟩
abbrev main_c_26 : Ref sig .tc := ⟨.hbm, 122, rfl⟩
abbrev main_v89 : Ref sig .tc := ⟨.hbm, 123, rfl⟩
abbrev main_v90 : Ref sig .tc := ⟨.hbm, 124, rfl⟩
abbrev main_c_27 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_c_28 : Ref sig .tc := ⟨.hbm, 129, rfl⟩
abbrev main_v94 : Ref sig .tc := ⟨.hbm, 130, rfl⟩
abbrev main_v95 : Ref sig .tc := ⟨.hbm, 131, rfl⟩
abbrev main_c_29 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_c_30 : Ref sig .tc := ⟨.hbm, 138, rfl⟩
abbrev main_v101 : Ref sig .tc := ⟨.hbm, 139, rfl⟩
abbrev main_v102 : Ref sig .tc := ⟨.hbm, 140, rfl⟩
abbrev main_c_31 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_c_32 : Ref sig .tc := ⟨.hbm, 147, rfl⟩
abbrev main_v108 : Ref sig .tc := ⟨.hbm, 148, rfl⟩
abbrev main_v109 : Ref sig .tc := ⟨.hbm, 149, rfl⟩
abbrev main_c_33 : Ref sig .tc := ⟨.hbm, 150, rfl⟩
abbrev main_v110 : Ref sig .tc := ⟨.hbm, 151, rfl⟩
abbrev main_v111 : Ref sig .tc := ⟨.hbm, 152, rfl⟩
abbrev main_c_34 : Ref sig .tc := ⟨.hbm, 153, rfl⟩
abbrev main_v112 : Ref sig .tc := ⟨.hbm, 154, rfl⟩
abbrev main_v113 : Ref sig .tc := ⟨.hbm, 155, rfl⟩
abbrev main_c_35 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_c_36 : Ref sig .tc := ⟨.hbm, 160, rfl⟩
abbrev main_v117 : Ref sig .tc := ⟨.hbm, 161, rfl⟩
abbrev main_v118 : Ref sig .tc := ⟨.hbm, 162, rfl⟩
abbrev main_c_37 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_c_38 : Ref sig .tc := ⟨.hbm, 169, rfl⟩
abbrev main_v124 : Ref sig .tc := ⟨.hbm, 170, rfl⟩
abbrev main_v125 : Ref sig .tc := ⟨.hbm, 171, rfl⟩
abbrev main_c_39 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_c_40 : Ref sig .tc := ⟨.hbm, 178, rfl⟩
abbrev main_v131 : Ref sig .tc := ⟨.hbm, 179, rfl⟩
abbrev main_v132 : Ref sig .tc := ⟨.hbm, 180, rfl⟩
abbrev main_c_41 : Ref sig .tc := ⟨.hbm, 181, rfl⟩
abbrev main_v133 : Ref sig .tc := ⟨.hbm, 182, rfl⟩
abbrev main_v134 : Ref sig .tc := ⟨.hbm, 183, rfl⟩
abbrev main_c_42 : Ref sig .tc := ⟨.hbm, 184, rfl⟩
abbrev main_v135 : Ref sig .tc := ⟨.hbm, 185, rfl⟩
abbrev main_v136 : Ref sig .tc := ⟨.hbm, 186, rfl⟩
abbrev main_c_43 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_c_44 : Ref sig .tc := ⟨.hbm, 191, rfl⟩
abbrev main_v140 : Ref sig .tc := ⟨.hbm, 192, rfl⟩
abbrev main_v141 : Ref sig .tc := ⟨.hbm, 193, rfl⟩
abbrev main_c_45 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_c_46 : Ref sig .tc := ⟨.hbm, 200, rfl⟩
abbrev main_v147 : Ref sig .tc := ⟨.hbm, 201, rfl⟩
abbrev main_v148 : Ref sig .tc := ⟨.hbm, 202, rfl⟩
abbrev main_c_47 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_c_48 : Ref sig .tc := ⟨.hbm, 209, rfl⟩
abbrev main_v154 : Ref sig .tc := ⟨.hbm, 210, rfl⟩
abbrev main_v155 : Ref sig .tc := ⟨.hbm, 211, rfl⟩
abbrev main_c_49 : Ref sig .tc := ⟨.hbm, 212, rfl⟩
abbrev main_v156 : Ref sig .tc := ⟨.hbm, 213, rfl⟩
abbrev main_v157 : Ref sig .tc := ⟨.hbm, 214, rfl⟩
abbrev main_c_50 : Ref sig .tc := ⟨.hbm, 215, rfl⟩
abbrev main_v158 : Ref sig .tc := ⟨.hbm, 216, rfl⟩
abbrev main_v159 : Ref sig .tc := ⟨.hbm, 217, rfl⟩
abbrev main_c_51 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_c_52 : Ref sig .tc := ⟨.hbm, 222, rfl⟩
abbrev main_v163 : Ref sig .tc := ⟨.hbm, 223, rfl⟩
abbrev main_v164 : Ref sig .tc := ⟨.hbm, 224, rfl⟩
abbrev main_c_53 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_c_54 : Ref sig .tc := ⟨.hbm, 231, rfl⟩
abbrev main_v170 : Ref sig .tc := ⟨.hbm, 232, rfl⟩
abbrev main_v171 : Ref sig .tc := ⟨.hbm, 233, rfl⟩
abbrev main_c_55 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_c_56 : Ref sig .tc := ⟨.hbm, 240, rfl⟩
abbrev main_v177 : Ref sig .tc := ⟨.hbm, 241, rfl⟩
abbrev main_v178 : Ref sig .tc := ⟨.hbm, 242, rfl⟩
abbrev main_c_57 : Ref sig .tc := ⟨.hbm, 243, rfl⟩
abbrev main_v179 : Ref sig .tc := ⟨.hbm, 244, rfl⟩
abbrev main_v180 : Ref sig .tc := ⟨.hbm, 245, rfl⟩
abbrev main_c_58 : Ref sig .tc := ⟨.hbm, 246, rfl⟩
abbrev main_v181 : Ref sig .tc := ⟨.hbm, 247, rfl⟩
abbrev main_v182 : Ref sig .tc := ⟨.hbm, 248, rfl⟩
abbrev main_c_59 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_c_60 : Ref sig .tc := ⟨.hbm, 253, rfl⟩
abbrev main_v186 : Ref sig .tc := ⟨.hbm, 254, rfl⟩
abbrev main_v187 : Ref sig .tc := ⟨.hbm, 255, rfl⟩
abbrev main_c_61 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_c_62 : Ref sig .tc := ⟨.hbm, 262, rfl⟩
abbrev main_v193 : Ref sig .tc := ⟨.hbm, 263, rfl⟩
abbrev main_v194 : Ref sig .tc := ⟨.hbm, 264, rfl⟩
abbrev main_c_63 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_c_64 : Ref sig .tc := ⟨.hbm, 271, rfl⟩
abbrev main_v200 : Ref sig .tc := ⟨.hbm, 272, rfl⟩
abbrev main_v201 : Ref sig .tc := ⟨.hbm, 273, rfl⟩
abbrev main_c_65 : Ref sig .tc := ⟨.hbm, 274, rfl⟩
abbrev main_v202 : Ref sig .tc := ⟨.hbm, 275, rfl⟩
abbrev main_v203 : Ref sig .tc := ⟨.hbm, 276, rfl⟩
abbrev main_c_66 : Ref sig .tc := ⟨.hbm, 277, rfl⟩
abbrev main_v204 : Ref sig .tc := ⟨.hbm, 278, rfl⟩
abbrev main_v205 : Ref sig .tc := ⟨.hbm, 279, rfl⟩
abbrev main_c_67 : Ref sig .tc := ⟨.hbm, 280, rfl⟩
abbrev main_v206 : Ref sig .tc := ⟨.hbm, 281, rfl⟩
abbrev main_v207 : Ref sig .tc := ⟨.hbm, 282, rfl⟩
abbrev main_v208 : Ref sig .tc := ⟨.hbm, 283, rfl⟩
abbrev main_c_68 : Ref sig .tc := ⟨.hbm, 284, rfl⟩
abbrev main_v209 : Ref sig .tc := ⟨.hbm, 285, rfl⟩
abbrev main_v210 : Ref sig .tc := ⟨.hbm, 286, rfl⟩
abbrev main_c_69 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩
abbrev main_v214 : Ref sig .tc := ⟨.hbm, 291, rfl⟩
abbrev main_v215 : Ref sig .tc := ⟨.hbm, 292, rfl⟩
abbrev main_c_70 : Ref sig .tc := ⟨.hbm, 293, rfl⟩
abbrev main_v216 : Ref sig .tc := ⟨.hbm, 294, rfl⟩
abbrev main_v217 : Ref sig .tc := ⟨.hbm, 295, rfl⟩
abbrev main_c_71 : Ref sig .tc := ⟨.hbm, 296, rfl⟩
abbrev main_v218 : Ref sig .tc := ⟨.hbm, 297, rfl⟩
abbrev main_v219 : Ref sig .tc := ⟨.hbm, 298, rfl⟩
abbrev main_v220 : Ref sig .tc := ⟨.hbm, 299, rfl⟩
abbrev main_v221 : Ref sig .tc := ⟨.hbm, 300, rfl⟩
abbrev main_v222 : Ref sig .tc := ⟨.hbm, 301, rfl⟩
abbrev main_v223 : Ref sig .tc := ⟨.hbm, 302, rfl⟩
abbrev main_v224 : Ref sig .tc := ⟨.hbm, 303, rfl⟩
abbrev main_v225_0 : Ref sig .tc := ⟨.hbm, 304, rfl⟩
abbrev main_v225_1 : Ref sig .tc := ⟨.hbm, 305, rfl⟩
abbrev main_v225_2 : Ref sig .tc := ⟨.hbm, 306, rfl⟩
abbrev main_cst_72 : Ref sig .tc := ⟨.hbm, 307, rfl⟩
abbrev main_v226 : Ref sig .tc := ⟨.hbm, 308, rfl⟩
abbrev main_cst_73 : Ref sig .tc := ⟨.hbm, 309, rfl⟩
abbrev main_v227 : Ref sig .tc := ⟨.hbm, 310, rfl⟩
abbrev main_cst_74 : Ref sig .tc := ⟨.hbm, 311, rfl⟩
abbrev main_v228 : Ref sig .tc := ⟨.hbm, 312, rfl⟩
abbrev main_v229 : Ref sig .tc := ⟨.hbm, 313, rfl⟩
abbrev main_v230 : Ref sig .tc := ⟨.hbm, 314, rfl⟩
abbrev main_cst_75 : Ref sig .tc := ⟨.hbm, 315, rfl⟩
abbrev main_v231 : Ref sig .tc := ⟨.hbm, 316, rfl⟩
abbrev main_v232 : Ref sig .tc := ⟨.hbm, 317, rfl⟩
abbrev main_v233 : Ref sig .tc := ⟨.hbm, 318, rfl⟩
abbrev main_v234 : Ref sig .tc := ⟨.hbm, 319, rfl⟩
abbrev main_cst_76 : Ref sig .tc := ⟨.hbm, 320, rfl⟩
abbrev main_v235 : Ref sig .tc := ⟨.hbm, 321, rfl⟩
abbrev main_v236 : Ref sig .tc := ⟨.hbm, 322, rfl⟩
abbrev main_cst_77 : Ref sig .tc := ⟨.hbm, 323, rfl⟩
abbrev main_v237 : Ref sig .tc := ⟨.hbm, 324, rfl⟩
abbrev main_v238 : Ref sig .tc := ⟨.hbm, 325, rfl⟩
abbrev main_v239 : Ref sig .tc := ⟨.hbm, 326, rfl⟩
abbrev main_v240 : Ref sig .tc := ⟨.hbm, 327, rfl⟩
abbrev main_v241 : Ref sig .tc := ⟨.hbm, 328, rfl⟩
abbrev main_cst_78 : Ref sig .tc := ⟨.hbm, 329, rfl⟩
abbrev main_v242 : Ref sig .tc := ⟨.hbm, 330, rfl⟩
abbrev main_v243 : Ref sig .tc := ⟨.hbm, 331, rfl⟩
abbrev main_v244 : Ref sig .tc := ⟨.hbm, 332, rfl⟩
abbrev main_v245 : Ref sig .tc := ⟨.hbm, 333, rfl⟩
abbrev main_v246 : Ref sig .tc := ⟨.hbm, 334, rfl⟩
abbrev main_v247 : Ref sig .tc := ⟨.hbm, 335, rfl⟩
abbrev main_v248 : Ref sig .tc := ⟨.hbm, 336, rfl⟩
abbrev main_v249 : Ref sig .tc := ⟨.hbm, 337, rfl⟩
abbrev main_v250 : Ref sig .tc := ⟨.hbm, 338, rfl⟩
abbrev main_v251 : Ref sig .tc := ⟨.hbm, 339, rfl⟩
abbrev main_v252 : Ref sig .tc := ⟨.hbm, 340, rfl⟩
abbrev main_v253 : Ref sig .tc := ⟨.hbm, 341, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x9 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S128x64x32x32_S8192x1024 : S128x64x32x32.ShapeCasts S8192x1024
  shapeCasts_S64x3x3_S64x9 : S64x3x3.ShapeCasts S64x9
  shapeCasts_S64x9_S1x64x1x9 : S64x9.ShapeCasts S1x64x1x9
  bcast_S1x64x1x9_S8x64x1x9_0_1_2_3 : S1x64x1x9.BroadcastsInDim S8x64x1x9 (![0, 1, 2, 3] : Fin 4 → Fin S8x64x1x9.rank)
  shapeCasts_S8x64x1x9_S512x9 : S8x64x1x9.ShapeCasts S512x9
  reducesTo_S64x3x3_S64_d1_2 : S64x3x3.ReducesTo [1, 2] S64
  h_S_ : 0 < S_.numel
  bcast_S_S64 : S_.BroadcastsInDim S64 (![] : Fin 0 → Fin S64.rank)
  shapeCasts_S64_S64x1 : S64.ShapeCasts S64x1
  shapeCasts_S64x1_S1x64x1x1 : S64x1.ShapeCasts S1x64x1x1
  bcast_S1x64x1x1_S8x64x1x1_0_1_2_3 : S1x64x1x1.BroadcastsInDim S8x64x1x1 (![0, 1, 2, 3] : Fin 4 → Fin S8x64x1x1.rank)
  shapeCasts_S8x64x1x1_S512x1 : S8x64x1x1.ShapeCasts S512x1
  shapeCasts_S32_S32x1 : S32.ShapeCasts S32x1
  shapeCasts_S32_S1x32 : S32.ShapeCasts S1x32
  bcast_S_S32x1 : S_.BroadcastsInDim S32x1 (![] : Fin 0 → Fin S32x1.rank)
  bcast_S_S1x32 : S_.BroadcastsInDim S1x32 (![] : Fin 0 → Fin S1x32.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  shapeCasts_S32x32_S1x1024 : S32x32.ShapeCasts S1x1024
  concatenates_S1x1024_S1x1024_S1x1024_S1x1024_S1x1024_S1x1024_S1x1024_S1x1024_S1x1024_S9x1024_d0 : Shape.Concatenates [S1x1024, S1x1024, S1x1024, S1x1024, S1x1024, S1x1024, S1x1024, S1x1024, S1x1024] S9x1024 0
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  rotates_S512x1024_d1 : S512x1024.Rotates 1 none
  inb_S9x1024_S1x1024_0_0 : ∀ a, (![0, 0] : Fin 2 → Nat) a + S1x1024.size a ≤ S9x1024.size a
  h_S1x1024 : 0 < S1x1024.numel
  shapeCasts_S1x1024_S1x1024 : S1x1024.ShapeCasts S1x1024
  broadcasts_S1x1024_S512x1024 : S1x1024.Broadcasts S512x1024
  inb_S512x9_S512x1_0_0 : ∀ a, (![0, 0] : Fin 2 → Nat) a + S512x1.size a ≤ S512x9.size a
  h_S512x1 : 0 < S512x1.numel
  shapeCasts_S512x1_S512x1 : S512x1.ShapeCasts S512x1
  broadcasts_S512x1_S512x1024 : S512x1.Broadcasts S512x1024
  inb_S9x1024_S1x1024_1_0 : ∀ a, (![1, 0] : Fin 2 → Nat) a + S1x1024.size a ≤ S9x1024.size a
  inb_S512x9_S512x1_0_1 : ∀ a, (![0, 1] : Fin 2 → Nat) a + S512x1.size a ≤ S512x9.size a
  inb_S9x1024_S1x1024_2_0 : ∀ a, (![2, 0] : Fin 2 → Nat) a + S1x1024.size a ≤ S9x1024.size a
  inb_S512x9_S512x1_0_2 : ∀ a, (![0, 2] : Fin 2 → Nat) a + S512x1.size a ≤ S512x9.size a
  inb_S9x1024_S1x1024_3_0 : ∀ a, (![3, 0] : Fin 2 → Nat) a + S1x1024.size a ≤ S9x1024.size a
  inb_S512x9_S512x1_0_3 : ∀ a, (![0, 3] : Fin 2 → Nat) a + S512x1.size a ≤ S512x9.size a
  inb_S512x9_S512x1_0_4 : ∀ a, (![0, 4] : Fin 2 → Nat) a + S512x1.size a ≤ S512x9.size a
  inb_S9x1024_S1x1024_5_0 : ∀ a, (![5, 0] : Fin 2 → Nat) a + S1x1024.size a ≤ S9x1024.size a
  inb_S512x9_S512x1_0_5 : ∀ a, (![0, 5] : Fin 2 → Nat) a + S512x1.size a ≤ S512x9.size a
  inb_S9x1024_S1x1024_6_0 : ∀ a, (![6, 0] : Fin 2 → Nat) a + S1x1024.size a ≤ S9x1024.size a
  inb_S512x9_S512x1_0_6 : ∀ a, (![0, 6] : Fin 2 → Nat) a + S512x1.size a ≤ S512x9.size a
  inb_S9x1024_S1x1024_7_0 : ∀ a, (![7, 0] : Fin 2 → Nat) a + S1x1024.size a ≤ S9x1024.size a
  inb_S512x9_S512x1_0_7 : ∀ a, (![0, 7] : Fin 2 → Nat) a + S512x1.size a ≤ S512x9.size a
  inb_S9x1024_S1x1024_8_0 : ∀ a, (![8, 0] : Fin 2 → Nat) a + S1x1024.size a ≤ S9x1024.size a
  inb_S512x9_S512x1_0_8 : ∀ a, (![0, 8] : Fin 2 → Nat) a + S512x1.size a ≤ S512x9.size a
  inb_S512x1_S512x1_0_0 : ∀ a, (![0, 0] : Fin 2 → Nat) a + S512x1.size a ≤ S512x1.size a
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  slices_S512x1024_o0_0_S64x1024 : S512x1024.Slices ![0, 0] S64x1024
  reduces_S64x1024_S64 : S64x1024.Reduces [1] S64
  slices_S512x1024_o64_0_S64x1024 : S512x1024.Slices ![64, 0] S64x1024
  slices_S512x1024_o128_0_S64x1024 : S512x1024.Slices ![128, 0] S64x1024
  slices_S512x1024_o192_0_S64x1024 : S512x1024.Slices ![192, 0] S64x1024
  slices_S512x1024_o256_0_S64x1024 : S512x1024.Slices ![256, 0] S64x1024
  slices_S512x1024_o320_0_S64x1024 : S512x1024.Slices ![320, 0] S64x1024
  slices_S512x1024_o384_0_S64x1024 : S512x1024.Slices ![384, 0] S64x1024
  slices_S512x1024_o448_0_S64x1024 : S512x1024.Slices ![448, 0] S64x1024
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  reducesTo_S16x64x64_S64x64_d0 : S16x64x64.ReducesTo [0] S64x64
  reducesTo_S16x64x1_S64x1_d0 : S16x64x1.ReducesTo [0] S64x1
  bcast_S_S64x64 : S_.BroadcastsInDim S64x64 (![] : Fin 0 → Fin S64x64.rank)
  bcast_S_S64x1 : S_.BroadcastsInDim S64x1 (![] : Fin 0 → Fin S64x1.rank)
  reducesTo_S64x64_S64_d1 : S64x64.ReducesTo [1] S64
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S512x1024_S64x1024_0_0 : ∀ a, (![0, 0] : Fin 2 → Nat) a + S64x1024.size a ≤ S512x1024.size a
  h_S64x1024 : 0 < S64x1024.numel
  shapeCasts_S64x1024_S64x1024 : S64x1024.ShapeCasts S64x1024
  broadcasts_S64x1_S64x1024 : S64x1.Broadcasts S64x1024
  inb_S512x1024_S64x1024_64_0 : ∀ a, (![64, 0] : Fin 2 → Nat) a + S64x1024.size a ≤ S512x1024.size a
  inb_S512x1024_S64x1024_128_0 : ∀ a, (![128, 0] : Fin 2 → Nat) a + S64x1024.size a ≤ S512x1024.size a
  inb_S512x1024_S64x1024_192_0 : ∀ a, (![192, 0] : Fin 2 → Nat) a + S64x1024.size a ≤ S512x1024.size a
  inb_S512x1024_S64x1024_256_0 : ∀ a, (![256, 0] : Fin 2 → Nat) a + S64x1024.size a ≤ S512x1024.size a
  inb_S512x1024_S64x1024_320_0 : ∀ a, (![320, 0] : Fin 2 → Nat) a + S64x1024.size a ≤ S512x1024.size a
  inb_S512x1024_S64x1024_384_0 : ∀ a, (![384, 0] : Fin 2 → Nat) a + S64x1024.size a ≤ S512x1024.size a
  inb_S512x1024_S64x1024_448_0 : ∀ a, (![448, 0] : Fin 2 → Nat) a + S64x1024.size a ≤ S512x1024.size a
  shapeCasts_S8192x1024_S128x64x32x32 : S8192x1024.ShapeCasts S128x64x32x32
  dot_S64x1024_S64x1024_S64x64_1_1_0_0_n_n_wf : DotDims.WF S64x1024 S64x1024 S64x64 [1] [1] [0] [0] [] []
  dot_S64x64_S64x1_S64x1_1_0_0_1_n_n_wf : DotDims.WF S64x64 S64x1 S64x1 [1] [0] [0] [1] [] []
  dot_S64x64_S64x64_S64x64_1_0_0_1_n_n_wf : DotDims.WF S64x64 S64x64 S64x64 [1] [0] [0] [1] [] []
  dot_S64x64_S64x1024_S64x1024_1_0_0_1_n_n_wf : DotDims.WF S64x64 S64x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x9.size a ≤ S512x9.size a
  hwx0_1 : ∀ i : grid0.Coords, EltTy.bits .f32 = 32 ∨ (Rect.block (s := S512x9) S512x9.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .f32 = 32 ∨ (Rect.block (s := S512x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x1024.size a ≤ S9x1024.size a
  hwx0_3 : ∀ i : grid0.Coords, EltTy.bits .f32 = 32 ∨ (Rect.block (s := S9x1024) S9x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x64.size a ≤ S16x64x64.size a
  hwx0_5 : ∀ i : grid0.Coords, EltTy.bits .f32 = 32 ∨ (Rect.block (s := S16x64x64) S1x64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x1.size a ≤ S16x64x1.size a
  hwx0_6 : ∀ i : grid0.Coords, EltTy.bits .f32 = 32 ∨ (Rect.block (s := S16x64x1) S1x64x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .bf16 = 32 ∨ (Rect.block (s := S8192x1024) S512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .bf16 = 32 ∨ (Rect.block (s := S64x64) S64x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x1024.size a
  hwx1_3 : ∀ i : grid1.Coords, EltTy.bits .f32 = 32 ∨ (Rect.block (s := S8192x1024) S512x1024.size (cc1_transform_3 i) (hinb1_3 i)).WholeWords (EltTy.packing .f32)

variable [Facts₀]

def dot_S64x1024_S64x1024_S64x64_1_1_0_0_n_n : DotDims S64x1024 S64x1024 S64x64 where
  lhsContracting := [1]
  rhsContracting := [1]
  lhsNonContracting := [0]
  rhsNonContracting := [0]
  lhsBatch := []
  rhsBatch := []
  wf := dot_S64x1024_S64x1024_S64x64_1_1_0_0_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x1024_S64x1024_1_0_0_1_n_n : DotDims S64x64 S64x1024 S64x1024 where
  lhsContracting := [1]
  rhsContracting := [0]
  lhsNonContracting := [0]
  rhsNonContracting := [1]
  lhsBatch := []
  rhsBatch := []
  wf := dot_S64x64_S64x1024_S64x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x9.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v224) S9x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v225_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v225_1) S1x64x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v225_2) S1x64x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v225_0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v251) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v248) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v252) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S128x64x32x32 : Shape := ⟨4, ![128, 64, 32, 32]⟩
abbrev S64x3x3 : Shape := ⟨3, ![64, 3, 3]⟩
abbrev S64x64 : Shape := ⟨2, ![64, 64]⟩
abbrev S64 : Shape := ⟨1, ![64]⟩
abbrev S128x64x1024 : Shape := ⟨3, ![128, 64, 1024]⟩
abbrev S64x9 : Shape := ⟨2, ![64, 9]⟩
abbrev S_ : Shape := ⟨0, ![]⟩
abbrev S64x1 : Shape := ⟨2, ![64, 1]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S1x1024 : Shape := ⟨2, ![1, 1024]⟩
abbrev S9x1024 : Shape := ⟨2, ![9, 1024]⟩
abbrev S1x64x1024 : Shape := ⟨3, ![1, 64, 1024]⟩
abbrev S64x1024 : Shape := ⟨2, ![64, 1024]⟩

abbrev nBuf : Space → Nat
  | .hbm => 308
  | .vmem => 18
  | .smem => 0
  | _ => 0

abbrev hbmTy0_0 (i : Nat) : BufTy := match i % 128 with
  | 0 => ⟨S128x64x32x32, .f32⟩
  | 1 => ⟨S64x3x3, .f32⟩
  | 2 => ⟨S64x64, .f32⟩
  | 3 => ⟨S64, .f32⟩
  | 4 => ⟨S64, .f32⟩
  | 5 => ⟨S128x64x1024, .f32⟩
  | 6 => ⟨S64x9, .f32⟩
  | 7 => ⟨S_, .f32⟩
  | 8 => ⟨S64, .f32⟩
  | 9 => ⟨S_, .f32⟩
  | 10 => ⟨S64, .f32⟩
  | 11 => ⟨S64, .f32⟩
  | 12 => ⟨S64x1, .f32⟩
  | 13 => ⟨S32, .i32⟩
  | 14 => ⟨S32x1, .i32⟩
  | 15 => ⟨S32, .i32⟩
  | 16 => ⟨S1x32, .i32⟩
  | 17 => ⟨S_, .i32⟩
  | 18 => ⟨S32x1, .i32⟩
  | 19 => ⟨S32x1, .i32⟩
  | 20 => ⟨S_, .i32⟩
  | 21 => ⟨S32x1, .i32⟩
  | 22 => ⟨S32x1, .i1⟩
  | 23 => ⟨S_, .i32⟩
  | 24 => ⟨S32x1, .i32⟩
  | 25 => ⟨S32x1, .i32⟩
  | 26 => ⟨S_, .i32⟩
  | 27 => ⟨S32x1, .i32⟩
  | 28 => ⟨S32x1, .i1⟩
  | 29 => ⟨S32x1, .i1⟩
  | 30 => ⟨S_, .i32⟩
  | 31 => ⟨S1x32, .i32⟩
  | 32 => ⟨S1x32, .i32⟩
  | 33 => ⟨S_, .i32⟩
  | 34 => ⟨S1x32, .i32⟩
  | 35 => ⟨S1x32, .i1⟩
  | 36 => ⟨S32x32, .i1⟩
  | 37 => ⟨S32x32, .i1⟩
  | 38 => ⟨S32x32, .i1⟩
  | 39 => ⟨S_, .i32⟩
  | 40 => ⟨S1x32, .i32⟩
  | 41 => ⟨S1x32, .i32⟩
  | 42 => ⟨S_, .i32⟩
  | 43 => ⟨S1x32, .i32⟩
  | 44 => ⟨S1x32, .i1⟩
  | 45 => ⟨S32x32, .i1⟩
  | 46 => ⟨S32x32, .i1⟩
  | 47 => ⟨S1x1024, .i1⟩
  | 48 => ⟨S_, .i32⟩
  | 49 => ⟨S32x1, .i32⟩
  | 50 => ⟨S32x1, .i32⟩
  | 51 => ⟨S_, .i32⟩
  | 52 => ⟨S32x1, .i32⟩
  | 53 => ⟨S32x1, .i1⟩
  | 54 => ⟨S_, .i32⟩
  | 55 => ⟨S32x1, .i32⟩
  | 56 => ⟨S32x1, .i32⟩
  | 57 => ⟨S_, .i32⟩
  | 58 => ⟨S32x1, .i32⟩
  | 59 => ⟨S32x1, .i1⟩
  | 60 => ⟨S32x1, .i1⟩
  | 61 => ⟨S_, .i32⟩
  | 62 => ⟨S1x32, .i32⟩
  | 63 => ⟨S1x32, .i32⟩
  | 64 => ⟨S_, .i32⟩
  | 65 => ⟨S1x32, .i32⟩
  | 66 => ⟨S1x32, .i1⟩
  | 67 => ⟨S32x32, .i1⟩
  | 68 => ⟨S32x32, .i1⟩
  | 69 => ⟨S32x32, .i1⟩
  | 70 => ⟨S_, .i32⟩
  | 71 => ⟨S1x32, .i32⟩
  | 72 => ⟨S1x32, .i32⟩
  | 73 => ⟨S_, .i32⟩
  | 74 => ⟨S1x32, .i32⟩
  | 75 => ⟨S1x32, .i1⟩
  | 76 => ⟨S32x32, .i1⟩
  | 77 => ⟨S32x32, .i1⟩
  | 78 => ⟨S1x1024, .i1⟩
  | 79 => ⟨S_, .i32⟩
  | 80 => ⟨S32x1, .i32⟩
  | 81 => ⟨S32x1, .i32⟩
  | 82 => ⟨S_, .i32⟩
  | 83 => ⟨S32x1, .i32⟩
  | 84 => ⟨S32x1, .i1⟩
  | 85 => ⟨S_, .i32⟩
  | 86 => ⟨S32x1, .i32⟩
  | 87 => ⟨S32x1, .i32⟩
  | 88 => ⟨S_, .i32⟩
  | 89 => ⟨S32x1, .i32⟩
  | 90 => ⟨S32x1, .i1⟩
  | 91 => ⟨S32x1, .i1⟩
  | 92 => ⟨S_, .i32⟩
  | 93 => ⟨S1x32, .i32⟩
  | 94 => ⟨S1x32, .i32⟩
  | 95 => ⟨S_, .i32⟩
  | 96 => ⟨S1x32, .i32⟩
  | 97 => ⟨S1x32, .i1⟩
  | 98 => ⟨S32x32, .i1⟩
  | 99 => ⟨S32x32, .i1⟩
  | 100 => ⟨S32x32, .i1⟩
  | 101 => ⟨S_, .i32⟩
  | 102 => ⟨S1x32, .i32⟩
  | 103 => ⟨S1x32, .i32⟩
  | 104 => ⟨S_, .i32⟩
  | 105 => ⟨S1x32, .i32⟩
  | 106 => ⟨S1x32, .i1⟩
  | 107 => ⟨S32x32, .i1⟩
  | 108 => ⟨S32x32, .i1⟩
  | 109 => ⟨S1x1024, .i1⟩
  | 110 => ⟨S_, .i32⟩
  | 111 => ⟨S32x1, .i32⟩
  | 112 => ⟨S32x1, .i32⟩
  | 113 => ⟨S_, .i32⟩
  | 114 => ⟨S32x1, .i32⟩
  | 115 => ⟨S32x1, .i1⟩
  | 116 => ⟨S_, .i32⟩
  | 117 => ⟨S32x1, .i32⟩
  | 118 => ⟨S32x1, .i32⟩
  | 119 => ⟨S_, .i32⟩
  | 120 => ⟨S32x1, .i32⟩
  | 121 => ⟨S32x1, .i1⟩
  | 122 => ⟨S32x1, .i1⟩
  | 123 => ⟨S_, .i32⟩
  | 124 => ⟨S1x32, .i32⟩
  | 125 => ⟨S1x32, .i32⟩
  | 126 => ⟨S_, .i32⟩
  | 127 => ⟨S1x32, .i32⟩
  | _ => ⟨S128x64x32x32, .f32⟩

abbrev hbmTy0_1 (i : Nat) : BufTy := match i % 128 with
  | 0 => ⟨S1x32, .i1⟩
  | 1 => ⟨S32x32, .i1⟩
  | 2 => ⟨S32x32, .i1⟩
  | 3 => ⟨S32x32, .i1⟩
  | 4 => ⟨S_, .i32⟩
  | 5 => ⟨S1x32, .i32⟩
  | 6 => ⟨S1x32, .i32⟩
  | 7 => ⟨S_, .i32⟩
  | 8 => ⟨S1x32, .i32⟩
  | 9 => ⟨S1x32, .i1⟩
  | 10 => ⟨S32x32, .i1⟩
  | 11 => ⟨S32x32, .i1⟩
  | 12 => ⟨S1x1024, .i1⟩
  | 13 => ⟨S_, .i32⟩
  | 14 => ⟨S32x1, .i32⟩
  | 15 => ⟨S32x1, .i32⟩
  | 16 => ⟨S_, .i32⟩
  | 17 => ⟨S32x1, .i32⟩
  | 18 => ⟨S32x1, .i1⟩
  | 19 => ⟨S_, .i32⟩
  | 20 => ⟨S32x1, .i32⟩
  | 21 => ⟨S32x1, .i32⟩
  | 22 => ⟨S_, .i32⟩
  | 23 => ⟨S32x1, .i32⟩
  | 24 => ⟨S32x1, .i1⟩
  | 25 => ⟨S32x1, .i1⟩
  | 26 => ⟨S_, .i32⟩
  | 27 => ⟨S1x32, .i32⟩
  | 28 => ⟨S1x32, .i32⟩
  | 29 => ⟨S_, .i32⟩
  | 30 => ⟨S1x32, .i32⟩
  | 31 => ⟨S1x32, .i1⟩
  | 32 => ⟨S32x32, .i1⟩
  | 33 => ⟨S32x32, .i1⟩
  | 34 => ⟨S32x32, .i1⟩
  | 35 => ⟨S_, .i32⟩
  | 36 => ⟨S1x32, .i32⟩
  | 37 => ⟨S1x32, .i32⟩
  | 38 => ⟨S_, .i32⟩
  | 39 => ⟨S1x32, .i32⟩
  | 40 => ⟨S1x32, .i1⟩
  | 41 => ⟨S32x32, .i1⟩
  | 42 => ⟨S32x32, .i1⟩
  | 43 => ⟨S1x1024, .i1⟩
  | 44 => ⟨S_, .i32⟩
  | 45 => ⟨S32x1, .i32⟩
  | 46 => ⟨S32x1, .i32⟩
  | 47 => ⟨S_, .i32⟩
  | 48 => ⟨S32x1, .i32⟩
  | 49 => ⟨S32x1, .i1⟩
  | 50 => ⟨S_, .i32⟩
  | 51 => ⟨S32x1, .i32⟩
  | 52 => ⟨S32x1, .i32⟩
  | 53 => ⟨S_, .i32⟩
  | 54 => ⟨S32x1, .i32⟩
  | 55 => ⟨S32x1, .i1⟩
  | 56 => ⟨S32x1, .i1⟩
  | 57 => ⟨S_, .i32⟩
  | 58 => ⟨S1x32, .i32⟩
  | 59 => ⟨S1x32, .i32⟩
  | 60 => ⟨S_, .i32⟩
  | 61 => ⟨S1x32, .i32⟩
  | 62 => ⟨S1x32, .i1⟩
  | 63 => ⟨S32x32, .i1⟩
  | 64 => ⟨S32x32, .i1⟩
  | 65 => ⟨S32x32, .i1⟩
  | 66 => ⟨S_, .i32⟩
  | 67 => ⟨S1x32, .i32⟩
  | 68 => ⟨S1x32, .i32⟩
  | 69 => ⟨S_, .i32⟩
  | 70 => ⟨S1x32, .i32⟩
  | 71 => ⟨S1x32, .i1⟩
  | 72 => ⟨S32x32, .i1⟩
  | 73 => ⟨S32x32, .i1⟩
  | 74 => ⟨S1x1024, .i1⟩
  | 75 => ⟨S_, .i32⟩
  | 76 => ⟨S32x1, .i32⟩
  | 77 => ⟨S32x1, .i32⟩
  | 78 => ⟨S_, .i32⟩
  | 79 => ⟨S32x1, .i32⟩
  | 80 => ⟨S32x1, .i1⟩
  | 81 => ⟨S_, .i32⟩
  | 82 => ⟨S32x1, .i32⟩
  | 83 => ⟨S32x1, .i32⟩
  | 84 => ⟨S_, .i32⟩
  | 85 => ⟨S32x1, .i32⟩
  | 86 => ⟨S32x1, .i1⟩
  | 87 => ⟨S32x1, .i1⟩
  | 88 => ⟨S_, .i32⟩
  | 89 => ⟨S1x32, .i32⟩
  | 90 => ⟨S1x32, .i32⟩
  | 91 => ⟨S_, .i32⟩
  | 92 => ⟨S1x32, .i32⟩
  | 93 => ⟨S1x32, .i1⟩
  | 94 => ⟨S32x32, .i1⟩
  | 95 => ⟨S32x32, .i1⟩
  | 96 => ⟨S32x32, .i1⟩
  | 97 => ⟨S_, .i32⟩
  | 98 => ⟨S1x32, .i32⟩
  | 99 => ⟨S1x32, .i32⟩
  | 100 => ⟨S_, .i32⟩
  | 101 => ⟨S1x32, .i32⟩
  | 102 => ⟨S1x32, .i1⟩
  | 103 => ⟨S32x32, .i1⟩
  | 104 => ⟨S32x32, .i1⟩
  | 105 => ⟨S1x1024, .i1⟩
  | 106 => ⟨S_, .i32⟩
  | 107 => ⟨S32x1, .i32⟩
  | 108 => ⟨S32x1, .i32⟩
  | 109 => ⟨S_, .i32⟩
  | 110 => ⟨S32x1, .i32⟩
  | 111 => ⟨S32x1, .i1⟩
  | 112 => ⟨S_, .i32⟩
  | 113 => ⟨S32x1, .i32⟩
  | 114 => ⟨S32x1, .i32⟩
  | 115 => ⟨S_, .i32⟩
  | 116 => ⟨S32x1, .i32⟩
  | 117 => ⟨S32x1, .i1⟩
  | 118 => ⟨S32x1, .i1⟩
  | 119 => ⟨S_, .i32⟩
  | 120 => ⟨S1x32, .i32⟩
  | 121 => ⟨S1x32, .i32⟩
  | 122 => ⟨S_, .i32⟩
  | 123 => ⟨S1x32, .i32⟩
  | 124 => ⟨S1x32, .i1⟩
  | 125 => ⟨S32x32, .i1⟩
  | 126 => ⟨S32x32, .i1⟩
  | 127 => ⟨S32x32, .i1⟩
  | _ => ⟨S128x64x32x32, .f32⟩

abbrev hbmTy0_2 (i : Nat) : BufTy := match i % 128 with
  | 0 => ⟨S_, .i32⟩
  | 1 => ⟨S1x32, .i32⟩
  | 2 => ⟨S1x32, .i32⟩
  | 3 => ⟨S_, .i32⟩
  | 4 => ⟨S1x32, .i32⟩
  | 5 => ⟨S1x32, .i1⟩
  | 6 => ⟨S32x32, .i1⟩
  | 7 => ⟨S32x32, .i1⟩
  | 8 => ⟨S1x1024, .i1⟩
  | 9 => ⟨S_, .i32⟩
  | 10 => ⟨S32x1, .i32⟩
  | 11 => ⟨S32x1, .i32⟩
  | 12 => ⟨S_, .i32⟩
  | 13 => ⟨S32x1, .i32⟩
  | 14 => ⟨S32x1, .i1⟩
  | 15 => ⟨S_, .i32⟩
  | 16 => ⟨S32x1, .i32⟩
  | 17 => ⟨S32x1, .i32⟩
  | 18 => ⟨S_, .i32⟩
  | 19 => ⟨S32x1, .i32⟩
  | 20 => ⟨S32x1, .i1⟩
  | 21 => ⟨S32x1, .i1⟩
  | 22 => ⟨S_, .i32⟩
  | 23 => ⟨S1x32, .i32⟩
  | 24 => ⟨S1x32, .i32⟩
  | 25 => ⟨S_, .i32⟩
  | 26 => ⟨S1x32, .i32⟩
  | 27 => ⟨S1x32, .i1⟩
  | 28 => ⟨S32x32, .i1⟩
  | 29 => ⟨S32x32, .i1⟩
  | 30 => ⟨S32x32, .i1⟩
  | 31 => ⟨S_, .i32⟩
  | 32 => ⟨S1x32, .i32⟩
  | 33 => ⟨S1x32, .i32⟩
  | 34 => ⟨S_, .i32⟩
  | 35 => ⟨S1x32, .i32⟩
  | 36 => ⟨S1x32, .i1⟩
  | 37 => ⟨S32x32, .i1⟩
  | 38 => ⟨S32x32, .i1⟩
  | 39 => ⟨S1x1024, .i1⟩
  | 40 => ⟨S9x1024, .i1⟩
  | 41 => ⟨S9x1024, .f32⟩
  | 42 => ⟨S_, .f32⟩
  | 43 => ⟨S64x64, .f32⟩
  | 44 => ⟨S64x64, .f32⟩
  | 45 => ⟨S64x1, .f32⟩
  | 46 => ⟨S64x1, .f32⟩
  | 47 => ⟨S128x64x1024, .f32⟩
  | 48 => ⟨S64x1, .f32⟩
  | 49 => ⟨S64x1, .f32⟩
  | 50 => ⟨S128x64x1024, .f32⟩
  | 51 => ⟨S128x64x32x32, .f32⟩
  | _ => ⟨S128x64x32x32, .f32⟩

abbrev hbmTy (i : Nat) : BufTy := match i / 128 with
  | 0 => hbmTy0_0 i
  | 1 => hbmTy0_1 i
  | 2 => hbmTy0_2 i
  | _ => ⟨S128x64x32x32, .f32⟩

abbrev bufTy : (tb : Table) → Fin (tcTables nBuf tb) → BufTy
  | .hbm, ⟨i, _⟩ => hbmTy i
  | .local _ .vmem, ⟨0, _⟩ => ⟨S1x64x1024, .f32⟩
  | .local _ .vmem, ⟨1, _⟩ => ⟨S1x64x1024, .f32⟩
  | .local _ .vmem, ⟨2, _⟩ => ⟨S64x9, .f32⟩
  | .local _ .vmem, ⟨3, _⟩ => ⟨S64x1, .f32⟩
  | .local _ .vmem, ⟨4, _⟩ => ⟨S9x1024, .f32⟩
  | .local _ .vmem, ⟨5, _⟩ => ⟨S64x64, .f32⟩
  | .local _ .vmem, ⟨6, _⟩ => ⟨S1x64x1024, .f32⟩
  | .local _ .vmem, ⟨7, _⟩ => ⟨S1x64x1024, .f32⟩
  | .local _ .vmem, ⟨8, _⟩ => ⟨S64x1, .f32⟩
  | .local _ .vmem, ⟨9, _⟩ => ⟨S64x1, .f32⟩
  | .local _ .vmem, ⟨10, _⟩ => ⟨S1x64x1024, .f32⟩
  | .local _ .vmem, ⟨11, _⟩ => ⟨S1x64x1024, .f32⟩
  | .local _ .vmem, ⟨12, _⟩ => ⟨S64x1, .f32⟩
  | .local _ .vmem, ⟨13, _⟩ => ⟨S64x1, .f32⟩
  | .local _ .vmem, ⟨14, _⟩ => ⟨S64x1, .f32⟩
  | .local _ .vmem, ⟨15, _⟩ => ⟨S64x1, .f32⟩
  | .local _ .vmem, ⟨16, _⟩ => ⟨S1x64x1024, .f32⟩
  | .local _ .vmem, ⟨17, _⟩ => ⟨S1x64x1024, .f32⟩
  | _, _ => ⟨S128x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_c_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_8 : Ref sig .tc := ⟨.hbm, 48, rfl⟩
abbrev main_v33 : Ref sig .tc := ⟨.hbm, 49, rfl⟩
abbrev main_v34 : Ref sig .tc := ⟨.hbm, 50, rfl⟩
abbrev main_c_9 : Ref sig .tc := ⟨.hbm, 51, rfl⟩
abbrev main_v35 : Ref sig .tc := ⟨.hbm, 52, rfl⟩
abbrev main_v36 : Ref sig .tc := ⟨.hbm, 53, rfl⟩
abbrev main_c_10 : Ref sig .tc := ⟨.hbm, 54, rfl⟩
abbrev main_v37 : Ref sig .tc := ⟨.hbm, 55, rfl⟩
abbrev main_v38 : Ref sig .tc := ⟨.hbm, 56, rfl⟩
abbrev main_c_11 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_12 : Ref sig .tc := ⟨.hbm, 61, rfl⟩
abbrev main_v42 : Ref sig .tc := ⟨.hbm, 62, rfl⟩
abbrev main_v43 : Ref sig .tc := ⟨.hbm, 63, rfl⟩
abbrev main_c_13 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_14 : Ref sig .tc := ⟨.hbm, 70, rfl⟩
abbrev main_v49 : Ref sig .tc := ⟨.hbm, 71, rfl⟩
abbrev main_v50 : Ref sig .tc := ⟨.hbm, 72, rfl⟩
abbrev main_c_15 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_16 : Ref sig .tc := ⟨.hbm, 79, rfl⟩
abbrev main_v56 : Ref sig .tc := ⟨.hbm, 80, rfl⟩
abbrev main_v57 : Ref sig .tc := ⟨.hbm, 81, rfl⟩
abbrev main_c_17 : Ref sig .tc := ⟨.hbm, 82, rfl⟩
abbrev main_v58 : Ref sig .tc := ⟨.hbm, 83, rfl⟩
abbrev main_v59 : Ref sig .tc := ⟨.hbm, 84, rfl⟩
abbrev main_c_18 : Ref sig .tc := ⟨.hbm, 85, rfl⟩
abbrev main_v60 : Ref sig .tc := ⟨.hbm, 86, rfl⟩
abbrev main_v61 : Ref sig .tc := ⟨.hbm, 87, rfl⟩
abbrev main_c_19 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_20 : Ref sig .tc := ⟨.hbm, 92, rfl⟩
abbrev main_v65 : Ref sig .tc := ⟨.hbm, 93, rfl⟩
abbrev main_v66 : Ref sig .tc := ⟨.hbm, 94, rfl⟩
abbrev main_c_21 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_22 : Ref sig .tc := ⟨.hbm, 101, rfl⟩
abbrev main_v72 : Ref sig .tc := ⟨.hbm, 102, rfl⟩
abbrev main_v73 : Ref sig .tc := ⟨.hbm, 103, rfl⟩
abbrev main_c_23 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_24 : Ref sig .tc := ⟨.hbm, 110, rfl⟩
abbrev main_v79 : Ref sig .tc := ⟨.hbm, 111, rfl⟩
abbrev main_v80 : Ref sig .tc := ⟨.hbm, 112, rfl⟩
abbrev main_c_25 : Ref sig .tc := ⟨.hbm, 113, rfl⟩
abbrev main_v81 : Ref sig .tc := ⟨.hbm, 114, rfl⟩
abbrev main_v82 : Ref sig .tc := ⟨.hbm, 115, rfl⟩
abbrev main_c_26 : Ref sig .tc := ⟨.hbm, 116, rfl⟩
abbrev main_v83 : Ref sig .tc := ⟨.hbm, 117, rfl⟩
abbrev main_v84 : Ref sig .tc := ⟨.hbm, 118, rfl⟩
abbrev main_c_27 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_c_28 : Ref sig .tc := ⟨.hbm, 123, rfl⟩
abbrev main_v88 : Ref sig .tc := ⟨.hbm, 124, rfl⟩
abbrev main_v89 : Ref sig .tc := ⟨.hbm, 125, rfl⟩
abbrev main_c_29 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_c_30 : Ref sig .tc := ⟨.hbm, 132, rfl⟩
abbrev main_v95 : Ref sig .tc := ⟨.hbm, 133, rfl⟩
abbrev main_v96 : Ref sig .tc := ⟨.hbm, 134, rfl⟩
abbrev main_c_31 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_c_32 : Ref sig .tc := ⟨.hbm, 141, rfl⟩
abbrev main_v102 : Ref sig .tc := ⟨.hbm, 142, rfl⟩
abbrev main_v103 : Ref sig .tc := ⟨.hbm, 143, rfl⟩
abbrev main_c_33 : Ref sig .tc := ⟨.hbm, 144, rfl⟩
abbrev main_v104 : Ref sig .tc := ⟨.hbm, 145, rfl⟩
abbrev main_v105 : Ref sig .tc := ⟨.hbm, 146, rfl⟩
abbrev main_c_34 : Ref sig .tc := ⟨.hbm, 147, rfl⟩
abbrev main_v106 : Ref sig .tc := ⟨.hbm, 148, rfl⟩
abbrev main_v107 : Ref sig .tc := ⟨.hbm, 149, rfl⟩
abbrev main_c_35 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_c_36 : Ref sig .tc := ⟨.hbm, 154, rfl⟩
abbrev main_v111 : Ref sig .tc := ⟨.hbm, 155, rfl⟩
abbrev main_v112 : Ref sig .tc := ⟨.hbm, 156, rfl⟩
abbrev main_c_37 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_c_38 : Ref sig .tc := ⟨.hbm, 163, rfl⟩
abbrev main_v118 : Ref sig .tc := ⟨.hbm, 164, rfl⟩
abbrev main_v119 : Ref sig .tc := ⟨.hbm, 165, rfl⟩
abbrev main_c_39 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_c_40 : Ref sig .tc := ⟨.hbm, 172, rfl⟩
abbrev main_v125 : Ref sig .tc := ⟨.hbm, 173, rfl⟩
abbrev main_v126 : Ref sig .tc := ⟨.hbm, 174, rfl⟩
abbrev main_c_41 : Ref sig .tc := ⟨.hbm, 175, rfl⟩
abbrev main_v127 : Ref sig .tc := ⟨.hbm, 176, rfl⟩
abbrev main_v128 : Ref sig .tc := ⟨.hbm, 177, rfl⟩
abbrev main_c_42 : Ref sig .tc := ⟨.hbm, 178, rfl⟩
abbrev main_v129 : Ref sig .tc := ⟨.hbm, 179, rfl⟩
abbrev main_v130 : Ref sig .tc := ⟨.hbm, 180, rfl⟩
abbrev main_c_43 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_c_44 : Ref sig .tc := ⟨.hbm, 185, rfl⟩
abbrev main_v134 : Ref sig .tc := ⟨.hbm, 186, rfl⟩
abbrev main_v135 : Ref sig .tc := ⟨.hbm, 187, rfl⟩
abbrev main_c_45 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_c_46 : Ref sig .tc := ⟨.hbm, 194, rfl⟩
abbrev main_v141 : Ref sig .tc := ⟨.hbm, 195, rfl⟩
abbrev main_v142 : Ref sig .tc := ⟨.hbm, 196, rfl⟩
abbrev main_c_47 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_c_48 : Ref sig .tc := ⟨.hbm, 203, rfl⟩
abbrev main_v148 : Ref sig .tc := ⟨.hbm, 204, rfl⟩
abbrev main_v149 : Ref sig .tc := ⟨.hbm, 205, rfl⟩
abbrev main_c_49 : Ref sig .tc := ⟨.hbm, 206, rfl⟩
abbrev main_v150 : Ref sig .tc := ⟨.hbm, 207, rfl⟩
abbrev main_v151 : Ref sig .tc := ⟨.hbm, 208, rfl⟩
abbrev main_c_50 : Ref sig .tc := ⟨.hbm, 209, rfl⟩
abbrev main_v152 : Ref sig .tc := ⟨.hbm, 210, rfl⟩
abbrev main_v153 : Ref sig .tc := ⟨.hbm, 211, rfl⟩
abbrev main_c_51 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_c_52 : Ref sig .tc := ⟨.hbm, 216, rfl⟩
abbrev main_v157 : Ref sig .tc := ⟨.hbm, 217, rfl⟩
abbrev main_v158 : Ref sig .tc := ⟨.hbm, 218, rfl⟩
abbrev main_c_53 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_c_54 : Ref sig .tc := ⟨.hbm, 225, rfl⟩
abbrev main_v164 : Ref sig .tc := ⟨.hbm, 226, rfl⟩
abbrev main_v165 : Ref sig .tc := ⟨.hbm, 227, rfl⟩
abbrev main_c_55 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_c_56 : Ref sig .tc := ⟨.hbm, 234, rfl⟩
abbrev main_v171 : Ref sig .tc := ⟨.hbm, 235, rfl⟩
abbrev main_v172 : Ref sig .tc := ⟨.hbm, 236, rfl⟩
abbrev main_c_57 : Ref sig .tc := ⟨.hbm, 237, rfl⟩
abbrev main_v173 : Ref sig .tc := ⟨.hbm, 238, rfl⟩
abbrev main_v174 : Ref sig .tc := ⟨.hbm, 239, rfl⟩
abbrev main_c_58 : Ref sig .tc := ⟨.hbm, 240, rfl⟩
abbrev main_v175 : Ref sig .tc := ⟨.hbm, 241, rfl⟩
abbrev main_v176 : Ref sig .tc := ⟨.hbm, 242, rfl⟩
abbrev main_c_59 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_c_60 : Ref sig .tc := ⟨.hbm, 247, rfl⟩
abbrev main_v180 : Ref sig .tc := ⟨.hbm, 248, rfl⟩
abbrev main_v181 : Ref sig .tc := ⟨.hbm, 249, rfl⟩
abbrev main_c_61 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_c_62 : Ref sig .tc := ⟨.hbm, 256, rfl⟩
abbrev main_v187 : Ref sig .tc := ⟨.hbm, 257, rfl⟩
abbrev main_v188 : Ref sig .tc := ⟨.hbm, 258, rfl⟩
abbrev main_c_63 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_v193 : Ref sig .tc := ⟨.hbm, 264, rfl⟩
abbrev main_c_64 : Ref sig .tc := ⟨.hbm, 265, rfl⟩
abbrev main_v194 : Ref sig .tc := ⟨.hbm, 266, rfl⟩
abbrev main_v195 : Ref sig .tc := ⟨.hbm, 267, rfl⟩
abbrev main_c_65 : Ref sig .tc := ⟨.hbm, 268, rfl⟩
abbrev main_v196 : Ref sig .tc := ⟨.hbm, 269, rfl⟩
abbrev main_v197 : Ref sig .tc := ⟨.hbm, 270, rfl⟩
abbrev main_c_66 : Ref sig .tc := ⟨.hbm, 271, rfl⟩
abbrev main_v198 : Ref sig .tc := ⟨.hbm, 272, rfl⟩
abbrev main_v199 : Ref sig .tc := ⟨.hbm, 273, rfl⟩
abbrev main_c_67 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_c_68 : Ref sig .tc := ⟨.hbm, 278, rfl⟩
abbrev main_v203 : Ref sig .tc := ⟨.hbm, 279, rfl⟩
abbrev main_v204 : Ref sig .tc := ⟨.hbm, 280, rfl⟩
abbrev main_c_69 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_c_70 : Ref sig .tc := ⟨.hbm, 287, rfl⟩
abbrev main_v210 : Ref sig .tc := ⟨.hbm, 288, rfl⟩
abbrev main_v211 : Ref sig .tc := ⟨.hbm, 289, rfl⟩
abbrev main_c_71 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩
abbrev main_cst_72 : Ref sig .tc := ⟨.hbm, 298, rfl⟩
abbrev main_v219 : Ref sig .tc := ⟨.hbm, 299, rfl⟩
abbrev main_v220 : Ref sig .tc := ⟨.hbm, 300, rfl⟩
abbrev main_v221 : Ref sig .tc := ⟨.hbm, 301, rfl⟩
abbrev main_v222 : Ref sig .tc := ⟨.hbm, 302, rfl⟩
abbrev main_v223_0 : Ref sig .tc := ⟨.hbm, 303, rfl⟩
abbrev main_v223_1 : Ref sig .tc := ⟨.hbm, 304, rfl⟩
abbrev main_v223_2 : Ref sig .tc := ⟨.hbm, 305, rfl⟩
abbrev main_v224 : Ref sig .tc := ⟨.hbm, 306, rfl⟩
abbrev main_v225 : Ref sig .tc := ⟨.hbm, 307, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x9 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x64x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S128x64x32x32_S128x64x1024 : S128x64x32x32.ShapeCasts S128x64x1024
  shapeCasts_S64x3x3_S64x9 : S64x3x3.ShapeCasts S64x9
  reducesTo_S64x3x3_S64_d1_2 : S64x3x3.ReducesTo [1, 2] S64
  h_S_ : 0 < S_.numel
  bcast_S_S64 : S_.BroadcastsInDim S64 (![] : Fin 0 → Fin S64.rank)
  shapeCasts_S64_S64x1 : S64.ShapeCasts S64x1
  shapeCasts_S32_S32x1 : S32.ShapeCasts S32x1
  shapeCasts_S32_S1x32 : S32.ShapeCasts S1x32
  bcast_S_S32x1 : S_.BroadcastsInDim S32x1 (![] : Fin 0 → Fin S32x1.rank)
  bcast_S_S1x32 : S_.BroadcastsInDim S1x32 (![] : Fin 0 → Fin S1x32.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  shapeCasts_S32x32_S1x1024 : S32x32.ShapeCasts S1x1024
  concatenates_S1x1024_S1x1024_S1x1024_S1x1024_S1x1024_S1x1024_S1x1024_S1x1024_S1x1024_S9x1024_d0 : Shape.Concatenates [S1x1024, S1x1024, S1x1024, S1x1024, S1x1024, S1x1024, S1x1024, S1x1024, S1x1024] S9x1024 0
  bcast_S_S64x64 : S_.BroadcastsInDim S64x64 (![] : Fin 0 → Fin S64x64.rank)
  inb_S64x1_S64x1_0_0 : ∀ a, (![0, 0] : Fin 2 → Nat) a + S64x1.size a ≤ S64x1.size a
  h_S64x1 : 0 < S64x1.numel
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  rotates_S64x1024_d1 : S64x1024.Rotates 1 none
  inb_S9x1024_S1x1024_0_0 : ∀ a, (![0, 0] : Fin 2 → Nat) a + S1x1024.size a ≤ S9x1024.size a
  h_S1x1024 : 0 < S1x1024.numel
  shapeCasts_S1x1024_S1x1024 : S1x1024.ShapeCasts S1x1024
  broadcasts_S1x1024_S64x1024 : S1x1024.Broadcasts S64x1024
  inb_S64x9_S64x1_0_0 : ∀ a, (![0, 0] : Fin 2 → Nat) a + S64x1.size a ≤ S64x9.size a
  shapeCasts_S64x1_S64x1 : S64x1.ShapeCasts S64x1
  broadcasts_S64x1_S64x1024 : S64x1.Broadcasts S64x1024
  inb_S9x1024_S1x1024_1_0 : ∀ a, (![1, 0] : Fin 2 → Nat) a + S1x1024.size a ≤ S9x1024.size a
  inb_S64x9_S64x1_0_1 : ∀ a, (![0, 1] : Fin 2 → Nat) a + S64x1.size a ≤ S64x9.size a
  inb_S9x1024_S1x1024_2_0 : ∀ a, (![2, 0] : Fin 2 → Nat) a + S1x1024.size a ≤ S9x1024.size a
  inb_S64x9_S64x1_0_2 : ∀ a, (![0, 2] : Fin 2 → Nat) a + S64x1.size a ≤ S64x9.size a
  inb_S9x1024_S1x1024_3_0 : ∀ a, (![3, 0] : Fin 2 → Nat) a + S1x1024.size a ≤ S9x1024.size a
  inb_S64x9_S64x1_0_3 : ∀ a, (![0, 3] : Fin 2 → Nat) a + S64x1.size a ≤ S64x9.size a
  inb_S64x9_S64x1_0_4 : ∀ a, (![0, 4] : Fin 2 → Nat) a + S64x1.size a ≤ S64x9.size a
  inb_S9x1024_S1x1024_5_0 : ∀ a, (![5, 0] : Fin 2 → Nat) a + S1x1024.size a ≤ S9x1024.size a
  inb_S64x9_S64x1_0_5 : ∀ a, (![0, 5] : Fin 2 → Nat) a + S64x1.size a ≤ S64x9.size a
  inb_S9x1024_S1x1024_6_0 : ∀ a, (![6, 0] : Fin 2 → Nat) a + S1x1024.size a ≤ S9x1024.size a
  inb_S64x9_S64x1_0_6 : ∀ a, (![0, 6] : Fin 2 → Nat) a + S64x1.size a ≤ S64x9.size a
  inb_S9x1024_S1x1024_7_0 : ∀ a, (![7, 0] : Fin 2 → Nat) a + S1x1024.size a ≤ S9x1024.size a
  inb_S64x9_S64x1_0_7 : ∀ a, (![0, 7] : Fin 2 → Nat) a + S64x1.size a ≤ S64x9.size a
  inb_S9x1024_S1x1024_8_0 : ∀ a, (![8, 0] : Fin 2 → Nat) a + S1x1024.size a ≤ S9x1024.size a
  inb_S64x9_S64x1_0_8 : ∀ a, (![0, 8] : Fin 2 → Nat) a + S64x1.size a ≤ S64x9.size a
  inb_S64x64_S64x1_0_0 : ∀ a, (![0, 0] : Fin 2 → Nat) a + S64x1.size a ≤ S64x64.size a
  slices_S64x1024_o0_0_S1x1024 : S64x1024.Slices ![0, 0] S1x1024
  inb_S64x64_S64x1_0_1 : ∀ a, (![0, 1] : Fin 2 → Nat) a + S64x1.size a ≤ S64x64.size a
  slices_S64x1024_o1_0_S1x1024 : S64x1024.Slices ![1, 0] S1x1024
  inb_S64x64_S64x1_0_2 : ∀ a, (![0, 2] : Fin 2 → Nat) a + S64x1.size a ≤ S64x64.size a
  slices_S64x1024_o2_0_S1x1024 : S64x1024.Slices ![2, 0] S1x1024
  inb_S64x64_S64x1_0_3 : ∀ a, (![0, 3] : Fin 2 → Nat) a + S64x1.size a ≤ S64x64.size a
  slices_S64x1024_o3_0_S1x1024 : S64x1024.Slices ![3, 0] S1x1024
  inb_S64x64_S64x1_0_4 : ∀ a, (![0, 4] : Fin 2 → Nat) a + S64x1.size a ≤ S64x64.size a
  slices_S64x1024_o4_0_S1x1024 : S64x1024.Slices ![4, 0] S1x1024
  inb_S64x64_S64x1_0_5 : ∀ a, (![0, 5] : Fin 2 → Nat) a + S64x1.size a ≤ S64x64.size a
  slices_S64x1024_o5_0_S1x1024 : S64x1024.Slices ![5, 0] S1x1024
  inb_S64x64_S64x1_0_6 : ∀ a, (![0, 6] : Fin 2 → Nat) a + S64x1.size a ≤ S64x64.size a
  slices_S64x1024_o6_0_S1x1024 : S64x1024.Slices ![6, 0] S1x1024
  inb_S64x64_S64x1_0_7 : ∀ a, (![0, 7] : Fin 2 → Nat) a + S64x1.size a ≤ S64x64.size a
  slices_S64x1024_o7_0_S1x1024 : S64x1024.Slices ![7, 0] S1x1024
  inb_S64x64_S64x1_0_8 : ∀ a, (![0, 8] : Fin 2 → Nat) a + S64x1.size a ≤ S64x64.size a
  slices_S64x1024_o8_0_S1x1024 : S64x1024.Slices ![8, 0] S1x1024
  inb_S64x64_S64x1_0_9 : ∀ a, (![0, 9] : Fin 2 → Nat) a + S64x1.size a ≤ S64x64.size a
  slices_S64x1024_o9_0_S1x1024 : S64x1024.Slices ![9, 0] S1x1024
  inb_S64x64_S64x1_0_10 : ∀ a, (![0, 10] : Fin 2 → Nat) a + S64x1.size a ≤ S64x64.size a
  slices_S64x1024_o10_0_S1x1024 : S64x1024.Slices ![10, 0] S1x1024
  inb_S64x64_S64x1_0_11 : ∀ a, (![0, 11] : Fin 2 → Nat) a + S64x1.size a ≤ S64x64.size a
  slices_S64x1024_o11_0_S1x1024 : S64x1024.Slices ![11, 0] S1x1024
  inb_S64x64_S64x1_0_12 : ∀ a, (![0, 12] : Fin 2 → Nat) a + S64x1.size a ≤ S64x64.size a
  slices_S64x1024_o12_0_S1x1024 : S64x1024.Slices ![12, 0] S1x1024
  inb_S64x64_S64x1_0_13 : ∀ a, (![0, 13] : Fin 2 → Nat) a + S64x1.size a ≤ S64x64.size a
  slices_S64x1024_o13_0_S1x1024 : S64x1024.Slices ![13, 0] S1x1024
  inb_S64x64_S64x1_0_14 : ∀ a, (![0, 14] : Fin 2 → Nat) a + S64x1.size a ≤ S64x64.size a
  slices_S64x1024_o14_0_S1x1024 : S64x1024.Slices ![14, 0] S1x1024
  inb_S64x64_S64x1_0_15 : ∀ a, (![0, 15] : Fin 2 → Nat) a + S64x1.size a ≤ S64x64.size a
  slices_S64x1024_o15_0_S1x1024 : S64x1024.Slices ![15, 0] S1x1024
  inb_S64x64_S64x1_0_16 : ∀ a, (![0, 16] : Fin 2 → Nat) a + S64x1.size a ≤ S64x64.size a
  slices_S64x1024_o16_0_S1x1024 : S64x1024.Slices ![16, 0] S1x1024
  inb_S64x64_S64x1_0_17 : ∀ a, (![0, 17] : Fin 2 → Nat) a + S64x1.size a ≤ S64x64.size a
  slices_S64x1024_o17_0_S1x1024 : S64x1024.Slices ![17, 0] S1x1024
  inb_S64x64_S64x1_0_18 : ∀ a, (![0, 18] : Fin 2 → Nat) a + S64x1.size a ≤ S64x64.size a
  slices_S64x1024_o18_0_S1x1024 : S64x1024.Slices ![18, 0] S1x1024
  inb_S64x64_S64x1_0_19 : ∀ a, (![0, 19] : Fin 2 → Nat) a + S64x1.size a ≤ S64x64.size a
  slices_S64x1024_o19_0_S1x1024 : S64x1024.Slices ![19, 0] S1x1024
  inb_S64x64_S64x1_0_20 : ∀ a, (![0, 20] : Fin 2 → Nat) a + S64x1.size a ≤ S64x64.size a
  slices_S64x1024_o20_0_S1x1024 : S64x1024.Slices ![20, 0] S1x1024
  inb_S64x64_S64x1_0_21 : ∀ a, (![0, 21] : Fin 2 → Nat) a + S64x1.size a ≤ S64x64.size a
  slices_S64x1024_o21_0_S1x1024 : S64x1024.Slices ![21, 0] S1x1024
  inb_S64x64_S64x1_0_22 : ∀ a, (![0, 22] : Fin 2 → Nat) a + S64x1.size a ≤ S64x64.size a
  slices_S64x1024_o22_0_S1x1024 : S64x1024.Slices ![22, 0] S1x1024
  inb_S64x64_S64x1_0_23 : ∀ a, (![0, 23] : Fin 2 → Nat) a + S64x1.size a ≤ S64x64.size a
  slices_S64x1024_o23_0_S1x1024 : S64x1024.Slices ![23, 0] S1x1024
  inb_S64x64_S64x1_0_24 : ∀ a, (![0, 24] : Fin 2 → Nat) a + S64x1.size a ≤ S64x64.size a
  slices_S64x1024_o24_0_S1x1024 : S64x1024.Slices ![24, 0] S1x1024
  inb_S64x64_S64x1_0_25 : ∀ a, (![0, 25] : Fin 2 → Nat) a + S64x1.size a ≤ S64x64.size a
  slices_S64x1024_o25_0_S1x1024 : S64x1024.Slices ![25, 0] S1x1024
  inb_S64x64_S64x1_0_26 : ∀ a, (![0, 26] : Fin 2 → Nat) a + S64x1.size a ≤ S64x64.size a
  slices_S64x1024_o26_0_S1x1024 : S64x1024.Slices ![26, 0] S1x1024
  inb_S64x64_S64x1_0_27 : ∀ a, (![0, 27] : Fin 2 → Nat) a + S64x1.size a ≤ S64x64.size a
  slices_S64x1024_o27_0_S1x1024 : S64x1024.Slices ![27, 0] S1x1024
  inb_S64x64_S64x1_0_28 : ∀ a, (![0, 28] : Fin 2 → Nat) a + S64x1.size a ≤ S64x64.size a
  slices_S64x1024_o28_0_S1x1024 : S64x1024.Slices ![28, 0] S1x1024
  inb_S64x64_S64x1_0_29 : ∀ a, (![0, 29] : Fin 2 → Nat) a + S64x1.size a ≤ S64x64.size a
  slices_S64x1024_o29_0_S1x1024 : S64x1024.Slices ![29, 0] S1x1024
  inb_S64x64_S64x1_0_30 : ∀ a, (![0, 30] : Fin 2 → Nat) a + S64x1.size a ≤ S64x64.size a
  slices_S64x1024_o30_0_S1x1024 : S64x1024.Slices ![30, 0] S1x1024
  inb_S64x64_S64x1_0_31 : ∀ a, (![0, 31] : Fin 2 → Nat) a + S64x1.size a ≤ S64x64.size a
  slices_S64x1024_o31_0_S1x1024 : S64x1024.Slices ![31, 0] S1x1024
  inb_S64x64_S64x1_0_32 : ∀ a, (![0, 32] : Fin 2 → Nat) a + S64x1.size a ≤ S64x64.size a
  slices_S64x1024_o32_0_S1x1024 : S64x1024.Slices ![32, 0] S1x1024
  inb_S64x64_S64x1_0_33 : ∀ a, (![0, 33] : Fin 2 → Nat) a + S64x1.size a ≤ S64x64.size a
  slices_S64x1024_o33_0_S1x1024 : S64x1024.Slices ![33, 0] S1x1024
  inb_S64x64_S64x1_0_34 : ∀ a, (![0, 34] : Fin 2 → Nat) a + S64x1.size a ≤ S64x64.size a
  slices_S64x1024_o34_0_S1x1024 : S64x1024.Slices ![34, 0] S1x1024
  inb_S64x64_S64x1_0_35 : ∀ a, (![0, 35] : Fin 2 → Nat) a + S64x1.size a ≤ S64x64.size a
  slices_S64x1024_o35_0_S1x1024 : S64x1024.Slices ![35, 0] S1x1024
  inb_S64x64_S64x1_0_36 : ∀ a, (![0, 36] : Fin 2 → Nat) a + S64x1.size a ≤ S64x64.size a
  slices_S64x1024_o36_0_S1x1024 : S64x1024.Slices ![36, 0] S1x1024
  inb_S64x64_S64x1_0_37 : ∀ a, (![0, 37] : Fin 2 → Nat) a + S64x1.size a ≤ S64x64.size a
  slices_S64x1024_o37_0_S1x1024 : S64x1024.Slices ![37, 0] S1x1024
  inb_S64x64_S64x1_0_38 : ∀ a, (![0, 38] : Fin 2 → Nat) a + S64x1.size a ≤ S64x64.size a
  slices_S64x1024_o38_0_S1x1024 : S64x1024.Slices ![38, 0] S1x1024
  inb_S64x64_S64x1_0_39 : ∀ a, (![0, 39] : Fin 2 → Nat) a + S64x1.size a ≤ S64x64.size a
  slices_S64x1024_o39_0_S1x1024 : S64x1024.Slices ![39, 0] S1x1024
  inb_S64x64_S64x1_0_40 : ∀ a, (![0, 40] : Fin 2 → Nat) a + S64x1.size a ≤ S64x64.size a
  slices_S64x1024_o40_0_S1x1024 : S64x1024.Slices ![40, 0] S1x1024
  inb_S64x64_S64x1_0_41 : ∀ a, (![0, 41] : Fin 2 → Nat) a + S64x1.size a ≤ S64x64.size a
  slices_S64x1024_o41_0_S1x1024 : S64x1024.Slices ![41, 0] S1x1024
  inb_S64x64_S64x1_0_42 : ∀ a, (![0, 42] : Fin 2 → Nat) a + S64x1.size a ≤ S64x64.size a
  slices_S64x1024_o42_0_S1x1024 : S64x1024.Slices ![42, 0] S1x1024
  inb_S64x64_S64x1_0_43 : ∀ a, (![0, 43] : Fin 2 → Nat) a + S64x1.size a ≤ S64x64.size a
  slices_S64x1024_o43_0_S1x1024 : S64x1024.Slices ![43, 0] S1x1024
  inb_S64x64_S64x1_0_44 : ∀ a, (![0, 44] : Fin 2 → Nat) a + S64x1.size a ≤ S64x64.size a
  slices_S64x1024_o44_0_S1x1024 : S64x1024.Slices ![44, 0] S1x1024
  inb_S64x64_S64x1_0_45 : ∀ a, (![0, 45] : Fin 2 → Nat) a + S64x1.size a ≤ S64x64.size a
  slices_S64x1024_o45_0_S1x1024 : S64x1024.Slices ![45, 0] S1x1024
  inb_S64x64_S64x1_0_46 : ∀ a, (![0, 46] : Fin 2 → Nat) a + S64x1.size a ≤ S64x64.size a
  slices_S64x1024_o46_0_S1x1024 : S64x1024.Slices ![46, 0] S1x1024
  inb_S64x64_S64x1_0_47 : ∀ a, (![0, 47] : Fin 2 → Nat) a + S64x1.size a ≤ S64x64.size a
  slices_S64x1024_o47_0_S1x1024 : S64x1024.Slices ![47, 0] S1x1024
  inb_S64x64_S64x1_0_48 : ∀ a, (![0, 48] : Fin 2 → Nat) a + S64x1.size a ≤ S64x64.size a
  slices_S64x1024_o48_0_S1x1024 : S64x1024.Slices ![48, 0] S1x1024
  inb_S64x64_S64x1_0_49 : ∀ a, (![0, 49] : Fin 2 → Nat) a + S64x1.size a ≤ S64x64.size a
  slices_S64x1024_o49_0_S1x1024 : S64x1024.Slices ![49, 0] S1x1024
  inb_S64x64_S64x1_0_50 : ∀ a, (![0, 50] : Fin 2 → Nat) a + S64x1.size a ≤ S64x64.size a
  slices_S64x1024_o50_0_S1x1024 : S64x1024.Slices ![50, 0] S1x1024
  inb_S64x64_S64x1_0_51 : ∀ a, (![0, 51] : Fin 2 → Nat) a + S64x1.size a ≤ S64x64.size a
  slices_S64x1024_o51_0_S1x1024 : S64x1024.Slices ![51, 0] S1x1024
  inb_S64x64_S64x1_0_52 : ∀ a, (![0, 52] : Fin 2 → Nat) a + S64x1.size a ≤ S64x64.size a
  slices_S64x1024_o52_0_S1x1024 : S64x1024.Slices ![52, 0] S1x1024
  inb_S64x64_S64x1_0_53 : ∀ a, (![0, 53] : Fin 2 → Nat) a + S64x1.size a ≤ S64x64.size a
  slices_S64x1024_o53_0_S1x1024 : S64x1024.Slices ![53, 0] S1x1024
  inb_S64x64_S64x1_0_54 : ∀ a, (![0, 54] : Fin 2 → Nat) a + S64x1.size a ≤ S64x64.size a
  slices_S64x1024_o54_0_S1x1024 : S64x1024.Slices ![54, 0] S1x1024
  inb_S64x64_S64x1_0_55 : ∀ a, (![0, 55] : Fin 2 → Nat) a + S64x1.size a ≤ S64x64.size a
  slices_S64x1024_o55_0_S1x1024 : S64x1024.Slices ![55, 0] S1x1024
  inb_S64x64_S64x1_0_56 : ∀ a, (![0, 56] : Fin 2 → Nat) a + S64x1.size a ≤ S64x64.size a
  slices_S64x1024_o56_0_S1x1024 : S64x1024.Slices ![56, 0] S1x1024
  inb_S64x64_S64x1_0_57 : ∀ a, (![0, 57] : Fin 2 → Nat) a + S64x1.size a ≤ S64x64.size a
  slices_S64x1024_o57_0_S1x1024 : S64x1024.Slices ![57, 0] S1x1024
  inb_S64x64_S64x1_0_58 : ∀ a, (![0, 58] : Fin 2 → Nat) a + S64x1.size a ≤ S64x64.size a
  slices_S64x1024_o58_0_S1x1024 : S64x1024.Slices ![58, 0] S1x1024
  inb_S64x64_S64x1_0_59 : ∀ a, (![0, 59] : Fin 2 → Nat) a + S64x1.size a ≤ S64x64.size a
  slices_S64x1024_o59_0_S1x1024 : S64x1024.Slices ![59, 0] S1x1024
  inb_S64x64_S64x1_0_60 : ∀ a, (![0, 60] : Fin 2 → Nat) a + S64x1.size a ≤ S64x64.size a
  slices_S64x1024_o60_0_S1x1024 : S64x1024.Slices ![60, 0] S1x1024
  inb_S64x64_S64x1_0_61 : ∀ a, (![0, 61] : Fin 2 → Nat) a + S64x1.size a ≤ S64x64.size a
  slices_S64x1024_o61_0_S1x1024 : S64x1024.Slices ![61, 0] S1x1024
  inb_S64x64_S64x1_0_62 : ∀ a, (![0, 62] : Fin 2 → Nat) a + S64x1.size a ≤ S64x64.size a
  slices_S64x1024_o62_0_S1x1024 : S64x1024.Slices ![62, 0] S1x1024
  inb_S64x64_S64x1_0_63 : ∀ a, (![0, 63] : Fin 2 → Nat) a + S64x1.size a ≤ S64x64.size a
  slices_S64x1024_o63_0_S1x1024 : S64x1024.Slices ![63, 0] S1x1024
  shapeCasts_S64x1024_S1x64x1024 : S64x1024.ShapeCasts S1x64x1024
  reduces_S64x1024_S64 : S64x1024.Reduces [1] S64
  shapeCasts_S128x64x1024_S128x64x32x32 : S128x64x1024.ShapeCasts S128x64x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x1024.size a ≤ S128x64x1024.size a
  hwx0_0 : ∀ i : grid0.Coords, EltTy.bits .f32 = 32 ∨ (Rect.block (s := S128x64x1024) S1x64x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x9.size a ≤ S64x9.size a
  hwx0_1 : ∀ i : grid0.Coords, EltTy.bits .f32 = 32 ∨ (Rect.block (s := S64x9) S64x9.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x1024.size a ≤ S9x1024.size a
  hwx0_3 : ∀ i : grid0.Coords, EltTy.bits .f32 = 32 ∨ (Rect.block (s := S9x1024) S9x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x1024.size a ≤ S128x64x1024.size a
  hwx0_5 : ∀ i : grid0.Coords, EltTy.bits .f32 = 32 ∨ (Rect.block (s := S128x64x1024) S1x64x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .f32 = 32 ∨ (Rect.block (s := S64x1) S64x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x1024.size a ≤ S128x64x1024.size a
  hwx1_0 : ∀ i : grid1.Coords, EltTy.bits .f32 = 32 ∨ (Rect.block (s := S128x64x1024) S1x64x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1.size a ≤ S64x1.size a
  hwx1_1 : ∀ i : grid1.Coords, EltTy.bits .f32 = 32 ∨ (Rect.block (s := S64x1) S64x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S64x1.size a
  hwx1_3 : ∀ i : grid1.Coords, EltTy.bits .f32 = 32 ∨ (Rect.block (s := S64x1) S64x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x1.size a ≤ S64x1.size a
  hwx1_4 : ∀ i : grid1.Coords, EltTy.bits .f32 = 32 ∨ (Rect.block (s := S64x1) S64x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x64x1024.size a ≤ S128x64x1024.size a
  hwx1_5 : ∀ i : grid1.Coords, EltTy.bits .f32 = 32 ∨ (Rect.block (s := S128x64x1024) S1x64x1024.size (cc1_transform_5 i) (hinb1_5 i)).WholeWords (EltTy.packing .f32)

variable [Facts₀]

abbrev win0_0 : Pipeline.Window sig grid0 :=
  Pipeline.Window.ofSpec (Memref.whole main_v0) S1x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x9.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v218) S9x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v220) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v223_0) S1x64x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v223_1) S64x1.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v223_2) S64x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v223_0) S1x64x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v223_1) S64x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v223_2) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v221) S64x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v222) S64x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v224) S1x64x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== Proof.BK0Body.lean ====
/- REGION 0 of the program (pipeline 0, the kernel function `cc0_body`), at the TensorCore's buffer contents `V` when the
   region is entered. The grid has 16 points. At point `t` the body is handed: the 512x1024 block `t` of the activation
   x2[8192x1024] (window 0), the 512x9 tap weights (window 1), the 512x1 difference weights (window 2) and the 9x1024
   border masks (window 3) — the last three the same block at every point —, and three output buffers. It computes
   r = max(x, 0); the nine taps Σ_k rot_k(r) · mask_k · w_k (tap 4 unrotated and unmasked) less kdiff · r: the f32
   central-difference block; stores its bf16 rounding whole into window 4; the sum over the eight 64-row groups of
   the 64x64 Gram products of the bf16 block with itself into window 5; and the sum over the eight groups of the
   f32 block's row sums into window 6. Here: each window's block, what the body leaves in each output buffer as a
   function of the four input blocks, the body's triple, the pipeline's proof data and its body obligation. -/
import proofs.«151441_g2000606144476369_pallasbulk_1044_2_alg».proof.Proof.Gen.Kernel.Launch
import proofs.«151441_g2000606144476369_pallasbulk_1044_2_alg».proof.Proof.Gen.Kernel.Skeleton
import proofs.«151441_g2000606144476369_pallasbulk_1044_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (windows 1, 2, 3 are
    fetched at the first point only: their index never moves), for any proof data whose array is `V`'s and whose body
    leaves the block in place; the windows are uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 512x1024 block: what the body loads of the activation block and where it stores the bf16 block. -/
abbrev r0_x : Rect S512x1024 := Rect.unit (s := S512x1024) ![0, 0] S512x1024.size inb_S512x1024_S512x1024_0_0
/-- Row `k` of the 9x1024 border-mask block (tap `k`'s mask over the 1024 positions). -/
abbrev r0_m0 : Rect S9x1024 := Rect.unit (s := S9x1024) ![0, 0] S1x1024.size inb_S9x1024_S1x1024_0_0
abbrev r0_m1 : Rect S9x1024 := Rect.unit (s := S9x1024) ![1, 0] S1x1024.size inb_S9x1024_S1x1024_1_0
abbrev r0_m2 : Rect S9x1024 := Rect.unit (s := S9x1024) ![2, 0] S1x1024.size inb_S9x1024_S1x1024_2_0
abbrev r0_m3 : Rect S9x1024 := Rect.unit (s := S9x1024) ![3, 0] S1x1024.size inb_S9x1024_S1x1024_3_0
abbrev r0_m5 : Rect S9x1024 := Rect.unit (s := S9x1024) ![5, 0] S1x1024.size inb_S9x1024_S1x1024_5_0
abbrev r0_m6 : Rect S9x1024 := Rect.unit (s := S9x1024) ![6, 0] S1x1024.size inb_S9x1024_S1x1024_6_0
abbrev r0_m7 : Rect S9x1024 := Rect.unit (s := S9x1024) ![7, 0] S1x1024.size inb_S9x1024_S1x1024_7_0
abbrev r0_m8 : Rect S9x1024 := Rect.unit (s := S9x1024) ![8, 0] S1x1024.size inb_S9x1024_S1x1024_8_0
/-- Column `k` of the 512x9 tap-weight block (tap `k`'s weight per row). -/
abbrev r0_w0 : Rect S512x9 := Rect.unit (s := S512x9) ![0, 0] S512x1.size inb_S512x9_S512x1_0_0
abbrev r0_w1 : Rect S512x9 := Rect.unit (s := S512x9) ![0, 1] S512x1.size inb_S512x9_S512x1_0_1
abbrev r0_w2 : Rect S512x9 := Rect.unit (s := S512x9) ![0, 2] S512x1.size inb_S512x9_S512x1_0_2
abbrev r0_w3 : Rect S512x9 := Rect.unit (s := S512x9) ![0, 3] S512x1.size inb_S512x9_S512x1_0_3
abbrev r0_w4 : Rect S512x9 := Rect.unit (s := S512x9) ![0, 4] S512x1.size inb_S512x9_S512x1_0_4
abbrev r0_w5 : Rect S512x9 := Rect.unit (s := S512x9) ![0, 5] S512x1.size inb_S512x9_S512x1_0_5
abbrev r0_w6 : Rect S512x9 := Rect.unit (s := S512x9) ![0, 6] S512x1.size inb_S512x9_S512x1_0_6
abbrev r0_w7 : Rect S512x9 := Rect.unit (s := S512x9) ![0, 7] S512x1.size inb_S512x9_S512x1_0_7
abbrev r0_w8 : Rect S512x9 := Rect.unit (s := S512x9) ![0, 8] S512x1.size inb_S512x9_S512x1_0_8
/-- The whole 512x1 block of the per-row difference weights. -/
abbrev r0_kd : Rect S512x1 := Rect.unit (s := S512x1) ![0, 0] S512x1.size inb_S512x1_S512x1_0_0
/-- The whole 1x64x64 Gram block and the whole 1x64x1 channel-sum block. -/
abbrev r0_g : Rect S1x64x64 := Rect.unit (s := S1x64x64) ![0, 0, 0] S1x64x64.size inb_S1x64x64_S1x64x64_0_0_0
abbrev r0_v : Rect S1x64x1 := Rect.unit (s := S1x64x1) ![0, 0, 0] S1x64x1.size inb_S1x64x1_S1x64x1_0_0_0

/-! ## What the body computes, over the four input blocks

    `x0` the activation block, `x1` the tap weights, `x2` the difference weights, `x3` the masks. -/

/-- r = max(x, 0), the rectified block (%3). -/
def relu0 (x0 : Vec F S512x1024 .f32) : FVec F S512x1024 .f32 := k0_pay2 (View.ld x0 r0_x)

/-- Taps 0, 1, 2 summed: Σ_{k<3} rot_k(r) · mask_k · w_k (%34). -/
def taps012_0 (x0 : Vec F S512x1024 .f32) (x1 : Vec F S512x9 .f32) (x3 : Vec F S9x1024 .f32) : FVec F S512x1024 .f32 :=
  k0_pay3 (View.ld x0 r0_x) (View.ld x3 r0_m0) (View.ld x1 r0_w0) (View.ld x3 r0_m1) (View.ld x1 r0_w1) (View.ld x3 r0_m2) (View.ld x1 r0_w2)

/-- r rotated for tap 3 (%35). -/
def rot3_0 (x0 : Vec F S512x1024 .f32) : FVec F S512x1024 .f32 := k0_pay4 (View.ld x0 r0_x)

/-- Taps 0 to 6 summed (%69): tap 3 masked and weighted, tap 4 r · w_4, taps 5 and 6. -/
def taps0to6_0 (x0 : Vec F S512x1024 .f32) (x1 : Vec F S512x9 .f32) (x3 : Vec F S9x1024 .f32) : FVec F S512x1024 .f32 :=
  k0_pay5 (relu0 x0) (taps012_0 x0 x1 x3) (rot3_0 x0) (View.ld x3 r0_m3) (View.ld x1 r0_w3) (View.ld x1 r0_w4) (View.ld x3 r0_m5) (View.ld x1 r0_w5) (View.ld x3 r0_m6) (View.ld x1 r0_w6)

/-- Tap 7's rotated r times its mask (%74), and tap 7's weight spread over the columns (%77). -/
def tap7m_0 (x0 : Vec F S512x1024 .f32) (x3 : Vec F S9x1024 .f32) : FVec F S512x1024 .f32 := k0_pay6 (relu0 x0) (View.ld x3 r0_m7)
def tap7w_0 (x1 : Vec F S512x9 .f32) : FVec F S512x1024 .f32 := k0_pay7 (View.ld x1 r0_w7)

/-- The f32 central-difference block: the nine taps less kdiff · r (%94). -/
def cdc0 (x0 : Vec F S512x1024 .f32) (x1 : Vec F S512x9 .f32) (x2 : Vec F S512x1 .f32) (x3 : Vec F S9x1024 .f32) : FVec F S512x1024 .f32 :=
  k0_pay8 (relu0 x0) (taps0to6_0 x0 x1 x3) (tap7m_0 x0 x3) (tap7w_0 x1) (View.ld x3 r0_m8) (View.ld x1 r0_w8) (View.ld x2 r0_kd)

/-- Its bf16 rounding (%95). -/
def cdcb0 (x0 : Vec F S512x1024 .f32) (x1 : Vec F S512x9 .f32) (x2 : Vec F S512x1 .f32) (x3 : Vec F S9x1024 .f32) : FVec F S512x1024 .bf16 :=
  k0_pay9 (relu0 x0) (taps0to6_0 x0 x1 x3) (tap7m_0 x0 x3) (tap7w_0 x1) (View.ld x3 r0_m8) (View.ld x1 r0_w8) (View.ld x2 r0_kd)

/-- The Gram products of the bf16 block's first three 64-row groups, summed (%115). -/
def gram3_0 (x0 : Vec F S512x1024 .f32) (x1 : Vec F S512x9 .f32) (x2 : Vec F S512x1 .f32) (x3 : Vec F S9x1024 .f32) : FVec F S64x64 .f32 :=
  k0_pay10 (relu0 x0) (taps0to6_0 x0 x1 x3) (tap7m_0 x0 x3) (tap7w_0 x1) (View.ld x3 r0_m8) (View.ld x1 r0_w8) (View.ld x2 r0_kd)

/-- The row sums of the f32 block's first three 64-row groups, summed (%119). -/
def rsum3_0 (x0 : Vec F S512x1024 .f32) (x1 : Vec F S512x9 .f32) (x2 : Vec F S512x1 .f32) (x3 : Vec F S9x1024 .f32) : FVec F S64x1 .f32 :=
  k0_pay11 (relu0 x0) (taps0to6_0 x0 x1 x3) (tap7m_0 x0 x3) (tap7w_0 x1) (View.ld x3 r0_m8) (View.ld x1 r0_w8) (View.ld x2 r0_kd)

/-! ## What the body leaves in each output window's buffer -/

/-- Window 4's buffer after the body: the bf16 central-difference block, stored whole. -/
def out0_4 (x0 : Vec F S512x1024 .f32) (x1 : Vec F S512x9 .f32) (x2 : Vec F S512x1 .f32) (x3 : Vec F S9x1024 .f32) : Vec F S512x1024 .bf16 :=
  View.canon [⟨r0_x, cdcb0 x0 x1 x2 x3⟩]

/-- Window 5's buffer after the body: the Gram block — all eight groups' products summed —, stored whole. -/
def out0_5 (x0 : Vec F S512x1024 .f32) (x1 : Vec F S512x9 .f32) (x2 : Vec F S512x1 .f32) (x3 : Vec F S9x1024 .f32) : Vec F S1x64x64 .f32 :=
  View.canon [⟨r0_g, k0_pay13 (cdcb0 x0 x1 x2 x3) (gram3_0 x0 x1 x2 x3)⟩]

/-- Window 6's buffer after the body: the channel sums — all eight groups' row sums summed —, stored whole. -/
def out0_6 (x0 : Vec F S512x1024 .f32) (x1 : Vec F S512x9 .f32) (x2 : Vec F S512x1 .f32) (x3 : Vec F S9x1024 .f32) : Vec F S1x64x1 .f32 :=
  View.canon [⟨r0_v, k0_pay1 (k0_pay12 (cdc0 x0 x1 x2 x3) (rsum3_0 x0 x1 x2 x3))⟩]

/-- Each output's one store is the whole buffer, so it covers it. -/
theorem cover0_4 (p0 : Vec F S512x1024 .bf16) (y : S512x1024.Idx) :
    ∃ pc ∈ ([⟨r0_x, p0⟩] : List (View.Piece (Elt F) S512x1024 .bf16)), y ∈ pc.1.set :=
  View.cover_of_tiled ([⟨r0_x, p0⟩] : List (View.Piece (Elt F) S512x1024 .bf16)) S512x1024.size (by rfl) y
theorem cover0_5 (p0 : Vec F S1x64x64 .f32) (y : S1x64x64.Idx) :
    ∃ pc ∈ ([⟨r0_g, p0⟩] : List (View.Piece (Elt F) S1x64x64 .f32)), y ∈ pc.1.set :=
  View.cover_of_tiled ([⟨r0_g, p0⟩] : List (View.Piece (Elt F) S1x64x64 .f32)) S1x64x64.size (by rfl) y
theorem cover0_6 (p0 : Vec F S1x64x1 .f32) (y : S1x64x1.Idx) :
    ∃ pc ∈ ([⟨r0_v, p0⟩] : List (View.Piece (Elt F) S1x64x1 .f32)), y ∈ pc.1.set :=
  View.cover_of_tiled ([⟨r0_v, p0⟩] : List (View.Piece (Elt F) S1x64x1 .f32)) S1x64x1.size (by rfl) y

/-! ## The body's triple -/

set_option maxHeartbeats 4000000 in
/-- The kernel body on whole staging memrefs, the four inputs' at read contents `xW` and the three outputs' at anything
    (the body loads each output buffer once and drops the value), runs to the continuation holding the inputs' as they
    were and each output's at `out0_W` of the inputs'. -/
theorem sound_kernel0 (c : Dev nD) (E : Set ℕ) (i : grid0.Coords) (arg1 : Memref sig .tc .vmem S512x1024 .f32) (harg1 : arg1.IsWhole) (arg2 : Memref sig .tc .vmem S512x9 .f32) (harg2 : arg2.IsWhole) (arg3 : Memref sig .tc .vmem S512x1 .f32) (harg3 : arg3.IsWhole) (arg4 : Memref sig .tc .vmem S9x1024 .f32) (harg4 : arg4.IsWhole) (arg5 : Memref sig .tc .vmem S512x1024 .bf16) (harg5 : arg5.IsWhole) (arg6 : Memref sig .tc .vmem S1x64x64 .f32) (harg6 : arg6.IsWhole) (arg7 : Memref sig .tc .vmem S1x64x1 .f32) (harg7 : arg7.IsWhole)
    (x0 : Vec F S512x1024 .f32) (x1 : Vec F S512x9 .f32) (x2 : Vec F S512x1 .f32) (x3 : Vec F S9x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1 x2 x3) ∗ owns (c : Thread nD τ) arg6 fullShare (out0_5 x0 x1 x2 x3) ∗ owns (c : Thread nD τ) arg7 fullShare (out0_6 x0 x1 x2 x3)) -∗ K ⟨⟩))
      ⊢ wp frame (wpE (defs₀ (F := F)) Variants.none c none) E (cc0_body i arg1 harg1 arg2 harg2 arg3 harg3 arg4 harg4 arg5 harg5 arg6 harg6 arg7 harg7) K := by
  simp only [cc0_body_eq_skeleton]; unfold cc0_body_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_4 _)
  isplitl [H6]
  · iexists _; isplitr
    swap; · iexact H6
    ipureintro
    exact View.read_writes_eq_canon _ _ _ (cover0_5 _)
  iexists _; isplitr
  swap; · iexact H7
  ipureintro
  exact View.read_writes_eq_canon _ _ _ (cover0_6 _)

/-! ## The pipeline's proof data -/

/-- The proof data of pipeline 0 on core `c`: the arrays as the region finds them (`V`); after the body at point `t`
    each input's buffer at its block and each output's at `out0_W` of the four input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.BK1Body.lean ====
/- REGION 1 of the program (pipeline 1, the kernel function `cc1_body`): the 1x1 convolution with the folded
   batch-normalisation scale, plus the shift. Stated at a PARAMETER `V`, the TensorCore's buffer contents when the
   region is entered, and generic in the float model `F`.

   The grid has 16 points. Window 0 is the bf16 array [8192, 1024] of the depthwise stage, in blocks of 512 rows (one
   per point); window 1 is the folded weight bf16 [64, 64] and window 2 the shift f32 [64, 1], both whole at every
   point; window 3 is the output f32 [8192, 1024] in blocks of 512 rows.

   The body reads the weight W and the shift h whole, and for each of the eight 64-row slabs X_b (b = 0..7) of the
   input block stores W · X_b + h (h broadcast along the 1024 columns) to the same rows of the output block. The slab's
   output rows are loaded once before they are stored; nothing reads that value. The eight stores tile the output
   block, so what the body leaves there is a function of the three input blocks alone (`out1_3`). -/
import proofs.«151441_g2000606144476369_pallasbulk_1044_2_alg».proof.Proof.Gen.Kernel.Launch
import proofs.«151441_g2000606144476369_pallasbulk_1044_2_alg».proof.Proof.Gen.Kernel.Skeleton
import proofs.«151441_g2000606144476369_pallasbulk_1044_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate of the
-- long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof data
    whose array is `V`'s (`hA`) and whose body leaves the block in place (`hafter`): where the pipeline does not
    fetch, the block index has not moved, and the buffer still holds the block. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof data
    whose array is `V`'s (`hA`) and whose body leaves the block in place (`hafter`): where the pipeline does not
    fetch, the block index has not moved, and the buffer still holds the block. The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof data
    whose array is `V`'s (`hA`) and whose body leaves the block in place (`hafter`): where the pipeline does not
    fetch, the block index has not moved, and the buffer still holds the block. The window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The weight, whole. -/
abbrev r1_w : Rect S64x64 := Rect.unit (s := S64x64) ![0, 0] S64x64.size inb_S64x64_S64x64_0_0
/-- The shift, whole. -/
abbrev r1_h : Rect S64x1 := Rect.unit (s := S64x1) ![0, 0] S64x1.size inb_S64x1_S64x1_0_0
/-- Slab `b` of a 512-row block: rows `64 b .. 64 b + 63`, all 1024 columns. -/
abbrev r1_s0 : Rect S512x1024 := Rect.unit (s := S512x1024) ![0, 0] S64x1024.size inb_S512x1024_S64x1024_0_0
abbrev r1_s1 : Rect S512x1024 := Rect.unit (s := S512x1024) ![64, 0] S64x1024.size inb_S512x1024_S64x1024_64_0
abbrev r1_s2 : Rect S512x1024 := Rect.unit (s := S512x1024) ![128, 0] S64x1024.size inb_S512x1024_S64x1024_128_0
abbrev r1_s3 : Rect S512x1024 := Rect.unit (s := S512x1024) ![192, 0] S64x1024.size inb_S512x1024_S64x1024_192_0
abbrev r1_s4 : Rect S512x1024 := Rect.unit (s := S512x1024) ![256, 0] S64x1024.size inb_S512x1024_S64x1024_256_0
abbrev r1_s5 : Rect S512x1024 := Rect.unit (s := S512x1024) ![320, 0] S64x1024.size inb_S512x1024_S64x1024_320_0
abbrev r1_s6 : Rect S512x1024 := Rect.unit (s := S512x1024) ![384, 0] S64x1024.size inb_S512x1024_S64x1024_384_0
abbrev r1_s7 : Rect S512x1024 := Rect.unit (s := S512x1024) ![448, 0] S64x1024.size inb_S512x1024_S64x1024_448_0

/-! ## What the body leaves in the output window's buffer -/

/-- Window 3's staging buffer after the body, from the three input blocks `x0` (the bf16 block), `x1` (the weight)
    and `x2` (the shift): its 8 stores as pieces, LAST FIRST; slab `b` holds the payload of the slab's store, a
    function of the weight, the shift and rows `64 b .. 64 b + 63` of `x0`. -/
def out1_3 (x0 : Vec F S512x1024 .bf16) (x1 : Vec F S64x64 .bf16) (x2 : Vec F S64x1 .f32) : Vec F S512x1024 .f32 :=
  View.canon [⟨r1_s7, k1_pay4 (k1_pay5 (View.ld x1 r1_w)) (k1_pay6 (View.ld x2 r1_h)) (View.ld x0 r1_s7)⟩,
    ⟨r1_s6, k1_pay3 (k1_pay5 (View.ld x1 r1_w)) (k1_pay6 (View.ld x2 r1_h)) (View.ld x0 r1_s6)⟩,
    ⟨r1_s5, k1_pay2 (k1_pay5 (View.ld x1 r1_w)) (k1_pay6 (View.ld x2 r1_h)) (View.ld x0 r1_s5)⟩,
    ⟨r1_s4, k1_pay1 (k1_pay5 (View.ld x1 r1_w)) (k1_pay6 (View.ld x2 r1_h)) (View.ld x0 r1_s4)⟩,
    ⟨r1_s3, k1_pay10 (View.ld x1 r1_w) (View.ld x2 r1_h) (View.ld x0 r1_s3)⟩,
    ⟨r1_s2, k1_pay9 (View.ld x1 r1_w) (View.ld x2 r1_h) (View.ld x0 r1_s2)⟩,
    ⟨r1_s1, k1_pay8 (View.ld x1 r1_w) (View.ld x2 r1_h) (View.ld x0 r1_s1)⟩,
    ⟨r1_s0, k1_pay7 (View.ld x1 r1_w) (View.ld x2 r1_h) (View.ld x0 r1_s0)⟩]

/-- The eight slabs tile the 512x1024 buffer (checked by evaluation), so the stores cover it. -/
theorem cover1_3 (p7 p6 p5 p4 p3 p2 p1 p0 : Vec F S64x1024 .f32) (y : S512x1024.Idx) :
    ∃ pc ∈ ([⟨r1_s7, p7⟩, ⟨r1_s6, p6⟩, ⟨r1_s5, p5⟩, ⟨r1_s4, p4⟩, ⟨r1_s3, p3⟩, ⟨r1_s2, p2⟩, ⟨r1_s1, p1⟩, ⟨r1_s0, p0⟩] : List (View.Piece (Elt F) S512x1024 .f32)), y ∈ pc.1.set :=
  View.cover_of_tiled [⟨r1_s7, p7⟩, ⟨r1_s6, p6⟩, ⟨r1_s5, p5⟩, ⟨r1_s4, p4⟩, ⟨r1_s3, p3⟩, ⟨r1_s2, p2⟩, ⟨r1_s1, p1⟩, ⟨r1_s0, p0⟩] S64x1024.size (by rfl) y

/-! ## The body's triple -/

set_option maxHeartbeats 4000000 in
/-- The kernel body on whole staging memrefs, the inputs' at read contents `x0 x1 x2` and the output's at anything,
    runs to the continuation holding the inputs' as they were and the output's at `out1_3` of the inputs': the
    printed functions are their skeletons, run operation by operation through the part call; the eight stores
    cover the output buffer, so its contents read as the canonical contents of the store list. -/
theorem sound_kernel1 (c : Dev nD) (E : Set ℕ) (i : grid1.Coords) (arg1 : Memref sig .tc .vmem S512x1024 .bf16) (harg1 : arg1.IsWhole) (arg2 : Memref sig .tc .vmem S64x64 .bf16) (harg2 : arg2.IsWhole)
    (arg3 : Memref sig .tc .vmem S64x1 .f32) (harg3 : arg3.IsWhole) (arg4 : Memref sig .tc .vmem S512x1024 .f32) (harg4 : arg4.IsWhole)
    (x0 : Vec F S512x1024 .bf16) (x1 : Vec F S64x64 .bf16) (x2 : Vec F S64x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_body i arg1 harg1 arg2 harg2 arg3 harg3 arg4 harg4) K := by
  simp only [cc1_body_eq_skeleton]; unfold cc1_body_skel
  simp only [k1_part1_eq_skeleton]; unfold k1_part1_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_3 _ _ _ _ _ _ _ _)

/-! ## The pipeline's proof data -/

/-- The proof data of pipeline 1 on core `c`: the arrays as the region finds them (`V`); after the body at point
    `t` each input's buffer at its block and the output's at `out1_3` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.BKRun.lean ====
/- THE RUN of the program: the entry function is five segments in order, a stretch of host operations (the reshapes,
   the tiled weights, the nine border masks), region 0 (the rectified depthwise central-difference stage with its
   per-point Gram matrix and channel sums), a second stretch (the batch statistics folded into the 1x1 weight and the
   shift), region 1 (the 1x1 convolution with the folded scale and shift), and one last reshape to the result.

   The buffer contents at each boundary are a fold from the launch memory: a host stretch rewrites the buffers its
   operations write, a region leaves its windows' arrays at what its write-backs fold to and every other buffer as it
   found it. None of the five arguments is written by any operation or is an array of either region, so the fold at an
   argument walks back to the launch memory; the result buffer ends at the fold's last contents. Everything is stated
   for any float model F. -/
import proofs.«151441_g2000606144476369_pallasbulk_1044_2_alg».proof.Proof.BK0Body
import proofs.«151441_g2000606144476369_pallasbulk_1044_2_alg».proof.Proof.BK1Body

-- the long host stretch's list of operations is walked once per operation
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: the entry function's five segments from the launch to the return

## The buffer contents at each segment boundary: a fold through the entry function -/

/-- Core c's buffers at launch. -/
abbrev W0 : Dev nD → Valuation τ sig (Elt F) := fun c b => (s₀ m ρ).mem ((c : Dev nD), b)
/-- After the first host stretch: what region 0 is entered from. -/
abbrev W1 : Dev nD → Valuation τ sig (Elt F) := fun c => StableHlo.after hostOps0 (W0 m ρ c)
/-- The same, read at the TensorCore's references: the contents region 0's proof data take. -/
abbrev V1 : (c : Dev nD) → (b : Ref sig .tc) → Buf (Elt F) ((c : Thread nD τ).loc b) := fun c b => W1 m ρ c b
/-- At region 0's exit: each of its seven arrays at what the pipeline leaves there (an input as entered, an output at its
    write-backs folded over all sixteen points), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Region 0's exit contents at the TensorCore's references. -/
abbrev V2 : (c : Dev nD) → (b : Ref sig .tc) → Buf (Elt F) ((c : Thread nD τ).loc b) := fun c b => W2 m ρ c b
/-- At region 0's exit each array holds what the pipeline leaves, -/
theorem hF0 (c : Dev nD) (w : Fin cfg0.W) : (dat0 (V1 m ρ) c).arrAt w cfg0.N = V2 m ρ c (Pipeline.arrRef spec0 w) :=
  (W2_arr m ρ c w).symm
/-- and every buffer that is no array of region 0 what it held at entry. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what region 1 is entered from. -/
abbrev W3 : Dev nD → Valuation τ sig (Elt F) := fun c => StableHlo.after hostOps1 (W2 m ρ c)
/-- The same at the TensorCore's references: the contents region 1's proof data take. -/
abbrev V3 : (c : Dev nD) → (b : Ref sig .tc) → Buf (Elt F) ((c : Thread nD τ).loc b) := fun c b => W3 m ρ c b
/-- At region 1's exit: each of its four arrays at what the pipeline leaves there, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- Region 1's exit contents at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last reshape: the contents the entry function returns at. -/
abbrev W5 : Dev nD → Valuation τ sig (Elt F) := fun c => StableHlo.after hostOps2 (W4 m ρ c)

/-! ### The arguments end as launched

Every host operation writes exactly its result buffer, and no result buffer is one of the five arguments; no argument is
an array of either region. So the fold, read at an argument, walks back boundary by boundary to the launch memory. -/

set_option maxHeartbeats 4000000 in
/-- No operation of the first host stretch writes one of the five arguments. -/
theorem hostOps0_args : (hostOps0 : List (HloOp τ sig (Elt F))).Forall fun op =>
    (Proc.devRef .tc main_arg0 : DevRef τ sig) ∉ op.writes ∧ (Proc.devRef .tc main_arg1 : DevRef τ sig) ∉ op.writes
      ∧ (Proc.devRef .tc main_arg2 : DevRef τ sig) ∉ op.writes ∧ (Proc.devRef .tc main_arg3 : DevRef τ sig) ∉ op.writes
      ∧ (Proc.devRef .tc main_arg4 : DevRef τ sig) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)

/-- No operation of the second host stretch writes one of the five arguments. -/
theorem hostOps1_args : (hostOps1 : List (HloOp τ sig (Elt F))).Forall fun op =>
    (Proc.devRef .tc main_arg0 : DevRef τ sig) ∉ op.writes ∧ (Proc.devRef .tc main_arg1 : DevRef τ sig) ∉ op.writes
      ∧ (Proc.devRef .tc main_arg2 : DevRef τ sig) ∉ op.writes ∧ (Proc.devRef .tc main_arg3 : DevRef τ sig) ∉ op.writes
      ∧ (Proc.devRef .tc main_arg4 : DevRef τ sig) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)

/-- The last reshape writes none of the five arguments. -/
theorem hostOps2_args : (hostOps2 : List (HloOp τ sig (Elt F))).Forall fun op =>
    (Proc.devRef .tc main_arg0 : DevRef τ sig) ∉ op.writes ∧ (Proc.devRef .tc main_arg1 : DevRef τ sig) ∉ op.writes
      ∧ (Proc.devRef .tc main_arg2 : DevRef τ sig) ∉ op.writes ∧ (Proc.devRef .tc main_arg3 : DevRef τ sig) ∉ op.writes
      ∧ (Proc.devRef .tc main_arg4 : DevRef τ sig) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _
          fun op h => ((List.forall_iff_forall_mem.mp (hostOps2_args (F := F))) op h).1
    _ = W3 m ρ c (Proc.devRef .tc main_arg0) := W4_of_ne m ρ c main_arg0 (by decide)
    _ = W2 m ρ c (Proc.devRef .tc main_arg0) := StableHlo.after_of_forall_not_mem (b := Proc.devRef .tc main_arg0) _ _
          fun op h => ((List.forall_iff_forall_mem.mp (hostOps1_args (F := F))) op h).1
    _ = W1 m ρ c (Proc.devRef .tc main_arg0) := W2_of_ne m ρ c main_arg0 (by decide)
    _ = W0 m ρ c (Proc.devRef .tc main_arg0) := StableHlo.after_of_forall_not_mem (b := Proc.devRef .tc main_arg0) _ _
          fun op h => ((List.forall_iff_forall_mem.mp (hostOps0_args (F := F))) op h).1
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _
          fun op h => ((List.forall_iff_forall_mem.mp (hostOps2_args (F := F))) op h).2.1
    _ = W3 m ρ c (Proc.devRef .tc main_arg1) := W4_of_ne m ρ c main_arg1 (by decide)
    _ = W2 m ρ c (Proc.devRef .tc main_arg1) := StableHlo.after_of_forall_not_mem (b := Proc.devRef .tc main_arg1) _ _
          fun op h => ((List.forall_iff_forall_mem.mp (hostOps1_args (F := F))) op h).2.1
    _ = W1 m ρ c (Proc.devRef .tc main_arg1) := W2_of_ne m ρ c main_arg1 (by decide)
    _ = W0 m ρ c (Proc.devRef .tc main_arg1) := StableHlo.after_of_forall_not_mem (b := Proc.devRef .tc main_arg1) _ _
          fun op h => ((List.forall_iff_forall_mem.mp (hostOps0_args (F := F))) op h).2.1
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _
          fun op h => ((List.forall_iff_forall_mem.mp (hostOps2_args (F := F))) op h).2.2.1
    _ = W3 m ρ c (Proc.devRef .tc main_arg2) := W4_of_ne m ρ c main_arg2 (by decide)
    _ = W2 m ρ c (Proc.devRef .tc main_arg2) := StableHlo.after_of_forall_not_mem (b := Proc.devRef .tc main_arg2) _ _
          fun op h => ((List.forall_iff_forall_mem.mp (hostOps1_args (F := F))) op h).2.2.1
    _ = W1 m ρ c (Proc.devRef .tc main_arg2) := W2_of_ne m ρ c main_arg2 (by decide)
    _ = W0 m ρ c (Proc.devRef .tc main_arg2) := StableHlo.after_of_forall_not_mem (b := Proc.devRef .tc main_arg2) _ _
          fun op h => ((List.forall_iff_forall_mem.mp (hostOps0_args (F := F))) op h).2.2.1
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _
          fun op h => ((List.forall_iff_forall_mem.mp (hostOps2_args (F := F))) op h).2.2.2.1
    _ = W3 m ρ c (Proc.devRef .tc main_arg3) := W4_of_ne m ρ c main_arg3 (by decide)
    _ = W2 m ρ c (Proc.devRef .tc main_arg3) := StableHlo.after_of_forall_not_mem (b := Proc.devRef .tc main_arg3) _ _
          fun op h => ((List.forall_iff_forall_mem.mp (hostOps1_args (F := F))) op h).2.2.2.1
    _ = W1 m ρ c (Proc.devRef .tc main_arg3) := W2_of_ne m ρ c main_arg3 (by decide)
    _ = W0 m ρ c (Proc.devRef .tc main_arg3) := StableHlo.after_of_forall_not_mem (b := Proc.devRef .tc main_arg3) _ _
          fun op h => ((List.forall_iff_forall_mem.mp (hostOps0_args (F := F))) op h).2.2.2.1
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _
          fun op h => ((List.forall_iff_forall_mem.mp (hostOps2_args (F := F))) op h).2.2.2.2
    _ = W3 m ρ c (Proc.devRef .tc main_arg4) := W4_of_ne m ρ c main_arg4 (by decide)
    _ = W2 m ρ c (Proc.devRef .tc main_arg4) := StableHlo.after_of_forall_not_mem (b := Proc.devRef .tc main_arg4) _ _
          fun op h => ((List.forall_iff_forall_mem.mp (hostOps1_args (F := F))) op h).2.2.2.2
    _ = W1 m ρ c (Proc.devRef .tc main_arg4) := W2_of_ne m ρ c main_arg4 (by decide)
    _ = W0 m ρ c (Proc.devRef .tc main_arg4) := StableHlo.after_of_forall_not_mem (b := Proc.devRef .tc main_arg4) _ _
          fun op h => ((List.forall_iff_forall_mem.mp (hostOps0_args (F := F))) op h).2.2.2.2
    _ = m ((c : Thread nD τ).loc main_arg4) := rfl

/-! ## The proof data family and the thread state -/

/-- The prefetched tables' admissible contents: no pipeline has a table. -/
abbrev adm : (p : Fin 2) → (pcfgs (F := F) p).Adm := fun p => (cfgs p).toPCfg_adm
/-- Both pipelines' proof data, each at its region's entry contents: a literal match on the pipeline's index, so that the
    pinned configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the core owing
    nothing. -/
abbrev R (c : Dev nD) : sProp 𝕄 := iprop((∃ r, prngReg c r) ∗ ∃ W, owes (c : Thread nD τ) (0 : CellTallies nD τ sig Unit) W)
/-- A host stretch as a segment: from the unscoped buffers at contents W it runs to the same buffers at the contents the
    operations leave, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
/-- No operation of the first host stretch allocates a buffer. -/
theorem hostOps0_fresh : (hostOps0 : List (HloOp τ sig (Elt F))).Forall fun op => op.fresh = ∅ := by
  simp only [List.Forall]; repeat' constructor
/-- No operation of the second host stretch allocates a buffer. -/
theorem hostOps1_fresh : (hostOps1 : List (HloOp τ sig (Elt F))).Forall fun op => op.fresh = ∅ := by
  simp only [List.Forall]; repeat' constructor
/-- The last reshape allocates no buffer. -/
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owing part: every unscoped buffer at the returned contents, the generator register
    at some state. -/
abbrev Tₙ (c : Dev nD) : sProp 𝕄 := iprop(StableHlo.held (c : Thread nD τ) (Pipeline.ucRefs τ sig) (W5 m ρ c) ∗ ∃ r, prngReg c r)

/-! ## The regions as segments -/

-- unifying a library lemma stated over the pinned configuration with this program's needs plain definitions unfolded
-- inside a metavariable's type
set_option backward.isDefEq.respectTransparency.types false in
/-- Region 0 over the thread state: entered from every unscoped buffer at the contents before it, left at those after
    it. Its arrays are split out of the unscoped buffers at entry and put back at their exit contents; the generator
    register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with this program's needs plain definitions unfolded
-- inside a metavariable's type
set_option backward.isDefEq.respectTransparency.types false in
/-- Region 1 over the thread state: entered from every unscoped buffer at the contents before it, left at those after
    it. Its arrays are split out of the unscoped buffers at entry and put back at their exit contents; the generator
    register goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the launch -/

/-- The five segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- The entry function is the run of the segments: it is the chain of its five items, and the segments' run is the chain
    of theirs. -/
theorem main_run (c : Dev nD) : main (F := F) c = Pipeline.Seg.run (segs m ρ) := (main_chain c).trans (by chain_rfl)

-- the launch theorem's implicit arguments are found by unifying its conclusion with this one, which takes unfolding plain
-- definitions inside a metavariable's type
set_option backward.isDefEq.respectTransparency.types false in
/-- At the compiled mesh, from any memory with zero counters, every weakly fair execution of the entry function on the
    TensorCores terminates, nothing faulting; in every final state the result buffer holds the fold's last contents and the
    five arguments what they held at launch. The last thread state is read against the final state buffer by buffer; each
    argument then walks back through the fold. -/
theorem run : θ_run defs (onTc (τ := τ) (main (F := F))) ⟨m, fun _ => 0, ρ⟩ (fun r => ∀ c : Dev nD,
      r.2.mem ((c.tc : Thread nD τ).loc main_v253) = W5 m ρ c (Proc.devRef .tc main_v253)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c)
            ∗ (∃ r, prngReg c r) ∗ ∃ W, owes (c : Thread nD τ) (0 : CellTallies nD τ sig Unit) W)
          ⊢ iprop((StableHlo.held (c : Thread nD τ) (Pipeline.ucRefs τ sig) (W5 m ρ c) ∗ ∃ r, prngReg c r)
            ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v253 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.Kernel.Hand

end
-- ==== Proof.K0Body.lean ====
/- REGION 0 of the program (pipeline 0, the kernel function `cc0_body`), at the TensorCore's buffer contents `V` when the
   region is entered. The grid has 16 points. At point `t` the body is handed: the 512x1024 block `t` of the activation
   x2[8192x1024] (window 0), the 512x9 tap weights (window 1), the 512x1 difference weights (window 2) and the 9x1024
   border masks (window 3) — the last three the same block at every point —, and three output buffers. It computes
   r = max(x, 0); the nine taps Σ_k rot_k(r) · mask_k · w_k (tap 4 unrotated and unmasked) less kdiff · r: the f32
   central-difference block; stores its bf16 rounding whole into window 4; the sum over the eight 64-row groups of
   the 64x64 Gram products of the bf16 block with itself into window 5; and the sum over the eight groups of the
   f32 block's row sums into window 6. Here: each window's block, what the body leaves in each output buffer as a
   function of the four input blocks, the body's triple, the pipeline's proof data and its body obligation. -/
import proofs.«151441_g2000606144476369_pallasbulk_1044_2_alg».proof.Proof.Gen.KernelIdeal.Launch
import proofs.«151441_g2000606144476369_pallasbulk_1044_2_alg».proof.Proof.Gen.KernelIdeal.Skeleton
import proofs.«151441_g2000606144476369_pallasbulk_1044_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (windows 1, 2, 3 are
    fetched at the first point only: their index never moves), for any proof data whose array is `V`'s and whose body
    leaves the block in place; the windows are uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 512x1024 block: what the body loads of the activation block and where it stores the bf16 block. -/
abbrev r0_x : Rect S512x1024 := Rect.unit (s := S512x1024) ![0, 0] S512x1024.size inb_S512x1024_S512x1024_0_0
/-- Row `k` of the 9x1024 border-mask block (tap `k`'s mask over the 1024 positions). -/
abbrev r0_m0 : Rect S9x1024 := Rect.unit (s := S9x1024) ![0, 0] S1x1024.size inb_S9x1024_S1x1024_0_0
abbrev r0_m1 : Rect S9x1024 := Rect.unit (s := S9x1024) ![1, 0] S1x1024.size inb_S9x1024_S1x1024_1_0
abbrev r0_m2 : Rect S9x1024 := Rect.unit (s := S9x1024) ![2, 0] S1x1024.size inb_S9x1024_S1x1024_2_0
abbrev r0_m3 : Rect S9x1024 := Rect.unit (s := S9x1024) ![3, 0] S1x1024.size inb_S9x1024_S1x1024_3_0
abbrev r0_m5 : Rect S9x1024 := Rect.unit (s := S9x1024) ![5, 0] S1x1024.size inb_S9x1024_S1x1024_5_0
abbrev r0_m6 : Rect S9x1024 := Rect.unit (s := S9x1024) ![6, 0] S1x1024.size inb_S9x1024_S1x1024_6_0
abbrev r0_m7 : Rect S9x1024 := Rect.unit (s := S9x1024) ![7, 0] S1x1024.size inb_S9x1024_S1x1024_7_0
abbrev r0_m8 : Rect S9x1024 := Rect.unit (s := S9x1024) ![8, 0] S1x1024.size inb_S9x1024_S1x1024_8_0
/-- Column `k` of the 512x9 tap-weight block (tap `k`'s weight per row). -/
abbrev r0_w0 : Rect S512x9 := Rect.unit (s := S512x9) ![0, 0] S512x1.size inb_S512x9_S512x1_0_0
abbrev r0_w1 : Rect S512x9 := Rect.unit (s := S512x9) ![0, 1] S512x1.size inb_S512x9_S512x1_0_1
abbrev r0_w2 : Rect S512x9 := Rect.unit (s := S512x9) ![0, 2] S512x1.size inb_S512x9_S512x1_0_2
abbrev r0_w3 : Rect S512x9 := Rect.unit (s := S512x9) ![0, 3] S512x1.size inb_S512x9_S512x1_0_3
abbrev r0_w4 : Rect S512x9 := Rect.unit (s := S512x9) ![0, 4] S512x1.size inb_S512x9_S512x1_0_4
abbrev r0_w5 : Rect S512x9 := Rect.unit (s := S512x9) ![0, 5] S512x1.size inb_S512x9_S512x1_0_5
abbrev r0_w6 : Rect S512x9 := Rect.unit (s := S512x9) ![0, 6] S512x1.size inb_S512x9_S512x1_0_6
abbrev r0_w7 : Rect S512x9 := Rect.unit (s := S512x9) ![0, 7] S512x1.size inb_S512x9_S512x1_0_7
abbrev r0_w8 : Rect S512x9 := Rect.unit (s := S512x9) ![0, 8] S512x1.size inb_S512x9_S512x1_0_8
/-- The whole 512x1 block of the per-row difference weights. -/
abbrev r0_kd : Rect S512x1 := Rect.unit (s := S512x1) ![0, 0] S512x1.size inb_S512x1_S512x1_0_0
/-- The whole 1x64x64 Gram block and the whole 1x64x1 channel-sum block. -/
abbrev r0_g : Rect S1x64x64 := Rect.unit (s := S1x64x64) ![0, 0, 0] S1x64x64.size inb_S1x64x64_S1x64x64_0_0_0
abbrev r0_v : Rect S1x64x1 := Rect.unit (s := S1x64x1) ![0, 0, 0] S1x64x1.size inb_S1x64x1_S1x64x1_0_0_0

/-! ## What the body computes, over the four input blocks

    `x0` the activation block, `x1` the tap weights, `x2` the difference weights, `x3` the masks. -/

/-- r = max(x, 0), the rectified block (%3). -/
def relu0 (x0 : Vec F S512x1024 .f32) : FVec F S512x1024 .f32 := k0_pay2 (View.ld x0 r0_x)

/-- Taps 0, 1, 2 summed: Σ_{k<3} rot_k(r) · mask_k · w_k (%34). -/
def taps012_0 (x0 : Vec F S512x1024 .f32) (x1 : Vec F S512x9 .f32) (x3 : Vec F S9x1024 .f32) : FVec F S512x1024 .f32 :=
  k0_pay3 (View.ld x0 r0_x) (View.ld x3 r0_m0) (View.ld x1 r0_w0) (View.ld x3 r0_m1) (View.ld x1 r0_w1) (View.ld x3 r0_m2) (View.ld x1 r0_w2)

/-- r rotated for tap 3 (%35). -/
def rot3_0 (x0 : Vec F S512x1024 .f32) : FVec F S512x1024 .f32 := k0_pay4 (View.ld x0 r0_x)

/-- Taps 0 to 6 summed (%69): tap 3 masked and weighted, tap 4 r · w_4, taps 5 and 6. -/
def taps0to6_0 (x0 : Vec F S512x1024 .f32) (x1 : Vec F S512x9 .f32) (x3 : Vec F S9x1024 .f32) : FVec F S512x1024 .f32 :=
  k0_pay5 (relu0 x0) (taps012_0 x0 x1 x3) (rot3_0 x0) (View.ld x3 r0_m3) (View.ld x1 r0_w3) (View.ld x1 r0_w4) (View.ld x3 r0_m5) (View.ld x1 r0_w5) (View.ld x3 r0_m6) (View.ld x1 r0_w6)

/-- Tap 7's rotated r times its mask (%74), and tap 7's weight spread over the columns (%77). -/
def tap7m_0 (x0 : Vec F S512x1024 .f32) (x3 : Vec F S9x1024 .f32) : FVec F S512x1024 .f32 := k0_pay6 (relu0 x0) (View.ld x3 r0_m7)
def tap7w_0 (x1 : Vec F S512x9 .f32) : FVec F S512x1024 .f32 := k0_pay7 (View.ld x1 r0_w7)

/-- The f32 central-difference block: the nine taps less kdiff · r (%94). -/
def cdc0 (x0 : Vec F S512x1024 .f32) (x1 : Vec F S512x9 .f32) (x2 : Vec F S512x1 .f32) (x3 : Vec F S9x1024 .f32) : FVec F S512x1024 .f32 :=
  k0_pay8 (relu0 x0) (taps0to6_0 x0 x1 x3) (tap7m_0 x0 x3) (tap7w_0 x1) (View.ld x3 r0_m8) (View.ld x1 r0_w8) (View.ld x2 r0_kd)

/-- Its bf16 rounding (%95). -/
def cdcb0 (x0 : Vec F S512x1024 .f32) (x1 : Vec F S512x9 .f32) (x2 : Vec F S512x1 .f32) (x3 : Vec F S9x1024 .f32) : FVec F S512x1024 .bf16 :=
  k0_pay9 (relu0 x0) (taps0to6_0 x0 x1 x3) (tap7m_0 x0 x3) (tap7w_0 x1) (View.ld x3 r0_m8) (View.ld x1 r0_w8) (View.ld x2 r0_kd)

/-- The Gram products of the bf16 block's first three 64-row groups, summed (%115). -/
def gram3_0 (x0 : Vec F S512x1024 .f32) (x1 : Vec F S512x9 .f32) (x2 : Vec F S512x1 .f32) (x3 : Vec F S9x1024 .f32) : FVec F S64x64 .f32 :=
  k0_pay10 (relu0 x0) (taps0to6_0 x0 x1 x3) (tap7m_0 x0 x3) (tap7w_0 x1) (View.ld x3 r0_m8) (View.ld x1 r0_w8) (View.ld x2 r0_kd)

/-- The row sums of the f32 block's first three 64-row groups, summed (%119). -/
def rsum3_0 (x0 : Vec F S512x1024 .f32) (x1 : Vec F S512x9 .f32) (x2 : Vec F S512x1 .f32) (x3 : Vec F S9x1024 .f32) : FVec F S64x1 .f32 :=
  k0_pay11 (relu0 x0) (taps0to6_0 x0 x1 x3) (tap7m_0 x0 x3) (tap7w_0 x1) (View.ld x3 r0_m8) (View.ld x1 r0_w8) (View.ld x2 r0_kd)

/-! ## What the body leaves in each output window's buffer -/

/-- Window 4's buffer after the body: the bf16 central-difference block, stored whole. -/
def out0_4 (x0 : Vec F S512x1024 .f32) (x1 : Vec F S512x9 .f32) (x2 : Vec F S512x1 .f32) (x3 : Vec F S9x1024 .f32) : Vec F S512x1024 .bf16 :=
  View.canon [⟨r0_x, cdcb0 x0 x1 x2 x3⟩]

/-- Window 5's buffer after the body: the Gram block — all eight groups' products summed —, stored whole. -/
def out0_5 (x0 : Vec F S512x1024 .f32) (x1 : Vec F S512x9 .f32) (x2 : Vec F S512x1 .f32) (x3 : Vec F S9x1024 .f32) : Vec F S1x64x64 .f32 :=
  View.canon [⟨r0_g, k0_pay13 (cdcb0 x0 x1 x2 x3) (gram3_0 x0 x1 x2 x3)⟩]

/-- Window 6's buffer after the body: the channel sums — all eight groups' row sums summed —, stored whole. -/
def out0_6 (x0 : Vec F S512x1024 .f32) (x1 : Vec F S512x9 .f32) (x2 : Vec F S512x1 .f32) (x3 : Vec F S9x1024 .f32) : Vec F S1x64x1 .f32 :=
  View.canon [⟨r0_v, k0_pay1 (k0_pay12 (cdc0 x0 x1 x2 x3) (rsum3_0 x0 x1 x2 x3))⟩]

/-- Each output's one store is the whole buffer, so it covers it. -/
theorem cover0_4 (p0 : Vec F S512x1024 .bf16) (y : S512x1024.Idx) :
    ∃ pc ∈ ([⟨r0_x, p0⟩] : List (View.Piece (Elt F) S512x1024 .bf16)), y ∈ pc.1.set :=
  View.cover_of_tiled ([⟨r0_x, p0⟩] : List (View.Piece (Elt F) S512x1024 .bf16)) S512x1024.size (by rfl) y
theorem cover0_5 (p0 : Vec F S1x64x64 .f32) (y : S1x64x64.Idx) :
    ∃ pc ∈ ([⟨r0_g, p0⟩] : List (View.Piece (Elt F) S1x64x64 .f32)), y ∈ pc.1.set :=
  View.cover_of_tiled ([⟨r0_g, p0⟩] : List (View.Piece (Elt F) S1x64x64 .f32)) S1x64x64.size (by rfl) y
theorem cover0_6 (p0 : Vec F S1x64x1 .f32) (y : S1x64x1.Idx) :
    ∃ pc ∈ ([⟨r0_v, p0⟩] : List (View.Piece (Elt F) S1x64x1 .f32)), y ∈ pc.1.set :=
  View.cover_of_tiled ([⟨r0_v, p0⟩] : List (View.Piece (Elt F) S1x64x1 .f32)) S1x64x1.size (by rfl) y

/-! ## The body's triple -/

set_option maxHeartbeats 4000000 in
/-- The kernel body on whole staging memrefs, the four inputs' at read contents `xW` and the three outputs' at anything
    (the body loads each output buffer once and drops the value), runs to the continuation holding the inputs' as they
    were and each output's at `out0_W` of the inputs'. -/
theorem sound_kernel0 (c : Dev nD) (E : Set ℕ) (i : grid0.Coords) (arg1 : Memref sig .tc .vmem S512x1024 .f32) (harg1 : arg1.IsWhole) (arg2 : Memref sig .tc .vmem S512x9 .f32) (harg2 : arg2.IsWhole) (arg3 : Memref sig .tc .vmem S512x1 .f32) (harg3 : arg3.IsWhole) (arg4 : Memref sig .tc .vmem S9x1024 .f32) (harg4 : arg4.IsWhole) (arg5 : Memref sig .tc .vmem S512x1024 .bf16) (harg5 : arg5.IsWhole) (arg6 : Memref sig .tc .vmem S1x64x64 .f32) (harg6 : arg6.IsWhole) (arg7 : Memref sig .tc .vmem S1x64x1 .f32) (harg7 : arg7.IsWhole)
    (x0 : Vec F S512x1024 .f32) (x1 : Vec F S512x9 .f32) (x2 : Vec F S512x1 .f32) (x3 : Vec F S9x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1 x2 x3) ∗ owns (c : Thread nD τ) arg6 fullShare (out0_5 x0 x1 x2 x3) ∗ owns (c : Thread nD τ) arg7 fullShare (out0_6 x0 x1 x2 x3)) -∗ K ⟨⟩))
      ⊢ wp frame (wpE (defs₀ (F := F)) Variants.none c none) E (cc0_body i arg1 harg1 arg2 harg2 arg3 harg3 arg4 harg4 arg5 harg5 arg6 harg6 arg7 harg7) K := by
  simp only [cc0_body_eq_skeleton]; unfold cc0_body_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_4 _)
  isplitl [H6]
  · iexists _; isplitr
    swap; · iexact H6
    ipureintro
    exact View.read_writes_eq_canon _ _ _ (cover0_5 _)
  iexists _; isplitr
  swap; · iexact H7
  ipureintro
  exact View.read_writes_eq_canon _ _ _ (cover0_6 _)

/-! ## The pipeline's proof data -/

/-- The proof data of pipeline 0 on core `c`: the arrays as the region finds them (`V`); after the body at point `t`
    each input's buffer at its block and each output's at `out0_W` of the four input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.K1Body.lean ====
/- REGION 1 of the program (pipeline 1, the kernel function `cc1_body`): the 1x1 convolution with the folded
   batch-normalisation scale, plus the shift. Stated at a PARAMETER `V`, the TensorCore's buffer contents when the
   region is entered, and generic in the float model `F`.

   The grid has 16 points. Window 0 is the bf16 array [8192, 1024] of the depthwise stage, in blocks of 512 rows (one
   per point); window 1 is the folded weight bf16 [64, 64] and window 2 the shift f32 [64, 1], both whole at every
   point; window 3 is the output f32 [8192, 1024] in blocks of 512 rows.

   The body reads the weight W and the shift h whole, and for each of the eight 64-row slabs X_b (b = 0..7) of the
   input block stores W · X_b + h (h broadcast along the 1024 columns) to the same rows of the output block. The slab's
   output rows are loaded once before they are stored; nothing reads that value. The eight stores tile the output
   block, so what the body leaves there is a function of the three input blocks alone (`out1_3`). -/
import proofs.«151441_g2000606144476369_pallasbulk_1044_2_alg».proof.Proof.Gen.KernelIdeal.Launch
import proofs.«151441_g2000606144476369_pallasbulk_1044_2_alg».proof.Proof.Gen.KernelIdeal.Skeleton
import proofs.«151441_g2000606144476369_pallasbulk_1044_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate of the
-- long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof data
    whose array is `V`'s (`hA`) and whose body leaves the block in place (`hafter`): where the pipeline does not
    fetch, the block index has not moved, and the buffer still holds the block. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof data
    whose array is `V`'s (`hA`) and whose body leaves the block in place (`hafter`): where the pipeline does not
    fetch, the block index has not moved, and the buffer still holds the block. The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof data
    whose array is `V`'s (`hA`) and whose body leaves the block in place (`hafter`): where the pipeline does not
    fetch, the block index has not moved, and the buffer still holds the block. The window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The weight, whole. -/
abbrev r1_w : Rect S64x64 := Rect.unit (s := S64x64) ![0, 0] S64x64.size inb_S64x64_S64x64_0_0
/-- The shift, whole. -/
abbrev r1_h : Rect S64x1 := Rect.unit (s := S64x1) ![0, 0] S64x1.size inb_S64x1_S64x1_0_0
/-- Slab `b` of a 512-row block: rows `64 b .. 64 b + 63`, all 1024 columns. -/
abbrev r1_s0 : Rect S512x1024 := Rect.unit (s := S512x1024) ![0, 0] S64x1024.size inb_S512x1024_S64x1024_0_0
abbrev r1_s1 : Rect S512x1024 := Rect.unit (s := S512x1024) ![64, 0] S64x1024.size inb_S512x1024_S64x1024_64_0
abbrev r1_s2 : Rect S512x1024 := Rect.unit (s := S512x1024) ![128, 0] S64x1024.size inb_S512x1024_S64x1024_128_0
abbrev r1_s3 : Rect S512x1024 := Rect.unit (s := S512x1024) ![192, 0] S64x1024.size inb_S512x1024_S64x1024_192_0
abbrev r1_s4 : Rect S512x1024 := Rect.unit (s := S512x1024) ![256, 0] S64x1024.size inb_S512x1024_S64x1024_256_0
abbrev r1_s5 : Rect S512x1024 := Rect.unit (s := S512x1024) ![320, 0] S64x1024.size inb_S512x1024_S64x1024_320_0
abbrev r1_s6 : Rect S512x1024 := Rect.unit (s := S512x1024) ![384, 0] S64x1024.size inb_S512x1024_S64x1024_384_0
abbrev r1_s7 : Rect S512x1024 := Rect.unit (s := S512x1024) ![448, 0] S64x1024.size inb_S512x1024_S64x1024_448_0

/-! ## What the body leaves in the output window's buffer -/

/-- Window 3's staging buffer after the body, from the three input blocks `x0` (the bf16 block), `x1` (the weight)
    and `x2` (the shift): its 8 stores as pieces, LAST FIRST; slab `b` holds the payload of the slab's store, a
    function of the weight, the shift and rows `64 b .. 64 b + 63` of `x0`. -/
def out1_3 (x0 : Vec F S512x1024 .bf16) (x1 : Vec F S64x64 .bf16) (x2 : Vec F S64x1 .f32) : Vec F S512x1024 .f32 :=
  View.canon [⟨r1_s7, k1_pay4 (k1_pay5 (View.ld x1 r1_w)) (k1_pay6 (View.ld x2 r1_h)) (View.ld x0 r1_s7)⟩,
    ⟨r1_s6, k1_pay3 (k1_pay5 (View.ld x1 r1_w)) (k1_pay6 (View.ld x2 r1_h)) (View.ld x0 r1_s6)⟩,
    ⟨r1_s5, k1_pay2 (k1_pay5 (View.ld x1 r1_w)) (k1_pay6 (View.ld x2 r1_h)) (View.ld x0 r1_s5)⟩,
    ⟨r1_s4, k1_pay1 (k1_pay5 (View.ld x1 r1_w)) (k1_pay6 (View.ld x2 r1_h)) (View.ld x0 r1_s4)⟩,
    ⟨r1_s3, k1_pay10 (View.ld x1 r1_w) (View.ld x2 r1_h) (View.ld x0 r1_s3)⟩,
    ⟨r1_s2, k1_pay9 (View.ld x1 r1_w) (View.ld x2 r1_h) (View.ld x0 r1_s2)⟩,
    ⟨r1_s1, k1_pay8 (View.ld x1 r1_w) (View.ld x2 r1_h) (View.ld x0 r1_s1)⟩,
    ⟨r1_s0, k1_pay7 (View.ld x1 r1_w) (View.ld x2 r1_h) (View.ld x0 r1_s0)⟩]

/-- The eight slabs tile the 512x1024 buffer (checked by evaluation), so the stores cover it. -/
theorem cover1_3 (p7 p6 p5 p4 p3 p2 p1 p0 : Vec F S64x1024 .f32) (y : S512x1024.Idx) :
    ∃ pc ∈ ([⟨r1_s7, p7⟩, ⟨r1_s6, p6⟩, ⟨r1_s5, p5⟩, ⟨r1_s4, p4⟩, ⟨r1_s3, p3⟩, ⟨r1_s2, p2⟩, ⟨r1_s1, p1⟩, ⟨r1_s0, p0⟩] : List (View.Piece (Elt F) S512x1024 .f32)), y ∈ pc.1.set :=
  View.cover_of_tiled [⟨r1_s7, p7⟩, ⟨r1_s6, p6⟩, ⟨r1_s5, p5⟩, ⟨r1_s4, p4⟩, ⟨r1_s3, p3⟩, ⟨r1_s2, p2⟩, ⟨r1_s1, p1⟩, ⟨r1_s0, p0⟩] S64x1024.size (by rfl) y

/-! ## The body's triple -/

set_option maxHeartbeats 4000000 in
/-- The kernel body on whole staging memrefs, the inputs' at read contents `x0 x1 x2` and the output's at anything,
    runs to the continuation holding the inputs' as they were and the output's at `out1_3` of the inputs': the
    printed functions are their skeletons, run operation by operation through the part call; the eight stores
    cover the output buffer, so its contents read as the canonical contents of the store list. -/
theorem sound_kernel1 (c : Dev nD) (E : Set ℕ) (i : grid1.Coords) (arg1 : Memref sig .tc .vmem S512x1024 .bf16) (harg1 : arg1.IsWhole) (arg2 : Memref sig .tc .vmem S64x64 .bf16) (harg2 : arg2.IsWhole)
    (arg3 : Memref sig .tc .vmem S64x1 .f32) (harg3 : arg3.IsWhole) (arg4 : Memref sig .tc .vmem S512x1024 .f32) (harg4 : arg4.IsWhole)
    (x0 : Vec F S512x1024 .bf16) (x1 : Vec F S64x64 .bf16) (x2 : Vec F S64x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_body i arg1 harg1 arg2 harg2 arg3 harg3 arg4 harg4) K := by
  simp only [cc1_body_eq_skeleton]; unfold cc1_body_skel
  simp only [k1_part1_eq_skeleton]; unfold k1_part1_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_3 _ _ _ _ _ _ _ _)

/-! ## The pipeline's proof data -/

/-- The proof data of pipeline 1 on core `c`: the arrays as the region finds them (`V`); after the body at point
    `t` each input's buffer at its block and the output's at `out1_3` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KRun.lean ====
/- THE RUN of the program: the entry function is five segments in order, a stretch of host operations (the reshapes,
   the tiled weights, the nine border masks), region 0 (the rectified depthwise central-difference stage with its
   per-point Gram matrix and channel sums), a second stretch (the batch statistics folded into the 1x1 weight and the
   shift), region 1 (the 1x1 convolution with the folded scale and shift), and one last reshape to the result.

   The buffer contents at each boundary are a fold from the launch memory: a host stretch rewrites the buffers its
   operations write, a region leaves its windows' arrays at what its write-backs fold to and every other buffer as it
   found it. None of the five arguments is written by any operation or is an array of either region, so the fold at an
   argument walks back to the launch memory; the result buffer ends at the fold's last contents. Everything is stated
   for any float model F. -/
import proofs.«151441_g2000606144476369_pallasbulk_1044_2_alg».proof.Proof.K0Body
import proofs.«151441_g2000606144476369_pallasbulk_1044_2_alg».proof.Proof.K1Body

-- the long host stretch's list of operations is walked once per operation
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: the entry function's five segments from the launch to the return

## The buffer contents at each segment boundary: a fold through the entry function -/

/-- Core c's buffers at launch. -/
abbrev W0 : Dev nD → Valuation τ sig (Elt F) := fun c b => (s₀ m ρ).mem ((c : Dev nD), b)
/-- After the first host stretch: what region 0 is entered from. -/
abbrev W1 : Dev nD → Valuation τ sig (Elt F) := fun c => StableHlo.after hostOps0 (W0 m ρ c)
/-- The same, read at the TensorCore's references: the contents region 0's proof data take. -/
abbrev V1 : (c : Dev nD) → (b : Ref sig .tc) → Buf (Elt F) ((c : Thread nD τ).loc b) := fun c b => W1 m ρ c b
/-- At region 0's exit: each of its seven arrays at what the pipeline leaves there (an input as entered, an output at its
    write-backs folded over all sixteen points), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Region 0's exit contents at the TensorCore's references. -/
abbrev V2 : (c : Dev nD) → (b : Ref sig .tc) → Buf (Elt F) ((c : Thread nD τ).loc b) := fun c b => W2 m ρ c b
/-- At region 0's exit each array holds what the pipeline leaves, -/
theorem hF0 (c : Dev nD) (w : Fin cfg0.W) : (dat0 (V1 m ρ) c).arrAt w cfg0.N = V2 m ρ c (Pipeline.arrRef spec0 w) :=
  (W2_arr m ρ c w).symm
/-- and every buffer that is no array of region 0 what it held at entry. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what region 1 is entered from. -/
abbrev W3 : Dev nD → Valuation τ sig (Elt F) := fun c => StableHlo.after hostOps1 (W2 m ρ c)
/-- The same at the TensorCore's references: the contents region 1's proof data take. -/
abbrev V3 : (c : Dev nD) → (b : Ref sig .tc) → Buf (Elt F) ((c : Thread nD τ).loc b) := fun c b => W3 m ρ c b
/-- At region 1's exit: each of its four arrays at what the pipeline leaves there, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- Region 1's exit contents at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last reshape: the contents the entry function returns at. -/
abbrev W5 : Dev nD → Valuation τ sig (Elt F) := fun c => StableHlo.after hostOps2 (W4 m ρ c)

/-! ### The arguments end as launched

Every host operation writes exactly its result buffer, and no result buffer is one of the five arguments; no argument is
an array of either region. So the fold, read at an argument, walks back boundary by boundary to the launch memory. -/

set_option maxHeartbeats 4000000 in
/-- No operation of the first host stretch writes one of the five arguments. -/
theorem hostOps0_args : (hostOps0 : List (HloOp τ sig (Elt F))).Forall fun op =>
    (Proc.devRef .tc main_arg0 : DevRef τ sig) ∉ op.writes ∧ (Proc.devRef .tc main_arg1 : DevRef τ sig) ∉ op.writes
      ∧ (Proc.devRef .tc main_arg2 : DevRef τ sig) ∉ op.writes ∧ (Proc.devRef .tc main_arg3 : DevRef τ sig) ∉ op.writes
      ∧ (Proc.devRef .tc main_arg4 : DevRef τ sig) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)

/-- No operation of the second host stretch writes one of the five arguments. -/
theorem hostOps1_args : (hostOps1 : List (HloOp τ sig (Elt F))).Forall fun op =>
    (Proc.devRef .tc main_arg0 : DevRef τ sig) ∉ op.writes ∧ (Proc.devRef .tc main_arg1 : DevRef τ sig) ∉ op.writes
      ∧ (Proc.devRef .tc main_arg2 : DevRef τ sig) ∉ op.writes ∧ (Proc.devRef .tc main_arg3 : DevRef τ sig) ∉ op.writes
      ∧ (Proc.devRef .tc main_arg4 : DevRef τ sig) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)

/-- The last reshape writes none of the five arguments. -/
theorem hostOps2_args : (hostOps2 : List (HloOp τ sig (Elt F))).Forall fun op =>
    (Proc.devRef .tc main_arg0 : DevRef τ sig) ∉ op.writes ∧ (Proc.devRef .tc main_arg1 : DevRef τ sig) ∉ op.writes
      ∧ (Proc.devRef .tc main_arg2 : DevRef τ sig) ∉ op.writes ∧ (Proc.devRef .tc main_arg3 : DevRef τ sig) ∉ op.writes
      ∧ (Proc.devRef .tc main_arg4 : DevRef τ sig) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _
          fun op h => ((List.forall_iff_forall_mem.mp (hostOps2_args (F := F))) op h).1
    _ = W3 m ρ c (Proc.devRef .tc main_arg0) := W4_of_ne m ρ c main_arg0 (by decide)
    _ = W2 m ρ c (Proc.devRef .tc main_arg0) := StableHlo.after_of_forall_not_mem (b := Proc.devRef .tc main_arg0) _ _
          fun op h => ((List.forall_iff_forall_mem.mp (hostOps1_args (F := F))) op h).1
    _ = W1 m ρ c (Proc.devRef .tc main_arg0) := W2_of_ne m ρ c main_arg0 (by decide)
    _ = W0 m ρ c (Proc.devRef .tc main_arg0) := StableHlo.after_of_forall_not_mem (b := Proc.devRef .tc main_arg0) _ _
          fun op h => ((List.forall_iff_forall_mem.mp (hostOps0_args (F := F))) op h).1
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _
          fun op h => ((List.forall_iff_forall_mem.mp (hostOps2_args (F := F))) op h).2.1
    _ = W3 m ρ c (Proc.devRef .tc main_arg1) := W4_of_ne m ρ c main_arg1 (by decide)
    _ = W2 m ρ c (Proc.devRef .tc main_arg1) := StableHlo.after_of_forall_not_mem (b := Proc.devRef .tc main_arg1) _ _
          fun op h => ((List.forall_iff_forall_mem.mp (hostOps1_args (F := F))) op h).2.1
    _ = W1 m ρ c (Proc.devRef .tc main_arg1) := W2_of_ne m ρ c main_arg1 (by decide)
    _ = W0 m ρ c (Proc.devRef .tc main_arg1) := StableHlo.after_of_forall_not_mem (b := Proc.devRef .tc main_arg1) _ _
          fun op h => ((List.forall_iff_forall_mem.mp (hostOps0_args (F := F))) op h).2.1
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _
          fun op h => ((List.forall_iff_forall_mem.mp (hostOps2_args (F := F))) op h).2.2.1
    _ = W3 m ρ c (Proc.devRef .tc main_arg2) := W4_of_ne m ρ c main_arg2 (by decide)
    _ = W2 m ρ c (Proc.devRef .tc main_arg2) := StableHlo.after_of_forall_not_mem (b := Proc.devRef .tc main_arg2) _ _
          fun op h => ((List.forall_iff_forall_mem.mp (hostOps1_args (F := F))) op h).2.2.1
    _ = W1 m ρ c (Proc.devRef .tc main_arg2) := W2_of_ne m ρ c main_arg2 (by decide)
    _ = W0 m ρ c (Proc.devRef .tc main_arg2) := StableHlo.after_of_forall_not_mem (b := Proc.devRef .tc main_arg2) _ _
          fun op h => ((List.forall_iff_forall_mem.mp (hostOps0_args (F := F))) op h).2.2.1
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _
          fun op h => ((List.forall_iff_forall_mem.mp (hostOps2_args (F := F))) op h).2.2.2.1
    _ = W3 m ρ c (Proc.devRef .tc main_arg3) := W4_of_ne m ρ c main_arg3 (by decide)
    _ = W2 m ρ c (Proc.devRef .tc main_arg3) := StableHlo.after_of_forall_not_mem (b := Proc.devRef .tc main_arg3) _ _
          fun op h => ((List.forall_iff_forall_mem.mp (hostOps1_args (F := F))) op h).2.2.2.1
    _ = W1 m ρ c (Proc.devRef .tc main_arg3) := W2_of_ne m ρ c main_arg3 (by decide)
    _ = W0 m ρ c (Proc.devRef .tc main_arg3) := StableHlo.after_of_forall_not_mem (b := Proc.devRef .tc main_arg3) _ _
          fun op h => ((List.forall_iff_forall_mem.mp (hostOps0_args (F := F))) op h).2.2.2.1
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _
          fun op h => ((List.forall_iff_forall_mem.mp (hostOps2_args (F := F))) op h).2.2.2.2
    _ = W3 m ρ c (Proc.devRef .tc main_arg4) := W4_of_ne m ρ c main_arg4 (by decide)
    _ = W2 m ρ c (Proc.devRef .tc main_arg4) := StableHlo.after_of_forall_not_mem (b := Proc.devRef .tc main_arg4) _ _
          fun op h => ((List.forall_iff_forall_mem.mp (hostOps1_args (F := F))) op h).2.2.2.2
    _ = W1 m ρ c (Proc.devRef .tc main_arg4) := W2_of_ne m ρ c main_arg4 (by decide)
    _ = W0 m ρ c (Proc.devRef .tc main_arg4) := StableHlo.after_of_forall_not_mem (b := Proc.devRef .tc main_arg4) _ _
          fun op h => ((List.forall_iff_forall_mem.mp (hostOps0_args (F := F))) op h).2.2.2.2
    _ = m ((c : Thread nD τ).loc main_arg4) := rfl

/-! ## The proof data family and the thread state -/

/-- The prefetched tables' admissible contents: no pipeline has a table. -/
abbrev adm : (p : Fin 2) → (pcfgs (F := F) p).Adm := fun p => (cfgs p).toPCfg_adm
/-- Both pipelines' proof data, each at its region's entry contents: a literal match on the pipeline's index, so that the
    pinned configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the core owing
    nothing. -/
abbrev R (c : Dev nD) : sProp 𝕄 := iprop((∃ r, prngReg c r) ∗ ∃ W, owes (c : Thread nD τ) (0 : CellTallies nD τ sig Unit) W)
/-- A host stretch as a segment: from the unscoped buffers at contents W it runs to the same buffers at the contents the
    operations leave, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
/-- No operation of the first host stretch allocates a buffer. -/
theorem hostOps0_fresh : (hostOps0 : List (HloOp τ sig (Elt F))).Forall fun op => op.fresh = ∅ := by
  simp only [List.Forall]; repeat' constructor
/-- No operation of the second host stretch allocates a buffer. -/
theorem hostOps1_fresh : (hostOps1 : List (HloOp τ sig (Elt F))).Forall fun op => op.fresh = ∅ := by
  simp only [List.Forall]; repeat' constructor
/-- The last reshape allocates no buffer. -/
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owing part: every unscoped buffer at the returned contents, the generator register
    at some state. -/
abbrev Tₙ (c : Dev nD) : sProp 𝕄 := iprop(StableHlo.held (c : Thread nD τ) (Pipeline.ucRefs τ sig) (W5 m ρ c) ∗ ∃ r, prngReg c r)

/-! ## The regions as segments -/

-- unifying a library lemma stated over the pinned configuration with this program's needs plain definitions unfolded
-- inside a metavariable's type
set_option backward.isDefEq.respectTransparency.types false in
/-- Region 0 over the thread state: entered from every unscoped buffer at the contents before it, left at those after
    it. Its arrays are split out of the unscoped buffers at entry and put back at their exit contents; the generator
    register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with this program's needs plain definitions unfolded
-- inside a metavariable's type
set_option backward.isDefEq.respectTransparency.types false in
/-- Region 1 over the thread state: entered from every unscoped buffer at the contents before it, left at those after
    it. Its arrays are split out of the unscoped buffers at entry and put back at their exit contents; the generator
    register goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the launch -/

/-- The five segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- The entry function is the run of the segments: it is the chain of its five items, and the segments' run is the chain
    of theirs. -/
theorem main_run (c : Dev nD) : main (F := F) c = Pipeline.Seg.run (segs m ρ) := (main_chain c).trans (by chain_rfl)

-- the launch theorem's implicit arguments are found by unifying its conclusion with this one, which takes unfolding plain
-- definitions inside a metavariable's type
set_option backward.isDefEq.respectTransparency.types false in
/-- At the compiled mesh, from any memory with zero counters, every weakly fair execution of the entry function on the
    TensorCores terminates, nothing faulting; in every final state the result buffer holds the fold's last contents and the
    five arguments what they held at launch. The last thread state is read against the final state buffer by buffer; each
    argument then walks back through the fold. -/
theorem run : θ_run defs (onTc (τ := τ) (main (F := F))) ⟨m, fun _ => 0, ρ⟩ (fun r => ∀ c : Dev nD,
      r.2.mem ((c.tc : Thread nD τ).loc main_v253) = W5 m ρ c (Proc.devRef .tc main_v253)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c)
            ∗ (∃ r, prngReg c r) ∗ ∃ W, owes (c : Thread nD τ) (0 : CellTallies nD τ sig Unit) W)
          ⊢ iprop((StableHlo.held (c : Thread nD τ) (Pipeline.ucRefs τ sig) (W5 m ρ c) ∗ ∃ r, prngReg c r)
            ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v253 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Hand

end
-- ==== Proof.R0Body.lean ====
/- REGION 0 of the reference program (pipeline 0, kernel function `cc0__kernel_body`), at the contents `V` the region is
   entered with: each window's block at a grid point, what the body leaves in each output window's buffer as a function
   of the input blocks, the two resident accumulators point by point, the pipeline's proof data and its body obligation.

   The grid has 128 points, one per image n. At a point the body reads the image's block x (1x64x1024), the nine tap
   weights of each channel (64x9), the central-difference weight (64x1), the nine border masks (9x1024) and the 1x1
   weight (64x64). It forms the central-difference convolution block (64x1024), applies the 1x1 convolution to it as 64
   broadcast multiply-adds, one per input channel (a column of the 1x1 weight times a row of the block), stores the result
   y as window 5's block, and adds the row sums of y and of y*y to two 64x1 accumulators (windows 6 and 7), which the
   first point resets to zero beforehand and which are written back after the last point only. -/
import proofs.«151441_g2000606144476369_pallasbulk_1044_2_alg».proof.Proof.Gen.ReferenceIdeal.Launch
import proofs.«151441_g2000606144476369_pallasbulk_1044_2_alg».proof.Proof.Gen.ReferenceIdeal.Skeleton
import proofs.«151441_g2000606144476369_pallasbulk_1044_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Mathlib.Tactic.FinCases

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole x block (1x64x1024), also window 5's whole buffer. -/
abbrev rX : Rect S1x64x1024 := Rect.unit (s := S1x64x1024) ![0, 0, 0] S1x64x1024.size inb_S1x64x1024_S1x64x1024_0_0_0
/-- The whole of a 64x1 buffer: the central-difference weight, and each accumulator. -/
abbrev rK : Rect S64x1 := Rect.unit (s := S64x1) ![0, 0] S64x1.size inb_S64x1_S64x1_0_0
/-- Row k of the border masks (9x1024): the mask of tap k (the centre tap, k = 4, has none). -/
abbrev rM0 : Rect S9x1024 := Rect.unit (s := S9x1024) ![0, 0] S1x1024.size inb_S9x1024_S1x1024_0_0
abbrev rM1 : Rect S9x1024 := Rect.unit (s := S9x1024) ![1, 0] S1x1024.size inb_S9x1024_S1x1024_1_0
abbrev rM2 : Rect S9x1024 := Rect.unit (s := S9x1024) ![2, 0] S1x1024.size inb_S9x1024_S1x1024_2_0
abbrev rM3 : Rect S9x1024 := Rect.unit (s := S9x1024) ![3, 0] S1x1024.size inb_S9x1024_S1x1024_3_0
abbrev rM5 : Rect S9x1024 := Rect.unit (s := S9x1024) ![5, 0] S1x1024.size inb_S9x1024_S1x1024_5_0
abbrev rM6 : Rect S9x1024 := Rect.unit (s := S9x1024) ![6, 0] S1x1024.size inb_S9x1024_S1x1024_6_0
abbrev rM7 : Rect S9x1024 := Rect.unit (s := S9x1024) ![7, 0] S1x1024.size inb_S9x1024_S1x1024_7_0
abbrev rM8 : Rect S9x1024 := Rect.unit (s := S9x1024) ![8, 0] S1x1024.size inb_S9x1024_S1x1024_8_0
/-- Column k of the tap weights (64x9): every channel's weight of tap k. -/
abbrev rT0 : Rect S64x9 := Rect.unit (s := S64x9) ![0, 0] S64x1.size inb_S64x9_S64x1_0_0
abbrev rT1 : Rect S64x9 := Rect.unit (s := S64x9) ![0, 1] S64x1.size inb_S64x9_S64x1_0_1
abbrev rT2 : Rect S64x9 := Rect.unit (s := S64x9) ![0, 2] S64x1.size inb_S64x9_S64x1_0_2
abbrev rT3 : Rect S64x9 := Rect.unit (s := S64x9) ![0, 3] S64x1.size inb_S64x9_S64x1_0_3
abbrev rT4 : Rect S64x9 := Rect.unit (s := S64x9) ![0, 4] S64x1.size inb_S64x9_S64x1_0_4
abbrev rT5 : Rect S64x9 := Rect.unit (s := S64x9) ![0, 5] S64x1.size inb_S64x9_S64x1_0_5
abbrev rT6 : Rect S64x9 := Rect.unit (s := S64x9) ![0, 6] S64x1.size inb_S64x9_S64x1_0_6
abbrev rT7 : Rect S64x9 := Rect.unit (s := S64x9) ![0, 7] S64x1.size inb_S64x9_S64x1_0_7
abbrev rT8 : Rect S64x9 := Rect.unit (s := S64x9) ![0, 8] S64x1.size inb_S64x9_S64x1_0_8
/-- Column k of the 1x1 weight (64x64): every output channel's weight of input channel k. -/
abbrev rW0 : Rect S64x64 := Rect.unit (s := S64x64) ![0, 0] S64x1.size inb_S64x64_S64x1_0_0
abbrev rW1 : Rect S64x64 := Rect.unit (s := S64x64) ![0, 1] S64x1.size inb_S64x64_S64x1_0_1
abbrev rW2 : Rect S64x64 := Rect.unit (s := S64x64) ![0, 2] S64x1.size inb_S64x64_S64x1_0_2
abbrev rW3 : Rect S64x64 := Rect.unit (s := S64x64) ![0, 3] S64x1.size inb_S64x64_S64x1_0_3
abbrev rW4 : Rect S64x64 := Rect.unit (s := S64x64) ![0, 4] S64x1.size inb_S64x64_S64x1_0_4
abbrev rW5 : Rect S64x64 := Rect.unit (s := S64x64) ![0, 5] S64x1.size inb_S64x64_S64x1_0_5
abbrev rW6 : Rect S64x64 := Rect.unit (s := S64x64) ![0, 6] S64x1.size inb_S64x64_S64x1_0_6
abbrev rW7 : Rect S64x64 := Rect.unit (s := S64x64) ![0, 7] S64x1.size inb_S64x64_S64x1_0_7
abbrev rW8 : Rect S64x64 := Rect.unit (s := S64x64) ![0, 8] S64x1.size inb_S64x64_S64x1_0_8
abbrev rW9 : Rect S64x64 := Rect.unit (s := S64x64) ![0, 9] S64x1.size inb_S64x64_S64x1_0_9
abbrev rW10 : Rect S64x64 := Rect.unit (s := S64x64) ![0, 10] S64x1.size inb_S64x64_S64x1_0_10
abbrev rW11 : Rect S64x64 := Rect.unit (s := S64x64) ![0, 11] S64x1.size inb_S64x64_S64x1_0_11
abbrev rW12 : Rect S64x64 := Rect.unit (s := S64x64) ![0, 12] S64x1.size inb_S64x64_S64x1_0_12
abbrev rW13 : Rect S64x64 := Rect.unit (s := S64x64) ![0, 13] S64x1.size inb_S64x64_S64x1_0_13
abbrev rW14 : Rect S64x64 := Rect.unit (s := S64x64) ![0, 14] S64x1.size inb_S64x64_S64x1_0_14
abbrev rW15 : Rect S64x64 := Rect.unit (s := S64x64) ![0, 15] S64x1.size inb_S64x64_S64x1_0_15
abbrev rW16 : Rect S64x64 := Rect.unit (s := S64x64) ![0, 16] S64x1.size inb_S64x64_S64x1_0_16
abbrev rW17 : Rect S64x64 := Rect.unit (s := S64x64) ![0, 17] S64x1.size inb_S64x64_S64x1_0_17
abbrev rW18 : Rect S64x64 := Rect.unit (s := S64x64) ![0, 18] S64x1.size inb_S64x64_S64x1_0_18
abbrev rW19 : Rect S64x64 := Rect.unit (s := S64x64) ![0, 19] S64x1.size inb_S64x64_S64x1_0_19
abbrev rW20 : Rect S64x64 := Rect.unit (s := S64x64) ![0, 20] S64x1.size inb_S64x64_S64x1_0_20
abbrev rW21 : Rect S64x64 := Rect.unit (s := S64x64) ![0, 21] S64x1.size inb_S64x64_S64x1_0_21
abbrev rW22 : Rect S64x64 := Rect.unit (s := S64x64) ![0, 22] S64x1.size inb_S64x64_S64x1_0_22
abbrev rW23 : Rect S64x64 := Rect.unit (s := S64x64) ![0, 23] S64x1.size inb_S64x64_S64x1_0_23
abbrev rW24 : Rect S64x64 := Rect.unit (s := S64x64) ![0, 24] S64x1.size inb_S64x64_S64x1_0_24
abbrev rW25 : Rect S64x64 := Rect.unit (s := S64x64) ![0, 25] S64x1.size inb_S64x64_S64x1_0_25
abbrev rW26 : Rect S64x64 := Rect.unit (s := S64x64) ![0, 26] S64x1.size inb_S64x64_S64x1_0_26
abbrev rW27 : Rect S64x64 := Rect.unit (s := S64x64) ![0, 27] S64x1.size inb_S64x64_S64x1_0_27
abbrev rW28 : Rect S64x64 := Rect.unit (s := S64x64) ![0, 28] S64x1.size inb_S64x64_S64x1_0_28
abbrev rW29 : Rect S64x64 := Rect.unit (s := S64x64) ![0, 29] S64x1.size inb_S64x64_S64x1_0_29
abbrev rW30 : Rect S64x64 := Rect.unit (s := S64x64) ![0, 30] S64x1.size inb_S64x64_S64x1_0_30
abbrev rW31 : Rect S64x64 := Rect.unit (s := S64x64) ![0, 31] S64x1.size inb_S64x64_S64x1_0_31
abbrev rW32 : Rect S64x64 := Rect.unit (s := S64x64) ![0, 32] S64x1.size inb_S64x64_S64x1_0_32
abbrev rW33 : Rect S64x64 := Rect.unit (s := S64x64) ![0, 33] S64x1.size inb_S64x64_S64x1_0_33
abbrev rW34 : Rect S64x64 := Rect.unit (s := S64x64) ![0, 34] S64x1.size inb_S64x64_S64x1_0_34
abbrev rW35 : Rect S64x64 := Rect.unit (s := S64x64) ![0, 35] S64x1.size inb_S64x64_S64x1_0_35
abbrev rW36 : Rect S64x64 := Rect.unit (s := S64x64) ![0, 36] S64x1.size inb_S64x64_S64x1_0_36
abbrev rW37 : Rect S64x64 := Rect.unit (s := S64x64) ![0, 37] S64x1.size inb_S64x64_S64x1_0_37
abbrev rW38 : Rect S64x64 := Rect.unit (s := S64x64) ![0, 38] S64x1.size inb_S64x64_S64x1_0_38
abbrev rW39 : Rect S64x64 := Rect.unit (s := S64x64) ![0, 39] S64x1.size inb_S64x64_S64x1_0_39
abbrev rW40 : Rect S64x64 := Rect.unit (s := S64x64) ![0, 40] S64x1.size inb_S64x64_S64x1_0_40
abbrev rW41 : Rect S64x64 := Rect.unit (s := S64x64) ![0, 41] S64x1.size inb_S64x64_S64x1_0_41
abbrev rW42 : Rect S64x64 := Rect.unit (s := S64x64) ![0, 42] S64x1.size inb_S64x64_S64x1_0_42
abbrev rW43 : Rect S64x64 := Rect.unit (s := S64x64) ![0, 43] S64x1.size inb_S64x64_S64x1_0_43
abbrev rW44 : Rect S64x64 := Rect.unit (s := S64x64) ![0, 44] S64x1.size inb_S64x64_S64x1_0_44
abbrev rW45 : Rect S64x64 := Rect.unit (s := S64x64) ![0, 45] S64x1.size inb_S64x64_S64x1_0_45
abbrev rW46 : Rect S64x64 := Rect.unit (s := S64x64) ![0, 46] S64x1.size inb_S64x64_S64x1_0_46
abbrev rW47 : Rect S64x64 := Rect.unit (s := S64x64) ![0, 47] S64x1.size inb_S64x64_S64x1_0_47
abbrev rW48 : Rect S64x64 := Rect.unit (s := S64x64) ![0, 48] S64x1.size inb_S64x64_S64x1_0_48
abbrev rW49 : Rect S64x64 := Rect.unit (s := S64x64) ![0, 49] S64x1.size inb_S64x64_S64x1_0_49
abbrev rW50 : Rect S64x64 := Rect.unit (s := S64x64) ![0, 50] S64x1.size inb_S64x64_S64x1_0_50
abbrev rW51 : Rect S64x64 := Rect.unit (s := S64x64) ![0, 51] S64x1.size inb_S64x64_S64x1_0_51
abbrev rW52 : Rect S64x64 := Rect.unit (s := S64x64) ![0, 52] S64x1.size inb_S64x64_S64x1_0_52
abbrev rW53 : Rect S64x64 := Rect.unit (s := S64x64) ![0, 53] S64x1.size inb_S64x64_S64x1_0_53
abbrev rW54 : Rect S64x64 := Rect.unit (s := S64x64) ![0, 54] S64x1.size inb_S64x64_S64x1_0_54
abbrev rW55 : Rect S64x64 := Rect.unit (s := S64x64) ![0, 55] S64x1.size inb_S64x64_S64x1_0_55
abbrev rW56 : Rect S64x64 := Rect.unit (s := S64x64) ![0, 56] S64x1.size inb_S64x64_S64x1_0_56
abbrev rW57 : Rect S64x64 := Rect.unit (s := S64x64) ![0, 57] S64x1.size inb_S64x64_S64x1_0_57
abbrev rW58 : Rect S64x64 := Rect.unit (s := S64x64) ![0, 58] S64x1.size inb_S64x64_S64x1_0_58
abbrev rW59 : Rect S64x64 := Rect.unit (s := S64x64) ![0, 59] S64x1.size inb_S64x64_S64x1_0_59
abbrev rW60 : Rect S64x64 := Rect.unit (s := S64x64) ![0, 60] S64x1.size inb_S64x64_S64x1_0_60
abbrev rW61 : Rect S64x64 := Rect.unit (s := S64x64) ![0, 61] S64x1.size inb_S64x64_S64x1_0_61
abbrev rW62 : Rect S64x64 := Rect.unit (s := S64x64) ![0, 62] S64x1.size inb_S64x64_S64x1_0_62
abbrev rW63 : Rect S64x64 := Rect.unit (s := S64x64) ![0, 63] S64x1.size inb_S64x64_S64x1_0_63

/-! ## The body's values, from the input windows' blocks

x0 is the x block, x1 the tap weights, x2 the central-difference weight, x3 the masks, x4 the 1x1 weight. -/

/-- The rectified block as 64x1024. -/
def p6 (x0 : Vec F S1x64x1024 .f32) : FVec F S64x1024 .f32 := k0_pay7 (View.ld x0 rX)
/-- The masked, weighted taps 0 and 1, summed. -/
def p27 (x0 : Vec F S1x64x1024 .f32) (x1 : Vec F S64x9 .f32) (x3 : Vec F S9x1024 .f32) : FVec F S64x1024 .f32 :=
  k0_pay8 (View.ld x0 rX) (View.ld x3 rM0) (View.ld x1 rT0) (View.ld x3 rM1) (View.ld x1 rT1)
/-- Tap 2's shifted, masked block, -/
def p32 (x0 : Vec F S1x64x1024 .f32) (x3 : Vec F S9x1024 .f32) : FVec F S64x1024 .f32 := k0_pay9 (View.ld x0 rX) (View.ld x3 rM2)
/-- and its weight broadcast along the rows. -/
def p35 (x1 : Vec F S64x9 .f32) : FVec F S64x1024 .f32 := k0_pay10 (View.ld x1 rT2)
/-- The sum of taps 0 to 6. -/
def p72 (x0 : Vec F S1x64x1024 .f32) (x1 : Vec F S64x9 .f32) (x3 : Vec F S9x1024 .f32) : FVec F S64x1024 .f32 :=
  k0_pay11 (p6 x0) (p27 x0 x1 x3) (p32 x0 x3) (p35 x1) (View.ld x3 rM3) (View.ld x1 rT3) (View.ld x1 rT4) (View.ld x3 rM5) (View.ld x1 rT5) (View.ld x3 rM6) (View.ld x1 rT6)
/-- Tap 7's shifted block, -/
def p73 (x0 : Vec F S1x64x1024 .f32) : FVec F S64x1024 .f32 := k0_pay12 (p6 x0)
/-- and its mask. -/
def p75 (x3 : Vec F S9x1024 .f32) : FVec F S1x1024 .f32 := k0_pay13 (View.ld x3 rM7)

/-- THE CENTRAL-DIFFERENCE CONVOLUTION BLOCK (the body's value %97): the nine masked, weighted taps of the rectified
    block, less the central-difference weight times the rectified block. -/
def cdcR0 (x0 : Vec F S1x64x1024 .f32) (x1 : Vec F S64x9 .f32) (x2 : Vec F S64x1 .f32) (x3 : Vec F S9x1024 .f32) : FVec F S64x1024 .f32 :=
  k0_pay14 (p6 x0) (p72 x0 x1 x3) (p73 x0) (p75 x3) (View.ld x1 rT7) (View.ld x3 rM8) (View.ld x1 rT8) (View.ld x2 rK)

/-- The 1x1 convolution's running sum after input channels 0 to 2 (the body's value %119; the body forms it from the
    same taps as `cdcR0`, not from the value %97). -/
def p119 (x0 : Vec F S1x64x1024 .f32) (x1 : Vec F S64x9 .f32) (x2 : Vec F S64x1 .f32) (x3 : Vec F S9x1024 .f32) (x4 : Vec F S64x64 .f32) : FVec F S64x1024 .f32 :=
  k0_pay15 (p6 x0) (p72 x0 x1 x3) (p73 x0) (p75 x3) (View.ld x1 rT7) (View.ld x3 rM8) (View.ld x1 rT8) (View.ld x2 rK) (View.ld x4 rW0) (View.ld x4 rW1) (View.ld x4 rW2)

/-- The running sum of the 1x1 convolution of a block `c`, continued from the sum `a` over input channels 0 to 2:
    after channels 3 to 8, -/
def s161 (c a : FVec F S64x1024 .f32) (x4 : Vec F S64x64 .f32) : FVec F S64x1024 .f32 := k0_pay16 c a (View.ld x4 rW3) (View.ld x4 rW4) (View.ld x4 rW5) (View.ld x4 rW6) (View.ld x4 rW7) (View.ld x4 rW8)
/-- after channels 9 to 15, -/
def s210 (c a : FVec F S64x1024 .f32) (x4 : Vec F S64x64 .f32) : FVec F S64x1024 .f32 := k0_pay19 c (s161 c a x4) (k0_pay17 c) (k0_pay18 (View.ld x4 rW9)) (View.ld x4 rW10) (View.ld x4 rW11) (View.ld x4 rW12) (View.ld x4 rW13) (View.ld x4 rW14) (View.ld x4 rW15)
/-- after channels 16 to 22, -/
def s259 (c a : FVec F S64x1024 .f32) (x4 : Vec F S64x64 .f32) : FVec F S64x1024 .f32 := k0_pay20 c (s210 c a x4) (View.ld x4 rW16) (View.ld x4 rW17) (View.ld x4 rW18) (View.ld x4 rW19) (View.ld x4 rW20) (View.ld x4 rW21) (View.ld x4 rW22)
/-- after channels 23 to 28, -/
def s301 (c a : FVec F S64x1024 .f32) (x4 : Vec F S64x64 .f32) : FVec F S64x1024 .f32 := k0_pay21 c (s259 c a x4) (View.ld x4 rW23) (View.ld x4 rW24) (View.ld x4 rW25) (View.ld x4 rW26) (View.ld x4 rW27) (View.ld x4 rW28)
/-- after channels 29 to 35, -/
def s350 (c a : FVec F S64x1024 .f32) (x4 : Vec F S64x64 .f32) : FVec F S64x1024 .f32 := k0_pay24 c (s301 c a x4) (k0_pay22 c) (k0_pay23 (View.ld x4 rW29)) (View.ld x4 rW30) (View.ld x4 rW31) (View.ld x4 rW32) (View.ld x4 rW33) (View.ld x4 rW34) (View.ld x4 rW35)
/-- after channels 36 to 42, -/
def s399 (c a : FVec F S64x1024 .f32) (x4 : Vec F S64x64 .f32) : FVec F S64x1024 .f32 := k0_pay25 c (s350 c a x4) (View.ld x4 rW36) (View.ld x4 rW37) (View.ld x4 rW38) (View.ld x4 rW39) (View.ld x4 rW40) (View.ld x4 rW41) (View.ld x4 rW42)
/-- after channels 43 to 48, -/
def s441 (c a : FVec F S64x1024 .f32) (x4 : Vec F S64x64 .f32) : FVec F S64x1024 .f32 := k0_pay26 c (s399 c a x4) (View.ld x4 rW43) (View.ld x4 rW44) (View.ld x4 rW45) (View.ld x4 rW46) (View.ld x4 rW47) (View.ld x4 rW48)
/-- after channels 49 to 55, -/
def s490 (c a : FVec F S64x1024 .f32) (x4 : Vec F S64x64 .f32) : FVec F S64x1024 .f32 := k0_pay29 c (s441 c a x4) (k0_pay27 c) (k0_pay28 (View.ld x4 rW49)) (View.ld x4 rW50) (View.ld x4 rW51) (View.ld x4 rW52) (View.ld x4 rW53) (View.ld x4 rW54) (View.ld x4 rW55)
/-- after channels 56 to 62 (the body's value %539): all but the last input channel. -/
def s539 (c a : FVec F S64x1024 .f32) (x4 : Vec F S64x64 .f32) : FVec F S64x1024 .f32 := k0_pay30 c (s490 c a x4) (View.ld x4 rW56) (View.ld x4 rW57) (View.ld x4 rW58) (View.ld x4 rW59) (View.ld x4 rW60) (View.ld x4 rW61) (View.ld x4 rW62)

/-- The body's value %539 from the input blocks. -/
def c539 (x0 : Vec F S1x64x1024 .f32) (x1 : Vec F S64x9 .f32) (x2 : Vec F S64x1 .f32) (x3 : Vec F S9x1024 .f32) (x4 : Vec F S64x64 .f32) : FVec F S64x1024 .f32 := s539 (cdcR0 x0 x1 x2 x3) (p119 x0 x1 x2 x3 x4) x4

/-- THE 1x1 CONVOLUTION OF THE CENTRAL-DIFFERENCE BLOCK (64x1024), the activation before normalisation: the running sum
    through input channel 62, plus the last column of the 1x1 weight times the block's last row. -/
def yR0 (x0 : Vec F S1x64x1024 .f32) (x1 : Vec F S64x9 .f32) (x2 : Vec F S64x1 .f32) (x3 : Vec F S9x1024 .f32) (x4 : Vec F S64x64 .f32) : FVec F S64x1024 .f32 :=
  k0_pay1 (cdcR0 x0 x1 x2 x3) (c539 x0 x1 x2 x3 x4) (View.ld x4 rW63)

/-! ## What the body leaves in each output window's buffer -/

/-- Window 5's staging buffer after the body: its one store, of the activation block as 1x64x1024, over the whole buffer. -/
def out0_5 (x0 : Vec F S1x64x1024 .f32) (x1 : Vec F S64x9 .f32) (x2 : Vec F S64x1 .f32) (x3 : Vec F S9x1024 .f32) (x4 : Vec F S64x64 .f32) : Vec F S1x64x1024 .f32 :=
  View.canon [⟨rX, k0_pay2 (cdcR0 x0 x1 x2 x3) (c539 x0 x1 x2 x3 x4) (View.ld x4 rW63)⟩]

/-- What the first point's reset leaves in window 6's buffer (the sum of y): zeros, over the whole buffer. -/
def s1zero : Vec F S64x1 .f32 := k0_pay5 (F := F)
/-- What the first point's reset leaves in window 7's buffer (the sum of y*y): zeros, over the whole buffer. -/
def s2zero : Vec F S64x1 .f32 := k0_pay6 (F := F)

/-- Window 6's staging buffer after the body, when the body's load of it read `s`: `s` plus the row sums of the
    activation block, stored over the whole buffer. -/
def s1upd (x0 : Vec F S1x64x1024 .f32) (x1 : Vec F S64x9 .f32) (x2 : Vec F S64x1 .f32) (x3 : Vec F S9x1024 .f32) (x4 : Vec F S64x64 .f32) (s : Vec F S64x1 .f32) : Vec F S64x1 .f32 :=
  View.canon [⟨rK, k0_pay3 (cdcR0 x0 x1 x2 x3) (c539 x0 x1 x2 x3 x4) (View.ld x4 rW63) (View.ld s rK)⟩]
/-- Window 7's staging buffer after the body, when the body's load of it read `s`: `s` plus the row sums of the
    activation block's squares, stored over the whole buffer. -/
def s2upd (x0 : Vec F S1x64x1024 .f32) (x1 : Vec F S64x9 .f32) (x2 : Vec F S64x1 .f32) (x3 : Vec F S9x1024 .f32) (x4 : Vec F S64x64 .f32) (s : Vec F S64x1 .f32) : Vec F S64x1 .f32 :=
  View.canon [⟨rK, k0_pay4 (cdcR0 x0 x1 x2 x3) (c539 x0 x1 x2 x3 x4) (View.ld x4 rW63) (View.ld s rK)⟩]

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The accumulators, point by point -/

/-- The two accumulators after point n, by recursion on the point: reset then updated at point 0, updated from what the point before left afterwards. -/
def accAt (c : Dev nD) : (n : ℕ) → n < cfg0.N → Vec F S64x1 .f32 × Vec F S64x1 .f32
  | 0, h => (s1upd (iblk0 V c 0 ⟨0, h⟩) (iblk0 V c 1 ⟨0, h⟩) (iblk0 V c 2 ⟨0, h⟩) (iblk0 V c 3 ⟨0, h⟩) (iblk0 V c 4 ⟨0, h⟩) s1zero,
             s2upd (iblk0 V c 0 ⟨0, h⟩) (iblk0 V c 1 ⟨0, h⟩) (iblk0 V c 2 ⟨0, h⟩) (iblk0 V c 3 ⟨0, h⟩) (iblk0 V c 4 ⟨0, h⟩) s2zero)
  | n + 1, h => (s1upd (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (accAt c n (Nat.lt_of_succ_lt h)).1,
                 s2upd (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (accAt c n (Nat.lt_of_succ_lt h)).2)

theorem accAt_zero (c : Dev nD) (h : 0 < cfg0.N) : accAt V c 0 h =
    (s1upd (iblk0 V c 0 ⟨0, h⟩) (iblk0 V c 1 ⟨0, h⟩) (iblk0 V c 2 ⟨0, h⟩) (iblk0 V c 3 ⟨0, h⟩) (iblk0 V c 4 ⟨0, h⟩) s1zero,
     s2upd (iblk0 V c 0 ⟨0, h⟩) (iblk0 V c 1 ⟨0, h⟩) (iblk0 V c 2 ⟨0, h⟩) (iblk0 V c 3 ⟨0, h⟩) (iblk0 V c 4 ⟨0, h⟩) s2zero) := rfl

theorem accAt_succ (c : Dev nD) (n : ℕ) (h : n + 1 < cfg0.N) : accAt V c (n + 1) h =
    (s1upd (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (accAt V c n (Nat.lt_of_succ_lt h)).1,
     s2upd (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (accAt V c n (Nat.lt_of_succ_lt h)).2) := rfl

/-! ## The pipeline's proof data -/

/-- The proof data of pipeline 0 on core `c`: the arrays as the region finds them (`V`); after the body at point `t`
    each input's buffer at its block, window 5's at the activation block of the input blocks, windows 6 and 7 at the
    accumulators after point `t`; the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => (accAt V c t.val t.isLt).1
    | ⟨7, _⟩ => (accAt V c t.val t.isLt).2
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = (accAt V c t.val t.isLt).1 := by dsimp only [dat0]
theorem after0_7 (c : Dev nD) (t : Fin cfg0.N) : (dat0 V c).after 7 t = (accAt V c t.val t.isLt).2 := by dsimp only [dat0]

/-! ## Whole-buffer stores cover -/

/-- The whole-buffer rectangles' offsets are zero. -/
theorem off2 : (![0, 0] : Fin 2 → ℕ) = fun _ => 0 := funext fun a => by fin_cases a <;> rfl
theorem off3 : (![0, 0, 0] : Fin 3 → ℕ) = fun _ => 0 := funext fun a => by fin_cases a <;> rfl

/-- A store through the whole 1x64x1024 rectangle, last, covers every index, -/
theorem cover_rX (w : Vec F S1x64x1024 .f32) (L : List (View.Piece (Elt F) S1x64x1024 .f32)) (y : S1x64x1024.Idx) :
    ∃ pc ∈ ((⟨rX, w⟩ : View.Piece (Elt F) S1x64x1024 .f32) :: L), y ∈ pc.1.set :=
  ⟨_, List.mem_cons_self, View.mem_set_unit_zero off3 inb_S1x64x1024_S1x64x1024_0_0_0 y⟩
/-- and so does one through the whole 64x1 rectangle. -/
theorem cover_rK (w : Vec F S64x1 .f32) (L : List (View.Piece (Elt F) S64x1 .f32)) (y : S64x1.Idx) :
    ∃ pc ∈ ((⟨rK, w⟩ : View.Piece (Elt F) S64x1 .f32) :: L), y ∈ pc.1.set :=
  ⟨_, List.mem_cons_self, View.mem_set_unit_zero off2 inb_S64x1_S64x1_0_0 y⟩

/-! ## The body's branch condition -/

/-- The condition of the body's one conditional (the reset of the accumulators), from the grid coordinate. -/
abbrev cond0 (i : grid0.Coords) : Prop :=
  (Scalar.cmpi .ne (Scalar.extui (Scalar.cmpi .eq (BitVec.ofNat 32 (i 0).val) 0#32)) 0#32) = 1#1
/-- It holds at the first point only: decided over the grid. -/
theorem hcond0 : ∀ t : Fin cfg0.N, cond0 (grid0.coords t) ↔ t.val % 128 = 0 :=
  (by decide +kernel : ∀ t : Fin grid0.N, cond0 (grid0.coords t) ↔ t.val % 128 = 0)

/-! ## The body's triple, case by case -/

set_option maxHeartbeats 4000000 in
/-- THE BODY AT THE FIRST POINT (the condition holds), on whole staging memrefs: the inputs' at read contents, the three
    outputs' at anything. It zeroes both accumulators, forms the activation block, stores it as window 5's block, and adds
    its row sums (and its squares') to the zeros it reads back; the inputs are left as they were. -/
theorem sound_kernel0_A (c : Dev nD) (E : Set ℕ) (i : grid0.Coords) (hc : cond0 i) (arg1 : Memref sig .tc .vmem S1x64x1024 .f32) (harg1 : arg1.IsWhole) (arg2 : Memref sig .tc .vmem S64x9 .f32) (harg2 : arg2.IsWhole) (arg3 : Memref sig .tc .vmem S64x1 .f32) (harg3 : arg3.IsWhole) (arg4 : Memref sig .tc .vmem S9x1024 .f32) (harg4 : arg4.IsWhole) (arg5 : Memref sig .tc .vmem S64x64 .f32) (harg5 : arg5.IsWhole) (arg6 : Memref sig .tc .vmem S1x64x1024 .f32) (harg6 : arg6.IsWhole) (arg7 : Memref sig .tc .vmem S64x1 .f32) (harg7 : arg7.IsWhole) (arg8 : Memref sig .tc .vmem S64x1 .f32) (harg8 : arg8.IsWhole)
    (x0 : Vec F S1x64x1024 .f32) (x1 : Vec F S64x9 .f32) (x2 : Vec F S64x1 .f32) (x3 : Vec F S9x1024 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out0_5 x0 x1 x2 x3 x4) ∗ owns (c : Thread nD τ) arg7 fullShare (s1upd x0 x1 x2 x3 x4 s1zero) ∗ owns (c : Thread nD τ) arg8 fullShare (s2upd x0 x1 x2 x3 x4 s2zero)) -∗ K ⟨⟩))
      ⊢ wp frame (wpE (defs₀ (F := F)) Variants.none c none) E (cc0__kernel_body i arg1 harg1 arg2 harg2 arg3 harg3 arg4 harg4 arg5 harg5 arg6 harg6 arg7 harg7 arg8 harg8) K := by
  simp only [cc0__kernel_body_eq_skeleton]; unfold cc0__kernel_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf1; subst hf2; subst hf3; subst hf4; subst hf5
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_eq_canon _ _ _ (cover_rX _ _)]
    unfold out0_5 c539 s539 s490 s441 s399 s350 s301 s259 s210 s161 p119 cdcR0 p75 p73 p72 p35 p32 p27 p6
    sl_unfold_run_names
    sl_unfold_run_names
    sl_unfold_run_names
    sl_unfold_run_names
    rfl
  isplitl [H7]
  · iexists _; isplitr
    swap; · iexact H7
    ipureintro
    rw [View.read_writes_eq_canon _ _ _ (cover_rK _ _)]
    rw [View.canon_cons_unit_zero (S := S64x1) off2]
    sl_unfold_run_names
    sl_unfold_run_names
    sl_unfold_run_names
    sl_unfold_run_names
    rw [View.readCov_unit_zero (S := S64x1) _ off2]
    unfold s1upd
    rw [View.canon_unit_zero (S := S64x1) off2, View.ld_unit_zero (S := S64x1) off2]
    unfold s1zero c539 s539 s490 s441 s399 s350 s301 s259 s210 s161 p119 cdcR0 p75 p73 p72 p35 p32 p27 p6
    rfl
  · iexists _; isplitr
    swap; · iexact H8
    ipureintro
    rw [View.read_writes_eq_canon _ _ _ (cover_rK _ _)]
    rw [View.canon_cons_unit_zero (S := S64x1) off2]
    sl_unfold_run_names
    sl_unfold_run_names
    sl_unfold_run_names
    sl_unfold_run_names
    rw [View.readCov_unit_zero (S := S64x1) _ off2]
    unfold s2upd
    rw [View.canon_unit_zero (S := S64x1) off2, View.ld_unit_zero (S := S64x1) off2]
    unfold s2zero c539 s539 s490 s441 s399 s350 s301 s259 s210 s161 p119 cdcR0 p75 p73 p72 p35 p32 p27 p6
    rfl

set_option maxHeartbeats 4000000 in
/-- THE BODY AT A LATER POINT (the condition fails), on whole staging memrefs: the inputs' at read contents, window 5's at
    anything, the accumulators' at `s1`, `s2`. It forms the activation block, stores it as window 5's block, and adds its
    row sums (and its squares') to `s1`, `s2`; the inputs are left as they were. -/
theorem sound_kernel0_B (c : Dev nD) (E : Set ℕ) (i : grid0.Coords) (hc : ¬cond0 i) (arg1 : Memref sig .tc .vmem S1x64x1024 .f32) (harg1 : arg1.IsWhole) (arg2 : Memref sig .tc .vmem S64x9 .f32) (harg2 : arg2.IsWhole) (arg3 : Memref sig .tc .vmem S64x1 .f32) (harg3 : arg3.IsWhole) (arg4 : Memref sig .tc .vmem S9x1024 .f32) (harg4 : arg4.IsWhole) (arg5 : Memref sig .tc .vmem S64x64 .f32) (harg5 : arg5.IsWhole) (arg6 : Memref sig .tc .vmem S1x64x1024 .f32) (harg6 : arg6.IsWhole) (arg7 : Memref sig .tc .vmem S64x1 .f32) (harg7 : arg7.IsWhole) (arg8 : Memref sig .tc .vmem S64x1 .f32) (harg8 : arg8.IsWhole)
    (x0 : Vec F S1x64x1024 .f32) (x1 : Vec F S64x9 .f32) (x2 : Vec F S64x1 .f32) (x3 : Vec F S9x1024 .f32) (x4 : Vec F S64x64 .f32) (s1 s2 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare s1 ∗ owns (c : Thread nD τ) arg8 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out0_5 x0 x1 x2 x3 x4) ∗ owns (c : Thread nD τ) arg7 fullShare (s1upd x0 x1 x2 x3 x4 s1) ∗ owns (c : Thread nD τ) arg8 fullShare (s2upd x0 x1 x2 x3 x4 s2)) -∗ K ⟨⟩))
      ⊢ wp frame (wpE (defs₀ (F := F)) Variants.none c none) E (cc0__kernel_body i arg1 harg1 arg2 harg2 arg3 harg3 arg4 harg4 arg5 harg5 arg6 harg6 arg7 harg7 arg8 harg8) K := by
  simp only [cc0__kernel_body_eq_skeleton]; unfold cc0__kernel_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  subst hf1; subst hf2; subst hf3; subst hf4; subst hf5; subst hf7; subst hf8
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_eq_canon _ _ _ (cover_rX _ _)]
    unfold out0_5 c539 s539 s490 s441 s399 s350 s301 s259 s210 s161 p119 cdcR0 p75 p73 p72 p35 p32 p27 p6
    sl_unfold_run_names
    sl_unfold_run_names
    sl_unfold_run_names
    sl_unfold_run_names
    rfl
  isplitl [H7]
  · iexists _; isplitr
    swap; · iexact H7
    ipureintro
    rw [View.read_writes_eq_canon _ _ _ (cover_rK _ _)]
    unfold s1upd c539 s539 s490 s441 s399 s350 s301 s259 s210 s161 p119 cdcR0 p75 p73 p72 p35 p32 p27 p6
    sl_unfold_run_names
    sl_unfold_run_names
    sl_unfold_run_names
    sl_unfold_run_names
    rfl
  · iexists _; isplitr
    swap; · iexact H8
    ipureintro
    rw [View.read_writes_eq_canon _ _ _ (cover_rK _ _)]
    unfold s2upd c539 s539 s490 s441 s399 s350 s301 s259 s210 s161 p119 cdcR0 p75 p73 p72 p35 p32 p27 p6
    sl_unfold_run_names
    sl_unfold_run_names
    sl_unfold_run_names
    sl_unfold_run_names
    rfl

/-! ## The accumulators at a point of each case -/

/-- At the first point: the reset's zeros, updated. -/
theorem accAt_first_1 (c : Dev nD) (t : Fin cfg0.N) (h0 : t.val % 128 = 0) :
    (accAt V c t.val t.isLt).1 = s1upd (iblk0 V c 0 t) (iblk0 V c 1 t) (iblk0 V c 2 t) (iblk0 V c 3 t) (iblk0 V c 4 t) s1zero := by
  obtain ⟨n, hn⟩ := t
  have hN : n < 128 := lt_of_lt_of_eq hn (show cfg0.N = 128 from N_0)
  obtain rfl : n = 0 := by dsimp only at h0; omega
  rfl
theorem accAt_first_2 (c : Dev nD) (t : Fin cfg0.N) (h0 : t.val % 128 = 0) :
    (accAt V c t.val t.isLt).2 = s2upd (iblk0 V c 0 t) (iblk0 V c 1 t) (iblk0 V c 2 t) (iblk0 V c 3 t) (iblk0 V c 4 t) s2zero := by
  obtain ⟨n, hn⟩ := t
  have hN : n < 128 := lt_of_lt_of_eq hn (show cfg0.N = 128 from N_0)
  obtain rfl : n = 0 := by dsimp only at h0; omega
  rfl
/-- At a later point: what the point before left, updated. -/
theorem accAt_later_1 (c : Dev nD) (t : Fin cfg0.N) (h0 : ¬t.val % 128 = 0) :
    (accAt V c t.val t.isLt).1 = s1upd (iblk0 V c 0 t) (iblk0 V c 1 t) (iblk0 V c 2 t) (iblk0 V c 3 t) (iblk0 V c 4 t) (accAt V c (t.val - 1) (Nat.lt_of_le_of_lt (Nat.sub_le _ _) t.isLt)).1 := by
  obtain ⟨n, hn⟩ := t
  cases n with
  | zero => exact absurd (Nat.zero_mod _) h0
  | succ n => rfl
theorem accAt_later_2 (c : Dev nD) (t : Fin cfg0.N) (h0 : ¬t.val % 128 = 0) :
    (accAt V c t.val t.isLt).2 = s2upd (iblk0 V c 0 t) (iblk0 V c 1 t) (iblk0 V c 2 t) (iblk0 V c 3 t) (iblk0 V c 4 t) (accAt V c (t.val - 1) (Nat.lt_of_le_of_lt (Nat.sub_le _ _) t.isLt)).2 := by
  obtain ⟨n, hn⟩ := t
  cases n with
  | zero => exact absurd (Nat.zero_mod _) h0
  | succ n => rfl

/-! ## What each window's current staging buffer holds when the body is called -/

/-- Each input's current staging buffer holds its block at every point, fetched there or not (the block index of an
    input fetched at the first point only never moves). -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-- At a later point an accumulator's buffer holds what the body left at the point before: it is written back after the
    last point only, and never fetched. -/
theorem before0_6_B (c : Dev nD) (t : Fin cfg0.N) (h0 : ¬t.val % 128 = 0) (d) :
    (dat0 V c).before 6 t d = (accAt V c (t.val - 1) (Nat.lt_of_le_of_lt (Nat.sub_le _ _) t.isLt)).1 := by
  have hN : t.val < 128 := lt_of_lt_of_eq t.isLt (show cfg0.N = 128 from N_0)
  rw [Dat.before_out_kept _ 6 rfl t (by omega) (Bool.eq_false_iff.mpr fun h => by have := (flush0_6 _).mp h; dsimp only at this; omega)
    (fun _ => rfl) (fun _ _ => rfl)]
  dsimp only [dat0]
theorem before0_7_B (c : Dev nD) (t : Fin cfg0.N) (h0 : ¬t.val % 128 = 0) (d) :
    (dat0 V c).before 7 t d = (accAt V c (t.val - 1) (Nat.lt_of_le_of_lt (Nat.sub_le _ _) t.isLt)).2 := by
  have hN : t.val < 128 := lt_of_lt_of_eq t.isLt (show cfg0.N = 128 from N_0)
  rw [Dat.before_out_kept _ 7 rfl t (by omega) (Bool.eq_false_iff.mpr fun h => by have := (flush0_7 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1600000 in
/-- The body at any point: the inputs' buffers hold their blocks; at the first point the accumulators' buffers hold
    anything and the body resets them; at a later point they hold what the point before left; the scoped rest and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  by_cases h0 : t.val % 128 = 0
  · rw [accAt_first_1 V c t h0, accAt_first_2 V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_A c Set.univ (grid0.coords t) ((hcond0 t).mpr h0) _ _ _ _ _ _ _ _ _ _ _ _ _ _ _ _
      (iblk0 V c 0 t) (iblk0 V c 1 t) (iblk0 V c 2 t) (iblk0 V c 3 t) (iblk0 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [accAt_later_1 V c t h0, accAt_later_2 V c t h0]
    simp only [before0_6_B V c t h0, before0_7_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_B c Set.univ (grid0.coords t) (fun h => h0 ((hcond0 t).mp h)) _ _ _ _ _ _ _ _ _ _ _ _ _ _ _ _
      (iblk0 V c 0 t) (iblk0 V c 1 t) (iblk0 V c 2 t) (iblk0 V c 3 t) (iblk0 V c 4 t) _ _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.ReferenceIdeal.Hand

end
-- ==== Proof.R1Body.lean ====
/- REGION 1 of the reference program (its second pipeline: the normalization), at the buffer contents `V` the region is
   entered with. Six windows on a grid of 128 points: window 0 is the point's 1x64x1024 block of the convolved array,
   windows 1 and 2 the whole 64x1 sums (of the values and of their squares), windows 3 and 4 the whole 64x1 scale and
   offset, window 5 the point's 1x64x1024 block of the result. At every point the body reads the five input blocks and
   stores, over the whole of window 5's buffer, the block normalized per channel:
   mean = s1 · 2⁻¹⁷, var = s2 · 2⁻¹⁷ - mean², a = rsqrt (var + ε) · scale, out = y · a + (offset - mean · a)
   (2¹⁷ = 128 · 1024 values per channel; ε the single-precision value nearest 10⁻⁵).
   This file states each window's block at a point, what the body leaves in window 5's buffer as a function of the five
   input blocks, the body's triple, the pipeline's proof data and its body obligation, for any float interpretation. -/
import proofs.«151441_g2000606144476369_pallasbulk_1044_2_alg».proof.Proof.Gen.ReferenceIdeal.Launch
import proofs.«151441_g2000606144476369_pallasbulk_1044_2_alg».proof.Proof.Gen.ReferenceIdeal.Skeleton
import proofs.«151441_g2000606144476369_pallasbulk_1044_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is checked coordinate by coordinate along the long axes
set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered: everything below is stated at this parameter
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not it is fetched there (an
    unfetched point has the block index of the point before), for any proof data whose array is `V`'s and whose body
    leaves the block in place; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not it is fetched there (an
    unfetched point has the block index of the point before), for any proof data whose array is `V`'s and whose body
    leaves the block in place; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not it is fetched there (an
    unfetched point has the block index of the point before), for any proof data whose array is `V`'s and whose body
    leaves the block in place; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether or not it is fetched there (an
    unfetched point has the block index of the point before), for any proof data whose array is `V`'s and whose body
    leaves the block in place; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether or not it is fetched there (an
    unfetched point has the block index of the point before), for any proof data whose array is `V`'s and whose body
    leaves the block in place; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole of a 64x1 buffer (windows 1 to 4: each is read through it). -/
abbrev r1_0 : Rect S64x1 := Rect.unit (s := S64x1) ![0, 0] S64x1.size inb_S64x1_S64x1_0_0
/-- The whole of a 1x64x1024 buffer (window 0 is read through it, window 5 written through it). -/
abbrev r1_1 : Rect S1x64x1024 := Rect.unit (s := S1x64x1024) ![0, 0, 0] S1x64x1024.size inb_S1x64x1024_S1x64x1024_0_0_0

/-! ## What the body leaves in the output window's buffer -/

/-- Window 5's staging buffer after the body, from the input windows' blocks `x0` (the convolved block), `x1`, `x2`
    (the two sums), `x3`, `x4` (scale and offset): its one store, over the whole buffer, of the normalized block
    computed from the five loads (the sums first, then scale, offset, and the block last, as the body reads them). -/
def out1_5 (x0 : Vec F S1x64x1024 .f32) (x1 x2 x3 x4 : Vec F S64x1 .f32) : Vec F S1x64x1024 .f32 :=
  View.canon [⟨r1_1, k1_pay1 (View.ld x1 r1_0) (View.ld x2 r1_0) (View.ld x3 r1_0) (View.ld x4 r1_0) (View.ld x0 r1_1)⟩]

/-- The one store is over the whole buffer, so it covers it. -/
theorem cover1_5 (p0 : Vec F S1x64x1024 .f32) (y : S1x64x1024.Idx) :
    ∃ pc ∈ ([⟨r1_1, p0⟩] : List (View.Piece (Elt F) S1x64x1024 .f32)), y ∈ pc.1.set :=
  View.cover_of_tiled [⟨r1_1, p0⟩] S1x64x1024.size (by rfl) y

/-! ## The body's triple -/

set_option maxHeartbeats 1000000 in
/-- The body on whole staging memrefs, the five inputs' at read contents `x0 … x4` and the output's at anything, runs to
    the continuation holding the inputs' as they were and the output's at `out1_5` of the inputs' (the body's load of
    the output buffer before the store is of a value it never uses). -/
theorem sound_kernel1 (c : Dev nD) (E : Set ℕ) (i : grid1.Coords) (arg1 : Memref sig .tc .vmem S1x64x1024 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S1x64x1024 .f32) (harg6 : arg6.IsWhole)
    (x0 : Vec F S1x64x1024 .f32) (x1 x2 x3 x4 : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__kernel_body i arg1 harg1 arg2 harg2 arg3 harg3 arg4 harg4 arg5 harg5 arg6 harg6) K := by
  simp only [cc1__kernel_body_eq_skeleton]; unfold cc1__kernel_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at point `t`
    each input's buffer at its block and the output's at `out1_5` of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the definition's case split reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.ReferenceIdeal.Hand

end
-- ==== Proof.RRun.lean ====
/- THE RUN of the reference program: @main read as four segments in order — a stretch of host operations, the first
   kernel region (the convolution with its two running sums), the second kernel region (the normalization), and one
   last host operation (the reshape that makes the result). The buffer contents at each boundary are a fold from the
   launch memory: a host stretch applies its operations in order, a region leaves its window arrays at what its
   write-backs make of them and every other buffer as entered. Each segment is entered from exactly what the one before
   it left, so the launch theorem for a list of segments gives: every weakly fair execution terminates, nothing
   faulting, the result buffer ends at the fold's contents, and the five arguments end as launched (no host operation
   writes one, no region has one among its arrays). Stated for any float interpretation. -/
import proofs.«151441_g2000606144476369_pallasbulk_1044_2_alg».proof.Proof.R0Body
import proofs.«151441_g2000606144476369_pallasbulk_1044_2_alg».proof.Proof.R1Body

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each segment boundary: a fold through @main -/

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
/-- The same read at the TensorCore's references (what the first region's proof data take). -/
abbrev V1 : (c : Dev nD) → (b : Ref sig .tc) → Buf (Elt F) ((c : Thread nD τ).loc b) := fun c b => W1 m ρ c b
/-- At the first region's exit: its arrays at what the pipeline leaves (the inputs as entered, each output's
    write-backs folded over the grid), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references: the first region's exit contents, which the second region is
    entered with (no host operation stands between the two regions). -/
abbrev V2 : (c : Dev nD) → (b : Ref sig .tc) → Buf (Elt F) ((c : Thread nD τ).loc b) := fun c b => W2 m ρ c b
/-- At the first region's exit each of its arrays holds what the pipeline leaves, and every other buffer what it
    held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (the second region's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last host operation (the reshape into the result buffer): what the program returns with. -/
abbrev W4 : Dev nD → Valuation τ sig (Elt F) := fun c => StableHlo.after hostOps2 (W3 m ρ c)

/-! ## The arguments end as launched

No host operation writes an argument's buffer and neither region has an argument among its window arrays, so the fold
read at an argument's buffer walks back, boundary by boundary, to the launch memory. -/

/-- The last host operation writes the result buffer only: any other buffer keeps its contents across it. -/
theorem hostOps2_keeps (c : Dev nD) (b : Ref sig .tc) (hb : b ≠ main_v225) :
    W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    exact StableHlo.devRef_ne_of_ne hb))

set_option maxHeartbeats 4000000 in
/-- No operation of the first host stretch writes an argument's buffer: each writes its own result buffer, a
    reference other than the five arguments. -/
theorem hostOps0_args (b : Ref sig .tc) (hb : b ∈ [main_arg0, main_arg1, main_arg2, main_arg3, main_arg4]) :
    ∀ op ∈ (hostOps0 : List (HloOp τ sig (Elt F))), (Proc.devRef .tc b : DevRef τ sig) ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne fun e => absurd (e ▸ hb) (by decide))

/-- So an argument's buffer is the same before and after the first host stretch. -/
theorem hostOps0_keeps_arg (c : Dev nD) (b : Ref sig .tc) (hb : b ∈ [main_arg0, main_arg1, main_arg2, main_arg3, main_arg4]) :
    W1 m ρ c (Proc.devRef .tc b) = W0 m ρ c (Proc.devRef .tc b) :=
  StableHlo.after_of_forall_not_mem (b := Proc.devRef .tc b) _ _ (hostOps0_args b hb)

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := hostOps2_keeps m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := hostOps0_keeps_arg m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := hostOps2_keeps m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := hostOps0_keeps_arg m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := hostOps2_keeps m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := hostOps0_keeps_arg m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := hostOps2_keeps m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := hostOps0_keeps_arg m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := hostOps2_keeps m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := hostOps0_keeps_arg m ρ c main_arg4 (by decide)
    _ = m ((c : Thread nD τ).loc main_arg4) := rfl

/-! # The proof data family and the thread state -/

/-- The prefetched tables' admissible contents: no pipeline has a table. -/
abbrev adm : (p : Fin 2) → (pcfgs (F := F) p).Adm := fun p => (cfgs p).toPCfg_adm
/-- Every pipeline's proof data, each at its region's entry contents: the first region's at the contents after the
    host stretch, the second's at the first region's exit contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    tallies of what it owes, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along; it ends with
    those references at the contents the operations make of `W` in order. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
/-- No operation of the first host stretch allocates a buffer. -/
theorem hostOps0_fresh : (hostOps0 : List (HloOp τ sig (Elt F))).Forall fun op => op.fresh = ∅ := by
  simp only [List.Forall]; repeat' constructor
/-- Nor does the last host operation. -/
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the tallies: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! # The regions as segments -/

set_option backward.isDefEq.respectTransparency.types false in
/-- THE FIRST REGION over the thread state: entered from every unscoped buffer at `W1`, left at `W2`. Its arrays are
    split out of the unscoped buffers at entry and put back at the exit contents; the generator register goes into
    the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at `W2` (exactly what the first
    region left), left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # @main as segments, and the launch -/

/-- @main's four segments in order: the host stretch from the launch contents, the two regions back to back, the last
    host operation from the second region's exit contents. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: @main is the chain of its four items, and the segments' run is that chain. -/
theorem main_run (c : Dev nD) : main (F := F) c = Pipeline.Seg.run (segs m ρ) := (main_chain c).trans (by chain_rfl)

set_option backward.isDefEq.respectTransparency.types false in
/-- Every weakly fair execution of @main terminates, nothing faulting; the result buffer ends at the fold's contents
    and the five arguments as launched. -/
theorem run : θ_run defs (onTc (τ := τ) (main (F := F))) ⟨m, fun _ => 0, ρ⟩ (fun r => ∀ c : Dev nD,
      r.2.mem ((c.tc : Thread nD τ).loc main_v225) = W4 m ρ c (Proc.devRef .tc main_v225)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v225 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

/-- The frame claim at any float interpretation: every weakly fair execution of @main terminates, nothing faulting,
    and the five arguments end as launched — the run's conclusion with the result buffer's clause dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r hr c => (hr c).2) (run m ρ)

end Cert.ReferenceIdeal.Hand

end
-- ==== Proof.HostSpec.lean ====
/- The host-side quantities both programs derive from the depthwise weights before their first kernel. -/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- θ = 0.7 as both programs spell it (the single-precision number nearest 0.7). -/
abbrev thetaE : EReal := Ideal.ofBits .f32 0x3F333333#32
/-- 1 − θ as both programs spell it (the single-precision number nearest 0.3). -/
abbrev omtE : EReal := Ideal.ofBits .f32 0x3E99999A#32

/-- The input read as 128 · 64 planes of 1024 = 32 · 32 positions. -/
def Xof (x : (⟨4, ![128, 64, 32, 32]⟩ : Shape).Idx → EReal) (n : Fin 128) (c : Fin 64) (j : Fin 1024) : EReal :=
  x (ix4 n c ⟨j.val / 32, by have := j.isLt; omega⟩ ⟨j.val % 32, Nat.mod_lt _ (by decide)⟩)
/-- The depthwise weights read as 64 rows of 9 taps. -/
def WDof (wd : (⟨3, ![64, 3, 3]⟩ : Shape).Idx → EReal) (c : Fin 64) (t : Fin 9) : EReal :=
  wd (ix3 c ⟨t.val / 3, by have := t.isLt; omega⟩ ⟨t.val % 3, Nat.mod_lt _ (by decide)⟩)
/-- The 1x1 weight times (1 − θ). -/
def Wof (wp : (⟨2, ![64, 64]⟩ : Shape).Idx → EReal) (o c : Fin 64) : EReal := omtE * wp (ix2 o c)
/-- A per-channel vector read at a channel. -/
def Gof (g : (⟨1, ![64]⟩ : Shape).Idx → EReal) (o : Fin 64) : EReal := g (ix1 o)

end Cert.Spec

end
-- ==== Proof.Spec.lean ====
/- The mathematics both programs compute, over the extended reals: the dilated 3x3 central-difference
   depthwise convolution of the rectified input (`cdcRow`), and the two ways of following it by a 1x1
   convolution and a batch normalization over (batch, position): from the Gram matrix and the channel
   sums of the convolved planes (`outK`), and from the sums and square sums of the 1x1 convolution's
   output (`outR`). -/
import Idealize.ShloMosaic.PureOps.Ideal
import Idealize.ShloMosaic.PureOps.Ideal.Laws

noncomputable section

namespace Cert.Spec

open Idealize.ShloMosaic

/-- The number of (batch, position) pairs, 128 · 1024 = 2^17, as the kernel's divisor spells it. -/
abbrev cntE : EReal := Ideal.ofBits .f32 0x48000000#32
/-- Its reciprocal 2^-17, as the reference's factor spells it. -/
abbrev invE : EReal := Ideal.ofBits .f32 0x37000000#32
/-- The variance's offset (the single-precision number nearest 1e-5), the same word in both programs. -/
abbrev epsE : EReal := Ideal.ofBits .f32 0x3727C5AC#32

/-- A lane rotated by `s` along a plane of 1024 positions reads position `l - s` around the end. -/
def rotL (s : ℕ) (l : Fin 1024) : Fin 1024 := ⟨(l.val + 1024 - s % 1024) % 1024, Nat.mod_lt _ (by decide)⟩

/-- One plane's central-difference convolution at position `l`: the nine taps of the rectified plane
    `r = max x 0` (rotated to the tap's offset, masked at the border, weighted), summed in tap order,
    less `kd` times the rectified centre. The centre tap (index 4) is neither rotated nor masked. -/
def cdcRow (x : Fin 1024 → EReal) (wd : Fin 9 → EReal) (kd : EReal) (M : Fin 9 → Fin 1024 → EReal) (l : Fin 1024) : EReal :=
  let r : Fin 1024 → EReal := fun j => max (x j) 0
  ((((((((r (rotL 66 l) * M 0 l * wd 0
        + r (rotL 64 l) * M 1 l * wd 1)
        + r (rotL 62 l) * M 2 l * wd 2)
        + r (rotL 2 l) * M 3 l * wd 3)
        + r l * wd 4)
        + r (rotL 1022 l) * M 5 l * wd 5)
        + r (rotL 962 l) * M 6 l * wd 6)
        + r (rotL 960 l) * M 7 l * wd 7)
        + r (rotL 958 l) * M 8 l * wd 8)
    - kd * r l

/-- Batch element `8 i + b`: the kernel walks the batch in 16 chunks of 8. -/
def nb (i : Fin 16) (b : Fin 8) : Fin 128 := ⟨8 * i.val + b.val, by have := i.isLt; have := b.isLt; omega⟩

section Norm
variable (C : Fin 128 → Fin 64 → Fin 1024 → EReal) (w : Fin 64 → Fin 64 → EReal) (γ β : Fin 64 → EReal)

/-! ### From the Gram matrix and the channel sums -/

/-- The Gram matrix of the convolved planes over (batch, position), chunk by chunk. -/
def gram (c c' : Fin 64) : EReal := ∑ i : Fin 16, ∑ b : Fin 8, ∑ l : Fin 1024, C (nb i b) c l * C (nb i b) c' l
/-- The channel sums of the convolved planes over (batch, position), chunk by chunk. -/
def chsum (c : Fin 64) : EReal := ∑ i : Fin 16, ∑ b : Fin 8, ∑ l : Fin 1024, C (nb i b) c l
/-- The same chain from ANY matrix `g` and vector `v` standing for the Gram matrix and the channel sums: the
    mean of the 1x1 convolution's output is `w · v / count`, its second moment the diagonal of `w g wᵀ / count`. -/
def meanG (g : Fin 64 → Fin 64 → EReal) (v : Fin 64 → EReal) (o : Fin 64) : EReal := Ideal.div (∑ c : Fin 64, w o c * v c) cntE
def e2G (g : Fin 64 → Fin 64 → EReal) (v : Fin 64 → EReal) (o : Fin 64) : EReal := Ideal.div (∑ c' : Fin 64, (∑ c : Fin 64, w o c * g c c') * w o c') cntE
def varG (g : Fin 64 → Fin 64 → EReal) (v : Fin 64 → EReal) (o : Fin 64) : EReal := e2G w g v o - meanG w g v o * meanG w g v o
def scaleG (g : Fin 64 → Fin 64 → EReal) (v : Fin 64 → EReal) (o : Fin 64) : EReal := γ o * Ideal.rsqrt (varG w g v o + epsE)
def shiftG (g : Fin 64 → Fin 64 → EReal) (v : Fin 64 → EReal) (o : Fin 64) : EReal := β o - meanG w g v o * scaleG w γ g v o
/-- The normalized 1x1 convolution with the scale folded into the weight and the shift added. -/
def outG (g : Fin 64 → Fin 64 → EReal) (v : Fin 64 → EReal) (n : Fin 128) (o : Fin 64) (l : Fin 1024) : EReal :=
  (∑ c : Fin 64, (scaleG w γ g v o * w o c) * C n c l) + shiftG w γ β g v o
/-- … at the Gram matrix and the channel sums of `C` themselves. -/
def outK (n : Fin 128) (o : Fin 64) (l : Fin 1024) : EReal := outG C w γ β (gram C) (chsum C) n o l

/-! ### From the 1x1 convolution's own sums -/

def yR (n : Fin 128) (o : Fin 64) (l : Fin 1024) : EReal := ∑ c : Fin 64, w o c * C n c l
def s1R (o : Fin 64) : EReal := ∑ n : Fin 128, ∑ l : Fin 1024, yR C w n o l
def s2R (o : Fin 64) : EReal := ∑ n : Fin 128, ∑ l : Fin 1024, yR C w n o l * yR C w n o l
def meanR (o : Fin 64) : EReal := s1R C w o * invE
def varR (o : Fin 64) : EReal := s2R C w o * invE - meanR C w o * meanR C w o
def scaleR (o : Fin 64) : EReal := Ideal.rsqrt (varR C w o + epsE) * γ o
def shiftR (o : Fin 64) : EReal := β o - meanR C w o * scaleR C w γ o
/-- The 1x1 convolution's output scaled and shifted. -/
def outR (n : Fin 128) (o : Fin 64) (l : Fin 1024) : EReal :=
  yR C w n o l * scaleR C w γ o + shiftR C w γ β o

/-- The same chain from ANY output `y` and sums `s1`, `s2` standing for the 1x1 convolution's output, its sums and its square sums. -/
def meanS (s1 : Fin 64 → EReal) (o : Fin 64) : EReal := s1 o * invE
def varS (s1 s2 : Fin 64 → EReal) (o : Fin 64) : EReal := s2 o * invE - meanS s1 o * meanS s1 o
def scaleS (s1 s2 : Fin 64 → EReal) (o : Fin 64) : EReal := Ideal.rsqrt (varS s1 s2 o + epsE) * γ o
def shiftS (s1 s2 : Fin 64 → EReal) (o : Fin 64) : EReal := β o - meanS s1 o * scaleS γ s1 s2 o
def outS (y : Fin 128 → Fin 64 → Fin 1024 → EReal) (s1 s2 : Fin 64 → EReal) (n : Fin 128) (o : Fin 64) (l : Fin 1024) : EReal :=
  y n o l * scaleS γ s1 s2 o + shiftS γ β s1 s2 o
/-- `outR` is that chain at the 1x1 convolution's own output and sums. -/
theorem outR_eq_outS (n : Fin 128) (o : Fin 64) (l : Fin 1024) :
    outR C w γ β n o l = outS γ β (yR C w) (s1R C w) (s2R C w) n o l := rfl

end Norm

end Cert.Spec

end
-- ==== Proof.KdTerm.lean ====
/- θ times the sum of a channel's nine depthwise taps, as the host code computes it before the first
   kernel: the per-channel factor of the rectified centre that the central-difference convolution
   subtracts. Stated over literal shapes only, so that it is one term for every program that spells it. -/
import Idealize.ShloMosaic.PureOps.Ideal
import Idealize.ShloMosaic.PureOps.Ideal.Laws
import Idealize.ShloMosaic.Lib.ValueIdx
import Idealize.ShloMosaic.Lib.IdealHost

noncomputable section

namespace Cert.Spec

open Idealize.ShloMosaic Idealize.ShloMosaic.ValueIdx

/-- Summing a [64, 3, 3] array over its last two axes leaves 64 entries. -/
theorem kd_reduces : (⟨3, ![64, 3, 3]⟩ : Shape).ReducesTo [1, 2] ⟨1, ![64]⟩ := by decide
/-- A rank-0 array has one entry. -/
theorem kd_scalar_pos : 0 < (⟨0, ![]⟩ : Shape).numel := by decide
/-- A rank-0 array broadcasts to 64 entries. -/
theorem kd_bcast : (⟨0, ![]⟩ : Shape).BroadcastsInDim ⟨1, ![64]⟩ (![] : Fin 0 → Fin 1) := by decide

/-- θ times the sum of a channel's nine taps, exactly as the host computes it: the scalar θ broadcast to the 64
    channels, times the host sum of the weights over the two tap axes (the initial value of the host sum kept as
    the host spells it, the single-precision zero). -/
def kdTerm (wd : (⟨3, ![64, 3, 3]⟩ : Shape).Idx → EReal) : (⟨1, ![64]⟩ : Shape).Idx → EReal :=
  mulf (F := Ideal) (s := ⟨1, ![64]⟩) (φ := .f32)
    (broadcastInDim (⟨1, ![64]⟩ : Shape) (![] : Fin 0 → Fin 1) kd_bcast
      (constant (F := Ideal) ⟨0, ![]⟩ .f32 0x3F333333#32))
    (Host.reduceAdd (F := Ideal) (φ := .f32) (wd : FVec Ideal ⟨3, ![64, 3, 3]⟩ .f32)
      (constant (F := Ideal) ⟨0, ![]⟩ .f32 0x00000000#32) kd_reduces kd_scalar_pos)

/-- Read at a channel: θ times (zero plus the sum of the weights whose channel coordinate is that channel). -/
theorem kdTerm_apply (wd : (⟨3, ![64, 3, 3]⟩ : Shape).Idx → EReal) (c : (⟨1, ![64]⟩ : Shape).Idx) :
    kdTerm wd c = Ideal.ofBits .f32 0x3F333333#32
      * Ideal.hostReduceAdd kd_reduces wd (Ideal.ofBits .f32 0x00000000#32) c := by
  unfold kdTerm
  rw [mulf_apply, broadcastInDim_scalar_apply, constant_apply, hostReduceAdd_apply, constant_apply]

/-- A finite sum of real numbers is a real number. -/
theorem real_sum {ι : Type} (s : Finset ι) (f : ι → EReal) (h : ∀ i, ∃ r : ℝ, f i = (r : EReal)) :
    ∃ r : ℝ, ∑ i ∈ s, f i = (r : EReal) := by
  classical
  refine Finset.induction_on s ⟨0, by rw [Finset.sum_empty, EReal.coe_zero]⟩ ?_
  intro a s ha ih
  obtain ⟨r, hr⟩ := ih
  obtain ⟨q, hq⟩ := h a
  exact ⟨q + r, by rw [Finset.sum_insert ha, hr, hq, EReal.coe_add]⟩

/-- With real weights (and θ a real number, as its single-precision word is) the term is a real number at every
    channel: a product of two reals, the second a finite sum of reals. -/
theorem kdTerm_real (wd : (⟨3, ![64, 3, 3]⟩ : Shape).Idx → EReal)
    (hθ : ∃ r : ℝ, Ideal.ofBits .f32 0x3F333333#32 = (r : EReal))
    (h : ∀ i, ∃ r : ℝ, wd i = (r : EReal)) (c : (⟨1, ![64]⟩ : Shape).Idx) :
    ∃ r : ℝ, kdTerm wd c = (r : EReal) := by
  obtain ⟨t, ht⟩ := hθ
  have hs : ∃ r : ℝ, Ideal.hostReduceAdd kd_reduces wd (Ideal.ofBits .f32 0x00000000#32) c = (r : EReal) := by
    unfold Ideal.hostReduceAdd
    rw [Ideal.ofBits_zero_f32, zero_add]
    exact real_sum _ wd h
  obtain ⟨q, hq⟩ := hs
  exact ⟨t * q, by rw [kdTerm_apply, ht, hq, EReal.coe_mul]⟩

end Cert.Spec

end
-- ==== Proof.KHost0.lean ====
/- What the first three input arrays of the first kernel hold, read at an index over the extended reals, as functions
   of the program's arguments.

   Before its first kernel the program reshapes the input [128, 64, 32, 32] to 8192 rows of 1024 positions (row
   64 n + c is plane c of image n, position 32 h + w is pixel (h, w)); reshapes the depthwise weights [64, 3, 3] to
   64 rows of 9 taps and stacks eight copies of that table (row r is channel r mod 64); and multiplies the sum of
   each channel's nine taps by θ and stacks eight copies of that column likewise. So each of the three arrays is a
   re-indexing of an argument, or of θ times the tap sums of one. -/
import proofs.«151441_g2000606144476369_pallasbulk_1044_2_alg».proof.Proof.Gen.KernelIdeal.Launch
import proofs.«151441_g2000606144476369_pallasbulk_1044_2_alg».proof.Proof.HostSpec
import proofs.«151441_g2000606144476369_pallasbulk_1044_2_alg».proof.Proof.Spec
import proofs.«151441_g2000606144476369_pallasbulk_1044_2_alg».proof.Proof.KdTerm
import Idealize.ShloMosaic.Lib.StableHlo.Run
import Idealize.ShloMosaic.Lib.ValueIdx
import Idealize.ShloMosaic.Lib.IdealHost
import Idealize.ShloMosaic.Lib.Pipeline.Value

set_option maxRecDepth 16384

noncomputable section

namespace Cert.KernelIdeal.Val

open Cert.KernelIdeal Cert.KernelIdeal.Gen Cert.Spec
open Idealize.ShloMosaic Idealize.ShloMosaic.TcCoe Idealize.ShloMosaic.ValueIdx

/-! ## The layout operations read at an index, over any operand -/
/-- The program's term for θ times the tap sums is the shared one: the shape facts differ only as proofs. -/
theorem kd_term_eq (wd : S64x3x3.Idx → EReal) :
    mulf (F := Ideal) (broadcastInDim S64 ![] bcast_S_S64 (constant (F := Ideal) S_ .f32 0x3F333333#32))
      (Host.reduceAdd (F := Ideal) (φ := .f32) wd (constant (F := Ideal) S_ .f32 0x00000000#32) reducesTo_S64x3x3_S64_d1_2 h_S_)
      = kdTerm wd := rfl

/-- The reshaped input at (row, l): row = 64 n + c names image n's plane c, l = 32 h + w a position of it. -/
theorem x2_chain (x : S128x64x32x32.Idx → EReal) (row : Fin 8192) (l : Fin 1024) :
    shapeCast S8192x1024 x shapeCasts_S128x64x32x32_S8192x1024 (ix2 row l)
      = Xof x ⟨row.val / 64, by have := row.isLt; omega⟩ ⟨row.val % 64, Nat.mod_lt _ (by decide)⟩ l := by
  unfold Xof
  refine shapeCast_apply x _ (ix2 row l) _ ?_
  rw [Shape.rowMajor_val_four, Shape.rowMajor_val_two]
  show ((row.val / 64 * 64 + row.val % 64) * 32 + l.val / 32) * 32 + l.val % 32 = row.val * 1024 + l.val
  omega

/-- The tiled tap weights at (r, t): the eight copies of the 64 x 9 table stacked, so row r is channel r mod 64. -/
theorem wd_chain (wd : S64x3x3.Idx → EReal) (r : Fin 512) (t : Fin 9) :
    shapeCast S512x9
      (broadcastInDim S8x64x1x9 ![0, 1, 2, 3] bcast_S1x64x1x9_S8x64x1x9_0_1_2_3
        (shapeCast S1x64x1x9 (shapeCast S64x9 wd shapeCasts_S64x3x3_S64x9) shapeCasts_S64x9_S1x64x1x9))
      shapeCasts_S8x64x1x9_S512x9 (ix2 r t)
      = WDof wd ⟨r.val % 64, Nat.mod_lt _ (by decide)⟩ t := by
  unfold WDof
  have hr := r.isLt
  have ht := t.isLt
  refine (shapeCast_apply _ shapeCasts_S8x64x1x9_S512x9 (ix2 r t)
    (ix4 (⟨r.val / 64, by omega⟩ : Fin 8) (⟨r.val % 64, Nat.mod_lt _ (by decide)⟩ : Fin 64) (0 : Fin 1) t) (by
      rw [Shape.rowMajor_val_four, Shape.rowMajor_val_two]
      show ((r.val / 64 * 64 + r.val % 64) * 1 + 0) * 9 + t.val = r.val * 9 + t.val
      omega)).trans ?_
  refine (broadcastInDim_apply ![0, 1, 2, 3] bcast_S1x64x1x9_S8x64x1x9_0_1_2_3 _
    (ix4 (⟨r.val / 64, by omega⟩ : Fin 8) (⟨r.val % 64, Nat.mod_lt _ (by decide)⟩ : Fin 64) (0 : Fin 1) t)
    (ix4 (0 : Fin 1) (⟨r.val % 64, Nat.mod_lt _ (by decide)⟩ : Fin 64) (0 : Fin 1) t) (by
      intro a
      fin_cases a <;> rfl)).trans ?_
  refine (shapeCast_apply _ shapeCasts_S64x9_S1x64x1x9
    (ix4 (0 : Fin 1) (⟨r.val % 64, Nat.mod_lt _ (by decide)⟩ : Fin 64) (0 : Fin 1) t)
    (ix2 (⟨r.val % 64, Nat.mod_lt _ (by decide)⟩ : Fin 64) t) (by
      rw [Shape.rowMajor_val_four, Shape.rowMajor_val_two]
      show r.val % 64 * 9 + t.val = ((0 * 64 + r.val % 64) * 1 + 0) * 9 + t.val
      omega)).trans ?_
  refine shapeCast_apply wd shapeCasts_S64x3x3_S64x9
    (ix2 (⟨r.val % 64, Nat.mod_lt _ (by decide)⟩ : Fin 64) t) _ ?_
  rw [Shape.rowMajor_val_three, Shape.rowMajor_val_two]
  show (r.val % 64 * 3 + t.val / 3) * 3 + t.val % 3 = r.val % 64 * 9 + t.val
  omega

/-- The tiled per-channel factor at (r, 0): row r is channel r mod 64. -/
theorem kd_chain (v : S64.Idx → EReal) (r : Fin 512) :
    shapeCast S512x1
      (broadcastInDim S8x64x1x1 ![0, 1, 2, 3] bcast_S1x64x1x1_S8x64x1x1_0_1_2_3
        (shapeCast S1x64x1x1 (shapeCast S64x1 v shapeCasts_S64_S64x1) shapeCasts_S64x1_S1x64x1x1))
      shapeCasts_S8x64x1x1_S512x1 (ix2 r (0 : Fin 1))
      = v (ix1 ⟨r.val % 64, Nat.mod_lt _ (by decide)⟩) := by
  have hr := r.isLt
  refine (shapeCast_apply _ shapeCasts_S8x64x1x1_S512x1 (ix2 r (0 : Fin 1))
    (ix4 (⟨r.val / 64, by omega⟩ : Fin 8) (⟨r.val % 64, Nat.mod_lt _ (by decide)⟩ : Fin 64) (0 : Fin 1) (0 : Fin 1)) (by
      rw [Shape.rowMajor_val_four, Shape.rowMajor_val_two]
      show ((r.val / 64 * 64 + r.val % 64) * 1 + 0) * 1 + 0 = r.val * 1 + 0
      omega)).trans ?_
  refine (broadcastInDim_apply ![0, 1, 2, 3] bcast_S1x64x1x1_S8x64x1x1_0_1_2_3 _
    (ix4 (⟨r.val / 64, by omega⟩ : Fin 8) (⟨r.val % 64, Nat.mod_lt _ (by decide)⟩ : Fin 64) (0 : Fin 1) (0 : Fin 1))
    (ix4 (0 : Fin 1) (⟨r.val % 64, Nat.mod_lt _ (by decide)⟩ : Fin 64) (0 : Fin 1) (0 : Fin 1)) (by
      intro a
      fin_cases a <;> rfl)).trans ?_
  refine (shapeCast_apply _ shapeCasts_S64x1_S1x64x1x1
    (ix4 (0 : Fin 1) (⟨r.val % 64, Nat.mod_lt _ (by decide)⟩ : Fin 64) (0 : Fin 1) (0 : Fin 1))
    (ix2 (⟨r.val % 64, Nat.mod_lt _ (by decide)⟩ : Fin 64) (0 : Fin 1)) (by
      rw [Shape.rowMajor_val_four, Shape.rowMajor_val_two]
      show r.val % 64 * 1 + 0 = ((0 * 64 + r.val % 64) * 1 + 0) * 1 + 0
      omega)).trans ?_
  refine shapeCast_apply v shapeCasts_S64_S64x1
    (ix2 (⟨r.val % 64, Nat.mod_lt _ (by decide)⟩ : Fin 64) (0 : Fin 1)) _ ?_
  rw [Shape.rowMajor_val_one, Shape.rowMajor_val_two]
  show r.val % 64 = r.val % 64 * 1 + 0
  omega

/-! ## The operations' composed terms over the arguments -/

set_option maxHeartbeats 4000000 in
/-- The first array is the input reshaped. -/
theorem x2_term (W : Valuation τ sig (Elt Ideal)) :
    (StableHlo.after hostOps0 W (Proc.devRef .tc main_v0) : S8192x1024.Idx → EReal)
      = shapeCast S8192x1024 (W (Proc.devRef .tc main_arg0) : S128x64x32x32.Idx → EReal)
          shapeCasts_S128x64x32x32_S8192x1024 := by
  after_results_simp
  rfl

set_option maxHeartbeats 4000000 in
/-- The second is the 64 x 9 table of the depthwise weights, eight copies stacked. -/
theorem wdrows_term (W : Valuation τ sig (Elt Ideal)) :
    (StableHlo.after hostOps0 W (Proc.devRef .tc main_v4) : S512x9.Idx → EReal)
      = shapeCast S512x9
          (broadcastInDim S8x64x1x9 ![0, 1, 2, 3] bcast_S1x64x1x9_S8x64x1x9_0_1_2_3
            (shapeCast S1x64x1x9
              (shapeCast S64x9 (W (Proc.devRef .tc main_arg1) : S64x3x3.Idx → EReal) shapeCasts_S64x3x3_S64x9)
              shapeCasts_S64x9_S1x64x1x9))
          shapeCasts_S8x64x1x9_S512x9 := by
  after_results_simp
  rfl

set_option maxHeartbeats 4000000 in
/-- The third is θ times the channels' tap sums as a column, eight copies stacked. -/
theorem kdrows_term (W : Valuation τ sig (Elt Ideal)) :
    (StableHlo.after hostOps0 W (Proc.devRef .tc main_v11) : S512x1.Idx → EReal)
      = shapeCast S512x1
          (broadcastInDim S8x64x1x1 ![0, 1, 2, 3] bcast_S1x64x1x1_S8x64x1x1_0_1_2_3
            (shapeCast S1x64x1x1
              (shapeCast S64x1 (kdTerm (W (Proc.devRef .tc main_arg1) : S64x3x3.Idx → EReal)) shapeCasts_S64_S64x1)
              shapeCasts_S64x1_S1x64x1x1))
          shapeCasts_S8x64x1x1_S512x1 := by
  after_results_simp
  rfl

/-! ## The four arrays at an index -/

/-- The first array at (row, l) is the input at image row / 64, plane row mod 64, position l. -/
theorem x2_apply (W : Valuation τ sig (Elt Ideal)) (row : Fin 8192) (l : Fin 1024) :
    (StableHlo.after hostOps0 W (Proc.devRef .tc main_v0) : S8192x1024.Idx → EReal) (ix2 row l)
      = Xof (W (Proc.devRef .tc main_arg0)) ⟨row.val / 64, by have := row.isLt; omega⟩
          ⟨row.val % 64, Nat.mod_lt _ (by decide)⟩ l := by
  rw [x2_term]
  exact x2_chain _ row l

/-- The second at (r, t) is tap t of channel r mod 64. -/
theorem wdrows_apply (W : Valuation τ sig (Elt Ideal)) (r : Fin 512) (t : Fin 9) :
    (StableHlo.after hostOps0 W (Proc.devRef .tc main_v4) : S512x9.Idx → EReal) (ix2 r t)
      = WDof (W (Proc.devRef .tc main_arg1)) ⟨r.val % 64, Nat.mod_lt _ (by decide)⟩ t := by
  rw [wdrows_term]
  exact wd_chain _ r t

/-- The third at (r, 0) is θ times the tap sum of channel r mod 64. -/
theorem kdrows_apply (W : Valuation τ sig (Elt Ideal)) (r : Fin 512) :
    (StableHlo.after hostOps0 W (Proc.devRef .tc main_v11) : S512x1.Idx → EReal) (ix2 r (0 : Fin 1))
      = kdTerm (W (Proc.devRef .tc main_arg1)) (ix1 ⟨r.val % 64, Nat.mod_lt _ (by decide)⟩) := by
  rw [kdrows_term]
  exact kd_chain _ r

end Cert.KernelIdeal.Val

end
-- ==== Proof.KHost1.lean ====
/- The 33 host operations between the two regions, read at an index over the extended reals: from the sixteen
   per-chunk Gram matrices and channel sums the first region leaves, the 1x1 weight and the batch normalisation's
   scale and offset, they compute the weight with the normalisation's scale folded in and the shift.

   With w = (1 − θ) · wp, g = ∑ᵢ Gᵢ and v = ∑ᵢ Vᵢ:  mean = (w v) / count,  e2 = rowsum((w g) ∘ w) / count,
   var = e2 − mean²,  scale = γ · rsqrt(var + ε),  shift = β − mean · scale,  folded weight = scale · w. -/
import proofs.«151441_g2000606144476369_pallasbulk_1044_2_alg».proof.Proof.Gen.KernelIdeal.Launch
import proofs.«151441_g2000606144476369_pallasbulk_1044_2_alg».proof.Proof.Spec
import Idealize.ShloMosaic.Lib.StableHlo.Run
import Idealize.ShloMosaic.Lib.StackMember
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.Spec
open Idealize.ShloMosaic Idealize.ShloMosaic.TcCoe Idealize.SL.Sem
open Idealize.ShloMosaic.ValueIdx Idealize.ShloMosaic.StableHlo
open scoped BigOperators

section Host1
-- the contents of every buffer before the stretch
variable (W : Valuation τ sig (Elt Ideal))

/-! ## The arrays the stretch reads -/

/-- The sixteen per-chunk Gram matrices [16, 64, 64], -/
abbrev GA : S16x64x64.Idx → EReal := W (Proc.devRef .tc main_v225_1)
/-- the sixteen per-chunk channel sums [16, 64, 1], -/
abbrev VA : S16x64x1.Idx → EReal := W (Proc.devRef .tc main_v225_2)
/-- the 1x1 weight [64, 64], -/
abbrev wp : S64x64.Idx → EReal := W (Proc.devRef .tc main_arg2)
/-- the normalisation's scale [64] -/
abbrev ga : S64.Idx → EReal := W (Proc.devRef .tc main_arg3)
/-- and offset [64]. -/
abbrev be : S64.Idx → EReal := W (Proc.devRef .tc main_arg4)

/-- The 1x1 weight times the constant 1 − θ. -/
def wK (o c : Fin 64) : EReal := Ideal.ofBits .f32 0x3E99999A#32 * wp W (ix2 o c)
/-- The Gram matrix: the sum of the sixteen chunks'. -/
def gK (c c' : Fin 64) : EReal := ∑ i : Fin 16, GA W (ix3 i c c')
/-- The channel sums: the sum of the sixteen chunks'. -/
def vK (c : Fin 64) : EReal := ∑ i : Fin 16, VA W (ix3 i c 0)

/-! ## The stretch's values, operation by operation -/

def h226 : FVec Ideal S64x64 .f32 := Host.reduceAdd (GA W) (constant (F := Ideal) S_ .f32 0x00000000#32) reducesTo_S16x64x64_S64x64_d0 h_S_
def h227 : FVec Ideal S64x1 .f32 := Host.reduceAdd (VA W) (constant (F := Ideal) S_ .f32 0x00000000#32) reducesTo_S16x64x1_S64x1_d0 h_S_
def h229 : FVec Ideal S64x64 .f32 := mulf (broadcastInDim S64x64 ![] bcast_S_S64x64 (constant (F := Ideal) S_ .f32 0x3E99999A#32)) (wp W)
def h230 : FVec Ideal S64x1 .f32 := Host.dotGeneral dot_S64x64_S64x1_S64x1_1_0_0_1_n_n none (h229 W) (h227 W)
def h232 : FVec Ideal S64x1 .f32 := Host.divf (h230 W) (broadcastInDim S64x1 ![] bcast_S_S64x1 (constant (F := Ideal) S_ .f32 0x48000000#32))
def h233 : FVec Ideal S64x64 .f32 := Host.dotGeneral dot_S64x64_S64x64_S64x64_1_0_0_1_n_n none (h229 W) (h226 W)
def h234 : FVec Ideal S64x64 .f32 := mulf (h233 W) (h229 W)
def h235 : FVec Ideal S64 .f32 := Host.reduceAdd (h234 W) (constant (F := Ideal) S_ .f32 0x00000000#32) reducesTo_S64x64_S64_d1 h_S_
def h236 : FVec Ideal S64x1 .f32 := broadcastInDim S64x1 ![0] bcast_S64_S64x1_0 (h235 W)
def h238 : FVec Ideal S64x1 .f32 := Host.divf (h236 W) (broadcastInDim S64x1 ![] bcast_S_S64x1 (constant (F := Ideal) S_ .f32 0x48000000#32))
def h240 : FVec Ideal S64x1 .f32 := subf (h238 W) (mulf (h232 W) (h232 W))
def h241 : FVec Ideal S64x1 .f32 := shapeCast S64x1 (ga W) shapeCasts_S64_S64x1
def h245 : FVec Ideal S64x1 .f32 := mulf (h241 W) (Host.rsqrt (addf (h240 W) (broadcastInDim S64x1 ![] bcast_S_S64x1 (constant (F := Ideal) S_ .f32 0x3727C5AC#32))))
def h246 : FVec Ideal S64x1 .f32 := shapeCast S64x1 (be W) shapeCasts_S64_S64x1
def h248 : FVec Ideal S64x1 .f32 := subf (h246 W) (mulf (h232 W) (h245 W))
def h251 : FVec Ideal S64x64 .bf16 := truncf .bf16 (mulf (broadcastInDim S64x64 ![0, 1] bcast_S64x1_S64x64_0_1 (h245 W)) (h229 W)) bitsLt_bf16_f32

/-! ## What the stretch leaves in the two arrays the second region reads, and in the one it leaves alone -/

set_option maxHeartbeats 4000000 in
theorem after_v251 : (StableHlo.after hostOps1 W (Proc.devRef .tc main_v251) : S64x64.Idx → EReal) = h251 W := by
  dsimp only [hostOps1]
  after_results_simp
  rfl

set_option maxHeartbeats 4000000 in
theorem after_v248 : (StableHlo.after hostOps1 W (Proc.devRef .tc main_v248) : S64x1.Idx → EReal) = h248 W := by
  dsimp only [hostOps1]
  after_results_simp
  rfl

set_option maxHeartbeats 4000000 in
/-- No operation of the stretch writes the convolved array. -/
theorem cdc_kept : StableHlo.after hostOps1 W (Proc.devRef .tc main_v225_0) = W (Proc.devRef .tc main_v225_0) := by
  dsimp only [hostOps1]
  after_results_simp

/-! ## Each value read at an index -/

/-- A constant broadcast from the rank-0 shape reads the constant everywhere. -/
theorem bcast0_apply {t : Shape} (h : S_.BroadcastsInDim t (![] : Fin 0 → Fin t.rank)) (b : BitVec 32) (j : t.Idx) :
    broadcastInDim t ![] h (constant (F := Ideal) S_ .f32 b) j = Ideal.ofBits .f32 b := by
  rw [broadcastInDim_apply ![] h _ j ix0 (fun a => a.elim0)]
  rfl

theorem red0_S16x64x64 : S16x64x64.Reduces [0] S64x64 := by decide
theorem red0_S16x64x1 : S16x64x1.Reduces [0] S64x1 := by decide
theorem red1_S64x64 : S64x64.Reduces [1] S64 := by decide

/-- The weight times 1 − θ. -/
theorem h229_apply (o c : Fin 64) : h229 W (ix2 o c) = wK W o c := by
  unfold h229 wK
  rw [mulf_apply, bcast0_apply]

/-- The host sum of the sixteen Gram matrices: its zero initial value adds nothing. -/
theorem h226_apply (c c' : Fin 64) : h226 W (ix2 c c') = gK W c c' := by
  unfold h226 gK Host.reduceAdd
  rw [Ideal.hostReduceAdd_def, Ideal.hostReduceAdd_single reducesTo_S16x64x64_S64x64_d0 red0_S16x64x64]
  rw [constant_apply, Ideal.ofBits_zero_f32, zero_add]
  refine Finset.sum_congr rfl fun i _ => congrArg (GA W) (funext fun a => Fin.ext ?_)
  match a with
  | ⟨0, _⟩ => rfl
  | ⟨1, _⟩ => rfl
  | ⟨2, _⟩ => rfl

/-- The host sum of the sixteen channel-sum columns. -/
theorem h227_apply (c : Fin 64) : h227 W (ix2 c 0) = vK W c := by
  unfold h227 vK Host.reduceAdd
  rw [Ideal.hostReduceAdd_def, Ideal.hostReduceAdd_single reducesTo_S16x64x1_S64x1_d0 red0_S16x64x1]
  rw [constant_apply, Ideal.ofBits_zero_f32, zero_add]
  refine Finset.sum_congr rfl fun i _ => congrArg (VA W) (funext fun a => Fin.ext ?_)
  match a with
  | ⟨0, _⟩ => rfl
  | ⟨1, _⟩ => rfl
  | ⟨2, _⟩ => rfl

/-- The weight against the channel sums. -/
theorem h230_apply (o : Fin 64) : h230 W (ix2 o 0) = ∑ c : Fin 64, wK W o c * vK W c := by
  unfold h230
  rw [show (dot_S64x64_S64x1_S64x1_1_0_0_1_n_n : DotDims S64x64 S64x1 S64x1) = DotDims.plain 64 64 1 from rfl]
  rw [StackMember.dotGeneral_plain_apply]
  exact Finset.sum_congr rfl fun c _ => by rw [h229_apply, h227_apply]

/-- The mean of the 1x1 convolution's output. -/
theorem h232_apply (o : Fin 64) : h232 W (ix2 o 0) = meanG (wK W) (gK W) (vK W) o := by
  unfold h232 meanG
  show Ideal.div (h230 W (ix2 o 0)) (broadcastInDim S64x1 ![] bcast_S_S64x1 (constant (F := Ideal) S_ .f32 0x48000000#32) (ix2 o 0)) = _
  rw [h230_apply, bcast0_apply]

/-- The weight against the Gram matrix. -/
theorem h233_apply (o c' : Fin 64) : h233 W (ix2 o c') = ∑ c : Fin 64, wK W o c * gK W c c' := by
  unfold h233
  rw [show (dot_S64x64_S64x64_S64x64_1_0_0_1_n_n : DotDims S64x64 S64x64 S64x64) = DotDims.plain 64 64 64 from rfl]
  rw [StackMember.dotGeneral_plain_apply]
  exact Finset.sum_congr rfl fun c _ => by rw [h229_apply, h226_apply]

theorem h234_apply (o c' : Fin 64) : h234 W (ix2 o c') = (∑ c : Fin 64, wK W o c * gK W c c') * wK W o c' := by
  unfold h234
  rw [mulf_apply, h233_apply, h229_apply]

/-- Its row sums: the zero initial value adds nothing. -/
theorem h235_apply (o : Fin 64) : h235 W (ix1 o) = ∑ c' : Fin 64, (∑ c : Fin 64, wK W o c * gK W c c') * wK W o c' := by
  unfold h235 Host.reduceAdd
  rw [Ideal.hostReduceAdd_def, Ideal.hostReduceAdd_single reducesTo_S64x64_S64_d1 red1_S64x64]
  rw [constant_apply, Ideal.ofBits_zero_f32, zero_add]
  refine Finset.sum_congr rfl fun (k : Fin 64) _ => ?_
  have e : red1_S64x64.lift (ix1 o) k = ix2 o k := funext fun a => Fin.ext (by
    match a with
    | ⟨0, _⟩ => rfl
    | ⟨1, _⟩ => rfl)
  rw [e, h234_apply]

theorem h236_apply (o : Fin 64) : h236 W (ix2 o 0) = h235 W (ix1 o) := by
  unfold h236
  exact broadcastInDim_apply ![0] bcast_S64_S64x1_0 _ (ix2 o 0) (ix1 o) (by
    intro a
    match a with
    | ⟨0, _⟩ => rfl)

/-- The second moment of the 1x1 convolution's output. -/
theorem h238_apply (o : Fin 64) : h238 W (ix2 o 0) = e2G (wK W) (gK W) (vK W) o := by
  unfold h238 e2G
  show Ideal.div (h236 W (ix2 o 0)) (broadcastInDim S64x1 ![] bcast_S_S64x1 (constant (F := Ideal) S_ .f32 0x48000000#32) (ix2 o 0)) = _
  rw [h236_apply, h235_apply, bcast0_apply]

/-- The variance. -/
theorem h240_apply (o : Fin 64) : h240 W (ix2 o 0) = varG (wK W) (gK W) (vK W) o := by
  unfold h240 varG
  rw [subf_apply, mulf_apply, h238_apply, h232_apply]

/-- A vector of 64 cast to a column reads its entry. -/
theorem col_apply (x : S64.Idx → EReal) (o : Fin 64) : shapeCast S64x1 x shapeCasts_S64_S64x1 (ix2 o 0) = x (ix1 o) :=
  shapeCast_apply x shapeCasts_S64_S64x1 (ix2 o 0) (ix1 o) (by
    rw [Shape.rowMajor_val_one, Shape.rowMajor_val_two]
    show o.val = o.val * 1 + 0
    omega)

/-- The scale. -/
theorem h245_apply (o : Fin 64) : h245 W (ix2 o 0) = scaleG (wK W) (fun o => ga W (ix1 o)) (gK W) (vK W) o := by
  unfold h245 scaleG h241
  show shapeCast S64x1 (ga W) shapeCasts_S64_S64x1 (ix2 o 0)
      * Ideal.rsqrt (h240 W (ix2 o 0) + broadcastInDim S64x1 ![] bcast_S_S64x1 (constant (F := Ideal) S_ .f32 0x3727C5AC#32) (ix2 o 0)) = _
  rw [col_apply, h240_apply, bcast0_apply]

/-- The shift. -/
theorem h248_apply (o : Fin 64) : h248 W (ix2 o 0) = shiftG (wK W) (fun o => ga W (ix1 o)) (fun o => be W (ix1 o)) (gK W) (vK W) o := by
  unfold h248 shiftG h246
  rw [subf_apply, mulf_apply, col_apply, h232_apply, h245_apply]

/-- The folded weight (the cast to bf16 is the identity on the extended reals). -/
theorem h251_apply (o c : Fin 64) : h251 W (ix2 o c) = scaleG (wK W) (fun o => ga W (ix1 o)) (gK W) (vK W) o * wK W o c := by
  unfold h251
  rw [truncf_apply, mulf_apply, h229_apply]
  rw [broadcastInDim_apply ![0, 1] bcast_S64x1_S64x64_0_1 _ (ix2 o c) (ix2 o 0) (by
    intro a
    match a with
    | ⟨0, _⟩ => rfl
    | ⟨1, _⟩ => rfl)]
  rw [h245_apply]

/-! ## The exports -/

/-- The folded weight the second region reads. -/
theorem wps_apply (o c : Fin 64) :
    (StableHlo.after hostOps1 W (Proc.devRef .tc main_v251) : S64x64.Idx → EReal) (ix2 o c)
      = scaleG (wK W) (fun o => ga W (ix1 o)) (gK W) (vK W) o * wK W o c := by
  rw [after_v251]; exact h251_apply W o c

/-- The shift the second region reads. -/
theorem shift_apply (o : Fin 64) :
    (StableHlo.after hostOps1 W (Proc.devRef .tc main_v248) : S64x1.Idx → EReal) (ix2 o 0)
      = shiftG (wK W) (fun o => ga W (ix1 o)) (fun o => be W (ix1 o)) (gK W) (vK W) o := by
  rw [after_v248]; exact h248_apply W o

end Host1

end Cert.KernelIdeal.Val

end
-- ==== Proof.KPay0.lean ====
/- The payloads of region 0's Gram and channel-sum stores, read at an index over the extended reals. The body rounds its
   f32 central-difference block C (512 rows, 1024 positions) to bf16 — no change of value here —, cuts it into eight groups
   of 64 rows, and stores (i) the sum over the groups of each group's 64x64 matrix of row products, Σ_l C(64g+a, l) · C(64g+b, l),
   and (ii) the sum over the groups of each group's row sums, Σ_l C(64g+a, l). Each group's term enters a running sum that
   starts from the zero word, three groups in one part of the body and five in the next; read at an index the running sums
   are one sum over the eight groups. -/
import proofs.«151441_g2000606144476369_pallasbulk_1044_2_alg».proof.Proof.Gen.KernelIdeal.Skeleton
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe
open Idealize.SL Idealize.SL.Sem
open Idealize.ShloMosaic.ValueIdx
open scoped BigOperators

section Sums

/-- Row `64 g + a` of a 512-row block: row `a` of its `g`-th 64-row group. -/
def grow (g : Fin 8) (a : Fin 64) : Fin 512 := ⟨64 * g.val + a.val, by have := g.isLt; have := a.isLt; omega⟩

/-- The sum over the 1024 positions of row `a` of group `g`, and of the products of rows `a` and `b` of group `g`. -/
def laneS (C : S512x1024.Idx → EReal) (g : Fin 8) (a : Fin 64) : EReal := ∑ l : Fin 1024, C (ix2 (grow g a) l)
def gramS (C : S512x1024.Idx → EReal) (g : Fin 8) (a b : Fin 64) : EReal := ∑ l : Fin 1024, C (ix2 (grow g a) l) * C (ix2 (grow g b) l)

/-- The source index of a lane sum over result row `a` at position `l`. -/
theorem lift_row (a : Fin 64) (l : Fin 1024) : reduces_S64x1024_S64.lift (ix1 a) l = ix2 a l := by
  funext c; apply Fin.ext
  match c with
  | ⟨0, _⟩ => rfl
  | ⟨1, _⟩ => rfl

/-- The lane sums of rows o … o+63 of a block, kept as a [64,1] column: at (a, 0), the sum over the positions of row o + a. -/
theorem laneSum_apply (o : ℕ) (X : FVec Ideal S512x1024 .f32) (hs : S512x1024.Slices ![o, 0] S64x1024)
    (hφ : FKind.Formats .f32) (hacc : (0x00000000#32 : BitVec 32) = FKind.add.neutral .f32 hφ)
    (a : Fin 64) (k : Fin 512) (hk : k.val = o + a.val) :
    shapeCast S64x1 (multiReduction (F := Ideal) .add [1] S64 (extractStridedSlice S64x1024 ![o, 0] X hs) 0x00000000#32
        reduces_S64x1024_S64 hφ hacc) shapeCasts_S64_S64x1 (ix2 a (0 : Fin 1))
      = ∑ l : Fin 1024, X (ix2 k l) := by
  refine (shapeCast_apply _ shapeCasts_S64_S64x1 (ix2 a (0 : Fin 1)) (ix1 a) ?_).trans ?_
  · rw [Shape.rowMajor_val_one, Shape.rowMajor_val_two]
    show a.val = a.val * 1 + 0
    omega
  refine (Ideal.multiReduction_add_single _ _ reduces_S64x1024_S64 hφ hacc (ix1 a)).trans ?_
  show ∑ l : Fin 1024, extractStridedSlice S64x1024 ![o, 0] X hs (reduces_S64x1024_S64.lift (ix1 a) l) = _
  refine Finset.sum_congr rfl fun l _ => ?_
  rw [lift_row]
  exact slice2_axis0_apply o X hs a l k hk

/-! ### The Gram product of a 64-row group with itself -/

theorem lhs_dot_0 (j : S64x64.Idx) (k : dot_S64x1024_S64x1024_S64x64_1_1_0_0_n_n.contr.Idx) :
    (dot_S64x1024_S64x1024_S64x64_1_1_0_0_n_n.lhsIdx j k (0 : Fin 2)).val = (j 0).val := by
  unfold DotDims.lhsIdx
  rw [dif_neg (show ¬(0 : Fin S64x1024.rank) ∈ dot_S64x1024_S64x1024_S64x64_1_1_0_0_n_n.lhsBatch by decide),
    dif_pos (show (0 : Fin S64x1024.rank) ∈ dot_S64x1024_S64x1024_S64x64_1_1_0_0_n_n.lhsNonContracting by decide)]
  rfl
theorem lhs_dot_1 (j : S64x64.Idx) (k : dot_S64x1024_S64x1024_S64x64_1_1_0_0_n_n.contr.Idx) :
    (dot_S64x1024_S64x1024_S64x64_1_1_0_0_n_n.lhsIdx j k (1 : Fin 2)).val = (k ⟨0, by decide⟩).val :=
  DotDims.lhsIdx_val_of_single (d := dot_S64x1024_S64x1024_S64x64_1_1_0_0_n_n) (cl := (1 : Fin 2)) rfl j k
theorem rhs_dot_0 (j : S64x64.Idx) (k : dot_S64x1024_S64x1024_S64x64_1_1_0_0_n_n.contr.Idx) :
    (dot_S64x1024_S64x1024_S64x64_1_1_0_0_n_n.rhsIdx j k (0 : Fin 2)).val = (j 1).val := by
  unfold DotDims.rhsIdx
  rw [dif_neg (show ¬(0 : Fin S64x1024.rank) ∈ dot_S64x1024_S64x1024_S64x64_1_1_0_0_n_n.rhsBatch by decide),
    dif_pos (show (0 : Fin S64x1024.rank) ∈ dot_S64x1024_S64x1024_S64x64_1_1_0_0_n_n.rhsNonContracting by decide)]
  rfl
theorem rhs_dot_1 (j : S64x64.Idx) (k : dot_S64x1024_S64x1024_S64x64_1_1_0_0_n_n.contr.Idx) :
    (dot_S64x1024_S64x1024_S64x64_1_1_0_0_n_n.rhsIdx j k (1 : Fin 2)).val = (k ⟨0, by decide⟩).val :=
  DotDims.rhsIdx_val_of_single (d := dot_S64x1024_S64x1024_S64x64_1_1_0_0_n_n) (cr := (1 : Fin 2)) rfl j k

/-- Rows o … o+63 of a block times their own transpose, into the zero splat: at (a, b), the sum over the positions of the
    products of rows o + a and o + b. -/
theorem mm_apply (o : ℕ) (B : FVec Ideal S512x1024 .bf16) (hs : S512x1024.Slices ![o, 0] S64x1024)
    (a b : Fin 64) (ka kb : Fin 512) (hka : ka.val = o + a.val) (hkb : kb.val = o + b.val) :
    matmul dot_S64x1024_S64x1024_S64x64_1_1_0_0_n_n none (extractStridedSlice S64x1024 ![o, 0] B hs) (extractStridedSlice S64x1024 ![o, 0] B hs)
        (constant (F := Ideal) S64x64 .f32 0x00000000#32) (ix2 a b)
      = ∑ l : Fin 1024, B (ix2 ka l) * B (ix2 kb l) := by
  refine (Ideal.matmul_constant_zero_apply dot_S64x1024_S64x1024_S64x64_1_1_0_0_n_n none _ _ (ix2 a b)).trans ?_
  rw [← Equiv.sum_comp (contrEquiv1 dot_S64x1024_S64x1024_S64x64_1_1_0_0_n_n 1024 rfl rfl).symm]
  refine Finset.sum_congr rfl fun l _ => ?_
  have hl : dot_S64x1024_S64x1024_S64x64_1_1_0_0_n_n.lhsIdx (ix2 a b) ((contrEquiv1 dot_S64x1024_S64x1024_S64x64_1_1_0_0_n_n 1024 rfl rfl).symm l) = ix2 a l := by
    funext ax; apply Fin.ext
    match ax with
    | ⟨0, _⟩ => exact lhs_dot_0 _ _
    | ⟨1, _⟩ => exact (lhs_dot_1 _ _).trans (contrEquiv1_symm_val dot_S64x1024_S64x1024_S64x64_1_1_0_0_n_n 1024 rfl rfl l)
  have hr : dot_S64x1024_S64x1024_S64x64_1_1_0_0_n_n.rhsIdx (ix2 a b) ((contrEquiv1 dot_S64x1024_S64x1024_S64x64_1_1_0_0_n_n 1024 rfl rfl).symm l) = ix2 b l := by
    funext ax; apply Fin.ext
    match ax with
    | ⟨0, _⟩ => exact rhs_dot_0 _ _
    | ⟨1, _⟩ => exact (rhs_dot_1 _ _).trans (contrEquiv1_symm_val dot_S64x1024_S64x1024_S64x64_1_1_0_0_n_n 1024 rfl rfl l)
  rw [hl, hr]
  exact congrArg₂ (· * ·) (slice2_axis0_apply o B hs a l ka hka) (slice2_axis0_apply o B hs b l kb hkb)

end Sums

section Payloads

/-- Row `64 g + a` as a number. -/
theorem grow_val (g : Fin 8) (a : Fin 64) : (grow g a).val = 64 * g.val + a.val := rfl

/-- The product of rows o … o+63 of a block with their own transpose, into the zero splat, at (a, b). -/
def mmAt (B : FVec Ideal S512x1024 .bf16) (o : ℕ) (hs : S512x1024.Slices ![o, 0] S64x1024) (a b : Fin 64) : EReal :=
  matmul dot_S64x1024_S64x1024_S64x64_1_1_0_0_n_n none (extractStridedSlice S64x1024 ![o, 0] B hs) (extractStridedSlice S64x1024 ![o, 0] B hs)
    (constant (F := Ideal) S64x64 .f32 0x00000000#32) (ix2 a b)

/-- The row sums of rows o … o+63 of a block, kept as a column, at (a, 0). -/
def lsAt (X : FVec Ideal S512x1024 .f32) (o : ℕ) (hs : S512x1024.Slices ![o, 0] S64x1024) (a : Fin 64) : EReal :=
  shapeCast S64x1 (multiReduction (F := Ideal) .add [1] S64 (extractStridedSlice S64x1024 ![o, 0] X hs) 0x00000000#32
    reduces_S64x1024_S64 (.inl rfl) rfl) shapeCasts_S64_S64x1 (ix2 a (0 : Fin 1))

/-- Group `g` starts at row `o = 64 g`: its product matrix at (a, b) is the sum over the positions of the products of rows
    64 g + a and 64 g + b, -/
theorem mm_grow (B : FVec Ideal S512x1024 .bf16) (g : Fin 8) (o : ℕ) (ho : o = 64 * g.val) (hs : S512x1024.Slices ![o, 0] S64x1024) (a b : Fin 64) :
    mmAt B o hs a b = ∑ l : Fin 1024, B (ix2 (grow g a) l) * B (ix2 (grow g b) l) := by
  subst ho
  exact mm_apply _ B hs a b (grow g a) (grow g b) rfl rfl

/-- and its row sum at a is the sum over the positions of row 64 g + a. -/
theorem ls_grow (X : FVec Ideal S512x1024 .f32) (g : Fin 8) (o : ℕ) (ho : o = 64 * g.val) (hs : S512x1024.Slices ![o, 0] S64x1024) (a : Fin 64) :
    lsAt X o hs a = ∑ l : Fin 1024, X (ix2 (grow g a) l) := by
  subst ho
  exact laneSum_apply _ X hs (.inl rfl) rfl a (grow g a) rfl

variable (a0 a1 a2 a3 : FVec Ideal S512x1024 .f32) (a4 : Vec Ideal S1x1024 .f32) (a5 a6 : Vec Ideal S512x1 .f32)

/-- Rounding the f32 block to bf16 changes no value over the extended reals. -/
theorem trunc_apply : (k0_pay9 a0 a1 a2 a3 a4 a5 a6 : S512x1024.Idx → EReal) = k0_pay8 a0 a1 a2 a3 a4 a5 a6 := rfl

/-- The first three groups' product matrices, summed from the zero word, at (a, b). -/
theorem pay10_apply (a b : Fin 64) :
    (k0_pay10 a0 a1 a2 a3 a4 a5 a6 : S64x64.Idx → EReal) (ix2 a b)
      = Ideal.ofBits .f32 0x00000000#32 + mmAt (k0_pay9 a0 a1 a2 a3 a4 a5 a6) 0 slices_S512x1024_o0_0_S64x1024 a b + mmAt (k0_pay9 a0 a1 a2 a3 a4 a5 a6) 64 slices_S512x1024_o64_0_S64x1024 a b
        + mmAt (k0_pay9 a0 a1 a2 a3 a4 a5 a6) 128 slices_S512x1024_o128_0_S64x1024 a b := rfl

/-- The last five groups' product matrices added to a running sum `G`, stored with a leading unit axis, at (0, a, b). -/
theorem pay13_apply (B : FVec Ideal S512x1024 .bf16) (G : FVec Ideal S64x64 .f32) (a b : Fin 64) :
    (k0_pay13 B G : S1x64x64.Idx → EReal) (ix3 (0 : Fin 1) a b)
      = G (ix2 a b) + mmAt B 192 slices_S512x1024_o192_0_S64x1024 a b + mmAt B 256 slices_S512x1024_o256_0_S64x1024 a b + mmAt B 320 slices_S512x1024_o320_0_S64x1024 a b
        + mmAt B 384 slices_S512x1024_o384_0_S64x1024 a b + mmAt B 448 slices_S512x1024_o448_0_S64x1024 a b := by
  unfold k0_pay13
  exact (shapeCast_ab_1ab_apply _ shapeCasts_S64x64_S1x64x64 (0 : Fin 1) a b).trans rfl

/-- The first three groups' row sums, summed from the zero word, at (a, 0). -/
theorem pay11_apply (a : Fin 64) :
    (k0_pay11 a0 a1 a2 a3 a4 a5 a6 : S64x1.Idx → EReal) (ix2 a (0 : Fin 1))
      = Ideal.ofBits .f32 0x00000000#32 + lsAt (k0_pay8 a0 a1 a2 a3 a4 a5 a6) 0 slices_S512x1024_o0_0_S64x1024 a + lsAt (k0_pay8 a0 a1 a2 a3 a4 a5 a6) 64 slices_S512x1024_o64_0_S64x1024 a
        + lsAt (k0_pay8 a0 a1 a2 a3 a4 a5 a6) 128 slices_S512x1024_o128_0_S64x1024 a := rfl

/-- The last five groups' row sums added to a running sum `R`, at (a, 0). -/
theorem pay12_apply (X : FVec Ideal S512x1024 .f32) (R : FVec Ideal S64x1 .f32) (a : Fin 64) :
    (k0_pay12 X R : S64x1.Idx → EReal) (ix2 a (0 : Fin 1))
      = R (ix2 a (0 : Fin 1)) + lsAt X 192 slices_S512x1024_o192_0_S64x1024 a + lsAt X 256 slices_S512x1024_o256_0_S64x1024 a + lsAt X 320 slices_S512x1024_o320_0_S64x1024 a
        + lsAt X 384 slices_S512x1024_o384_0_S64x1024 a + lsAt X 448 slices_S512x1024_o448_0_S64x1024 a := rfl

/-- The column stored with a leading unit axis, at (0, a, 0). -/
theorem pay1_apply (R : FVec Ideal S64x1 .f32) (a : Fin 64) :
    (k0_pay1 R : S1x64x1.Idx → EReal) (ix3 (0 : Fin 1) a (0 : Fin 1)) = R (ix2 a (0 : Fin 1)) := by
  unfold k0_pay1
  exact shapeCast_ab_1ab_apply _ shapeCasts_S64x1_S1x64x1 (0 : Fin 1) a (0 : Fin 1)

/-- THE GRAM STORE at (0, a, b): the sum over the eight groups and the 1024 positions of the products of rows 64 g + a and
    64 g + b of the f32 central-difference block. -/
theorem gram_pay_apply (a b : Fin 64) :
    (k0_pay13 (k0_pay9 a0 a1 a2 a3 a4 a5 a6) (k0_pay10 a0 a1 a2 a3 a4 a5 a6) : S1x64x64.Idx → EReal) (ix3 (0 : Fin 1) a b)
      = ∑ bb : Fin 8, ∑ l : Fin 1024, (k0_pay8 a0 a1 a2 a3 a4 a5 a6 : S512x1024.Idx → EReal) (ix2 (grow bb a) l) * (k0_pay8 a0 a1 a2 a3 a4 a5 a6 : S512x1024.Idx → EReal) (ix2 (grow bb b) l) := by
  refine (pay13_apply (k0_pay9 a0 a1 a2 a3 a4 a5 a6) (k0_pay10 a0 a1 a2 a3 a4 a5 a6) a b).trans ?_
  rw [pay10_apply a0 a1 a2 a3 a4 a5 a6 a b, Ideal.ofBits_zero_f32, zero_add, Fin.sum_univ_eight,
    mm_grow _ 0 0 rfl slices_S512x1024_o0_0_S64x1024 a b,
    mm_grow _ 1 64 rfl slices_S512x1024_o64_0_S64x1024 a b,
    mm_grow _ 2 128 rfl slices_S512x1024_o128_0_S64x1024 a b,
    mm_grow _ 3 192 rfl slices_S512x1024_o192_0_S64x1024 a b,
    mm_grow _ 4 256 rfl slices_S512x1024_o256_0_S64x1024 a b,
    mm_grow _ 5 320 rfl slices_S512x1024_o320_0_S64x1024 a b,
    mm_grow _ 6 384 rfl slices_S512x1024_o384_0_S64x1024 a b,
    mm_grow _ 7 448 rfl slices_S512x1024_o448_0_S64x1024 a b]
  rfl

/-- THE CHANNEL-SUM STORE at (0, a, 0): the sum over the eight groups and the 1024 positions of row 64 g + a of the f32
    central-difference block. -/
theorem rsum_pay_apply (a : Fin 64) :
    (k0_pay1 (k0_pay12 (k0_pay8 a0 a1 a2 a3 a4 a5 a6) (k0_pay11 a0 a1 a2 a3 a4 a5 a6)) : S1x64x1.Idx → EReal) (ix3 (0 : Fin 1) a (0 : Fin 1))
      = ∑ bb : Fin 8, ∑ l : Fin 1024, (k0_pay8 a0 a1 a2 a3 a4 a5 a6 : S512x1024.Idx → EReal) (ix2 (grow bb a) l) := by
  refine (pay1_apply _ a).trans ?_
  rw [pay12_apply _ _ a, pay11_apply a0 a1 a2 a3 a4 a5 a6 a, Ideal.ofBits_zero_f32, zero_add, Fin.sum_univ_eight,
    ls_grow _ 0 0 rfl slices_S512x1024_o0_0_S64x1024 a,
    ls_grow _ 1 64 rfl slices_S512x1024_o64_0_S64x1024 a,
    ls_grow _ 2 128 rfl slices_S512x1024_o128_0_S64x1024 a,
    ls_grow _ 3 192 rfl slices_S512x1024_o192_0_S64x1024 a,
    ls_grow _ 4 256 rfl slices_S512x1024_o256_0_S64x1024 a,
    ls_grow _ 5 320 rfl slices_S512x1024_o320_0_S64x1024 a,
    ls_grow _ 6 384 rfl slices_S512x1024_o384_0_S64x1024 a,
    ls_grow _ 7 448 rfl slices_S512x1024_o448_0_S64x1024 a]

end Payloads

end Cert.KernelIdeal.Val

end
-- ==== Proof.KVal0.lean ====
/- REGION 0's three output ARRAYS after the grid, index by index, over the extended reals. Row `row` of the
   convolved array is the specification's plane convolution `cdcRow` of row `row` of x with that row's tap weights,
   difference weight and the border masks; slab `i` of the Gram partials is, at (a, b), the sum over the slab's eight
   64-row groups and the 1024 positions of the products of rows a and b of the group; slab `i` of the channel-sum
   partials is, at a, the sum over the eight groups and the positions of row a of the group. -/
import proofs.«151441_g2000606144476369_pallasbulk_1044_2_alg».proof.Proof.K0Body
import proofs.«151441_g2000606144476369_pallasbulk_1044_2_alg».proof.Proof.KPay0
import proofs.«151441_g2000606144476369_pallasbulk_1044_2_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Val

open Cert.KernelIdeal Cert.KernelIdeal.Gen Cert.KernelIdeal.Hand Cert.Spec
open Idealize.ShloMosaic Idealize.ShloMosaic.TcCoe
open Idealize.SL Idealize.SL.Sem
open Idealize.ShloMosaic.Pipeline (Dat Cfg Window)
open Idealize.ShloMosaic.ValueIdx
open scoped BigOperators

section Arrays
-- the TensorCore's buffer contents when the region is entered
variable (V : (c : Dev nD) → (b : Ref sig .tc) → Buf (Elt Ideal) ((c : Thread nD τ).loc b))

/-- The region's four input arrays: x as [8192,1024], the tap weights tiled to [512,9], the difference weights tiled
    to [512,1], the nine border masks [9,1024]. -/
abbrev xA (c : Dev nD) : Vec Ideal S8192x1024 .f32 := V c main_v0
abbrev wdA (c : Dev nD) : Vec Ideal S512x9 .f32 := V c main_v4
abbrev kdA (c : Dev nD) : Vec Ideal S512x1 .f32 := V c main_v11
abbrev mkA (c : Dev nD) : Vec Ideal S9x1024 .f32 := V c main_v224

/-- Row `row` of the convolved array: the specification's plane convolution of that row of x with the row's tap weights
    (row mod 512 of the tiled table), its difference weight and the masks. -/
def cdRow (c : Dev nD) (row : Fin 8192) (l : Fin 1024) : EReal :=
  cdcRow (fun j => xA V c (ix2 row j)) (fun t => wdA V c (ix2 ⟨row.val % 512, Nat.mod_lt _ (by decide)⟩ t))
    (kdA V c (ix2 ⟨row.val % 512, Nat.mod_lt _ (by decide)⟩ 0)) (fun t j => mkA V c (ix2 t j)) l

end Arrays

namespace Arr0

/-! ## Reading the body's operations at an index -/

section Payload

theorem hz00 : (![0, 0] : Fin 2 → Nat) = fun _ => 0 := funext fun a => by fin_cases a <;> rfl
theorem hz000 : (![0, 0, 0] : Fin 3 → Nat) = fun _ => 0 := funext fun a => by fin_cases a <;> rfl

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A rotation by `sb` along the 1024 positions reads position `l - sb` around the end. -/
theorem rot_apply (sb : BitVec 32) (R : FVec Ideal S512x1024 .f32) (r : Fin 512) (l : Fin 1024) :
    dynamicRotate 1 sb none R rotates_S512x1024_d1 (ix2 r l) = R (ix2 r (rotL sb.toNat l)) := by
  refine dynamicRotate_apply 1 sb R rotates_S512x1024_d1 (ix2 r l) (ix2 r (rotL sb.toNat l)) fun b => ?_
  match b with
  | ⟨0, _⟩ => rfl
  | ⟨1, _⟩ => rfl

/-- Row `o` of the masks, loaded as a [1,1024] block. -/
theorem ld_row (o : ℕ) (ho : o < 9) (inb : ∀ a, (![o, 0] : Fin 2 → Nat) a + S1x1024.size a ≤ S9x1024.size a)
    (x3 : Vec Ideal S9x1024 .f32) (l : Fin 1024) :
    View.ld x3 (Rect.unit (s := S9x1024) ![o, 0] S1x1024.size inb) (ix2 (0 : Fin 1) l) = x3 (ix2 (⟨o, ho⟩ : Fin 9) l) := by
  show x3 ((Rect.unit (s := S9x1024) ![o, 0] S1x1024.size inb).emb (ix2 (0 : Fin 1) l)) = _
  refine congrArg x3 (funext fun a => Fin.ext ?_)
  rw [Rect.emb_apply]
  match a with
  | ⟨0, _⟩ => show o + 1 * 0 = o; omega
  | ⟨1, _⟩ => show 0 + 1 * l.val = l.val; omega

/-- Column `o` of the tap weights, loaded as a [512,1] block. -/
theorem ld_col (o : ℕ) (ho : o < 9) (inb : ∀ a, (![0, o] : Fin 2 → Nat) a + S512x1.size a ≤ S512x9.size a)
    (x1 : Vec Ideal S512x9 .f32) (r : Fin 512) :
    View.ld x1 (Rect.unit (s := S512x9) ![0, o] S512x1.size inb) (ix2 r (0 : Fin 1)) = x1 (ix2 r (⟨o, ho⟩ : Fin 9)) := by
  show x1 ((Rect.unit (s := S512x9) ![0, o] S512x1.size inb).emb (ix2 r (0 : Fin 1))) = _
  refine congrArg x1 (funext fun a => Fin.ext ?_)
  rw [Rect.emb_apply]
  match a with
  | ⟨0, _⟩ => show 0 + 1 * r.val = r.val; omega
  | ⟨1, _⟩ => show o + 1 * 0 = o; omega

/-- r = max(x, 0) at an index. -/
theorem pay2_apply (v0 : Vec Ideal S512x1024 .f32) (j : S512x1024.Idx) : k0_pay2 v0 j = max (v0 j) 0 := by
  unfold k0_pay2
  show max (shapeCast S512x1024 v0 shapeCasts_S512x1024_S512x1024 j) (Ideal.ofBits .f32 0x00000000#32) = _
  rw [shapeCast_self, Ideal.ofBits_zero_f32]

theorem relu0_apply (x0 : Vec Ideal S512x1024 .f32) (j : S512x1024.Idx) : relu0 x0 j = max (x0 j) 0 := by
  unfold relu0
  rw [View.ld_unit_zero (S := S512x1024) hz00, pay2_apply]

end Payload

section Conv

/-- The zero word is the extended real zero. -/
theorem zero_word : (FloatOps.ofBits (F := Ideal) .f32 0x00000000#32 : EReal) = 0 := Ideal.ofBits_zero_f32

theorem rot_66 (R : FVec Ideal S512x1024 .f32) (r : Fin 512) (l : Fin 1024) :
    dynamicRotate 1 66#32 none R rotates_S512x1024_d1 (ix2 r l) = R (ix2 r (rotL 66 l)) := rot_apply 66#32 R r l
theorem rot_64 (R : FVec Ideal S512x1024 .f32) (r : Fin 512) (l : Fin 1024) :
    dynamicRotate 1 64#32 none R rotates_S512x1024_d1 (ix2 r l) = R (ix2 r (rotL 64 l)) := rot_apply 64#32 R r l
theorem rot_62 (R : FVec Ideal S512x1024 .f32) (r : Fin 512) (l : Fin 1024) :
    dynamicRotate 1 62#32 none R rotates_S512x1024_d1 (ix2 r l) = R (ix2 r (rotL 62 l)) := rot_apply 62#32 R r l
theorem rot_2 (R : FVec Ideal S512x1024 .f32) (r : Fin 512) (l : Fin 1024) :
    dynamicRotate 1 2#32 none R rotates_S512x1024_d1 (ix2 r l) = R (ix2 r (rotL 2 l)) := rot_apply 2#32 R r l
theorem rot_1022 (R : FVec Ideal S512x1024 .f32) (r : Fin 512) (l : Fin 1024) :
    dynamicRotate 1 1022#32 none R rotates_S512x1024_d1 (ix2 r l) = R (ix2 r (rotL 1022 l)) := rot_apply 1022#32 R r l
theorem rot_962 (R : FVec Ideal S512x1024 .f32) (r : Fin 512) (l : Fin 1024) :
    dynamicRotate 1 962#32 none R rotates_S512x1024_d1 (ix2 r l) = R (ix2 r (rotL 962 l)) := rot_apply 962#32 R r l
theorem rot_960 (R : FVec Ideal S512x1024 .f32) (r : Fin 512) (l : Fin 1024) :
    dynamicRotate 1 960#32 none R rotates_S512x1024_d1 (ix2 r l) = R (ix2 r (rotL 960 l)) := rot_apply 960#32 R r l
theorem rot_958 (R : FVec Ideal S512x1024 .f32) (r : Fin 512) (l : Fin 1024) :
    dynamicRotate 1 958#32 none R rotates_S512x1024_d1 (ix2 r l) = R (ix2 r (rotL 958 l)) := rot_apply 958#32 R r l

theorem ld_m0 (x3 : Vec Ideal S9x1024 .f32) (l : Fin 1024) : View.ld x3 r0_m0 (ix2 (0 : Fin 1) l) = x3 (ix2 (0 : Fin 9) l) :=
  ld_row 0 (by decide) _ x3 l
theorem ld_m1 (x3 : Vec Ideal S9x1024 .f32) (l : Fin 1024) : View.ld x3 r0_m1 (ix2 (0 : Fin 1) l) = x3 (ix2 (1 : Fin 9) l) :=
  ld_row 1 (by decide) _ x3 l
theorem ld_m2 (x3 : Vec Ideal S9x1024 .f32) (l : Fin 1024) : View.ld x3 r0_m2 (ix2 (0 : Fin 1) l) = x3 (ix2 (2 : Fin 9) l) :=
  ld_row 2 (by decide) _ x3 l
theorem ld_m3 (x3 : Vec Ideal S9x1024 .f32) (l : Fin 1024) : View.ld x3 r0_m3 (ix2 (0 : Fin 1) l) = x3 (ix2 (3 : Fin 9) l) :=
  ld_row 3 (by decide) _ x3 l
theorem ld_m5 (x3 : Vec Ideal S9x1024 .f32) (l : Fin 1024) : View.ld x3 r0_m5 (ix2 (0 : Fin 1) l) = x3 (ix2 (5 : Fin 9) l) :=
  ld_row 5 (by decide) _ x3 l
theorem ld_m6 (x3 : Vec Ideal S9x1024 .f32) (l : Fin 1024) : View.ld x3 r0_m6 (ix2 (0 : Fin 1) l) = x3 (ix2 (6 : Fin 9) l) :=
  ld_row 6 (by decide) _ x3 l
theorem ld_m7 (x3 : Vec Ideal S9x1024 .f32) (l : Fin 1024) : View.ld x3 r0_m7 (ix2 (0 : Fin 1) l) = x3 (ix2 (7 : Fin 9) l) :=
  ld_row 7 (by decide) _ x3 l
theorem ld_m8 (x3 : Vec Ideal S9x1024 .f32) (l : Fin 1024) : View.ld x3 r0_m8 (ix2 (0 : Fin 1) l) = x3 (ix2 (8 : Fin 9) l) :=
  ld_row 8 (by decide) _ x3 l

theorem ld_w0 (x1 : Vec Ideal S512x9 .f32) (r : Fin 512) : View.ld x1 r0_w0 (ix2 r (0 : Fin 1)) = x1 (ix2 r (0 : Fin 9)) :=
  ld_col 0 (by decide) _ x1 r
theorem ld_w1 (x1 : Vec Ideal S512x9 .f32) (r : Fin 512) : View.ld x1 r0_w1 (ix2 r (0 : Fin 1)) = x1 (ix2 r (1 : Fin 9)) :=
  ld_col 1 (by decide) _ x1 r
theorem ld_w2 (x1 : Vec Ideal S512x9 .f32) (r : Fin 512) : View.ld x1 r0_w2 (ix2 r (0 : Fin 1)) = x1 (ix2 r (2 : Fin 9)) :=
  ld_col 2 (by decide) _ x1 r
theorem ld_w3 (x1 : Vec Ideal S512x9 .f32) (r : Fin 512) : View.ld x1 r0_w3 (ix2 r (0 : Fin 1)) = x1 (ix2 r (3 : Fin 9)) :=
  ld_col 3 (by decide) _ x1 r
theorem ld_w4 (x1 : Vec Ideal S512x9 .f32) (r : Fin 512) : View.ld x1 r0_w4 (ix2 r (0 : Fin 1)) = x1 (ix2 r (4 : Fin 9)) :=
  ld_col 4 (by decide) _ x1 r
theorem ld_w5 (x1 : Vec Ideal S512x9 .f32) (r : Fin 512) : View.ld x1 r0_w5 (ix2 r (0 : Fin 1)) = x1 (ix2 r (5 : Fin 9)) :=
  ld_col 5 (by decide) _ x1 r
theorem ld_w6 (x1 : Vec Ideal S512x9 .f32) (r : Fin 512) : View.ld x1 r0_w6 (ix2 r (0 : Fin 1)) = x1 (ix2 r (6 : Fin 9)) :=
  ld_col 6 (by decide) _ x1 r
theorem ld_w7 (x1 : Vec Ideal S512x9 .f32) (r : Fin 512) : View.ld x1 r0_w7 (ix2 r (0 : Fin 1)) = x1 (ix2 r (7 : Fin 9)) :=
  ld_col 7 (by decide) _ x1 r
theorem ld_w8 (x1 : Vec Ideal S512x9 .f32) (r : Fin 512) : View.ld x1 r0_w8 (ix2 r (0 : Fin 1)) = x1 (ix2 r (8 : Fin 9)) :=
  ld_col 8 (by decide) _ x1 r

/-- A [1,1024] row spread over the 512 rows, and a [512,1] column spread over the 1024 positions. -/
theorem bcRow_apply (v : FVec Ideal S1x1024 .f32) (r : Fin 512) (l : Fin 1024) :
    broadcastTo S512x1024 v broadcasts_S1x1024_S512x1024 (ix2 r l) = v (ix2 (0 : Fin 1) l) :=
  broadcastTo_1b_ab_apply v _ r l
theorem bcCol_apply (v : FVec Ideal S512x1 .f32) (r : Fin 512) (l : Fin 1024) :
    broadcastTo S512x1024 v broadcasts_S512x1_S512x1024 (ix2 r l) = v (ix2 r (0 : Fin 1)) :=
  broadcastTo_a1_ab_apply v _ r l

/-- The f32 central-difference block at (r, l): the specification's plane convolution of row r. -/
theorem cdc0_apply (x0 : Vec Ideal S512x1024 .f32) (x1 : Vec Ideal S512x9 .f32) (x2 : Vec Ideal S512x1 .f32) (x3 : Vec Ideal S9x1024 .f32)
    (r : Fin 512) (l : Fin 1024) :
    cdc0 x0 x1 x2 x3 (ix2 r l)
      = cdcRow (fun j => x0 (ix2 r j)) (fun t => x1 (ix2 r t)) (x2 (ix2 r 0)) (fun t j => x3 (ix2 t j)) l := by
  unfold cdc0 k0_pay8 taps0to6_0 k0_pay5 taps012_0 k0_pay3 rot3_0 k0_pay4 tap7m_0 k0_pay6 tap7w_0 k0_pay7 cdcRow
  simp only [subf_apply, addf_apply, mulf_apply, broadcast_apply, shapeCast_self, bcRow_apply, bcCol_apply,
    ld_m0, ld_m1, ld_m2, ld_m3, ld_m5, ld_m6, ld_m7, ld_m8,
    ld_w0, ld_w1, ld_w2, ld_w3, ld_w4, ld_w5, ld_w6, ld_w7, ld_w8,
    relu0_apply, pay2_apply, View.ld_unit_zero (S := S512x1024) hz00, View.ld_unit_zero (S := S512x1) hz00]
  rw [rot_66, rot_64, rot_62, rot_2, rot_1022, rot_962, rot_960, rot_958]
  simp only [relu0_apply, pay2_apply]
  rw [zero_word, zero_add, ld_m0, ld_m1, ld_m2, ld_m3, ld_m5, ld_m6, ld_m7, ld_m8,
    ld_w0, ld_w1, ld_w2, ld_w3, ld_w4, ld_w5, ld_w6, ld_w7, ld_w8]

end Conv

section Out56

/-- The Gram block the body stores, at (0, a, b): the sum over the eight groups and the positions of the products of rows a and b
    of the group of the f32 central-difference block. -/
theorem out5_apply (x0 : Vec Ideal S512x1024 .f32) (x1 : Vec Ideal S512x9 .f32) (x2 : Vec Ideal S512x1 .f32) (x3 : Vec Ideal S9x1024 .f32) (a b : Fin 64) :
    k0_pay13 (cdcb0 x0 x1 x2 x3) (gram3_0 x0 x1 x2 x3) (ix3 (0 : Fin 1) a b)
      = ∑ bb : Fin 8, ∑ l : Fin 1024, cdc0 x0 x1 x2 x3 (ix2 (grow bb a) l) * cdc0 x0 x1 x2 x3 (ix2 (grow bb b) l) :=
  gram_pay_apply (relu0 x0) (taps0to6_0 x0 x1 x3) (tap7m_0 x0 x3) (tap7w_0 x1) (View.ld x3 r0_m8) (View.ld x1 r0_w8) (View.ld x2 r0_kd) a b

/-- The channel-sum block the body stores, at (0, a, 0): the sum over the eight groups and the positions of row a of the group. -/
theorem out6_apply (x0 : Vec Ideal S512x1024 .f32) (x1 : Vec Ideal S512x9 .f32) (x2 : Vec Ideal S512x1 .f32) (x3 : Vec Ideal S9x1024 .f32) (a : Fin 64) :
    k0_pay1 (k0_pay12 (cdc0 x0 x1 x2 x3) (rsum3_0 x0 x1 x2 x3)) (ix3 (0 : Fin 1) a (0 : Fin 1))
      = ∑ bb : Fin 8, ∑ l : Fin 1024, cdc0 x0 x1 x2 x3 (ix2 (grow bb a) l) :=
  rsum_pay_apply (relu0 x0) (taps0to6_0 x0 x1 x3) (tap7m_0 x0 x3) (tap7w_0 x1) (View.ld x3 r0_m8) (View.ld x1 r0_w8) (View.ld x2 r0_kd) a

end Out56

/-! ## From the blocks to the arrays -/

section Blocks
-- the TensorCore's buffer contents when the region is entered
variable (V : (c : Dev nD) → (b : Ref sig .tc) → Buf (Elt Ideal) ((c : Thread nD τ).loc b))

theorem N16 : cfg0.N = 16 := N_0

/-- The four input blocks at point `t`. -/
abbrev xblk (c : Dev nD) (t : Fin cfg0.N) : Vec Ideal S512x1024 .f32 := iblk0 V c 0 t
abbrev wblk (c : Dev nD) (t : Fin cfg0.N) : Vec Ideal S512x9 .f32 := iblk0 V c 1 t
abbrev kblk (c : Dev nD) (t : Fin cfg0.N) : Vec Ideal S512x1 .f32 := iblk0 V c 2 t
abbrev mblk (c : Dev nD) (t : Fin cfg0.N) : Vec Ideal S9x1024 .f32 := iblk0 V c 3 t

/-- The printed index maps, decided over the grid: x and the three outputs move with the point along the rows (the slabs),
    the weights and the masks stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0 :=
  (by decide +kernel : ∀ t : Fin grid0.N, _)

/-- Block `t` of x is rows 512 t … 512 t + 511 of the array; the weights' and the masks' block is the whole array. -/
theorem xblk_apply (c : Dev nD) (t : Fin cfg0.N) (p : Fin 512) (q : Fin 1024) (row : Fin 8192) (hrow : row.val = 512 * t.val + p.val) :
    xblk V c t (ix2 p q) = xA V c (ix2 row q) := by
  obtain ⟨e00, e01, -⟩ := idx_facts t
  show V c main_v0 (((cfg0.win 0).blk t).view.emb (ix2 p q)) = V c main_v0 (ix2 row q)
  refine congrArg (V c main_v0) (funext fun a => Fin.ext ?_)
  match a with
  | ⟨0, _⟩ => show win0_0.index t (0 : Fin 2) * 512 + 1 * p.val = row.val; omega
  | ⟨1, _⟩ => show win0_0.index t (1 : Fin 2) * 1024 + 1 * q.val = q.val; omega
theorem wblk_apply (c : Dev nD) (t : Fin cfg0.N) (p : Fin 512) (k : Fin 9) : wblk V c t (ix2 p k) = wdA V c (ix2 p k) := by
  obtain ⟨-, -, e10, e11, -⟩ := idx_facts t
  show V c main_v4 (((cfg0.win 1).blk t).view.emb (ix2 p k)) = V c main_v4 (ix2 p k)
  refine congrArg (V c main_v4) (funext fun a => Fin.ext ?_)
  match a with
  | ⟨0, _⟩ => show win0_1.index t (0 : Fin 2) * 512 + 1 * p.val = p.val; omega
  | ⟨1, _⟩ => show win0_1.index t (1 : Fin 2) * 9 + 1 * k.val = k.val; omega
theorem kblk_apply (c : Dev nD) (t : Fin cfg0.N) (p : Fin 512) (k : Fin 1) : kblk V c t (ix2 p k) = kdA V c (ix2 p k) := by
  obtain ⟨-, -, -, -, e20, e21, -⟩ := idx_facts t
  show V c main_v11 (((cfg0.win 2).blk t).view.emb (ix2 p k)) = V c main_v11 (ix2 p k)
  refine congrArg (V c main_v11) (funext fun a => Fin.ext ?_)
  match a with
  | ⟨0, _⟩ => show win0_2.index t (0 : Fin 2) * 512 + 1 * p.val = p.val; omega
  | ⟨1, _⟩ => show win0_2.index t (1 : Fin 2) * 1 + 1 * k.val = k.val; omega
theorem mblk_apply (c : Dev nD) (t : Fin cfg0.N) (k : Fin 9) (q : Fin 1024) : mblk V c t (ix2 k q) = mkA V c (ix2 k q) := by
  obtain ⟨-, -, -, -, -, -, e30, e31, -⟩ := idx_facts t
  show V c main_v224 (((cfg0.win 3).blk t).view.emb (ix2 k q)) = V c main_v224 (ix2 k q)
  refine congrArg (V c main_v224) (funext fun a => Fin.ext ?_)
  match a with
  | ⟨0, _⟩ => show win0_3.index t (0 : Fin 2) * 9 + 1 * k.val = k.val; omega
  | ⟨1, _⟩ => show win0_3.index t (1 : Fin 2) * 1024 + 1 * q.val = q.val; omega

/-- The body's f32 central-difference block at point `t`, at (p, q), is row 512 t + p of the convolved array at q. -/
theorem cdc_blk_apply (c : Dev nD) (t : Fin cfg0.N) (p : Fin 512) (q : Fin 1024) (row : Fin 8192) (hrow : row.val = 512 * t.val + p.val) :
    cdc0 (xblk V c t) (wblk V c t) (kblk V c t) (mblk V c t) (ix2 p q) = cdRow V c row q := by
  have hp : (⟨row.val % 512, Nat.mod_lt _ (by decide)⟩ : Fin 512) = p := Fin.ext (by show row.val % 512 = p.val; have := p.isLt; omega)
  refine (cdc0_apply _ _ _ _ p q).trans ?_
  unfold cdRow
  rw [hp]
  have h0 : (fun j => xblk V c t (ix2 p j)) = fun j => xA V c (ix2 row j) := funext fun j => xblk_apply V c t p j row hrow
  have h1 : (fun k => wblk V c t (ix2 p k)) = fun k => wdA V c (ix2 p k) := funext fun k => wblk_apply V c t p k
  have h2 : kblk V c t (ix2 p 0) = kdA V c (ix2 p 0) := kblk_apply V c t p 0
  have h3 : (fun k j => mblk V c t (ix2 k j)) = fun k j => mkA V c (ix2 k j) := funext fun k => funext fun j => mblk_apply V c t k j
  exact congrFun (congr (congr (congr (congrArg cdcRow h0) h1) h2) h3) q

/-- Its bf16 rounding is, over the extended reals, the block itself. -/
theorem cdcb0_apply (x0 : Vec Ideal S512x1024 .f32) (x1 : Vec Ideal S512x9 .f32) (x2 : Vec Ideal S512x1 .f32) (x3 : Vec Ideal S9x1024 .f32)
    (j : S512x1024.Idx) : (cdcb0 x0 x1 x2 x3 j : EReal) = cdc0 x0 x1 x2 x3 j := rfl

/-! ### The convolved array (window 4) -/

/-- What the convolved array ends holding. -/
def G4 (c : Dev nD) : S8192x1024.Idx → EReal := fun i => cdRow V c ⟨(i 0).val, idx2_lt0 i⟩ ⟨(i 1).val, idx2_lt1 i⟩

/-- What point `t` writes back is block `t` of it. -/
theorem flushed4_eq (c : Dev nD) (t : Fin cfg0.N) :
    (dat0 V c).flushed 4 t = ((cfg0.win 4).blk t).view.read (Elt Ideal) (G4 V c) := by
  show (cfg0.win 4).cut (grid0.coords t) ((dat0 V c).after 4 t) = _
  rw [after0_4]
  unfold out0_4
  rw [View.canon_unit_zero hz00]
  obtain ⟨-, -, -, -, -, -, -, -, e40, e41, -⟩ := idx_facts t
  have ht : t.val < 16 := N16 ▸ t.isLt
  funext j
  obtain ⟨p, q, rfl⟩ : ∃ (p : Fin 512) (q : Fin 1024), j = ix2 p q := ⟨j 0, j 1, eq_ix2 j⟩
  have hemb : ((cfg0.win 4).blk t).view.emb (ix2 p q) = ix2 (⟨512 * t.val + p.val, by have := p.isLt; omega⟩ : Fin 8192) q := by
    funext a; apply Fin.ext
    match a with
    | ⟨0, _⟩ => show win0_4.index t (0 : Fin 2) * 512 + 1 * p.val = 512 * t.val + p.val; omega
    | ⟨1, _⟩ => show win0_4.index t (1 : Fin 2) * 1024 + 1 * q.val = q.val; omega
  show (cdcb0 (xblk V c t) (wblk V c t) (kblk V c t) (mblk V c t) (ix2 p q) : EReal) = G4 V c (((cfg0.win 4).blk t).view.emb (ix2 p q))
  rw [hemb]
  refine (cdcb0_apply _ _ _ _ _).trans ?_
  exact cdc_blk_apply V c t p q _ rfl

/-- An index of the array is in point `t`'s block iff each coordinate is in the block's range on its axis. -/
theorem mem_blk4 (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v225_0).slice (win0_4.rect t)).set ↔ _
  rw [View.set_slice_whole, Rect.mem_set_unit]
  exact Iff.rfl

/-- Row r is in the block of point r / 512. -/
theorem cover4 (i : S8192x1024.Idx) : ∃ t : Fin cfg0.N, (cfg0.win 4).flush t = true ∧ i ∈ ((cfg0.win 4).blk t).view.set := by
  have h0 : (i 0).val < 8192 := (i 0).isLt
  have h1 : (i 1).val < 1024 := (i 1).isLt
  have hN := N16
  refine ⟨⟨(i 0).val / 512, by omega⟩, flush0_4 _, ?_⟩
  obtain ⟨-, -, -, -, -, -, -, -, e40, e41, -⟩ := idx_facts ⟨(i 0).val / 512, by omega⟩
  rw [mem_blk4]
  intro a
  match a with
  | ⟨0, _⟩ =>
    show win0_4.index ⟨(i 0).val / 512, _⟩ (0 : Fin 2) * 512 ≤ (i 0).val ∧ (i 0).val < win0_4.index ⟨(i 0).val / 512, _⟩ (0 : Fin 2) * 512 + 512
    rw [e40]; show (i 0).val / 512 * 512 ≤ (i 0).val ∧ (i 0).val < (i 0).val / 512 * 512 + 512; omega
  | ⟨1, _⟩ =>
    show win0_4.index ⟨(i 0).val / 512, _⟩ (1 : Fin 2) * 1024 ≤ (i 1).val ∧ (i 1).val < win0_4.index ⟨(i 0).val / 512, _⟩ (1 : Fin 2) * 1024 + 1024
    rw [e41]; omega

theorem final4 (c : Dev nD) : (dat0 V c).arrAt 4 cfg0.N = G4 V c :=
  (dat0 V c).arrAt_eq_of_cover 4 (G4 V c) (fun t _ => flushed4_eq V c t) cover4

end Blocks

section Blocks56
variable (V : (c : Dev nD) → (b : Ref sig .tc) → Buf (Elt Ideal) ((c : Thread nD τ).loc b))

/-! ### The Gram partials (window 5) -/

/-- What the Gram partials end holding. -/
def G5 (c : Dev nD) : S16x64x64.Idx → EReal := fun i => ∑ bb : Fin 8, ∑ l : Fin 1024,
  cdRow V c ⟨512 * (i 0).val + 64 * bb.val + (i 1).val, by
      have h0 : (i 0).val < 16 := (i 0).isLt; have h1 : (i 1).val < 64 := (i 1).isLt; have := bb.isLt; omega⟩ l
    * cdRow V c ⟨512 * (i 0).val + 64 * bb.val + (i 2).val, by
      have h0 : (i 0).val < 16 := (i 0).isLt; have h2 : (i 2).val < 64 := (i 2).isLt; have := bb.isLt; omega⟩ l

theorem flushed5_eq (c : Dev nD) (t : Fin cfg0.N) :
    (dat0 V c).flushed 5 t = ((cfg0.win 5).blk t).view.read (Elt Ideal) (G5 V c) := by
  show (cfg0.win 5).cut (grid0.coords t) ((dat0 V c).after 5 t) = _
  rw [after0_5]
  unfold out0_5
  rw [View.canon_unit_zero hz000]
  obtain ⟨-, -, -, -, -, -, -, -, -, -, e50, e51, e52, -⟩ := idx_facts t
  have ht : t.val < 16 := N16 ▸ t.isLt
  funext j
  obtain ⟨u, a, b, rfl⟩ : ∃ (u : Fin 1) (a b : Fin 64), j = ix3 u a b := ⟨j 0, j 1, j 2, eq_ix3 j⟩
  obtain rfl : u = 0 := Subsingleton.elim _ _
  have hemb : ((cfg0.win 5).blk t).view.emb (ix3 (0 : Fin 1) a b) = ix3 (⟨t.val, ht⟩ : Fin 16) a b := by
    funext ax; apply Fin.ext
    match ax with
    | ⟨0, _⟩ => show win0_5.index t (0 : Fin 3) * 1 + 1 * 0 = t.val; omega
    | ⟨1, _⟩ => show win0_5.index t (1 : Fin 3) * 64 + 1 * a.val = a.val; omega
    | ⟨2, _⟩ => show win0_5.index t (2 : Fin 3) * 64 + 1 * b.val = b.val; omega
  show k0_pay13 (cdcb0 (xblk V c t) (wblk V c t) (kblk V c t) (mblk V c t)) (gram3_0 (xblk V c t) (wblk V c t) (kblk V c t) (mblk V c t)) (ix3 (0 : Fin 1) a b)
      = G5 V c (((cfg0.win 5).blk t).view.emb (ix3 (0 : Fin 1) a b))
  rw [hemb]
  refine (out5_apply (xblk V c t) (wblk V c t) (kblk V c t) (mblk V c t) a b).trans ?_
  unfold G5
  refine Finset.sum_congr rfl fun bb _ => Finset.sum_congr rfl fun l _ => ?_
  exact congrArg₂ (· * ·)
    (cdc_blk_apply V c t (grow bb a) l _ (by show 512 * t.val + 64 * bb.val + a.val = 512 * t.val + (64 * bb.val + a.val); omega))
    (cdc_blk_apply V c t (grow bb b) l _ (by show 512 * t.val + 64 * bb.val + b.val = 512 * t.val + (64 * bb.val + b.val); omega))

theorem mem_blk5 (t : Fin cfg0.N) (i : S16x64x64.Idx) :
    i ∈ ((cfg0.win 5).blk t).view.set ↔ ∀ a : Fin 3, win0_5.index t a * S1x64x64.size a ≤ (i a).val ∧ (i a).val < win0_5.index t a * S1x64x64.size a + S1x64x64.size a := by
  show i ∈ ((View.whole main_v225_1).slice (win0_5.rect t)).set ↔ _
  rw [View.set_slice_whole, Rect.mem_set_unit]
  exact Iff.rfl

/-- Slab s is the block of point s. -/
theorem cover5 (i : S16x64x64.Idx) : ∃ t : Fin cfg0.N, (cfg0.win 5).flush t = true ∧ i ∈ ((cfg0.win 5).blk t).view.set := by
  have h0 : (i 0).val < 16 := (i 0).isLt
  have h1 : (i 1).val < 64 := (i 1).isLt
  have h2 : (i 2).val < 64 := (i 2).isLt
  have hN := N16
  refine ⟨⟨(i 0).val, by omega⟩, flush0_5 _, ?_⟩
  obtain ⟨-, -, -, -, -, -, -, -, -, -, e50, e51, e52, -⟩ := idx_facts ⟨(i 0).val, by omega⟩
  rw [mem_blk5]
  intro a
  match a with
  | ⟨0, _⟩ =>
    show win0_5.index ⟨(i 0).val, _⟩ (0 : Fin 3) * 1 ≤ (i 0).val ∧ (i 0).val < win0_5.index ⟨(i 0).val, _⟩ (0 : Fin 3) * 1 + 1
    rw [e50]; show (i 0).val * 1 ≤ (i 0).val ∧ (i 0).val < (i 0).val * 1 + 1; omega
  | ⟨1, _⟩ =>
    show win0_5.index ⟨(i 0).val, _⟩ (1 : Fin 3) * 64 ≤ (i 1).val ∧ (i 1).val < win0_5.index ⟨(i 0).val, _⟩ (1 : Fin 3) * 64 + 64
    rw [e51]; omega
  | ⟨2, _⟩ =>
    show win0_5.index ⟨(i 0).val, _⟩ (2 : Fin 3) * 64 ≤ (i 2).val ∧ (i 2).val < win0_5.index ⟨(i 0).val, _⟩ (2 : Fin 3) * 64 + 64
    rw [e52]; omega

theorem final5 (c : Dev nD) : (dat0 V c).arrAt 5 cfg0.N = G5 V c :=
  (dat0 V c).arrAt_eq_of_cover 5 (G5 V c) (fun t _ => flushed5_eq V c t) cover5

/-! ### The channel-sum partials (window 6) -/

/-- What the channel-sum partials end holding. -/
def G6 (c : Dev nD) : S16x64x1.Idx → EReal := fun i => ∑ bb : Fin 8, ∑ l : Fin 1024,
  cdRow V c ⟨512 * (i 0).val + 64 * bb.val + (i 1).val, by
      have h0 : (i 0).val < 16 := (i 0).isLt; have h1 : (i 1).val < 64 := (i 1).isLt; have := bb.isLt; omega⟩ l

theorem flushed6_eq (c : Dev nD) (t : Fin cfg0.N) :
    (dat0 V c).flushed 6 t = ((cfg0.win 6).blk t).view.read (Elt Ideal) (G6 V c) := by
  show (cfg0.win 6).cut (grid0.coords t) ((dat0 V c).after 6 t) = _
  rw [after0_6]
  unfold out0_6
  rw [View.canon_unit_zero hz000]
  obtain ⟨-, -, -, -, -, -, -, -, -, -, -, -, -, e60, e61, e62⟩ := idx_facts t
  have ht : t.val < 16 := N16 ▸ t.isLt
  funext j
  obtain ⟨u, a, z, rfl⟩ : ∃ (u : Fin 1) (a : Fin 64) (z : Fin 1), j = ix3 u a z := ⟨j 0, j 1, j 2, eq_ix3 j⟩
  obtain rfl : u = 0 := Subsingleton.elim _ _
  obtain rfl : z = 0 := Subsingleton.elim _ _
  have hemb : ((cfg0.win 6).blk t).view.emb (ix3 (0 : Fin 1) a (0 : Fin 1)) = ix3 (⟨t.val, ht⟩ : Fin 16) a (0 : Fin 1) := by
    funext ax; apply Fin.ext
    match ax with
    | ⟨0, _⟩ => show win0_6.index t (0 : Fin 3) * 1 + 1 * 0 = t.val; omega
    | ⟨1, _⟩ => show win0_6.index t (1 : Fin 3) * 64 + 1 * a.val = a.val; omega
    | ⟨2, _⟩ => show win0_6.index t (2 : Fin 3) * 1 + 1 * 0 = 0; omega
  show k0_pay1 (k0_pay12 (cdc0 (xblk V c t) (wblk V c t) (kblk V c t) (mblk V c t)) (rsum3_0 (xblk V c t) (wblk V c t) (kblk V c t) (mblk V c t))) (ix3 (0 : Fin 1) a (0 : Fin 1))
      = G6 V c (((cfg0.win 6).blk t).view.emb (ix3 (0 : Fin 1) a (0 : Fin 1)))
  rw [hemb]
  refine (out6_apply (xblk V c t) (wblk V c t) (kblk V c t) (mblk V c t) a).trans ?_
  unfold G6
  refine Finset.sum_congr rfl fun bb _ => Finset.sum_congr rfl fun l _ => ?_
  exact cdc_blk_apply V c t (grow bb a) l _ (by show 512 * t.val + 64 * bb.val + a.val = 512 * t.val + (64 * bb.val + a.val); omega)

theorem mem_blk6 (t : Fin cfg0.N) (i : S16x64x1.Idx) :
    i ∈ ((cfg0.win 6).blk t).view.set ↔ ∀ a : Fin 3, win0_6.index t a * S1x64x1.size a ≤ (i a).val ∧ (i a).val < win0_6.index t a * S1x64x1.size a + S1x64x1.size a := by
  show i ∈ ((View.whole main_v225_2).slice (win0_6.rect t)).set ↔ _
  rw [View.set_slice_whole, Rect.mem_set_unit]
  exact Iff.rfl

theorem cover6 (i : S16x64x1.Idx) : ∃ t : Fin cfg0.N, (cfg0.win 6).flush t = true ∧ i ∈ ((cfg0.win 6).blk t).view.set := by
  have h0 : (i 0).val < 16 := (i 0).isLt
  have h1 : (i 1).val < 64 := (i 1).isLt
  have h2 : (i 2).val < 1 := (i 2).isLt
  have hN := N16
  refine ⟨⟨(i 0).val, by omega⟩, flush0_6 _, ?_⟩
  obtain ⟨-, -, -, -, -, -, -, -, -, -, -, -, -, e60, e61, e62⟩ := idx_facts ⟨(i 0).val, by omega⟩
  rw [mem_blk6]
  intro a
  match a with
  | ⟨0, _⟩ =>
    show win0_6.index ⟨(i 0).val, _⟩ (0 : Fin 3) * 1 ≤ (i 0).val ∧ (i 0).val < win0_6.index ⟨(i 0).val, _⟩ (0 : Fin 3) * 1 + 1
    rw [e60]; show (i 0).val * 1 ≤ (i 0).val ∧ (i 0).val < (i 0).val * 1 + 1; omega
  | ⟨1, _⟩ =>
    show win0_6.index ⟨(i 0).val, _⟩ (1 : Fin 3) * 64 ≤ (i 1).val ∧ (i 1).val < win0_6.index ⟨(i 0).val, _⟩ (1 : Fin 3) * 64 + 64
    rw [e61]; omega
  | ⟨2, _⟩ =>
    show win0_6.index ⟨(i 0).val, _⟩ (2 : Fin 3) * 1 ≤ (i 2).val ∧ (i 2).val < win0_6.index ⟨(i 0).val, _⟩ (2 : Fin 3) * 1 + 1
    rw [e62]; omega

theorem final6 (c : Dev nD) : (dat0 V c).arrAt 6 cfg0.N = G6 V c :=
  (dat0 V c).arrAt_eq_of_cover 6 (G6 V c) (fun t _ => flushed6_eq V c t) cover6

end Blocks56

end Arr0

section Exports
variable (V : (c : Dev nD) → (b : Ref sig .tc) → Buf (Elt Ideal) ((c : Thread nD τ).loc b))

/-! ## The three arrays, index by index -/

theorem cdcArr_apply (c : Dev nD) (row : Fin 8192) (l : Fin 1024) :
    ((dat0 V c).arrAt 4 cfg0.N : S8192x1024.Idx → EReal) (ix2 row l) = cdRow V c row l :=
  (congrFun (Arr0.final4 V c) (ix2 row l)).trans rfl

theorem gArr_apply (c : Dev nD) (i : Fin 16) (a b : Fin 64) :
    ((dat0 V c).arrAt 5 cfg0.N : S16x64x64.Idx → EReal) (ix3 i a b)
      = ∑ bb : Fin 8, ∑ l : Fin 1024,
          cdRow V c ⟨512 * i.val + 64 * bb.val + a.val, by have := i.isLt; have := bb.isLt; have := a.isLt; omega⟩ l
            * cdRow V c ⟨512 * i.val + 64 * bb.val + b.val, by have := i.isLt; have := bb.isLt; have := b.isLt; omega⟩ l :=
  (congrFun (Arr0.final5 V c) (ix3 i a b)).trans rfl

theorem vArr_apply (c : Dev nD) (i : Fin 16) (a : Fin 64) :
    ((dat0 V c).arrAt 6 cfg0.N : S16x64x1.Idx → EReal) (ix3 i a 0)
      = ∑ bb : Fin 8, ∑ l : Fin 1024,
          cdRow V c ⟨512 * i.val + 64 * bb.val + a.val, by have := i.isLt; have := bb.isLt; have := a.isLt; omega⟩ l :=
  (congrFun (Arr0.final6 V c) (ix3 i a 0)).trans rfl

end Exports

end Cert.KernelIdeal.Val

end
-- ==== Proof.KVal1.lean ====
/- What region 1 leaves in its output array, index by index, over the extended reals.

   The region's body stores, for each 64-row slab of a 512-row block, the product of the 64x64 weight with the slab
   plus the shift broadcast along the columns. Read at an index, the output array at row `r` and column `l` is
     ∑ k, W (r mod 64, k) · A (64 · (r div 64) + k, l) + h (r mod 64, 0)
   with `A` the bf16 array of the depthwise stage, `W` the folded weight and `h` the shift as the region finds
   them. -/
import proofs.«151441_g2000606144476369_pallasbulk_1044_2_alg».proof.Proof.K1Body
import proofs.«151441_g2000606144476369_pallasbulk_1044_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.SL.Sem
open Idealize.ShloMosaic.Pipeline (Dat)
open Idealize.ShloMosaic.ValueIdx
open scoped BigOperators

/-! ## A matrix product into a zero accumulator, read at an index -/

/-- The product of an m×k by a k×n matrix accumulated into zero, at row `a` and column `b`: the sum over the
    contracted coordinate of the products of the entries. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

/-! ## A slab's payload at an index -/

/-- The slab's payload at row `o` and column `l`: the weight's row `o` against the slab's column `l`, plus the
    shift of row `o`. -/
theorem pay_apply (v1 : FVec Ideal S64x64 .bf16) (v3 : FVec Ideal S64x1 .f32) (x : Vec Ideal S64x1024 .bf16) (o : Fin 64) (l : Fin 1024) :
    k1_pay1 (F := Ideal) v1 v3 x (ix2 o l) = (∑ k : Fin 64, v1 (ix2 o k) * x (ix2 k l)) + v3 (ix2 o 0) := by
  unfold k1_pay1
  rw [addf_apply, shapeCast_self]
  rw [show (dot_S64x64_S64x1024_S64x1024_1_0_0_1_n_n : DotDims S64x64 S64x1024 S64x1024) = DotDims.plain 64 64 1024 from rfl]
  simp only [matmul]
  rw [matmul_plain_zero_apply]
  rw [broadcastTo_apply v3 broadcasts_S64x1_S64x1024 (ix2 o l) (ix2 o 0) (by
    intro a
    match a with
    | ⟨0, _⟩ => rfl
    | ⟨1, _⟩ => rfl)]

/-! ## The block the body leaves, as one function of the block index -/

/-- What the body leaves in the 512x1024 output block, as ONE function of the block index `y`, from the three input
    blocks: the weight's row `y₀ mod 64` against column `y₁` of the slab `y₀ div 64` of `x0`, plus the shift. -/
def blkG (x0 : Vec Ideal S512x1024 .bf16) (x1 : Vec Ideal S64x64 .bf16) (x2 : Vec Ideal S64x1 .f32) : S512x1024.Idx → EReal :=
  fun y => (∑ k : Fin 64, x1 (ix2 (⟨(y 0).val % 64, Nat.mod_lt _ (by decide)⟩ : Fin 64) k)
      * x0 (ix2 (⟨64 * ((y 0).val / 64) + k.val, by have : (y 0).val < 512 := (y 0).isLt; have := k.isLt; omega⟩ : Fin 512) (y 1)))
    + x2 (ix2 (⟨(y 0).val % 64, Nat.mod_lt _ (by decide)⟩ : Fin 64) 0)

/-- `blkG` at an index whose row is `64 q + o`. -/
theorem blkG_at (x0 : Vec Ideal S512x1024 .bf16) (x1 : Vec Ideal S64x64 .bf16) (x2 : Vec Ideal S64x1 .f32)
    (y : S512x1024.Idx) (q : ℕ) (o : Fin 64) (l : Fin 1024) (hq : 64 * q + 64 ≤ 512) (h0 : (y 0).val = 64 * q + o.val) (h1 : (y 1).val = l.val) :
    blkG x0 x1 x2 y = (∑ k : Fin 64, x1 (ix2 o k) * x0 (ix2 (⟨64 * q + k.val, by have := k.isLt; omega⟩ : Fin 512) l)) + x2 (ix2 o 0) := by
  unfold blkG
  have ho : (⟨(y 0).val % 64, Nat.mod_lt _ (by decide)⟩ : Fin 64) = o := Fin.ext (by show (y 0).val % 64 = o.val; have := o.isLt; omega)
  have hl : (y 1 : Fin 1024) = l := Fin.ext h1
  have hk : ∀ k : Fin 64, (⟨64 * ((y 0).val / 64) + k.val, by have : (y 0).val < 512 := (y 0).isLt; have := k.isLt; omega⟩ : Fin 512)
      = ⟨64 * q + k.val, by have := k.isLt; omega⟩ := fun k => Fin.ext (by show 64 * ((y 0).val / 64) + k.val = 64 * q + k.val; have := o.isLt; omega)
  rw [ho]
  simp only [hk]
  rw [hl]

theorem hz2 : (![0, 0] : Fin 2 → Nat) = fun _ => 0 := funext fun a => by fin_cases a <;> rfl

/-- The payload of the store of the slab at row offset `64 q` (in either spelling of the weight and the shift: as
    loaded, or as the first four slabs' part hands them on) is `blkG` on the slab. -/
theorem slab_piece (x0 : Vec Ideal S512x1024 .bf16) (x1 : Vec Ideal S64x64 .bf16) (x2 : Vec Ideal S64x1 .f32)
    (q : ℕ) (hq : 64 * q + 64 ≤ 512) (inb : ∀ a, (![64 * q, 0] : Fin 2 → Nat) a + S64x1024.size a ≤ S512x1024.size a)
    (x : (Rect.unit (s := S512x1024) ![64 * q, 0] S64x1024.size inb).shape.Idx) :
    k1_pay1 (F := Ideal) (k1_pay5 (View.ld x1 r1_w)) (k1_pay6 (View.ld x2 r1_h)) (View.ld x0 (Rect.unit (s := S512x1024) ![64 * q, 0] S64x1024.size inb)) x
      = blkG x0 x1 x2 ((Rect.unit (s := S512x1024) ![64 * q, 0] S64x1024.size inb).emb x) := by
  obtain ⟨o, l, rfl⟩ : ∃ (o : Fin 64) (l : Fin 1024), x = ix2 o l := ⟨x 0, x 1, eq_ix2 x⟩
  rw [pay_apply]
  rw [blkG_at x0 x1 x2 _ q o l hq (by show 64 * q + 1 * o.val = _; omega) (by show 0 + 1 * l.val = _; omega)]
  unfold k1_pay5 k1_pay6
  rw [shapeCast_self, shapeCast_self, View.ld_unit_zero (S := S64x64) hz2, View.ld_unit_zero (S := S64x1) hz2]
  refine congrArg (· + x2 (ix2 o 0)) (Finset.sum_congr rfl fun k _ => congrArg (x1 (ix2 o k) * ·) ?_)
  show x0 ((Rect.unit (s := S512x1024) ![64 * q, 0] S64x1024.size inb).idx (ix2 k l)) = _
  refine congrArg x0 (funext fun a => Fin.ext ?_)
  match a with
  | ⟨0, _⟩ => show 64 * q + 1 * k.val = 64 * q + k.val; omega
  | ⟨1, _⟩ => show 0 + 1 * l.val = l.val; omega

/-- So the block the body leaves is `blkG` of the input blocks: each of the eight stores' payloads is `blkG` on its
    slab, and the slabs cover the block. -/
theorem out1_3_eq (x0 : Vec Ideal S512x1024 .bf16) (x1 : Vec Ideal S64x64 .bf16) (x2 : Vec Ideal S64x1 .f32) :
    out1_3 (F := Ideal) x0 x1 x2 = blkG x0 x1 x2 := by
  funext y
  unfold out1_3
  refine View.canon_apply_of_pieces (Val := Elt Ideal) (e := .f32) (blkG x0 x1 x2) _ ?_ y (cover1_3 _ _ _ _ _ _ _ _ y)
  intro p hp x
  simp only [List.mem_cons, List.mem_nil_iff, or_false] at hp
  rcases hp with rfl | rfl | rfl | rfl | rfl | rfl | rfl | rfl
  · exact slab_piece x0 x1 x2 7 (by decide) _ x
  · exact slab_piece x0 x1 x2 6 (by decide) _ x
  · exact slab_piece x0 x1 x2 5 (by decide) _ x
  · exact slab_piece x0 x1 x2 4 (by decide) _ x
  · exact slab_piece x0 x1 x2 3 (by decide) _ x
  · exact slab_piece x0 x1 x2 2 (by decide) _ x
  · exact slab_piece x0 x1 x2 1 (by decide) _ x
  · exact slab_piece x0 x1 x2 0 (by decide) _ x

/-! ## From the blocks to the array -/

/-- The output array as ONE function of the three arrays the region reads: at row `r` and column `l`, the weight's
    row `r mod 64` against column `l` of the 64 rows of `A` from `64 (r div 64)`, plus the shift of row `r mod 64`. -/
def outGf (A : S8192x1024.Idx → EReal) (Wt : S64x64.Idx → EReal) (h : S64x1.Idx → EReal) : S8192x1024.Idx → EReal :=
  fun i => (∑ k : Fin 64, Wt (ix2 (⟨(i 0).val % 64, Nat.mod_lt _ (by decide)⟩ : Fin 64) k)
      * A (ix2 (⟨64 * ((i 0).val / 64) + k.val, by have : (i 0).val < 8192 := (i 0).isLt; have := k.isLt; omega⟩ : Fin 8192) (i 1)))
    + h (ix2 (⟨(i 0).val % 64, Nat.mod_lt _ (by decide)⟩ : Fin 64) 0)

/-- Block `T` of that function is `blkG` of block `T` of `A`, the weight and the shift. -/
theorem blkG_eq_outGf (x0 : Vec Ideal S512x1024 .bf16) (x1 : Vec Ideal S64x64 .bf16) (x2 : Vec Ideal S64x1 .f32)
    (A : S8192x1024.Idx → EReal) (Wt : S64x64.Idx → EReal) (h : S64x1.Idx → EReal) (T : ℕ) (hT : T < 16)
    (j : S512x1024.Idx) (i : S8192x1024.Idx) (hi0 : (i 0).val = T * 512 + (j 0).val) (hi1 : (i 1).val = (j 1).val)
    (h0 : ∀ (a : Fin 512) (b : Fin 1024), x0 (ix2 a b) = A (ix2 (⟨T * 512 + a.val, by have := a.isLt; omega⟩ : Fin 8192) b))
    (h1 : x1 = Wt) (h2 : x2 = h) :
    blkG x0 x1 x2 j = outGf A Wt h i := by
  subst h1; subst h2
  unfold blkG outGf
  have hj0 : (j 0).val < 512 := (j 0).isLt
  have ho : (⟨(i 0).val % 64, Nat.mod_lt _ (by decide)⟩ : Fin 64) = ⟨(j 0).val % 64, Nat.mod_lt _ (by decide)⟩ :=
    Fin.ext (by show (i 0).val % 64 = (j 0).val % 64; omega)
  rw [ho]
  refine congrArg (· + x2 (ix2 (⟨(j 0).val % 64, Nat.mod_lt _ (by decide)⟩ : Fin 64) 0)) (Finset.sum_congr rfl fun k _ => congrArg (x1 (ix2 (⟨(j 0).val % 64, Nat.mod_lt _ (by decide)⟩ : Fin 64) k) * ·) ?_)
  refine (h0 _ (j 1)).trans ?_
  refine congrArg A (funext fun a => Fin.ext ?_)
  match a with
  | ⟨0, _⟩ => show T * 512 + (64 * ((j 0).val / 64) + k.val) = 64 * ((i 0).val / 64) + k.val; omega
  | ⟨1, _⟩ => exact hi1.symm

section Array
-- the TensorCore's buffer contents when the region is entered, at the extended reals
variable (V : (c : Dev nD) → (b : Ref sig .tc) → Buf (Elt Ideal) ((c : Thread nD τ).loc b))

/-- The output array after the region: `outGf` of the three arrays as the region finds them. -/
def outG (c : Dev nD) : S8192x1024.Idx → EReal :=
  outGf (V c main_v225_0 : S8192x1024.Idx → EReal) (V c main_v251 : S64x64.Idx → EReal) (V c main_v248 : S64x1.Idx → EReal)

/-- The printed index maps, decided over the grid: windows 0 and 3 move one block of 512 rows per point, windows 1 and
    2 stay at their one block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every block of the output array is SOME point's. -/
theorem idx_onto3 : ∀ q0 : Fin 16, ∃ t : Fin cfg1.N, win1_3.index t = ![q0.val, 0] :=
  (by decide +kernel : ∀ q0 : Fin 16, ∃ t : Fin grid1.N, win1_3.index t = ![q0.val, 0])

/-- WHAT POINT `t` WRITES BACK is block `t` of `outG`. -/
theorem flushed3_eq (c : Dev nD) (t : Fin cfg1.N) :
    (dat1 V c).flushed 3 t = ((cfg1.win 3).blk t).view.read (Elt Ideal) (outG V c) := by
  show (cfg1.win 3).cut (grid1.coords t) ((dat1 V c).after 3 t) = _
  rw [after1_3, out1_3_eq]
  obtain ⟨e00, e01, e10, e11, e20, e21, e30, e31⟩ := idx_facts1 t
  have hT : t.val < 16 := lt_of_lt_of_eq t.isLt N_1
  funext j
  show blkG (iblk1 V c 0 t) (iblk1 V c 1 t) (iblk1 V c 2 t) j = outG V c (((cfg1.win 3).blk t).view.emb j)
  unfold outG
  refine blkG_eq_outGf _ _ _ _ _ _ t.val hT j _ ?_ ?_ ?_ ?_ ?_
  · show win1_3.index t (0 : Fin 2) * 512 + 1 * (j 0).val = t.val * 512 + (j 0).val; omega
  · show win1_3.index t (1 : Fin 2) * 1024 + 1 * (j 1).val = (j 1).val; omega
  · intro a b
    show V c main_v225_0 (((cfg1.win 0).blk t).view.emb (ix2 a b)) = V c main_v225_0 _
    refine congrArg (V c main_v225_0) (funext fun ax => Fin.ext ?_)
    match ax with
    | ⟨0, _⟩ => show win1_0.index t (0 : Fin 2) * 512 + 1 * a.val = t.val * 512 + a.val; omega
    | ⟨1, _⟩ => show win1_0.index t (1 : Fin 2) * 1024 + 1 * b.val = b.val; omega
  · funext y
    show V c main_v251 (((cfg1.win 1).blk t).view.emb y) = V c main_v251 y
    refine congrArg (V c main_v251) (funext fun ax => Fin.ext ?_)
    match ax with
    | ⟨0, _⟩ => show win1_1.index t (0 : Fin 2) * 64 + 1 * (y 0).val = (y 0).val; omega
    | ⟨1, _⟩ => show win1_1.index t (1 : Fin 2) * 64 + 1 * (y 1).val = (y 1).val; omega
  · funext y
    show V c main_v248 (((cfg1.win 2).blk t).view.emb y) = V c main_v248 y
    refine congrArg (V c main_v248) (funext fun ax => Fin.ext ?_)
    match ax with
    | ⟨0, _⟩ => show win1_2.index t (0 : Fin 2) * 64 + 1 * (y 0).val = (y 0).val; omega
    | ⟨1, _⟩ => show win1_2.index t (1 : Fin 2) * 1 + 1 * (y 1).val = (y 1).val; omega

/-- An index of the array is in point `t`'s block iff each coordinate is in the block's range on its axis. -/
theorem mem_blk3 (t : Fin cfg1.N) (i : S8192x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v252).slice (win1_3.rect t)).set ↔ _
  rw [View.set_slice_whole, Rect.mem_set_unit]
  exact Iff.rfl

/-- Every index of the output array is in some point's block: row `r` in the block of point `r div 512`. -/
theorem cover3 (i : S8192x1024.Idx) : ∃ t : Fin cfg1.N, (cfg1.win 3).flush t = true ∧ i ∈ ((cfg1.win 3).blk t).view.set := by
  have hi0 : (i 0).val < 8192 := (i 0).isLt
  have hi1 : (i 1).val < 1024 := (i 1).isLt
  obtain ⟨t, ht⟩ := idx_onto3 ⟨(i 0).val / 512, by omega⟩
  have q0 : win1_3.index t (0 : Fin 2) = (i 0).val / 512 := congrFun ht 0
  have q1 : win1_3.index t (1 : Fin 2) = 0 := congrFun ht 1
  refine ⟨t, flush1_3 t, ?_⟩
  rw [mem_blk3]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1024 ≤ (i 1).val ∧ (i 1).val < win1_3.index t (1 : Fin 2) * 1024 + 1024; omega

/-- THE ARRAY after the region is `outG`. -/
theorem final3 (c : Dev nD) : (dat1 V c).arrAt 3 cfg1.N = outG V c :=
  (dat1 V c).arrAt_eq_of_cover 3 (outG V c) (fun t _ => flushed3_eq V c t) (cover3)

/-- `outGf` read at row `row` and column `l`. -/
theorem outGf_apply (A : S8192x1024.Idx → EReal) (Wt : S64x64.Idx → EReal) (h : S64x1.Idx → EReal) (row : Fin 8192) (l : Fin 1024) :
    outGf A Wt h (ix2 row l)
      = (∑ k : Fin 64, Wt (ix2 (⟨row.val % 64, Nat.mod_lt _ (by decide)⟩ : Fin 64) k)
          * A (ix2 (⟨64 * (row.val / 64) + k.val, by have := row.isLt; have := k.isLt; omega⟩ : Fin 8192) l))
        + h (ix2 (⟨row.val % 64, Nat.mod_lt _ (by decide)⟩ : Fin 64) 0) := rfl

/-- The output array read at row `row` and column `l`, for ANY names `A`, `Wt`, `h` of the three arrays the region
    reads as it finds them. -/
theorem outArr_apply (c : Dev nD) (A : S8192x1024.Idx → EReal) (Wt : S64x64.Idx → EReal) (h : S64x1.Idx → EReal)
    (hA : (V c main_v225_0 : S8192x1024.Idx → EReal) = A) (hW : (V c main_v251 : S64x64.Idx → EReal) = Wt)
    (hh : (V c main_v248 : S64x1.Idx → EReal) = h) (row : Fin 8192) (l : Fin 1024) :
    ((dat1 V c).arrAt 3 cfg1.N : S8192x1024.Idx → EReal) (ix2 row l)
      = (∑ k : Fin 64, Wt (ix2 (⟨row.val % 64, Nat.mod_lt _ (by decide)⟩ : Fin 64) k)
          * A (ix2 (⟨64 * (row.val / 64) + k.val, by have := row.isLt; have := k.isLt; omega⟩ : Fin 8192) l))
        + h (ix2 (⟨row.val % 64, Nat.mod_lt _ (by decide)⟩ : Fin 64) 0) := by
  rw [final3]
  unfold outG
  rw [hA, hW, hh]
  exact outGf_apply A Wt h row l

end Array

end Cert.KernelIdeal.Val

end
-- ==== Proof.KVal.lean ====
/- THE RESULT BUFFER, index by index, over the extended reals. The entry function is five segments: host operations,
   region 0, host operations, region 1, one reshape. Read backwards from the result: entry (n, o, hh, ww) of the result is
   entry (64 n + o, 32 hh + ww) of region 1's output array; that is the sum over the 64 channels k of the folded weight at
   (o, k) times the convolved array at (64 n + k, 32 hh + ww), plus the shift at o; the folded weight and the shift are the
   second host stretch's scale and shift chain at the 1x1 weight times 1 − θ, the Gram matrix and the channel sums summed
   over region 0's sixteen partials; row 64 n + ch of the convolved array is the specification's plane convolution of plane
   (n, ch) of the input with channel ch's taps and difference factor and the program's border masks; and the sixteen
   partials, summed, are the Gram matrix and the channel sums of those planes over (batch, position), the batch walked
   in sixteen chunks of eight. Chained, the entry is the specification's output from the Gram matrix and the channel sums. -/
import proofs.«151441_g2000606144476369_pallasbulk_1044_2_alg».proof.Proof.KRun
import proofs.«151441_g2000606144476369_pallasbulk_1044_2_alg».proof.Proof.KHost0
import proofs.«151441_g2000606144476369_pallasbulk_1044_2_alg».proof.Proof.KHost1
import proofs.«151441_g2000606144476369_pallasbulk_1044_2_alg».proof.Proof.KVal0
import proofs.«151441_g2000606144476369_pallasbulk_1044_2_alg».proof.Proof.KVal1
import proofs.«151441_g2000606144476369_pallasbulk_1044_2_alg».proof.Proof.KdTerm
import proofs.«151441_g2000606144476369_pallasbulk_1044_2_alg».proof.Proof.Spec
import proofs.«151441_g2000606144476369_pallasbulk_1044_2_alg».proof.Proof.HostSpec
import Idealize.ShloMosaic.Lib.StableHlo.Run
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Hand Cert.Spec
open Idealize.ShloMosaic Idealize.ShloMosaic.TcCoe
open Idealize.ShloMosaic.Pipeline (Dat Cfg Window)
open Idealize.ShloMosaic.ValueIdx
open scoped BigOperators

-- the launch memory and the cores' random-number registers
variable (m : (ℓ : Loc nD τ sig) → Buf (Elt Ideal) ℓ) (ρ : Dev nD → PrngReg)

/-- The convolved planes as a function of the arguments: plane (n, ch) of x against channel ch's taps, its
    difference factor and the program's border masks. -/
def CK (c : Dev nD) (n : Fin 128) (ch : Fin 64) (l : Fin 1024) : EReal :=
  cdcRow (Xof (m ((c : Thread nD τ).loc main_arg0)) n ch) (WDof (m ((c : Thread nD τ).loc main_arg1)) ch)
    (kdTerm (m ((c : Thread nD τ).loc main_arg1)) (ix1 ch))
    (fun t j => (StableHlo.after hostOps0 (W0 m ρ c) (Proc.devRef .tc main_v224) : S9x1024.Idx → EReal) (ix2 t j)) l

/-! ### The last reshape: row-major positions -/

/-- Entry (n, o, hh, ww) of the four-axis result and entry (64 n + o, 32 hh + ww) of the two-axis array sit at the
    same row-major position. -/
theorem reshape_read (x : S8192x1024.Idx → EReal) (h : S8192x1024.ShapeCasts S128x64x32x32)
    (n : Fin 128) (o : Fin 64) (hh ww : Fin 32) :
    shapeCast S128x64x32x32 x h (ix4 n o hh ww)
      = x (ix2 (⟨64 * n.val + o.val, by have := n.isLt; have := o.isLt; omega⟩ : Fin 8192)
               (⟨32 * hh.val + ww.val, by have := hh.isLt; have := ww.isLt; omega⟩ : Fin 1024)) :=
  shapeCast_apply x h _ _ (by
    rw [Shape.rowMajor_val_two, Shape.rowMajor_val_four]
    show (64 * n.val + o.val) * 1024 + (32 * hh.val + ww.val) = ((n.val * 64 + o.val) * 32 + hh.val) * 32 + ww.val
    omega)

/-- The result buffer is the reshape of region 1's output array. -/
theorem W5_res (c : Dev nD) (n : Fin 128) (o : Fin 64) (hh ww : Fin 32) :
    (W5 (F := Ideal) m ρ c (Proc.devRef .tc main_v253) : S128x64x32x32.Idx → EReal) (ix4 n o hh ww)
      = (W4 (F := Ideal) m ρ c (Proc.devRef .tc main_v252) : S8192x1024.Idx → EReal)
          (ix2 (⟨64 * n.val + o.val, by have := n.isLt; have := o.isLt; omega⟩ : Fin 8192)
               (⟨32 * hh.val + ww.val, by have := hh.isLt; have := ww.isLt; omega⟩ : Fin 1024)) := by
  show (StableHlo.after hostOps2 (W4 (F := Ideal) m ρ c) (Proc.devRef .tc main_v253) : S128x64x32x32.Idx → EReal) _ = _
  simp only [StableHlo.after_cons, StableHlo.after_nil]
  rw [StableHlo.reshape_result]
  exact reshape_read _ _ n o hh ww

/-! ### The arrays the two regions leave -/

/-- Region 1's output array, as the fold holds it. -/
theorem W4_out (c : Dev nD) (row : Fin 8192) (l : Fin 1024) :
    (W4 (F := Ideal) m ρ c (Proc.devRef .tc main_v252) : S8192x1024.Idx → EReal) (ix2 row l)
      = ((dat1 (V3 (F := Ideal) m ρ) c).arrAt 3 cfg1.N : S8192x1024.Idx → EReal) (ix2 row l) :=
  congrFun (W4_arr (F := Ideal) m ρ c 3) (ix2 row l)

/-- Region 0's convolved array, as the fold holds it. -/
theorem W2_cdc (c : Dev nD) (row : Fin 8192) (l : Fin 1024) :
    (W2 (F := Ideal) m ρ c (Proc.devRef .tc main_v225_0) : S8192x1024.Idx → EReal) (ix2 row l)
      = cdRow (V1 (F := Ideal) m ρ) c row l :=
  (congrFun (W2_arr (F := Ideal) m ρ c 4) (ix2 row l)).trans (cdcArr_apply (V1 (F := Ideal) m ρ) c row l)

/-! ### The arguments at region 0's exit: as launched -/

/-- No operation of the first host stretch writes an argument, and no argument is an array of region 0. -/
theorem W2_arg1 (c : Dev nD) : W2 (F := Ideal) m ρ c (Proc.devRef .tc main_arg1) = m ((c : Thread nD τ).loc main_arg1) :=
  calc W2 (F := Ideal) m ρ c (Proc.devRef .tc main_arg1)
    _ = W1 (F := Ideal) m ρ c (Proc.devRef .tc main_arg1) := W2_of_ne m ρ c main_arg1 (by decide)
    _ = W0 (F := Ideal) m ρ c (Proc.devRef .tc main_arg1) := StableHlo.after_of_forall_not_mem (b := Proc.devRef .tc main_arg1) _ _
          fun op h => ((List.forall_iff_forall_mem.mp (hostOps0_args (F := Ideal))) op h).2.1
    _ = m ((c : Thread nD τ).loc main_arg1) := rfl
theorem W2_arg2 (c : Dev nD) : W2 (F := Ideal) m ρ c (Proc.devRef .tc main_arg2) = m ((c : Thread nD τ).loc main_arg2) :=
  calc W2 (F := Ideal) m ρ c (Proc.devRef .tc main_arg2)
    _ = W1 (F := Ideal) m ρ c (Proc.devRef .tc main_arg2) := W2_of_ne m ρ c main_arg2 (by decide)
    _ = W0 (F := Ideal) m ρ c (Proc.devRef .tc main_arg2) := StableHlo.after_of_forall_not_mem (b := Proc.devRef .tc main_arg2) _ _
          fun op h => ((List.forall_iff_forall_mem.mp (hostOps0_args (F := Ideal))) op h).2.2.1
    _ = m ((c : Thread nD τ).loc main_arg2) := rfl
theorem W2_arg3 (c : Dev nD) : W2 (F := Ideal) m ρ c (Proc.devRef .tc main_arg3) = m ((c : Thread nD τ).loc main_arg3) :=
  calc W2 (F := Ideal) m ρ c (Proc.devRef .tc main_arg3)
    _ = W1 (F := Ideal) m ρ c (Proc.devRef .tc main_arg3) := W2_of_ne m ρ c main_arg3 (by decide)
    _ = W0 (F := Ideal) m ρ c (Proc.devRef .tc main_arg3) := StableHlo.after_of_forall_not_mem (b := Proc.devRef .tc main_arg3) _ _
          fun op h => ((List.forall_iff_forall_mem.mp (hostOps0_args (F := Ideal))) op h).2.2.2.1
    _ = m ((c : Thread nD τ).loc main_arg3) := rfl
theorem W2_arg4 (c : Dev nD) : W2 (F := Ideal) m ρ c (Proc.devRef .tc main_arg4) = m ((c : Thread nD τ).loc main_arg4) :=
  calc W2 (F := Ideal) m ρ c (Proc.devRef .tc main_arg4)
    _ = W1 (F := Ideal) m ρ c (Proc.devRef .tc main_arg4) := W2_of_ne m ρ c main_arg4 (by decide)
    _ = W0 (F := Ideal) m ρ c (Proc.devRef .tc main_arg4) := StableHlo.after_of_forall_not_mem (b := Proc.devRef .tc main_arg4) _ _
          fun op h => ((List.forall_iff_forall_mem.mp (hostOps0_args (F := Ideal))) op h).2.2.2.2
    _ = m ((c : Thread nD τ).loc main_arg4) := rfl

/-! ### A row of the convolved array in the arguments' terms -/

/-- Row 64 n + ch of the convolved array is plane (n, ch): the row's x is plane (n, ch) of the input, its tap weights and
    difference factor are channel ch's (the tiled tables repeat the 64 channels), the masks are the program's. -/
theorem cdRow_eq (c : Dev nD) (row : Fin 8192) (n : Fin 128) (ch : Fin 64) (l : Fin 1024)
    (h : row.val = 64 * n.val + ch.val) : cdRow (V1 (F := Ideal) m ρ) c row l = CK m ρ c n ch l := by
  have hn : (⟨row.val / 64, by have := row.isLt; omega⟩ : Fin 128) = n := Fin.ext (by have := ch.isLt; show row.val / 64 = n.val; omega)
  have hc : (⟨row.val % 64, Nat.mod_lt _ (by decide)⟩ : Fin 64) = ch := Fin.ext (by have := ch.isLt; show row.val % 64 = ch.val; omega)
  have hc' : (⟨(⟨row.val % 512, Nat.mod_lt _ (by decide)⟩ : Fin 512).val % 64, Nat.mod_lt _ (by decide)⟩ : Fin 64) = ch :=
    Fin.ext (by have := ch.isLt; show row.val % 512 % 64 = ch.val; omega)
  have hx : (fun j => xA (V1 (F := Ideal) m ρ) c (ix2 row j)) = Xof (m ((c : Thread nD τ).loc main_arg0)) n ch := by
    funext j
    show (StableHlo.after hostOps0 (W0 (F := Ideal) m ρ c) (Proc.devRef .tc main_v0) : S8192x1024.Idx → EReal) (ix2 row j) = _
    rw [x2_apply, hn, hc]
  have hwd : (fun t => wdA (V1 (F := Ideal) m ρ) c (ix2 ⟨row.val % 512, Nat.mod_lt _ (by decide)⟩ t))
      = WDof (m ((c : Thread nD τ).loc main_arg1)) ch := by
    funext t
    show (StableHlo.after hostOps0 (W0 (F := Ideal) m ρ c) (Proc.devRef .tc main_v4) : S512x9.Idx → EReal) (ix2 _ t) = _
    rw [wdrows_apply, hc']
  have hkd : kdA (V1 (F := Ideal) m ρ) c (ix2 ⟨row.val % 512, Nat.mod_lt _ (by decide)⟩ 0)
      = kdTerm (m ((c : Thread nD τ).loc main_arg1)) (ix1 ch) := by
    show (StableHlo.after hostOps0 (W0 (F := Ideal) m ρ c) (Proc.devRef .tc main_v11) : S512x1.Idx → EReal) (ix2 _ 0) = _
    rw [kdrows_apply, hc']
  unfold cdRow CK
  rw [hx, hwd, hkd]

/-! ### The Gram matrix and the channel sums the second host stretch forms -/

/-- Region 0's Gram partials, as the fold holds them. -/
theorem W2_gram (c : Dev nD) (i : Fin 16) (a b : Fin 64) :
    GA (W2 (F := Ideal) m ρ c) (ix3 i a b)
      = ∑ bb : Fin 8, ∑ l : Fin 1024,
          cdRow (V1 (F := Ideal) m ρ) c ⟨512 * i.val + 64 * bb.val + a.val, by have := i.isLt; have := bb.isLt; have := a.isLt; omega⟩ l
            * cdRow (V1 (F := Ideal) m ρ) c ⟨512 * i.val + 64 * bb.val + b.val, by have := i.isLt; have := bb.isLt; have := b.isLt; omega⟩ l :=
  (congrFun (W2_arr (F := Ideal) m ρ c 5) (ix3 i a b)).trans (gArr_apply (V1 (F := Ideal) m ρ) c i a b)

/-- Region 0's channel-sum partials, as the fold holds them. -/
theorem W2_chs (c : Dev nD) (i : Fin 16) (a : Fin 64) :
    VA (W2 (F := Ideal) m ρ c) (ix3 i a 0)
      = ∑ bb : Fin 8, ∑ l : Fin 1024,
          cdRow (V1 (F := Ideal) m ρ) c ⟨512 * i.val + 64 * bb.val + a.val, by have := i.isLt; have := bb.isLt; have := a.isLt; omega⟩ l :=
  (congrFun (W2_arr (F := Ideal) m ρ c 6) (ix3 i a 0)).trans (vArr_apply (V1 (F := Ideal) m ρ) c i a)

theorem gK_eq (c : Dev nD) : gK (W2 (F := Ideal) m ρ c) = gram (CK m ρ c) := by
  funext a b
  unfold gK gram
  refine Finset.sum_congr rfl fun i _ => ?_
  rw [W2_gram]
  refine Finset.sum_congr rfl fun bb _ => Finset.sum_congr rfl fun l _ => ?_
  rw [cdRow_eq m ρ c _ (nb i bb) a l (by show 512 * i.val + 64 * bb.val + a.val = 64 * (8 * i.val + bb.val) + a.val; omega),
      cdRow_eq m ρ c _ (nb i bb) b l (by show 512 * i.val + 64 * bb.val + b.val = 64 * (8 * i.val + bb.val) + b.val; omega)]

theorem vK_eq (c : Dev nD) : vK (W2 (F := Ideal) m ρ c) = chsum (CK m ρ c) := by
  funext a
  unfold vK chsum
  refine Finset.sum_congr rfl fun i _ => ?_
  rw [W2_chs]
  refine Finset.sum_congr rfl fun bb _ => Finset.sum_congr rfl fun l _ => ?_
  rw [cdRow_eq m ρ c _ (nb i bb) a l (by show 512 * i.val + 64 * bb.val + a.val = 64 * (8 * i.val + bb.val) + a.val; omega)]

theorem wK_eq (c : Dev nD) : wK (W2 (F := Ideal) m ρ c) = Wof (m ((c : Thread nD τ).loc main_arg2)) := by
  funext o k
  show Ideal.ofBits .f32 0x3E99999A#32 * (W2 (F := Ideal) m ρ c (Proc.devRef .tc main_arg2) : S64x64.Idx → EReal) (ix2 o k)
      = omtE * (m ((c : Thread nD τ).loc main_arg2) : S64x64.Idx → EReal) (ix2 o k)
  rw [W2_arg2]

theorem ga_eq (c : Dev nD) : (fun o : Fin 64 => ga (W2 (F := Ideal) m ρ c) (ix1 o)) = Gof (m ((c : Thread nD τ).loc main_arg3)) := by
  show (fun o : Fin 64 => (W2 (F := Ideal) m ρ c (Proc.devRef .tc main_arg3) : S64.Idx → EReal) (ix1 o)) = _
  rw [W2_arg3]; rfl
theorem be_eq (c : Dev nD) : (fun o : Fin 64 => be (W2 (F := Ideal) m ρ c) (ix1 o)) = Gof (m ((c : Thread nD τ).loc main_arg4)) := by
  show (fun o : Fin 64 => (W2 (F := Ideal) m ρ c (Proc.devRef .tc main_arg4) : S64.Idx → EReal) (ix1 o)) = _
  rw [W2_arg4]; rfl

/-! ### The assembly -/

/-- Region 1's output array at row 64 n + o is the specification's output at (n, o). -/
theorem out_row (c : Dev nD) (row : Fin 8192) (n : Fin 128) (o : Fin 64) (l : Fin 1024) (h : row.val = 64 * n.val + o.val) :
    ((dat1 (V3 (F := Ideal) m ρ) c).arrAt 3 cfg1.N : S8192x1024.Idx → EReal) (ix2 row l)
      = outK (CK m ρ c) (Wof (m ((c : Thread nD τ).loc main_arg2))) (Gof (m ((c : Thread nD τ).loc main_arg3)))
          (Gof (m ((c : Thread nD τ).loc main_arg4))) n o l := by
  have ho : (⟨row.val % 64, Nat.mod_lt _ (by decide)⟩ : Fin 64) = o := Fin.ext (by have := o.isLt; show row.val % 64 = o.val; omega)
  rw [outArr_apply (V3 (F := Ideal) m ρ) c
        (W2 (F := Ideal) m ρ c (Proc.devRef .tc main_v225_0))
        (StableHlo.after hostOps1 (W2 (F := Ideal) m ρ c) (Proc.devRef .tc main_v251))
        (StableHlo.after hostOps1 (W2 (F := Ideal) m ρ c) (Proc.devRef .tc main_v248))
        (cdc_kept (W2 (F := Ideal) m ρ c)) rfl rfl row l, ho, shift_apply, ga_eq, be_eq, gK_eq, vK_eq, wK_eq]
  show _ = Cert.Spec.outG (CK m ρ c) _ _ _ (gram (CK m ρ c)) (chsum (CK m ρ c)) n o l
  unfold Cert.Spec.outG
  refine congrArg (· + _) (Finset.sum_congr rfl fun k _ => ?_)
  rw [wps_apply, ga_eq, gK_eq, vK_eq, wK_eq, W2_cdc,
      cdRow_eq m ρ c _ n k l (by have := o.isLt; show 64 * (row.val / 64) + k.val = 64 * n.val + k.val; omega)]

theorem resK_apply (c : Dev nD) (n : Fin 128) (o : Fin 64) (hh ww : Fin 32) :
    (W5 (F := Ideal) m ρ c (Proc.devRef .tc main_v253) : S128x64x32x32.Idx → EReal) (ix4 n o hh ww)
      = outK (CK m ρ c) (Wof (m ((c : Thread nD τ).loc main_arg2))) (Gof (m ((c : Thread nD τ).loc main_arg3)))
          (Gof (m ((c : Thread nD τ).loc main_arg4))) n o
          ⟨32 * hh.val + ww.val, by have := hh.isLt; have := ww.isLt; omega⟩ := by
  rw [W5_res, W4_out]
  exact out_row m ρ c _ n o _ rfl

end Cert.KernelIdeal.Val

end
-- ==== Proof.RHost0.lean ====
/- The host operations that run before the first kernel of the reference program, read index by index over the
   extended reals.

   Before its first kernel the program reshapes the input to 128 images of 64 planes of 1024 positions, reshapes the
   depthwise weights to 64 rows of nine taps, forms θ times the sum of each channel's nine taps (the central-difference
   weight) as a column, multiplies the 1x1 weight by 1 − θ, and reshapes the two per-channel vectors of the
   normalization to columns. Each of these six arrays is read here at an index as a function of the program's
   arguments: a reshape keeps the row-major position, a broadcast scalar is the scalar everywhere, and a product of
   arrays is the product of the entries. -/
import proofs.«151441_g2000606144476369_pallasbulk_1044_2_alg».proof.Proof.Gen.ReferenceIdeal.Launch
import proofs.«151441_g2000606144476369_pallasbulk_1044_2_alg».proof.Proof.HostSpec
import proofs.«151441_g2000606144476369_pallasbulk_1044_2_alg».proof.Proof.Spec
import proofs.«151441_g2000606144476369_pallasbulk_1044_2_alg».proof.Proof.KdTerm
import Idealize.ShloMosaic.Lib.StableHlo.Run
import Idealize.ShloMosaic.Lib.ValueIdx
import Idealize.ShloMosaic.Lib.IdealHost
import Idealize.ShloMosaic.Lib.Pipeline.Value

set_option maxRecDepth 16384

noncomputable section

namespace Cert.ReferenceIdeal.Val

open Cert.ReferenceIdeal Cert.ReferenceIdeal.Gen Cert.Spec
open Idealize.ShloMosaic Idealize.ShloMosaic.TcCoe Idealize.ShloMosaic.ValueIdx

/-! ### The layout operations read at an index -/

/-- The input reshaped to [128, 64, 1024] read at (n, c, j) is the input at (n, c, j / 32, j % 32). -/
theorem x3_idx (x : S128x64x32x32.Idx → EReal) (n : Fin 128) (c : Fin 64) (j : Fin 1024) :
    shapeCast S128x64x1024 x shapeCasts_S128x64x32x32_S128x64x1024 (ix3 n c j) = Xof x n c j := by
  unfold Xof
  refine shapeCast_apply x _ (ix3 n c j) _ ?_
  rw [Shape.rowMajor_val_four, Shape.rowMajor_val_three]
  show ((n.val * 64 + c.val) * 32 + j.val / 32) * 32 + j.val % 32 = (n.val * 64 + c.val) * 1024 + j.val
  omega

/-- The weights reshaped to [64, 9] read at (c, t) are the weights at (c, t / 3, t % 3). -/
theorem wd_idx (wd : S64x3x3.Idx → EReal) (c : Fin 64) (t : Fin 9) :
    shapeCast S64x9 wd shapeCasts_S64x3x3_S64x9 (ix2 c t) = WDof wd c t := by
  unfold WDof
  refine shapeCast_apply wd _ (ix2 c t) _ ?_
  rw [Shape.rowMajor_val_three, Shape.rowMajor_val_two]
  show (c.val * 3 + t.val / 3) * 3 + t.val % 3 = c.val * 9 + t.val
  omega

/-- A vector of 64 entries reshaped to a column read at (c, 0) is the vector at c. -/
theorem col_idx (v : S64.Idx → EReal) (c : Fin 64) :
    shapeCast S64x1 v shapeCasts_S64_S64x1 (ix2 c (0 : Fin 1)) = v (ix1 c) := by
  refine shapeCast_apply v _ (ix2 c (0 : Fin 1)) (ix1 c) ?_
  rw [Shape.rowMajor_val_one, Shape.rowMajor_val_two]
  show c.val = c.val * 1 + 0
  omega

/-- The 1x1 weight times the broadcast scalar 1 − θ read at (o, c). -/
theorem wp_idx (wp : S64x64.Idx → EReal) (o c : Fin 64) :
    mulf (F := Ideal) (broadcastInDim S64x64 ![] bcast_S_S64x64 (constant (F := Ideal) S_ .f32 0x3E99999A#32)) wp (ix2 o c)
      = Wof wp o c := by
  unfold Wof
  rw [mulf_apply, broadcastInDim_scalar_apply, constant_apply]

/-- The host's central-difference weight is the shared term: the same two operations on the same argument. -/
theorem kd_term_eq (wd : S64x3x3.Idx → EReal) :
    mulf (F := Ideal) (broadcastInDim S64 ![] bcast_S_S64 (constant (F := Ideal) S_ .f32 0x3F333333#32))
      (Host.reduceAdd (F := Ideal) wd (constant (F := Ideal) S_ .f32 0x00000000#32) reducesTo_S64x3x3_S64_d1_2 h_S_)
      = kdTerm wd := rfl

/-! ### The run of the host operations -/

set_option maxHeartbeats 40000000 in
/-- The six arrays the kernels read, as the host operations' composed terms over the program's arguments: each
    operation's result is its function of its operands' contents, and every other buffer keeps what it held. -/
theorem host0_runs (W : Valuation τ sig (Elt Ideal)) :
    (StableHlo.after hostOps0 W (Proc.devRef .tc main_v0)
      = (fun i => shapeCast S128x64x1024 (W (Proc.devRef .tc main_arg0)) shapeCasts_S128x64x32x32_S128x64x1024 i))
    ∧ (StableHlo.after hostOps0 W (Proc.devRef .tc main_v1)
      = (fun i => shapeCast S64x9 (W (Proc.devRef .tc main_arg1)) shapeCasts_S64x3x3_S64x9 i))
    ∧ (StableHlo.after hostOps0 W (Proc.devRef .tc main_v5)
      = (fun i => shapeCast S64x1
          (mulf (F := Ideal) (broadcastInDim S64 ![] bcast_S_S64 (constant (F := Ideal) S_ .f32 0x3F333333#32))
            (Host.reduceAdd (F := Ideal) (W (Proc.devRef .tc main_arg1)) (constant (F := Ideal) S_ .f32 0x00000000#32) reducesTo_S64x3x3_S64_d1_2 h_S_))
          shapeCasts_S64_S64x1 i))
    ∧ (StableHlo.after hostOps0 W (Proc.devRef .tc main_v220)
      = mulf (F := Ideal) (broadcastInDim S64x64 ![] bcast_S_S64x64 (constant (F := Ideal) S_ .f32 0x3E99999A#32)) (W (Proc.devRef .tc main_arg2)))
    ∧ (StableHlo.after hostOps0 W (Proc.devRef .tc main_v221)
      = (fun i => shapeCast S64x1 (W (Proc.devRef .tc main_arg3)) shapeCasts_S64_S64x1 i))
    ∧ (StableHlo.after hostOps0 W (Proc.devRef .tc main_v222)
      = (fun i => shapeCast S64x1 (W (Proc.devRef .tc main_arg4)) shapeCasts_S64_S64x1 i)) := by
  unfold hostOps0
  after_results_simp
  exact ⟨rfl, rfl, rfl, trivial, rfl, rfl⟩

/-! ### The arrays at an index -/

/-- The first kernel's first input is the input read as 128 images of 64 planes of 1024 positions. -/
theorem x3_apply (W : Valuation τ sig (Elt Ideal)) (n : Fin 128) (c : Fin 64) (j : Fin 1024) :
    (StableHlo.after hostOps0 W (Proc.devRef .tc main_v0) : S128x64x1024.Idx → EReal) (ix3 n c j)
      = Xof (W (Proc.devRef .tc main_arg0)) n c j :=
  (congrFun (host0_runs W).1 _).trans (x3_idx (W (Proc.devRef .tc main_arg0)) n c j)

/-- Its second input is the depthwise weights read as 64 rows of nine taps. -/
theorem wd_apply (W : Valuation τ sig (Elt Ideal)) (c : Fin 64) (t : Fin 9) :
    (StableHlo.after hostOps0 W (Proc.devRef .tc main_v1) : S64x9.Idx → EReal) (ix2 c t)
      = WDof (W (Proc.devRef .tc main_arg1)) c t :=
  (congrFun (host0_runs W).2.1 _).trans (wd_idx (W (Proc.devRef .tc main_arg1)) c t)

/-- Its third input is θ times each channel's tap sum, as a column. -/
theorem kdiff_apply (W : Valuation τ sig (Elt Ideal)) (c : Fin 64) :
    (StableHlo.after hostOps0 W (Proc.devRef .tc main_v5) : S64x1.Idx → EReal) (ix2 c 0)
      = kdTerm (W (Proc.devRef .tc main_arg1)) (ix1 c) :=
  (congrFun (host0_runs W).2.2.1 _).trans
    ((col_idx _ c).trans (congrFun (kd_term_eq (W (Proc.devRef .tc main_arg1))) (ix1 c)))

/-- Its fifth input is the 1x1 weight times 1 − θ. -/
theorem wp_apply (W : Valuation τ sig (Elt Ideal)) (o c : Fin 64) :
    (StableHlo.after hostOps0 W (Proc.devRef .tc main_v220) : S64x64.Idx → EReal) (ix2 o c)
      = Wof (W (Proc.devRef .tc main_arg2)) o c :=
  (congrFun (host0_runs W).2.2.2.1 _).trans (wp_idx (W (Proc.devRef .tc main_arg2)) o c)

/-- The normalization's scale vector as a column. -/
theorem gamma_apply (W : Valuation τ sig (Elt Ideal)) (o : Fin 64) :
    (StableHlo.after hostOps0 W (Proc.devRef .tc main_v221) : S64x1.Idx → EReal) (ix2 o 0)
      = Gof (W (Proc.devRef .tc main_arg3)) o :=
  (congrFun (host0_runs W).2.2.2.2.1 _).trans (col_idx (W (Proc.devRef .tc main_arg3)) o)

/-- The normalization's offset vector as a column. -/
theorem beta_apply (W : Valuation τ sig (Elt Ideal)) (o : Fin 64) :
    (StableHlo.after hostOps0 W (Proc.devRef .tc main_v222) : S64x1.Idx → EReal) (ix2 o 0)
      = Gof (W (Proc.devRef .tc main_arg4)) o :=
  (congrFun (host0_runs W).2.2.2.2.2 _).trans (col_idx (W (Proc.devRef .tc main_arg4)) o)

end Cert.ReferenceIdeal.Val

end
-- ==== Proof.RVal0.lean ====
/- Region 0 of the reference program read index by index over the extended reals.

   At a grid point n the body forms, from image n's block, the central-difference convolution of each channel's
   rectified plane (nine rotated, masked, weighted taps summed in tap order, less the central-difference weight times
   the rectified plane), then the 1x1 convolution of that block as 64 multiply-adds from zero, one per input channel.
   That block is stored as slab n of the first output array. Its row sums, and the row sums of its squares, are added
   to two 64x1 accumulators which the first point resets to zero and which are written back after the last point.

   Read at an index: the first output array at (n, o, l) is the sum over input channels of the 1x1 weight times the
   convolution of image n; the second at (o, 0) is the sum of those over every image and position; the third the sum
   of their squares. The sums over the grid are by induction on the point. -/
import proofs.«151441_g2000606144476369_pallasbulk_1044_2_alg».proof.Proof.R0Body
import proofs.«151441_g2000606144476369_pallasbulk_1044_2_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws
import Mathlib.Algebra.BigOperators.Fin

set_option maxRecDepth 16384

noncomputable section

namespace Cert.ReferenceIdeal.Val

open Cert.ReferenceIdeal Cert.ReferenceIdeal.Gen Cert.ReferenceIdeal.Hand Cert.Spec
open Idealize.ShloMosaic Idealize.ShloMosaic.TcCoe Idealize.ShloMosaic.ValueIdx
open Idealize.ShloMosaic.Pipeline (Dat)
open scoped BigOperators

namespace Arr0

section Basic
variable {α : Type}

/-- A load through a unit-stride rectangle of a matrix reads the matrix at the offsets plus the index. -/
theorem ld_unit2_apply {Val : EltTy → Type} {e : EltTy} {n0 n1 m0 m1 : Nat} (o0 o1 : Nat) (X : (⟨2, ![n0, n1]⟩ : Shape).Idx → Val e)
    (inb : ∀ a, (![o0, o1] : Fin 2 → Nat) a + (![m0, m1] : Fin 2 → Nat) a ≤ (⟨2, ![n0, n1]⟩ : Shape).size a)
    (i : Fin m0) (j : Fin m1) (k0 : Fin n0) (k1 : Fin n1) (h0 : k0.val = o0 + i.val) (h1 : k1.val = o1 + j.val) :
    View.ld X (Rect.unit (s := ⟨2, ![n0, n1]⟩) ![o0, o1] ![m0, m1] inb) (ix2 i j) = X (ix2 k0 k1) := by
  show X _ = X _
  congr 1
  funext a
  apply Fin.ext
  match a with
  | ⟨0, _⟩ => show o0 + 1 * i.val = k0.val; omega
  | ⟨1, _⟩ => show o1 + 1 * j.val = k1.val; omega

/-- A column broadcast along the rows reads the column at the row. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A rotation of a matrix's rows by `s` positions reads, at (p, l), the row at the position `l - s` around the end. -/
theorem rotate_row_apply {a : ℕ} (s : ℕ) (hs : s < 2 ^ 32) (x : (⟨2, ![a, 1024]⟩ : Shape).Idx → α) (h : (⟨2, ![a, 1024]⟩ : Shape).Rotates 1 none)
    (p : Fin a) (l : Fin 1024) :
    dynamicRotate (1 : Fin 2) (BitVec.ofNat 32 s) none x h (ix2 p l) = x (ix2 p (Cert.Spec.rotL s l)) := by
  refine dynamicRotate_apply (1 : Fin 2) _ x h (ix2 p l) (ix2 p (Cert.Spec.rotL s l)) fun b => ?_
  match b with
  | ⟨0, _⟩ => rfl
  | ⟨1, _⟩ =>
    show (l.val + 1024 - s % 1024) % 1024 = (l.val + 1024 - (BitVec.ofNat 32 s).toNat % 1024) % 1024
    rw [BitVec.toNat_ofNat, Nat.mod_eq_of_lt hs]

end Basic

section Pay
variable (x0 : Vec Ideal S1x64x1024 .f32) (x1 : Vec Ideal S64x9 .f32) (x2 : Vec Ideal S64x1 .f32) (x3 : Vec Ideal S9x1024 .f32) (x4 : Vec Ideal S64x64 .f32)

theorem hz3 : (![0, 0, 0] : Fin 3 → Nat) = fun _ => 0 := funext fun a => by fin_cases a <;> rfl
theorem hz2 : (![0, 0] : Fin 2 → Nat) = fun _ => 0 := funext fun a => by fin_cases a <;> rfl

/-- The single-precision zero word is the extended real zero. -/
theorem fzero : (FloatOps.ofBits .f32 0x00000000#32 : Ideal .f32) = 0 := Ideal.ofBits_zero_f32

theorem ld_rX : View.ld x0 rX = x0 := View.ld_unit_zero (S := S1x64x1024) hz3 _ x0
theorem ld_rK (s : Vec Ideal S64x1 .f32) : View.ld s rK = s := View.ld_unit_zero (S := S64x1) hz2 _ s

/-- Mask row t (a natural number below 9) at position l. -/
theorem ld_rM (t : ℕ) (inb) (l : Fin 1024) :
    (View.ld x3 (Rect.unit (s := S9x1024) ![t, 0] S1x1024.size inb) : Vec Ideal S1x1024 .f32) (ix2 (0 : Fin 1) l)
      = x3 (ix2 ⟨t, by have := inb 0; simp at this; omega⟩ l) :=
  ld_unit2_apply t 0 x3 inb 0 l _ l rfl (by omega)
/-- Tap-weight column t at channel ch. -/
theorem ld_rT (t : ℕ) (inb) (ch : Fin 64) :
    (View.ld x1 (Rect.unit (s := S64x9) ![0, t] S64x1.size inb) : Vec Ideal S64x1 .f32) (ix2 ch (0 : Fin 1))
      = x1 (ix2 ch ⟨t, by have := inb 1; simp at this; omega⟩) :=
  ld_unit2_apply 0 t x1 inb ch 0 ch _ (by omega) rfl

/-- The rectified block at (ch, l). -/
theorem p6_apply (ch : Fin 64) (l : Fin 1024) : p6 x0 (ix2 ch l) = max (x0 (ix3 0 ch l)) 0 := by
  unfold p6 k0_pay7
  rw [ld_rX]
  show max (shapeCast S64x1024 x0 shapeCasts_S1x64x1024_S64x1024 (ix2 ch l)) _ = _
  rw [shapeCast_1ab_ab_apply]
  show max _ (Ideal.ofBits .f32 0x00000000#32) = _
  rw [Ideal.ofBits_zero_f32]

/-- THE CENTRAL-DIFFERENCE CONVOLUTION BLOCK at (ch, l): the nine taps in order, less the central-difference weight times the rectified centre. -/
theorem cdcR0_apply (ch : Fin 64) (l : Fin 1024) :
    cdcR0 x0 x1 x2 x3 (ix2 ch l)
      = cdcRow (fun j => x0 (ix3 0 ch j)) (fun t => x1 (ix2 ch t)) (x2 (ix2 ch 0)) (fun t j => x3 (ix2 t j)) l := by
  have h6 : k0_pay7 (View.ld x0 rX) = p6 x0 := rfl
  have hM := fun (t : ℕ) inb => ld_rM x3 t inb l
  have hT := fun (t : ℕ) inb => ld_rT x1 t inb ch
  unfold cdcR0 p72 p27 p32 p35 p73 p75
  unfold k0_pay14 k0_pay13 k0_pay12 k0_pay11 k0_pay10 k0_pay9 k0_pay8
  simp only [h6]
  simp only [subf_apply, addf_apply, mulf_apply, rotate_row_apply 66 (by decide), rotate_row_apply 64 (by decide),
    rotate_row_apply 62 (by decide), rotate_row_apply 2 (by decide), rotate_row_apply 1022 (by decide),
    rotate_row_apply 962 (by decide), rotate_row_apply 960 (by decide), rotate_row_apply 958 (by decide),
    broadcastTo_1b_ab_apply, broadcastTo_a1_ab_apply, shapeCast_self, hM, hT, ld_rK, broadcast_apply,
    fzero, zero_add, p6_apply]
  rfl

end Pay

section Fold
variable (x4 : Vec Ideal S64x64 .f32)

/-- Row k of a 64x1024 block at position l, for a natural number k (zero past the block). -/
def rowN (c : FVec Ideal S64x1024 .f32) (k : ℕ) (l : Fin 1024) : EReal := if h : k < 64 then c (ix2 ⟨k, h⟩ l) else 0
/-- Entry (o, k) of the 1x1 weight, for a natural number k (zero past the matrix). -/
def colN (o : Fin 64) (k : ℕ) : EReal := if h : k < 64 then x4 (ix2 o ⟨k, h⟩) else 0

/-- The one-row slice of a block from row k reads row k. -/
theorem slice_row (c : FVec Ideal S64x1024 .f32) (k : ℕ) (hsl : S64x1024.Slices ![k, 0] S1x1024) (l : Fin 1024) :
    extractStridedSlice S1x1024 ![k, 0] c hsl (ix2 (0 : Fin 1) l) = rowN c k l := by
  have hk : k < 64 := by have := hsl.2 0; simp at this; omega
  rw [rowN, dif_pos hk]
  exact slice2_axis0_apply k c hsl 0 l ⟨k, hk⟩ rfl

/-- The load of column k of the 1x1 weight reads entry (o, k). -/
theorem ld_col (k : ℕ) (inb) (o : Fin 64) :
    (View.ld x4 (Rect.unit (s := S64x64) ![0, k] S64x1.size inb) : Vec Ideal S64x1 .f32) (ix2 o (0 : Fin 1)) = colN x4 o k := by
  have hk : k < 64 := by have := inb 1; simp at this; omega
  rw [colN, dif_pos hk]
  exact ld_unit2_apply 0 k x4 inb o 0 o ⟨k, hk⟩ (by omega) rfl

/-- The 64 multiply-adds from zero, in channel order, are the sum over the input channels. -/
theorem fold_apply (C A : FVec Ideal S64x1024 .f32) (o : Fin 64) (l : Fin 1024)
    (hA : A (ix2 o l) = ∑ i ∈ Finset.range 3, colN x4 o i * rowN C i l) :
    k0_pay1 C (s539 C A x4) (View.ld x4 rW63) (ix2 o l) = ∑ i ∈ Finset.range 64, colN x4 o i * rowN C i l := by
  have hW := fun (k : ℕ) inb => ld_col x4 k inb o
  unfold s539 s490 s441 s399 s350 s301 s259 s210 s161
  unfold k0_pay1 k0_pay30 k0_pay29 k0_pay28 k0_pay27 k0_pay26 k0_pay25 k0_pay24 k0_pay23 k0_pay22 k0_pay21 k0_pay20 k0_pay19 k0_pay18 k0_pay17 k0_pay16
  simp only [addf_apply, mulf_apply, broadcastTo_1b_ab_apply, broadcastTo_a1_ab_apply, shapeCast_self, slice_row, hW, hA,
    Finset.sum_range_succ, Finset.sum_range_zero]

end Fold

section Acc
variable (x0 : Vec Ideal S1x64x1024 .f32) (x1 : Vec Ideal S64x9 .f32) (x2 : Vec Ideal S64x1 .f32) (x3 : Vec Ideal S9x1024 .f32) (x4 : Vec Ideal S64x64 .f32)

/-- The running sum after the first three input channels. -/
theorem p119_apply (o : Fin 64) (l : Fin 1024) :
    p119 x0 x1 x2 x3 x4 (ix2 o l) = ∑ i ∈ Finset.range 3, colN x4 o i * rowN (cdcR0 x0 x1 x2 x3) i l := by
  have hC : k0_pay14 (p6 x0) (p72 x0 x1 x3) (p73 x0) (p75 x3) (View.ld x1 rT7) (View.ld x3 rM8) (View.ld x1 rT8) (View.ld x2 rK)
      = cdcR0 x0 x1 x2 x3 := rfl
  have hW := fun (k : ℕ) inb => ld_col x4 k inb o
  unfold p119 k0_pay15
  simp only [hC]
  simp only [addf_apply, mulf_apply, broadcastTo_1b_ab_apply, broadcastTo_a1_ab_apply, shapeCast_self, slice_row, hW,
    broadcast_apply, fzero, Finset.sum_range_succ, Finset.sum_range_zero]

/-- THE 1x1 CONVOLUTION'S BLOCK at (o, l): the sum over the input channels of the weight times the convolution block. -/
theorem yR0_apply (o : Fin 64) (l : Fin 1024) :
    yR0 x0 x1 x2 x3 x4 (ix2 o l) = ∑ ch : Fin 64, x4 (ix2 o ch) * cdcR0 x0 x1 x2 x3 (ix2 ch l) := by
  unfold yR0 c539
  rw [fold_apply x4 _ _ o l (p119_apply x0 x1 x2 x3 x4 o l),
    ← Fin.sum_univ_eq_sum_range (fun i => colN x4 o i * rowN (cdcR0 x0 x1 x2 x3) i l) 64]
  refine Finset.sum_congr rfl fun ch _ => ?_
  rw [colN, rowN, dif_pos ch.isLt, dif_pos ch.isLt]

/-- The reset leaves zero. -/
theorem s1zero_apply (j : S64x1.Idx) : (s1zero : Vec Ideal S64x1 .f32) j = 0 := by
  unfold s1zero k0_pay5
  show (FloatOps.ofBits .f32 0x00000000#32 : Ideal .f32) = 0
  exact fzero
theorem s2zero_apply (j : S64x1.Idx) : (s2zero : Vec Ideal S64x1 .f32) j = 0 := by
  unfold s2zero k0_pay6
  show (FloatOps.ofBits .f32 0x00000000#32 : Ideal .f32) = 0
  exact fzero

/-- A row sum kept as a 64x1 column: at (o, 0), the sum of the block's row o over the 1024 positions. -/
theorem rowsum_apply (y : FVec Ideal S64x1024 .f32) (hacc : (0x00000000#32 : BitVec 32) = FKind.add.neutral .f32 (.inl rfl)) (o : Fin 64) :
    shapeCast S64x1 (multiReduction .add [1] S64 y 0x00000000#32 reduces_S64x1024_S64 (.inl rfl) hacc) shapeCasts_S64_S64x1 (ix2 o (0 : Fin 1))
      = ∑ l : Fin 1024, y (ix2 o l) := by
  refine (shapeCast_apply _ _ (ix2 o (0 : Fin 1)) (ix1 o) ?_).trans ?_
  · rw [Shape.rowMajor_val_one, Shape.rowMajor_val_two]
    show o.val = o.val * 1 + 0
    omega
  refine (Ideal.multiReduction_add_single y _ reduces_S64x1024_S64 _ _ (ix1 o)).trans ?_
  show ∑ k : Fin 1024, y (reduces_S64x1024_S64.lift (ix1 o) k) = _
  refine Finset.sum_congr rfl fun k _ => congrArg y ?_
  funext a
  apply Fin.ext
  match a with
  | ⟨0, _⟩ => rfl
  | ⟨1, _⟩ => rfl

/-- The first accumulator's update at (o, 0): what it held plus the sum over the positions of the 1x1 convolution's row o. -/
theorem s1upd_apply (s : Vec Ideal S64x1 .f32) (o : Fin 64) :
    s1upd x0 x1 x2 x3 x4 s (ix2 o (0 : Fin 1)) = s (ix2 o 0) + ∑ l : Fin 1024, yR0 x0 x1 x2 x3 x4 (ix2 o l) := by
  unfold s1upd
  rw [View.canon_unit_zero (S := S64x1) hz2]
  unfold k0_pay3
  show addf (shapeCast S64x1 (View.ld s rK) shapeCasts_S64x1_S64x1) (shapeCast S64x1 (multiReduction .add [1] S64 (yR0 x0 x1 x2 x3 x4) 0x00000000#32 reduces_S64x1024_S64 (.inl rfl) rfl) shapeCasts_S64_S64x1) (ix2 o (0 : Fin 1)) = _
  rw [addf_apply, shapeCast_self, ld_rK]
  exact congrArg (s (ix2 o 0) + ·) (rowsum_apply (yR0 x0 x1 x2 x3 x4) rfl o)

/-- The second accumulator's update at (o, 0): what it held plus the sum of the squares. -/
theorem s2upd_apply (s : Vec Ideal S64x1 .f32) (o : Fin 64) :
    s2upd x0 x1 x2 x3 x4 s (ix2 o (0 : Fin 1))
      = s (ix2 o 0) + ∑ l : Fin 1024, yR0 x0 x1 x2 x3 x4 (ix2 o l) * yR0 x0 x1 x2 x3 x4 (ix2 o l) := by
  unfold s2upd
  rw [View.canon_unit_zero (S := S64x1) hz2]
  unfold k0_pay4
  show addf (shapeCast S64x1 (View.ld s rK) shapeCasts_S64x1_S64x1) (shapeCast S64x1 (multiReduction .add [1] S64 (mulf (yR0 x0 x1 x2 x3 x4) (yR0 x0 x1 x2 x3 x4)) 0x00000000#32 reduces_S64x1024_S64 (.inl rfl) rfl) shapeCasts_S64_S64x1) (ix2 o (0 : Fin 1)) = _
  rw [addf_apply, shapeCast_self, ld_rK]
  exact congrArg (s (ix2 o 0) + ·) (rowsum_apply (mulf (yR0 x0 x1 x2 x3 x4) (yR0 x0 x1 x2 x3 x4)) rfl o)

end Acc

end Arr0

open Arr0

section Region
-- the TensorCore's buffer contents when the region is entered, over the extended reals
variable (V : (c : Dev nD) → (b : Ref sig .tc) → Buf (Elt Ideal) ((c : Thread nD τ).loc b))

/-- The input as 128 images of 64 planes of 1024 positions. -/
abbrev xA (c : Dev nD) : Vec Ideal S128x64x1024 .f32 := V c main_v0
/-- The nine tap weights of each channel. -/
abbrev wdA (c : Dev nD) : Vec Ideal S64x9 .f32 := V c main_v1
/-- The central-difference weight of each channel. -/
abbrev kdA (c : Dev nD) : Vec Ideal S64x1 .f32 := V c main_v5
/-- The nine border masks. -/
abbrev mkA (c : Dev nD) : Vec Ideal S9x1024 .f32 := V c main_v218
/-- The 1x1 convolution's weight. -/
abbrev wpA (c : Dev nD) : Vec Ideal S64x64 .f32 := V c main_v220

/-- The central-difference convolution of image n's plane ch at position l. -/
def cdR (c : Dev nD) (n : Fin 128) (ch : Fin 64) (l : Fin 1024) : EReal :=
  cdcRow (fun j => xA V c (ix3 n ch j)) (fun t => wdA V c (ix2 ch t)) (kdA V c (ix2 ch 0)) (fun t j => mkA V c (ix2 t j)) l
/-- The 1x1 convolution of it: output channel o of image n at position l. -/
def yRf (c : Dev nD) (n : Fin 128) (o : Fin 64) (l : Fin 1024) : EReal :=
  ∑ ch : Fin 64, wpA V c (ix2 o ch) * cdR V c n ch l

namespace Arr0

/-! ### The windows' block indices, decided over the 128 points -/

/-- Windows 0 and 5 move with the point along the image axis; the others stay at block zero. -/
theorem idx_facts : ∀ t : Fin cfg0.N,
    (win0_0.index t (0 : Fin 3) = t.val ∧ win0_0.index t (1 : Fin 3) = 0 ∧ win0_0.index t (2 : Fin 3) = 0)
    ∧ (win0_5.index t (0 : Fin 3) = t.val ∧ win0_5.index t (1 : Fin 3) = 0 ∧ win0_5.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- The point as an image number. -/
abbrev img (t : Fin cfg0.N) : Fin 128 := ⟨t.val, lt_of_lt_of_eq t.isLt N_0⟩

/-! ### The input windows' blocks, read at an index -/

theorem iblk_x (c : Dev nD) (t : Fin cfg0.N) (ch : Fin 64) (j : Fin 1024) :
    (iblk0 V c 0 t : Vec Ideal S1x64x1024 .f32) (ix3 (0 : Fin 1) ch j) = xA V c (ix3 (img t) ch j) := by
  obtain ⟨⟨e0, e1, e2⟩, -⟩ := idx_facts t
  unfold iblk0
  rw [View.read_apply]
  show V c main_v0 _ = V c main_v0 _
  congr 1
  funext a
  apply Fin.ext
  match a with
  | ⟨0, _⟩ => show win0_0.index t (0 : Fin 3) * 1 + 1 * 0 = t.val; rw [e0]; omega
  | ⟨1, _⟩ => show win0_0.index t (1 : Fin 3) * 64 + 1 * ch.val = ch.val; rw [e1]; omega
  | ⟨2, _⟩ => show win0_0.index t (2 : Fin 3) * 1024 + 1 * j.val = j.val; rw [e2]; omega

/-- A window whose block is its whole matrix reads the matrix. -/
theorem iblk_wd (c : Dev nD) (t : Fin cfg0.N) (ch : Fin 64) (k : Fin 9) :
    (iblk0 V c 1 t : Vec Ideal S64x9 .f32) (ix2 ch k) = wdA V c (ix2 ch k) := by
  obtain ⟨-, -, ⟨e0, e1⟩, -⟩ := idx_facts t
  unfold iblk0
  rw [View.read_apply]
  show V c main_v1 _ = V c main_v1 _
  congr 1
  funext a
  apply Fin.ext
  match a with
  | ⟨0, _⟩ => show win0_1.index t (0 : Fin 2) * 64 + 1 * ch.val = ch.val; rw [e0]; omega
  | ⟨1, _⟩ => show win0_1.index t (1 : Fin 2) * 9 + 1 * k.val = k.val; rw [e1]; omega
theorem iblk_kd (c : Dev nD) (t : Fin cfg0.N) (ch : Fin 64) :
    (iblk0 V c 2 t : Vec Ideal S64x1 .f32) (ix2 ch (0 : Fin 1)) = kdA V c (ix2 ch 0) := by
  obtain ⟨-, -, -, ⟨e0, e1⟩, -⟩ := idx_facts t
  unfold iblk0
  rw [View.read_apply]
  show V c main_v5 _ = V c main_v5 _
  congr 1
  funext a
  apply Fin.ext
  match a with
  | ⟨0, _⟩ => show win0_2.index t (0 : Fin 2) * 64 + 1 * ch.val = ch.val; rw [e0]; omega
  | ⟨1, _⟩ => show win0_2.index t (1 : Fin 2) * 1 + 1 * 0 = 0; rw [e1]
theorem iblk_mk (c : Dev nD) (t : Fin cfg0.N) (k : Fin 9) (j : Fin 1024) :
    (iblk0 V c 3 t : Vec Ideal S9x1024 .f32) (ix2 k j) = mkA V c (ix2 k j) := by
  obtain ⟨-, -, -, -, ⟨e0, e1⟩, -⟩ := idx_facts t
  unfold iblk0
  rw [View.read_apply]
  show V c main_v218 _ = V c main_v218 _
  congr 1
  funext a
  apply Fin.ext
  match a with
  | ⟨0, _⟩ => show win0_3.index t (0 : Fin 2) * 9 + 1 * k.val = k.val; rw [e0]; omega
  | ⟨1, _⟩ => show win0_3.index t (1 : Fin 2) * 1024 + 1 * j.val = j.val; rw [e1]; omega
theorem iblk_wp (c : Dev nD) (t : Fin cfg0.N) (o ch : Fin 64) :
    (iblk0 V c 4 t : Vec Ideal S64x64 .f32) (ix2 o ch) = wpA V c (ix2 o ch) := by
  obtain ⟨-, -, -, -, -, ⟨e0, e1⟩, -⟩ := idx_facts t
  unfold iblk0
  rw [View.read_apply]
  show V c main_v220 _ = V c main_v220 _
  congr 1
  funext a
  apply Fin.ext
  match a with
  | ⟨0, _⟩ => show win0_4.index t (0 : Fin 2) * 64 + 1 * o.val = o.val; rw [e0]; omega
  | ⟨1, _⟩ => show win0_4.index t (1 : Fin 2) * 64 + 1 * ch.val = ch.val; rw [e1]; omega

/-- THE 1x1 CONVOLUTION'S BLOCK AT POINT t is image t's: at (o, l), output channel o of image t at position l. -/
theorem yblk_apply (c : Dev nD) (t : Fin cfg0.N) (o : Fin 64) (l : Fin 1024) :
    yR0 (iblk0 V c 0 t) (iblk0 V c 1 t) (iblk0 V c 2 t) (iblk0 V c 3 t) (iblk0 V c 4 t) (ix2 o l) = yRf V c (img t) o l := by
  rw [yR0_apply]
  unfold yRf
  refine Finset.sum_congr rfl fun ch _ => ?_
  rw [cdcR0_apply, iblk_wp]
  unfold cdR
  congr 2
  · funext j; exact iblk_x V c t ch j
  · funext k; exact iblk_wd V c t ch k
  · exact iblk_kd V c t ch
  · funext k j; exact iblk_mk V c t k j

/-! ### The accumulators, by induction over the grid points -/

/-- Image k's 1x1 convolution output for a natural number k (zero past the batch). -/
def yRfN (c : Dev nD) (k : ℕ) (o : Fin 64) (l : Fin 1024) : EReal := if h : k < 128 then yRf V c ⟨k, h⟩ o l else 0

/-- After point n the first accumulator holds, at (o, 0), the sums over the positions of the images 0 to n. -/
theorem acc1_apply (c : Dev nD) : ∀ (n : ℕ) (h : n < cfg0.N) (o : Fin 64),
    (accAt V c n h).1 (ix2 o (0 : Fin 1)) = ∑ k ∈ Finset.range (n + 1), ∑ l : Fin 1024, yRfN V c k o l
  | 0, h, o => by
    rw [accAt_zero]
    dsimp only
    rw [s1upd_apply, s1zero_apply, zero_add, Finset.sum_range_one]
    refine Finset.sum_congr rfl fun l _ => ?_
    rw [yblk_apply V c ⟨0, h⟩ o l, yRfN, dif_pos (by decide)]
  | n + 1, h, o => by
    have hn : n + 1 < 128 := lt_of_lt_of_eq h N_0
    rw [accAt_succ]
    dsimp only
    rw [s1upd_apply, acc1_apply c n _ o, Finset.sum_range_succ _ (n + 1)]
    congr 1
    refine Finset.sum_congr rfl fun l _ => ?_
    rw [yblk_apply V c ⟨n + 1, h⟩ o l, yRfN, dif_pos hn]

/-- After point n the second accumulator holds the sums of the squares. -/
theorem acc2_apply (c : Dev nD) : ∀ (n : ℕ) (h : n < cfg0.N) (o : Fin 64),
    (accAt V c n h).2 (ix2 o (0 : Fin 1)) = ∑ k ∈ Finset.range (n + 1), ∑ l : Fin 1024, yRfN V c k o l * yRfN V c k o l
  | 0, h, o => by
    rw [accAt_zero]
    dsimp only
    rw [s2upd_apply, s2zero_apply, zero_add, Finset.sum_range_one]
    refine Finset.sum_congr rfl fun l _ => ?_
    rw [yblk_apply V c ⟨0, h⟩ o l, yRfN, dif_pos (by decide)]
  | n + 1, h, o => by
    have hn : n + 1 < 128 := lt_of_lt_of_eq h N_0
    rw [accAt_succ]
    dsimp only
    rw [s2upd_apply, acc2_apply c n _ o, Finset.sum_range_succ _ (n + 1)]
    congr 1
    refine Finset.sum_congr rfl fun l _ => ?_
    rw [yblk_apply V c ⟨n + 1, h⟩ o l, yRfN, dif_pos hn]

/-- Summing over the 128 images. -/
theorem sum_images (c : Dev nD) (o : Fin 64) (f : EReal → EReal) :
    ∑ k ∈ Finset.range 128, ∑ l : Fin 1024, f (yRfN V c k o l) = ∑ n : Fin 128, ∑ l : Fin 1024, f (yRf V c n o l) := by
  rw [← Fin.sum_univ_eq_sum_range (fun k => ∑ l : Fin 1024, f (yRfN V c k o l)) 128]
  refine Finset.sum_congr rfl fun n _ => Finset.sum_congr rfl fun l _ => ?_
  rw [yRfN, dif_pos n.isLt]

/-! ### The first output array: every point writes back its own slab -/

/-- The first output array as a function of its index. -/
abbrev G5 (c : Dev nD) : S128x64x1024.Idx → EReal := fun i => yRf V c (i 0 : Fin 128) (i 1 : Fin 64) (i 2 : Fin 1024)

theorem flushed5_eq (c : Dev nD) (t : Fin cfg0.N) :
    (dat0 V c).flushed 5 t = ((cfg0.win 5).blk t).view.read (Elt Ideal) (G5 V c) := by
  obtain ⟨-, ⟨e0, e1, e2⟩, -⟩ := idx_facts t
  show (cfg0.win 5).cut (grid0.coords t) ((dat0 V c).after 5 t) = _
  rw [after0_5]
  unfold out0_5
  rw [View.canon_unit_zero (S := S1x64x1024) hz3]
  funext y
  rw [View.read_apply]
  have h0 : (y 0).val < 1 := (y 0).isLt
  have h1 : (y 1).val < 64 := (y 1).isLt
  have h2 : (y 2).val < 1024 := (y 2).isLt
  have hy : (cfg0.win 5).xinj (grid0.coords t) y = ix3 (0 : Fin 1) (⟨(y 1).val, h1⟩ : Fin 64) (⟨(y 2).val, h2⟩ : Fin 1024) :=
    funext fun a => match a with
      | ⟨0, _⟩ => Fin.ext (show (y 0).val = 0 by omega)
      | ⟨1, _⟩ => rfl
      | ⟨2, _⟩ => rfl
  refine Eq.trans (b := yRf V c (img t) (⟨(y 1).val, h1⟩ : Fin 64) (⟨(y 2).val, h2⟩ : Fin 1024)) ?_ ?_
  · show k0_pay2 _ _ _ ((cfg0.win 5).xinj (grid0.coords t) y) = _
    rw [hy]
    unfold k0_pay2
    exact (shapeCast_ab_1ab_apply (yR0 (iblk0 V c 0 t) (iblk0 V c 1 t) (iblk0 V c 2 t) (iblk0 V c 3 t) (iblk0 V c 4 t))
      shapeCasts_S64x1024_S1x64x1024 (0 : Fin 1) ⟨(y 1).val, h1⟩ ⟨(y 2).val, h2⟩).trans (yblk_apply V c t _ _)
  · show yRf V c _ _ _ = yRf V c _ _ _
    congr 1
    · apply Fin.ext
      show t.val = win0_5.index t (0 : Fin 3) * 1 + 1 * (y 0).val
      rw [e0]; omega
    · apply Fin.ext
      show (y 1).val = win0_5.index t (1 : Fin 3) * 64 + 1 * (y 1).val
      rw [e1]; omega
    · apply Fin.ext
      show (y 2).val = win0_5.index t (2 : Fin 3) * 1024 + 1 * (y 2).val
      rw [e2]; omega

/-- Every index of the first output array lies in the slab of the point that is its image number. -/
theorem cover5 (i : S128x64x1024.Idx) : ∃ t : Fin cfg0.N, (cfg0.win 5).flush t = true ∧ i ∈ ((cfg0.win 5).blk t).view.set := by
  have h0 : (i 0).val < 128 := (i 0).isLt
  have h1 : (i 1).val < 64 := (i 1).isLt
  have h2 : (i 2).val < 1024 := (i 2).isLt
  obtain ⟨t, ht⟩ : ∃ t : Fin cfg0.N, t.val = (i 0).val := ⟨⟨(i 0).val, lt_of_lt_of_eq h0 N_0.symm⟩, rfl⟩
  refine ⟨t, flush0_5 t, ?_⟩
  obtain ⟨-, ⟨e0, e1, e2⟩, -⟩ := idx_facts t
  show i ∈ ((View.whole main_v223_0).slice (win0_5.rect t)).set
  rw [View.set_slice_whole, Rect.mem_set_unit]
  intro a
  match a with
  | ⟨0, _⟩ =>
    show win0_5.index t (0 : Fin 3) * 1 ≤ (i 0).val ∧ (i 0).val < win0_5.index t (0 : Fin 3) * 1 + 1
    rw [e0, ht]; omega
  | ⟨1, _⟩ =>
    show win0_5.index t (1 : Fin 3) * 64 ≤ (i 1).val ∧ (i 1).val < win0_5.index t (1 : Fin 3) * 64 + 64
    rw [e1]; omega
  | ⟨2, _⟩ =>
    show win0_5.index t (2 : Fin 3) * 1024 ≤ (i 2).val ∧ (i 2).val < win0_5.index t (2 : Fin 3) * 1024 + 1024
    rw [e2]; omega

end Arr0

/-- The first output array holds the 1x1 convolution's output. -/
theorem yArr_apply (c : Dev nD) (n : Fin 128) (o : Fin 64) (l : Fin 1024) :
    ((dat0 V c).arrAt 5 cfg0.N : S128x64x1024.Idx → EReal) (ix3 n o l) = yRf V c n o l :=
  congrFun ((dat0 V c).arrAt_eq_of_cover 5 (G5 V c) (fun t _ => flushed5_eq V c t) cover5) (ix3 n o l)

namespace Arr0

/-! ### The accumulators' arrays: written back once, after the last point -/

/-- The last point. -/
abbrev tLast : Fin cfg0.N := ⟨127, lt_of_lt_of_eq (by decide : 127 < 128) N_0.symm⟩

theorem flush_last (w : Fin cfg0.W) (t : Fin cfg0.N) (h : t.val % 128 = 127) : t = tLast := by
  have : t.val < 128 := lt_of_lt_of_eq t.isLt N_0
  exact Fin.ext (show t.val = 127 by omega)

theorem flushed6_eq (c : Dev nD) (t : Fin cfg0.N) (hf : (cfg0.win 6).flush t = true) :
    (dat0 V c).flushed 6 t = ((cfg0.win 6).blk t).view.read (Elt Ideal) ((accAt V c 127 tLast.isLt).1) := by
  obtain rfl : t = tLast := flush_last 6 t ((flush0_6 t).mp hf)
  obtain ⟨-, -, -, -, -, -, ⟨e0, e1⟩, -⟩ := idx_facts tLast
  show (cfg0.win 6).cut (grid0.coords tLast) ((dat0 V c).after 6 tLast) = _
  rw [after0_6]
  funext y
  rw [View.read_apply]
  show (accAt V c 127 tLast.isLt).1 _ = (accAt V c 127 tLast.isLt).1 _
  refine congrArg (accAt V c 127 tLast.isLt).1 ?_
  funext a
  apply Fin.ext
  match a with
  | ⟨0, _⟩ => show (y 0).val = win0_6.index tLast (0 : Fin 2) * 64 + 1 * (y 0).val; rw [e0]; omega
  | ⟨1, _⟩ => show (y 1).val = win0_6.index tLast (1 : Fin 2) * 1 + 1 * (y 1).val; rw [e1]; omega

theorem cover6 (i : S64x1.Idx) : ∃ t : Fin cfg0.N, (cfg0.win 6).flush t = true ∧ i ∈ ((cfg0.win 6).blk t).view.set := by
  have h0 : (i 0).val < 64 := (i 0).isLt
  have h1 : (i 1).val < 1 := (i 1).isLt
  refine ⟨tLast, (flush0_6 tLast).mpr rfl, ?_⟩
  obtain ⟨-, -, -, -, -, -, ⟨e0, e1⟩, -⟩ := idx_facts tLast
  show i ∈ ((View.whole main_v223_1).slice (win0_6.rect tLast)).set
  rw [View.set_slice_whole, Rect.mem_set_unit]
  intro a
  match a with
  | ⟨0, _⟩ =>
    show win0_6.index tLast (0 : Fin 2) * 64 ≤ (i 0).val ∧ (i 0).val < win0_6.index tLast (0 : Fin 2) * 64 + 64
    rw [e0]; omega
  | ⟨1, _⟩ =>
    show win0_6.index tLast (1 : Fin 2) * 1 ≤ (i 1).val ∧ (i 1).val < win0_6.index tLast (1 : Fin 2) * 1 + 1
    rw [e1]; omega

end Arr0

/-- The second holds its sums over images and positions. -/
theorem s1Arr_apply (c : Dev nD) (o : Fin 64) :
    ((dat0 V c).arrAt 6 cfg0.N : S64x1.Idx → EReal) (ix2 o 0) = ∑ n : Fin 128, ∑ l : Fin 1024, yRf V c n o l := by
  refine (congrFun ((dat0 V c).arrAt_eq_of_cover 6 ((accAt V c 127 tLast.isLt).1) (flushed6_eq V c) cover6) (ix2 o 0)).trans ?_
  exact (acc1_apply V c 127 tLast.isLt o).trans (sum_images V c o fun y => y)

namespace Arr0

theorem flushed7_eq (c : Dev nD) (t : Fin cfg0.N) (hf : (cfg0.win 7).flush t = true) :
    (dat0 V c).flushed 7 t = ((cfg0.win 7).blk t).view.read (Elt Ideal) ((accAt V c 127 tLast.isLt).2) := by
  obtain rfl : t = tLast := flush_last 7 t ((flush0_7 t).mp hf)
  obtain ⟨-, -, -, -, -, -, -, ⟨e0, e1⟩⟩ := idx_facts tLast
  show (cfg0.win 7).cut (grid0.coords tLast) ((dat0 V c).after 7 tLast) = _
  rw [after0_7]
  funext y
  rw [View.read_apply]
  show (accAt V c 127 tLast.isLt).2 _ = (accAt V c 127 tLast.isLt).2 _
  refine congrArg (accAt V c 127 tLast.isLt).2 ?_
  funext a
  apply Fin.ext
  match a with
  | ⟨0, _⟩ => show (y 0).val = win0_7.index tLast (0 : Fin 2) * 64 + 1 * (y 0).val; rw [e0]; omega
  | ⟨1, _⟩ => show (y 1).val = win0_7.index tLast (1 : Fin 2) * 1 + 1 * (y 1).val; rw [e1]; omega

theorem cover7 (i : S64x1.Idx) : ∃ t : Fin cfg0.N, (cfg0.win 7).flush t = true ∧ i ∈ ((cfg0.win 7).blk t).view.set := by
  have h0 : (i 0).val < 64 := (i 0).isLt
  have h1 : (i 1).val < 1 := (i 1).isLt
  refine ⟨tLast, (flush0_7 tLast).mpr rfl, ?_⟩
  obtain ⟨-, -, -, -, -, -, -, ⟨e0, e1⟩⟩ := idx_facts tLast
  show i ∈ ((View.whole main_v223_2).slice (win0_7.rect tLast)).set
  rw [View.set_slice_whole, Rect.mem_set_unit]
  intro a
  match a with
  | ⟨0, _⟩ =>
    show win0_7.index tLast (0 : Fin 2) * 64 ≤ (i 0).val ∧ (i 0).val < win0_7.index tLast (0 : Fin 2) * 64 + 64
    rw [e0]; omega
  | ⟨1, _⟩ =>
    show win0_7.index tLast (1 : Fin 2) * 1 ≤ (i 1).val ∧ (i 1).val < win0_7.index tLast (1 : Fin 2) * 1 + 1
    rw [e1]; omega

end Arr0

/-- The third holds the sums of its squares. -/
theorem s2Arr_apply (c : Dev nD) (o : Fin 64) :
    ((dat0 V c).arrAt 7 cfg0.N : S64x1.Idx → EReal) (ix2 o 0) = ∑ n : Fin 128, ∑ l : Fin 1024, yRf V c n o l * yRf V c n o l := by
  refine (congrFun ((dat0 V c).arrAt_eq_of_cover 7 ((accAt V c 127 tLast.isLt).2) (flushed7_eq V c) cover7) (ix2 o 0)).trans ?_
  exact (acc2_apply V c 127 tLast.isLt o).trans (sum_images V c o fun y => y * y)

end Region

end Cert.ReferenceIdeal.Val

end
-- ==== Proof.RVal1.lean ====
/- REGION 1 of the reference program, read as values over the extended reals: what the region leaves in its
   output array, index by index. The region's 128 points each write one 1x64x1024 slab of the [128,64,1024] result;
   slab n holds, at channel o and position l, the convolved value y n o l scaled and shifted per channel:
   mean = s1 o · 2⁻¹⁷, var = s2 o · 2⁻¹⁷ - mean · mean, scale = rsqrt (var + ε) · γ o, shift = β o - mean · scale,
   out = y n o l · scale + shift — the specification's `outS` at the arrays the region is entered with. -/
import proofs.«151441_g2000606144476369_pallasbulk_1044_2_alg».proof.Proof.R1Body
import proofs.«151441_g2000606144476369_pallasbulk_1044_2_alg».proof.Proof.Spec
import Idealize.ShloMosaic.Lib.Pipeline.Value
import Idealize.ShloMosaic.Lib.ValueIdx
import Idealize.ShloMosaic.Lib.ValueLayout

noncomputable section

namespace Cert.ReferenceIdeal.Val

open Cert.ReferenceIdeal Cert.ReferenceIdeal.Gen Cert.ReferenceIdeal.Hand Cert.Spec
open Idealize.ShloMosaic Idealize.ShloMosaic.TcCoe Idealize.ShloMosaic.ValueIdx Idealize.SL.Sem
open Idealize.ShloMosaic.Pipeline (Dat)

-- the TensorCore's buffer contents when region 1 is entered, over the extended reals
variable (V : (c : Dev nD) → (b : Ref sig .tc) → Buf (Elt Ideal) ((c : Thread nD τ).loc b))

-- every auxiliary statement of this file lives in its own namespace; the one exported statement follows it
namespace Arr1

/-! ## Small facts -/

theorem hz2 : (![0, 0] : Fin 2 → Nat) = fun _ => 0 := funext fun a => by fin_cases a <;> rfl
theorem hz3 : (![0, 0, 0] : Fin 3 → Nat) = fun _ => 0 := funext fun a => by fin_cases a <;> rfl

/-- A `[a, 1]` column broadcast to `[a, b]` reads, at `(p, c)`, the column's entry at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's payload at an index -/

/-- The stored block at `(p, q, r)`: the loaded block's entry at `(0, q, r)` times the channel's scale plus the
    channel's shift, the specification's chain at channel `q` of any `γ β s1 s2` that agree there with the four loaded
    columns. -/
theorem pay_apply (x0 : Vec Ideal S1x64x1024 .f32) (x1 x2 x3 x4 : Vec Ideal S64x1 .f32) (γ β s1 s2 : Fin 64 → EReal)
    (p : Fin 1) (q : Fin 64) (r : Fin 1024)
    (h1 : x1 (ix2 q (0 : Fin 1)) = s1 q) (h2 : x2 (ix2 q (0 : Fin 1)) = s2 q) (h3 : x3 (ix2 q (0 : Fin 1)) = γ q) (h4 : x4 (ix2 q (0 : Fin 1)) = β q) :
    k1_pay1 x1 x2 x3 x4 x0 (ix3 p q r) = x0 (ix3 (0 : Fin 1) q r) * scaleS γ s1 s2 q + shiftS γ β s1 s2 q := by
  have e1 : shapeCast S64x1 x1 shapeCasts_S64x1_S64x1 = x1 := shapeCast_self _ _
  have e2 : shapeCast S64x1 x2 shapeCasts_S64x1_S64x1 = x2 := shapeCast_self _ _
  have e3 : shapeCast S64x1 x3 shapeCasts_S64x1_S64x1 = x3 := shapeCast_self _ _
  have e4 : shapeCast S64x1 x4 shapeCasts_S64x1_S64x1 = x4 := shapeCast_self _ _
  unfold k1_pay1
  rw [e1, e2, e3, e4]
  refine (shapeCast_ab_1ab_apply _ _ p q r).trans ?_
  refine (addf_apply _ _ _).trans ?_
  refine congrArg₂ (· + ·) ?_ ?_
  · refine (mulf_apply _ _ _).trans ?_
    refine congrArg₂ (· * ·) (shapeCast_1ab_ab_apply _ _ q r) ?_
    refine (broadcastTo_a1_ab_apply _ _ q r).trans ?_
    show Ideal.rsqrt (x2 (ix2 q (0 : Fin 1)) * invE - x1 (ix2 q (0 : Fin 1)) * invE * (x1 (ix2 q (0 : Fin 1)) * invE) + epsE)
      * x3 (ix2 q (0 : Fin 1)) = _
    rw [h1, h2, h3]
    rfl
  · refine (broadcastTo_a1_ab_apply _ _ q r).trans ?_
    show x4 (ix2 q (0 : Fin 1)) - x1 (ix2 q (0 : Fin 1)) * invE
      * (Ideal.rsqrt (x2 (ix2 q (0 : Fin 1)) * invE - x1 (ix2 q (0 : Fin 1)) * invE * (x1 (ix2 q (0 : Fin 1)) * invE) + epsE)
        * x3 (ix2 q (0 : Fin 1))) = _
    rw [h1, h2, h3, h4]
    rfl

/-! ## The arrays the region reads, at their literal types -/

/-- The convolved array, the two sums, the scale and the offset, as the region finds them. -/
abbrev yArr (c : Dev nD) : S128x64x1024.Idx → EReal := V c main_v223_0
abbrev s1Arr (c : Dev nD) : S64x1.Idx → EReal := V c main_v223_1
abbrev s2Arr (c : Dev nD) : S64x1.Idx → EReal := V c main_v223_2
abbrev gArr (c : Dev nD) : S64x1.Idx → EReal := V c main_v221
abbrev bArr (c : Dev nD) : S64x1.Idx → EReal := V c main_v222

/-- What the output array ends holding: the specification's normalization, index by index. -/
def G (c : Dev nD) : S128x64x1024.Idx → EReal := fun i =>
  outS (fun o => gArr V c (ix2 o 0)) (fun o => bArr V c (ix2 o 0)) (fun n o l => yArr V c (ix3 n o l))
    (fun o => s1Arr V c (ix2 o 0)) (fun o => s2Arr V c (ix2 o 0)) (i 0) (i 1) (i 2)

/-! ## The index maps, decided over the grid -/

/-- Point `t` is batch element `t`. -/
theorem t_lt (t : Fin cfg1.N) : t.val < 128 := by
  have h : cfg1.N = 128 := N_1
  have := t.isLt
  omega

/-- Windows 0 and 5 move along the batch axis with the point; windows 1 to 4 never move. -/
theorem idx_facts : ∀ t : Fin cfg1.N,
    (win1_0.index t (0 : Fin 3) = t.val ∧ win1_0.index t (1 : Fin 3) = 0 ∧ win1_0.index t (2 : Fin 3) = 0)
    ∧ (win1_5.index t (0 : Fin 3) = t.val ∧ win1_5.index t (1 : Fin 3) = 0 ∧ win1_5.index t (2 : Fin 3) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0) :=
  (by decide +kernel : ∀ t : Fin grid1.N, _)

/-! ## The input blocks, read off the arrays -/

/-- Window 0's block at point `t` is slab `t` of the convolved array. -/
theorem blk0_apply (c : Dev nD) (t : Fin cfg1.N) (p : Fin 1) (q : Fin 64) (r : Fin 1024) :
    (iblk1 V c 0 t : Vec Ideal S1x64x1024 .f32) (ix3 p q r) = yArr V c (ix3 ⟨t.val, t_lt t⟩ q r) := by
  obtain ⟨⟨e0, e1, e2⟩, -⟩ := idx_facts t
  show yArr V c (((cfg1.win 0).blk t).view.emb (ix3 p q r)) = _
  refine congrArg (yArr V c) (funext fun a => Fin.ext ?_)
  match a with
  | ⟨0, _⟩ => show win1_0.index t (0 : Fin 3) * 1 + 1 * p.val = t.val; omega
  | ⟨1, _⟩ => show win1_0.index t (1 : Fin 3) * 64 + 1 * q.val = q.val; omega
  | ⟨2, _⟩ => show win1_0.index t (2 : Fin 3) * 1024 + 1 * r.val = r.val; omega

/-- Windows 1 to 4 hold their whole arrays at every point. -/
theorem blk1_apply (c : Dev nD) (t : Fin cfg1.N) (q : Fin 64) :
    (iblk1 V c 1 t : Vec Ideal S64x1 .f32) (ix2 q (0 : Fin 1)) = s1Arr V c (ix2 q 0) := by
  obtain ⟨-, -, ⟨e0, e1⟩, -⟩ := idx_facts t
  show s1Arr V c (((cfg1.win 1).blk t).view.emb (ix2 q (0 : Fin 1))) = _
  refine congrArg (s1Arr V c) (funext fun a => Fin.ext ?_)
  match a with
  | ⟨0, _⟩ => show win1_1.index t (0 : Fin 2) * 64 + 1 * q.val = q.val; omega
  | ⟨1, _⟩ => show win1_1.index t (1 : Fin 2) * 1 + 1 * 0 = 0; omega
theorem blk2_apply (c : Dev nD) (t : Fin cfg1.N) (q : Fin 64) :
    (iblk1 V c 2 t : Vec Ideal S64x1 .f32) (ix2 q (0 : Fin 1)) = s2Arr V c (ix2 q 0) := by
  obtain ⟨-, -, -, ⟨e0, e1⟩, -⟩ := idx_facts t
  show s2Arr V c (((cfg1.win 2).blk t).view.emb (ix2 q (0 : Fin 1))) = _
  refine congrArg (s2Arr V c) (funext fun a => Fin.ext ?_)
  match a with
  | ⟨0, _⟩ => show win1_2.index t (0 : Fin 2) * 64 + 1 * q.val = q.val; omega
  | ⟨1, _⟩ => show win1_2.index t (1 : Fin 2) * 1 + 1 * 0 = 0; omega
theorem blk3_apply (c : Dev nD) (t : Fin cfg1.N) (q : Fin 64) :
    (iblk1 V c 3 t : Vec Ideal S64x1 .f32) (ix2 q (0 : Fin 1)) = gArr V c (ix2 q 0) := by
  obtain ⟨-, -, -, -, ⟨e0, e1⟩, -⟩ := idx_facts t
  show gArr V c (((cfg1.win 3).blk t).view.emb (ix2 q (0 : Fin 1))) = _
  refine congrArg (gArr V c) (funext fun a => Fin.ext ?_)
  match a with
  | ⟨0, _⟩ => show win1_3.index t (0 : Fin 2) * 64 + 1 * q.val = q.val; omega
  | ⟨1, _⟩ => show win1_3.index t (1 : Fin 2) * 1 + 1 * 0 = 0; omega
theorem blk4_apply (c : Dev nD) (t : Fin cfg1.N) (q : Fin 64) :
    (iblk1 V c 4 t : Vec Ideal S64x1 .f32) (ix2 q (0 : Fin 1)) = bArr V c (ix2 q 0) := by
  obtain ⟨-, -, -, -, -, e0, e1⟩ := idx_facts t
  show bArr V c (((cfg1.win 4).blk t).view.emb (ix2 q (0 : Fin 1))) = _
  refine congrArg (bArr V c) (funext fun a => Fin.ext ?_)
  match a with
  | ⟨0, _⟩ => show win1_4.index t (0 : Fin 2) * 64 + 1 * q.val = q.val; omega
  | ⟨1, _⟩ => show win1_4.index t (1 : Fin 2) * 1 + 1 * 0 = 0; omega

/-- Window 5's block at point `t` sits at slab `t` of the output array. -/
theorem emb5 (t : Fin cfg1.N) (p : Fin 1) (q : Fin 64) (r : Fin 1024) :
    (((cfg1.win 5).blk t).view.emb (ix3 p q r) : S128x64x1024.Idx) = ix3 ⟨t.val, t_lt t⟩ q r := by
  obtain ⟨-, ⟨e0, e1, e2⟩, -⟩ := idx_facts t
  funext a
  apply Fin.ext
  match a with
  | ⟨0, _⟩ => show win1_5.index t (0 : Fin 3) * 1 + 1 * p.val = t.val; omega
  | ⟨1, _⟩ => show win1_5.index t (1 : Fin 3) * 64 + 1 * q.val = q.val; omega
  | ⟨2, _⟩ => show win1_5.index t (2 : Fin 3) * 1024 + 1 * r.val = r.val; omega

/-! ## From the blocks to the array -/

/-- WHAT POINT `t` WRITES BACK is block `t` of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz3]
  simp only [View.ld_unit_zero (S := S64x1) hz2, View.ld_unit_zero (S := S1x64x1024) hz3]
  funext j
  obtain ⟨p, q, r, rfl⟩ : ∃ (p : Fin 1) (q : Fin 64) (r : Fin 1024), j = ix3 p q r := ⟨j 0, j 1, j 2, eq_ix3 j⟩
  show k1_pay1 (iblk1 V c 1 t) (iblk1 V c 2 t) (iblk1 V c 3 t) (iblk1 V c 4 t) (iblk1 V c 0 t) (ix3 p q r)
    = G V c (((cfg1.win 5).blk t).view.emb (ix3 p q r))
  refine (pay_apply (iblk1 V c 0 t) (iblk1 V c 1 t) (iblk1 V c 2 t) (iblk1 V c 3 t) (iblk1 V c 4 t)
    (fun o => gArr V c (ix2 o 0)) (fun o => bArr V c (ix2 o 0)) (fun o => s1Arr V c (ix2 o 0)) (fun o => s2Arr V c (ix2 o 0))
    p q r (blk1_apply V c t q) (blk2_apply V c t q) (blk3_apply V c t q) (blk4_apply V c t q)).trans ?_
  refine Eq.trans ?_ (congrArg (G V c) (emb5 t p q r).symm)
  exact congrArg₂ (· + ·) (congrArg₂ (· * ·) (blk0_apply V c t 0 q r) rfl) rfl

/-- An index of the array is in point `t`'s block iff each coordinate is in the block's range on its axis. -/
theorem mem_blk5 (t : Fin cfg1.N) (i : S128x64x1024.Idx) :
    i ∈ ((cfg1.win 5).blk t).view.set ↔ ∀ a : Fin 3, win1_5.index t a * S1x64x1024.size a ≤ (i a).val ∧ (i a).val < win1_5.index t a * S1x64x1024.size a + S1x64x1024.size a := by
  show i ∈ ((View.whole main_v224).slice (win1_5.rect t)).set ↔ _
  rw [View.set_slice_whole, Rect.mem_set_unit]
  exact Iff.rfl

/-- Every index of the output array is in the block of the point named by its batch coordinate. -/
theorem cover5 (i : S128x64x1024.Idx) : ∃ t : Fin cfg1.N, (cfg1.win 5).flush t = true ∧ i ∈ ((cfg1.win 5).blk t).view.set := by
  have h : cfg1.N = 128 := N_1
  have hi0 : (i 0).val < 128 := (i 0).isLt
  have hi1 : (i 1).val < 64 := (i 1).isLt
  have hi2 : (i 2).val < 1024 := (i 2).isLt
  obtain ⟨t, ht⟩ : ∃ t : Fin cfg1.N, t.val = (i 0).val := ⟨⟨(i 0).val, by omega⟩, rfl⟩
  refine ⟨t, flush1_5 t, ?_⟩
  obtain ⟨-, ⟨e0, e1, e2⟩, -⟩ := idx_facts t
  rw [mem_blk5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 64 ≤ (i 1).val ∧ (i 1).val < win1_5.index t (1 : Fin 3) * 64 + 64; omega
  | ⟨2, _⟩ => show win1_5.index t (2 : Fin 3) * 1024 ≤ (i 2).val ∧ (i 2).val < win1_5.index t (2 : Fin 3) * 1024 + 1024; omega

/-- THE OUTPUT ARRAY after the region's last point is `G`. -/
theorem final5 (c : Dev nD) : (dat1 V c).arrAt 5 cfg1.N = G V c :=
  (dat1 V c).arrAt_eq_of_cover 5 (G V c) (fun t _ => flushed_eq V c t) cover5

end Arr1

/-- THE OUTPUT ARRAY after the region's last point, at batch element `n`, channel `o`, position `l`: the
    specification's normalization of the entry contents of the convolved array by the entry contents of the two sums,
    the scale and the offset. -/
theorem outArr_apply (c : Dev nD) (n : Fin 128) (o : Fin 64) (l : Fin 1024) : ((dat1 V c).arrAt 5 cfg1.N : S128x64x1024.Idx → EReal) (ix3 n o l)
    = outS (fun o => (V c main_v221 : S64x1.Idx → EReal) (ix2 o 0)) (fun o => (V c main_v222 : S64x1.Idx → EReal) (ix2 o 0))
        (fun n o l => (V c main_v223_0 : S128x64x1024.Idx → EReal) (ix3 n o l)) (fun o => (V c main_v223_1 : S64x1.Idx → EReal) (ix2 o 0)) (fun o => (V c main_v223_2 : S64x1.Idx → EReal) (ix2 o 0)) n o l := by
  exact congrFun (Arr1.final5 V c) (ix3 n o l)

end Cert.ReferenceIdeal.Val

end
-- ==== Proof.RVal.lean ====
/- The reference program's result, index by index, in the specification's terms.

   The run leaves in the result buffer a fold from the launch memory: the host stretch, the first region's arrays,
   the second region's array, and the last reshape. Read at an index, the reshape sends (n, o, h, w) to position
   32 h + w of plane (n, o) of the second region's output; that output is the normalization of the first region's
   three output arrays by the scale and offset vectors; the first region's outputs are the 1x1 convolution of the
   central-difference convolution and its sums and square sums over images and positions; and the host stretch's
   arrays are the arguments re-indexed. Chained, the result at (n, o, h, w) is the specification's normalized
   output from the 1x1 convolution's own sums, at the arguments' contents. -/
import proofs.«151441_g2000606144476369_pallasbulk_1044_2_alg».proof.Proof.RRun
import proofs.«151441_g2000606144476369_pallasbulk_1044_2_alg».proof.Proof.RHost0
import proofs.«151441_g2000606144476369_pallasbulk_1044_2_alg».proof.Proof.RVal0
import proofs.«151441_g2000606144476369_pallasbulk_1044_2_alg».proof.Proof.RVal1
import proofs.«151441_g2000606144476369_pallasbulk_1044_2_alg».proof.Proof.Spec
import proofs.«151441_g2000606144476369_pallasbulk_1044_2_alg».proof.Proof.HostSpec
import proofs.«151441_g2000606144476369_pallasbulk_1044_2_alg».proof.Proof.KdTerm
import Idealize.ShloMosaic.Lib.Pipeline.Value
import Idealize.ShloMosaic.Lib.ValueIdx
import Idealize.ShloMosaic.Lib.StableHlo.Run

set_option maxRecDepth 16384

noncomputable section

namespace Cert.ReferenceIdeal.Val

open Cert.ReferenceIdeal Cert.ReferenceIdeal.Gen Cert.ReferenceIdeal.Hand Cert.Spec
open Idealize.ShloMosaic Idealize.ShloMosaic.TcCoe Idealize.ShloMosaic.ValueIdx
open Idealize.SL Idealize.SL.Sem
open Idealize.ShloMosaic.Pipeline (Dat)
open scoped BigOperators

variable (m : (ℓ : Loc nD τ sig) → Buf (Elt Ideal) ℓ) (ρ : Dev nD → PrngReg)

/-- The central-difference convolution of image n's plane ch at position l, from the arguments' contents: the input
    plane, the channel's nine taps and its central-difference weight, and the nine border masks the host stretch makes. -/
def CR (c : Dev nD) (n : Fin 128) (ch : Fin 64) (l : Fin 1024) : EReal :=
  cdcRow (Xof (m ((c : Thread nD τ).loc main_arg0)) n ch) (WDof (m ((c : Thread nD τ).loc main_arg1)) ch) (kdTerm (m ((c : Thread nD τ).loc main_arg1)) (ix1 ch))
    (fun t j => (StableHlo.after hostOps0 (W0 m ρ c) (Proc.devRef .tc main_v218) : S9x1024.Idx → EReal) (ix2 t j)) l

/-! ## The first region's entry contents are the arguments re-indexed -/

/-- The convolution read off the first region's entry arrays is the one read off the arguments: the host stretch
    only re-indexes the input and the taps, and forms the central-difference weight from the taps. -/
theorem cdR_eq (c : Dev nD) (n : Fin 128) (ch : Fin 64) (l : Fin 1024) : cdR (V1 m ρ) c n ch l = CR m ρ c n ch l := by
  have hx : (fun j => xA (V1 m ρ) c (ix3 n ch j)) = Xof (m ((c : Thread nD τ).loc main_arg0)) n ch :=
    funext fun j => x3_apply (W0 m ρ c) n ch j
  have hw : (fun t => wdA (V1 m ρ) c (ix2 ch t)) = WDof (m ((c : Thread nD τ).loc main_arg1)) ch :=
    funext fun t => wd_apply (W0 m ρ c) ch t
  have hk : kdA (V1 m ρ) c (ix2 ch 0) = kdTerm (m ((c : Thread nD τ).loc main_arg1)) (ix1 ch) := kdiff_apply (W0 m ρ c) ch
  unfold cdR CR
  rw [hx, hw, hk]

/-- So the first region's 1x1 convolution is the specification's, at the 1x1 weight times (1 − θ). -/
theorem yRf_eq (c : Dev nD) (n : Fin 128) (o : Fin 64) (l : Fin 1024) :
    yRf (V1 m ρ) c n o l = yR (CR m ρ c) (Wof (m ((c : Thread nD τ).loc main_arg2))) n o l := by
  unfold yRf yR
  refine Finset.sum_congr rfl fun ch _ => ?_
  rw [cdR_eq]
  exact congrArg (fun a => a * CR m ρ c n ch l) (wp_apply (W0 m ρ c) o ch)

/-! ## The second region's entry contents

The second region is entered from the first region's exit: the three output arrays at what the pipeline left, and the
scale and offset vectors, which are no arrays of the first region, as the host stretch made them. -/

theorem v2_gamma (c : Dev nD) (o : Fin 64) :
    (V2 m ρ c main_v221 : S64x1.Idx → EReal) (ix2 o 0) = Gof (m ((c : Thread nD τ).loc main_arg3)) o := by
  show (W2 m ρ c (Proc.devRef .tc main_v221) : S64x1.Idx → EReal) (ix2 o 0) = _
  rw [W2_of_ne m ρ c main_v221 (by decide)]
  exact gamma_apply (W0 m ρ c) o

theorem v2_beta (c : Dev nD) (o : Fin 64) :
    (V2 m ρ c main_v222 : S64x1.Idx → EReal) (ix2 o 0) = Gof (m ((c : Thread nD τ).loc main_arg4)) o := by
  show (W2 m ρ c (Proc.devRef .tc main_v222) : S64x1.Idx → EReal) (ix2 o 0) = _
  rw [W2_of_ne m ρ c main_v222 (by decide)]
  exact beta_apply (W0 m ρ c) o

theorem v2_y (c : Dev nD) (n : Fin 128) (o : Fin 64) (l : Fin 1024) :
    (V2 m ρ c main_v223_0 : S128x64x1024.Idx → EReal) (ix3 n o l) = yR (CR m ρ c) (Wof (m ((c : Thread nD τ).loc main_arg2))) n o l := by
  have h : V2 m ρ c main_v223_0 = (dat0 (V1 m ρ) c).arrAt 5 cfg0.N := W2_arr m ρ c 5
  rw [h, yArr_apply, yRf_eq]

/-- The sums, and the square sums, of the first region's 1x1 convolution over images and positions are the specification's. -/
theorem s1_eq (c : Dev nD) (o : Fin 64) :
    (∑ n : Fin 128, ∑ l : Fin 1024, yRf (V1 m ρ) c n o l) = s1R (CR m ρ c) (Wof (m ((c : Thread nD τ).loc main_arg2))) o := by
  unfold s1R
  exact Finset.sum_congr rfl fun n _ => Finset.sum_congr rfl fun l _ => yRf_eq m ρ c n o l

theorem s2_eq (c : Dev nD) (o : Fin 64) :
    (∑ n : Fin 128, ∑ l : Fin 1024, yRf (V1 m ρ) c n o l * yRf (V1 m ρ) c n o l) = s2R (CR m ρ c) (Wof (m ((c : Thread nD τ).loc main_arg2))) o := by
  unfold s2R
  exact Finset.sum_congr rfl fun n _ => Finset.sum_congr rfl fun l _ => by rw [yRf_eq]

theorem v2_s1 (c : Dev nD) (o : Fin 64) :
    (V2 m ρ c main_v223_1 : S64x1.Idx → EReal) (ix2 o 0) = s1R (CR m ρ c) (Wof (m ((c : Thread nD τ).loc main_arg2))) o := by
  have h : V2 m ρ c main_v223_1 = (dat0 (V1 m ρ) c).arrAt 6 cfg0.N := W2_arr m ρ c 6
  rw [h, s1Arr_apply]
  exact s1_eq m ρ c o

theorem v2_s2 (c : Dev nD) (o : Fin 64) :
    (V2 m ρ c main_v223_2 : S64x1.Idx → EReal) (ix2 o 0) = s2R (CR m ρ c) (Wof (m ((c : Thread nD τ).loc main_arg2))) o := by
  have h : V2 m ρ c main_v223_2 = (dat0 (V1 m ρ) c).arrAt 7 cfg0.N := W2_arr m ρ c 7
  rw [h, s2Arr_apply]
  exact s2_eq m ρ c o

/-! ## The second region's output array -/

/-- The second region's output at (n, o, l): the specification's normalized output from the 1x1 convolution's own
    sums, since the arrays it is entered with are that convolution, its sums and its square sums. -/
theorem w3_out (c : Dev nD) (n : Fin 128) (o : Fin 64) (l : Fin 1024) :
    (W3 m ρ c (Proc.devRef .tc main_v224) : S128x64x1024.Idx → EReal) (ix3 n o l)
      = outR (CR m ρ c) (Wof (m ((c : Thread nD τ).loc main_arg2))) (Gof (m ((c : Thread nD τ).loc main_arg3))) (Gof (m ((c : Thread nD τ).loc main_arg4))) n o l := by
  have h : W3 m ρ c (Proc.devRef .tc main_v224) = (dat1 (V2 m ρ) c).arrAt 5 cfg1.N := W3_arr m ρ c 5
  have e1 : (fun o => (V2 m ρ c main_v221 : S64x1.Idx → EReal) (ix2 o 0)) = Gof (m ((c : Thread nD τ).loc main_arg3)) :=
    funext fun o => v2_gamma m ρ c o
  have e2 : (fun o => (V2 m ρ c main_v222 : S64x1.Idx → EReal) (ix2 o 0)) = Gof (m ((c : Thread nD τ).loc main_arg4)) :=
    funext fun o => v2_beta m ρ c o
  have e3 : (fun n o l => (V2 m ρ c main_v223_0 : S128x64x1024.Idx → EReal) (ix3 n o l)) = yR (CR m ρ c) (Wof (m ((c : Thread nD τ).loc main_arg2))) :=
    funext fun n => funext fun o => funext fun l => v2_y m ρ c n o l
  have e4 : (fun o => (V2 m ρ c main_v223_1 : S64x1.Idx → EReal) (ix2 o 0)) = s1R (CR m ρ c) (Wof (m ((c : Thread nD τ).loc main_arg2))) :=
    funext fun o => v2_s1 m ρ c o
  have e5 : (fun o => (V2 m ρ c main_v223_2 : S64x1.Idx → EReal) (ix2 o 0)) = s2R (CR m ρ c) (Wof (m ((c : Thread nD τ).loc main_arg2))) :=
    funext fun o => v2_s2 m ρ c o
  rw [h, outArr_apply, e1, e2, e3, e4, e5, outR_eq_outS]

/-! ## The result buffer -/

/-- THE RESULT BUFFER after the run, at image n, channel o, row hh, column ww: the last reshape reads the second
    region's output at position 32 hh + ww of plane (n, o). -/
theorem resR_apply (c : Dev nD) (n : Fin 128) (o : Fin 64) (hh ww : Fin 32) :
    (W4 (F := Ideal) m ρ c (Proc.devRef .tc main_v225) : S128x64x32x32.Idx → EReal) (ix4 n o hh ww)
      = outR (CR m ρ c) (Wof (m ((c : Thread nD τ).loc main_arg2))) (Gof (m ((c : Thread nD τ).loc main_arg3))) (Gof (m ((c : Thread nD τ).loc main_arg4))) n o
          ⟨32 * hh.val + ww.val, by have := hh.isLt; have := ww.isLt; omega⟩ := by
  refine Eq.trans ?_ (w3_out m ρ c n o ⟨32 * hh.val + ww.val, by have := hh.isLt; have := ww.isLt; omega⟩)
  show (StableHlo.after hostOps2 (W3 m ρ c) (Proc.devRef .tc main_v225) : S128x64x32x32.Idx → EReal) (ix4 n o hh ww) = _
  simp only [hostOps2, StableHlo.after_cons, StableHlo.after_nil]
  rw [StableHlo.reshape_result]
  refine shapeCast_apply _ _ _ _ ?_
  show (S128x64x1024.rowMajor (ix3 n o (⟨32 * hh.val + ww.val, by have := hh.isLt; have := ww.isLt; omega⟩ : Fin 1024))).val
      = (S128x64x32x32.rowMajor (ix4 n o hh ww)).val
  rw [Shape.rowMajor_val_three, Shape.rowMajor_val_four]
  show (n.val * 64 + o.val) * 1024 + (32 * hh.val + ww.val) = ((n.val * 64 + o.val) * 32 + hh.val) * 32 + ww.val
  omega

end Cert.ReferenceIdeal.Val

end
-- ==== Proof.LibNary.lean ====
import Idealize.ShloMosaic.Lib.StableHlo.Run

/-!
# The result of an operation over a literal family of nine operands

`StableHlo.nary xs y f` leaves at `y` the value `f (fun k => F (xs k))`. When the family `xs` is a literal
`![x0, …, x8]` (a concatenation of nine pieces), the contents under the binder are read at `![x0, …, x8] k`,
which is no literal reference, so the operands' own contents cannot be rewritten any further. The two lemmas
below restate the result with each operand's contents at ITS OWN reference (`Fin.cons (F x0) (Fin.cons (F x1) …)`),
as the library's `nary4_result` / `nary4_result'` do for four operands. A third lemma covers a function that reads
its argument only at the nine literal positions, and leaves no family at all.
-/

noncomputable section

namespace Idealize.ShloMosaic.StableHlo

variable {nD : Nat} {τ : Topo} {sig : RefSig} {Val : EltTy → Type}

variable {x0 x1 x2 x3 x4 x5 x6 x7 x8 y : Ref sig .tc}

/-- `nary` over a literal family of nine references: the result with each operand's contents at its own reference. -/
theorem nary9_result
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (Fin.cons (F (Proc.devRef .tc x8))
          (fun i => i.elim0)))))))))) := by
  rw [nary_result]; congr 1; funext k; fin_cases k <;> rfl

/-- `nary9_result` with the result reference un-indexed, so that it can be used as a simp lemma
    (the form of the library's primed result lemmas). -/
theorem nary9_result'
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (Fin.cons (F (Proc.devRef .tc x8))
          (fun i => i.elim0)))))))))) :=
  nary9_result f hxs hy F

/-- `nary` over a literal family of nine references whose function reads its argument only at the nine literal
    positions, `fun u => g (u 0) … (u 8)`: the result is `g` of the nine operands' contents, each at its own reference.
    No dependent family is left in the result, so every operand's contents can be rewritten in turn. -/
theorem nary9_result_apply
    (g : x0.ty.Contents Val → x1.ty.Contents Val → x2.ty.Contents Val → x3.ty.Contents Val → x4.ty.Contents Val →
         x5.ty.Contents Val → x6.ty.Contents Val → x7.ty.Contents Val → x8.ty.Contents Val → y.ty.Contents Val) (hxs hy)
    (F : Valuation τ sig Val) :
    (nary (τ := τ) ![x0, x1, x2, x3, x4, x5, x6, x7, x8] y
        (fun u => g (u 0) (u 1) (u 2) (u 3) (u 4) (u 5) (u 6) (u 7) (u 8)) hxs hy).result F (Proc.devRef .tc y)
      = g (F (Proc.devRef .tc x0)) (F (Proc.devRef .tc x1)) (F (Proc.devRef .tc x2)) (F (Proc.devRef .tc x3)) (F (Proc.devRef .tc x4))
          (F (Proc.devRef .tc x5)) (F (Proc.devRef .tc x6)) (F (Proc.devRef .tc x7)) (F (Proc.devRef .tc x8)) := by
  rw [nary_result]
  rfl

end Idealize.ShloMosaic.StableHlo
-- ==== Proof.HostEq.lean ====
/- The border mask of the 32x32 plane that each of the two programs builds before its first kernel.

   Both programs compute, with integer operations only, nine validity masks of the plane — one per offset
   (dy, dx) ∈ {-2, 0, 2}² of the dilated 3x3 stencil, marking the positions (r, c) whose neighbour (r + dy, c + dx)
   lies inside the plane —, flatten each to a row of 1024, stack the nine rows and convert the bits to floating
   point. The two operation sequences are the same up to the names of their buffers, and neither reads any input.
   Here each program's result is shown to be one and the same closed term, whatever the buffers held at launch
   and whatever the floating-point model; hence the two masks are equal, each is independent of the launch
   contents, and every entry is a real number in the model of exact arithmetic. -/
import proofs.«151441_g2000606144476369_pallasbulk_1044_2_alg».proof.Proof.Gen.KernelIdeal.Launch
import proofs.«151441_g2000606144476369_pallasbulk_1044_2_alg».proof.Proof.Gen.ReferenceIdeal.Launch
import proofs.«151441_g2000606144476369_pallasbulk_1044_2_alg».proof.Proof.LibNary
import Idealize.ShloMosaic.Lib.StableHlo.Run
import Idealize.ShloMosaic.Lib.ValueIdx
import Idealize.ShloMosaic.PureOps.Ideal

set_option maxRecDepth 16384

noncomputable section

namespace Cert.Val

open Idealize.ShloMosaic Idealize.ShloMosaic.StableHlo Idealize.ShloMosaic.ValueIdx

/-! ## The border masks as one closed term

Both programs number the 32x32 plane's positions by row r and column c and, for each of the nine offsets
(dy, dx) ∈ {-2, 0, 2}², taken row-major, mark the positions whose shifted neighbour (r + dy, c + dx) lies inside
the plane: 0 ≤ r + dy < 32 and 0 ≤ c + dx < 32 (signed 32-bit comparisons). The nine 32x32 bit planes are
flattened to rows of 1024, stacked into a 9x1024 array and converted to floating point. -/

/-- The shapes of the computation: a scalar, the 32 coordinates, a column, a row, the plane, a flattened plane, the stack. -/
abbrev P0 : Shape := ⟨0, ![]⟩
abbrev P32 : Shape := ⟨1, ![32]⟩
abbrev Pcol : Shape := ⟨2, ![32, 1]⟩
abbrev Prow : Shape := ⟨2, ![1, 32]⟩
abbrev Ppl : Shape := ⟨2, ![32, 32]⟩
abbrev Pflat : Shape := ⟨2, ![1, 1024]⟩
abbrev Pmask : Shape := ⟨2, ![9, 1024]⟩

/-- The row coordinate r, as a 32x1 column of 32-bit integers. -/
def rowCoord : IVec Pcol 32 := fun i => shapeCast Pcol (iotaInDim P32 32 0) (by decide) i
/-- The column coordinate c, as a 1x32 row of 32-bit integers. -/
def colCoord : IVec Prow 32 := fun i => shapeCast Prow (iotaInDim P32 32 0) (by decide) i

/-- 0 ≤ r + d < 32 at every row r. -/
def rowOk (d : BitVec 32) : IVec Pcol 1 :=
  andi
    (cmpi .sge (addi rowCoord (broadcastInDim (s := P0) Pcol ![] (by decide) (constantI P0 32 d)))
      (broadcastInDim (s := P0) Pcol ![] (by decide) (constantI P0 32 0#32)))
    (cmpi .slt (addi rowCoord (broadcastInDim (s := P0) Pcol ![] (by decide) (constantI P0 32 d)))
      (broadcastInDim (s := P0) Pcol ![] (by decide) (constantI P0 32 32#32)))
/-- 0 ≤ c + d at every column c. -/
def colGe (d : BitVec 32) : IVec Prow 1 :=
  cmpi .sge (addi colCoord (broadcastInDim (s := P0) Prow ![] (by decide) (constantI P0 32 d)))
    (broadcastInDim (s := P0) Prow ![] (by decide) (constantI P0 32 0#32))
/-- c + d < 32 at every column c. -/
def colLt (d : BitVec 32) : IVec Prow 1 :=
  cmpi .slt (addi colCoord (broadcastInDim (s := P0) Prow ![] (by decide) (constantI P0 32 d)))
    (broadcastInDim (s := P0) Prow ![] (by decide) (constantI P0 32 32#32))

/-- The mask of offset (dy, dx): the three conditions spread over the plane, conjoined, and the plane flattened. -/
def maskPiece (dy dx : BitVec 32) : IVec Pflat 1 :=
  fun i => shapeCast Pflat
    (andi
      (andi (broadcastInDim (s := Pcol) Ppl ![0, 1] (by decide) (rowOk dy))
        (broadcastInDim (s := Prow) Ppl ![0, 1] (by decide) (colGe dx)))
      (broadcastInDim (s := Prow) Ppl ![0, 1] (by decide) (colLt dx)))
    (by decide) i

/-- The nine masks stacked, offsets in row-major order over {-2, 0, 2}² (-2 is 4294967294 as a 32-bit word). -/
def maskBits : IVec Pmask 1 :=
  concatenate Pmask 0
    [⟨Pflat, maskPiece 4294967294#32 4294967294#32⟩, ⟨Pflat, maskPiece 4294967294#32 0#32⟩, ⟨Pflat, maskPiece 4294967294#32 2#32⟩,
     ⟨Pflat, maskPiece 0#32 4294967294#32⟩, ⟨Pflat, maskPiece 0#32 0#32⟩, ⟨Pflat, maskPiece 0#32 2#32⟩,
     ⟨Pflat, maskPiece 2#32 4294967294#32⟩, ⟨Pflat, maskPiece 2#32 0#32⟩, ⟨Pflat, maskPiece 2#32 2#32⟩]
    (by decide)

/-- The border mask both programs hand their first kernel: the stacked bits as floating-point numbers. -/
def maskTerm {F : FTy → Type} [FloatOps F] : FVec F Pmask .f32 := uitofp .f32 maskBits

/-! ## Each program's operations compose to the closed term -/

/-- Nine flattened planes stack, along the first axis, into the 9x1024 array. -/
theorem stack_ok : Shape.Concatenates [Pflat, Pflat, Pflat, Pflat, Pflat, Pflat, Pflat, Pflat, Pflat] Pmask 0 := by decide

/-- The stacking of nine flattened planes as a function of the nine. -/
abbrev stack9 (a0 a1 a2 a3 a4 a5 a6 a7 a8 : IVec Pflat 1) : IVec Pmask 1 :=
  concatenate Pmask 0 [⟨Pflat, a0⟩, ⟨Pflat, a1⟩, ⟨Pflat, a2⟩, ⟨Pflat, a3⟩, ⟨Pflat, a4⟩, ⟨Pflat, a5⟩, ⟨Pflat, a6⟩, ⟨Pflat, a7⟩, ⟨Pflat, a8⟩] stack_ok

/-- One pass that reads a buffer after a line of operations: the operation that writes the buffer gives its
    function's value at its operands' contents, every other operation leaves the buffer as it was. -/
macro "mask_results" : tactic =>
  `(tactic| (simp (disch := decide) only [after_cons, after_nil,
      nullary_result', unary_result', binary_result', reshape_result',
      nullary_result_ne', unary_result_ne', binary_result_ne', reshape_result_ne', nary_result_ne']))

set_option maxHeartbeats 4000000 in
/-- The first program's mask is the closed term, over any floating-point model and from any launch contents:
    the conversion of the stack of the nine pieces, each piece read back through its own chain of operations. -/
theorem maskK_term {F : FTy → Type} [FloatOps F] (W : Valuation Cert.KernelIdeal.τ Cert.KernelIdeal.sig (Elt F)) :
    StableHlo.after (Cert.KernelIdeal.Gen.hostOps0 (F := F)) W (Proc.devRef .tc Cert.KernelIdeal.main_v224) = maskTerm (F := F) := by
  dsimp only [Cert.KernelIdeal.Gen.hostOps0]
  mask_results
  rw [nary9_result_apply (τ := Cert.KernelIdeal.τ) (sig := Cert.KernelIdeal.sig) (Val := Elt F)
      (x0 := Cert.KernelIdeal.main_v38) (x1 := Cert.KernelIdeal.main_v61) (x2 := Cert.KernelIdeal.main_v84)
      (x3 := Cert.KernelIdeal.main_v107) (x4 := Cert.KernelIdeal.main_v130) (x5 := Cert.KernelIdeal.main_v153)
      (x6 := Cert.KernelIdeal.main_v176) (x7 := Cert.KernelIdeal.main_v199) (x8 := Cert.KernelIdeal.main_v222)
      (y := Cert.KernelIdeal.main_v223) (g := stack9)]
  mask_results
  rfl

set_option maxHeartbeats 4000000 in
/-- The second program's mask is the same closed term. -/
theorem maskR_term {F : FTy → Type} [FloatOps F] (W : Valuation Cert.ReferenceIdeal.τ Cert.ReferenceIdeal.sig (Elt F)) :
    StableHlo.after (Cert.ReferenceIdeal.Gen.hostOps0 (F := F)) W (Proc.devRef .tc Cert.ReferenceIdeal.main_v218) = maskTerm (F := F) := by
  dsimp only [Cert.ReferenceIdeal.Gen.hostOps0]
  mask_results
  rw [nary9_result_apply (τ := Cert.ReferenceIdeal.τ) (sig := Cert.ReferenceIdeal.sig) (Val := Elt F)
      (x0 := Cert.ReferenceIdeal.main_v32) (x1 := Cert.ReferenceIdeal.main_v55) (x2 := Cert.ReferenceIdeal.main_v78)
      (x3 := Cert.ReferenceIdeal.main_v101) (x4 := Cert.ReferenceIdeal.main_v124) (x5 := Cert.ReferenceIdeal.main_v147)
      (x6 := Cert.ReferenceIdeal.main_v170) (x7 := Cert.ReferenceIdeal.main_v193) (x8 := Cert.ReferenceIdeal.main_v216)
      (y := Cert.ReferenceIdeal.main_v217) (g := stack9)]
  mask_results
  rfl

/-! ## The two masks are equal, and neither depends on the launch contents -/

/-- The two programs build the same border mask. -/
theorem mask_eq (WK : Valuation Cert.KernelIdeal.τ Cert.KernelIdeal.sig (Elt Ideal)) (WR : Valuation Cert.ReferenceIdeal.τ Cert.ReferenceIdeal.sig (Elt Ideal)) :
    (StableHlo.after Cert.KernelIdeal.Gen.hostOps0 WK (Proc.devRef .tc Cert.KernelIdeal.main_v224) : (⟨2, ![9, 1024]⟩ : Shape).Idx → EReal)
      = (StableHlo.after Cert.ReferenceIdeal.Gen.hostOps0 WR (Proc.devRef .tc Cert.ReferenceIdeal.main_v218) : (⟨2, ![9, 1024]⟩ : Shape).Idx → EReal) :=
  (maskK_term (F := Ideal) WK).trans (maskR_term (F := Ideal) WR).symm

/-- The first program's mask does not depend on what the buffers held at launch. -/
theorem maskK_const {F : FTy → Type} [FloatOps F] (W W' : Valuation Cert.KernelIdeal.τ Cert.KernelIdeal.sig (Elt F)) :
    StableHlo.after (Cert.KernelIdeal.Gen.hostOps0 (F := F)) W (Proc.devRef .tc Cert.KernelIdeal.main_v224)
      = StableHlo.after (Cert.KernelIdeal.Gen.hostOps0 (F := F)) W' (Proc.devRef .tc Cert.KernelIdeal.main_v224) :=
  (maskK_term W).trans (maskK_term W').symm

/-- Nor does the second program's. -/
theorem maskR_const {F : FTy → Type} [FloatOps F] (W W' : Valuation Cert.ReferenceIdeal.τ Cert.ReferenceIdeal.sig (Elt F)) :
    StableHlo.after (Cert.ReferenceIdeal.Gen.hostOps0 (F := F)) W (Proc.devRef .tc Cert.ReferenceIdeal.main_v218)
      = StableHlo.after (Cert.ReferenceIdeal.Gen.hostOps0 (F := F)) W' (Proc.devRef .tc Cert.ReferenceIdeal.main_v218) :=
  (maskR_term W).trans (maskR_term W').symm

/-! ## Every entry of the mask is a real number

Converting an unsigned integer to floating point, in the model of exact extended-real arithmetic, gives the integer's
value as a real number; so an integer array converted entrywise has a real number at every index, whatever the array. -/

/-- An unsigned integer array converted to floating point holds, at every index, the real number that is the entry's
    value read unsigned. -/
theorem uitofp_ideal_real {s : Shape} {w : Nat} (x : IVec s w) (i : s.Idx) :
    ∃ r : ℝ, (uitofp (F := Ideal) .f32 x : FVec Ideal s .f32) i = (r : EReal) :=
  ⟨((x i).toNat : ℝ), rfl⟩

/-- The same with the real number named: the entry's value read unsigned. -/
theorem uitofp_ideal_apply {s : Shape} {w : Nat} (x : IVec s w) (i : s.Idx) :
    (uitofp (F := Ideal) .f32 x : FVec Ideal s .f32) i = (((x i).toNat : ℝ) : EReal) := rfl

/-- Every entry of the border mask is a real number. -/
theorem maskTerm_real (t : Fin 9) (j : Fin 1024) :
    ∃ r : ℝ, (maskTerm (F := Ideal) : (⟨2, ![9, 1024]⟩ : Shape).Idx → EReal) (ix2 t j) = (r : EReal) :=
  uitofp_ideal_real maskBits (ix2 t j)

/-- Every entry of the first program's mask is a real number. -/
theorem maskK_real (WK : Valuation Cert.KernelIdeal.τ Cert.KernelIdeal.sig (Elt Ideal)) (t : Fin 9) (j : Fin 1024) :
    ∃ r : ℝ, (StableHlo.after Cert.KernelIdeal.Gen.hostOps0 WK (Proc.devRef .tc Cert.KernelIdeal.main_v224) : (⟨2, ![9, 1024]⟩ : Shape).Idx → EReal) (ix2 t j) = (r : EReal) := by
  obtain ⟨r, hr⟩ := maskTerm_real t j
  exact ⟨r, (congrFun (maskK_term (F := Ideal) WK) (ix2 t j)).trans hr⟩

/-- Every entry of the second program's mask is a real number. -/
theorem maskR_real (WR : Valuation Cert.ReferenceIdeal.τ Cert.ReferenceIdeal.sig (Elt Ideal)) (t : Fin 9) (j : Fin 1024) :
    ∃ r : ℝ, (StableHlo.after Cert.ReferenceIdeal.Gen.hostOps0 WR (Proc.devRef .tc Cert.ReferenceIdeal.main_v218) : (⟨2, ![9, 1024]⟩ : Shape).Idx → EReal) (ix2 t j) = (r : EReal) := by
  obtain ⟨r, hr⟩ := maskTerm_real t j
  exact ⟨r, (congrFun (maskR_term (F := Ideal) WR) (ix2 t j)).trans hr⟩

end Cert.Val
-- ==== Proof.PreReal.lean ====
/-
  The precondition read back. The printed predicate is the conjunction of five tests, one per argument
  array: every entry x of the array satisfies |x| < +∞. At the extended reals an entry with |x| < +∞ is
  neither +∞ nor −∞, hence a real number. So under the precondition every entry of every argument
  array is (the image of) a real.
-/
import proofs.«151441_g2000606144476369_pallasbulk_1044_2_alg».proof.Defs
import proofs.«151441_g2000606144476369_pallasbulk_1044_2_alg».proof.Proof.Gen.Pre_finite_inputs
import Idealize.ShloMosaic.Lib.ReduceAll
import Idealize.ShloMosaic.Lib.KernelVsHost

namespace Cert.Val

open Idealize.ShloMosaic Idealize.SL.Sem

/-- The rank-0 shape has exactly one index. -/
instance : Subsingleton Cert.Pre_finite_inputs.S_.Idx := ⟨fun a b => funext fun d => d.elim0⟩

/-- An extended real x with |x| < +∞ is a real number. -/
theorem real_of_abs_lt_inf (x : Ideal .f32)
    (h : FloatOps.cmpf .olt (FloatOps.hostAbsf x) (FloatOps.ofBits (F := Ideal) .f32 0x7F800000#32) = 1#1) :
    ∃ r : ℝ, (x : EReal) = (r : EReal) := by
  have h' : IntOp.xori (BitVec.ofBool (decide ((x : EReal) = ⊤ ∨ (x : EReal) = ⊥))) 1#1 = 1#1 :=
    (Ideal.xori_weird_eq_hostAbsf_olt_inf x).trans h
  by_cases hx : (x : EReal) = ⊤ ∨ (x : EReal) = ⊥
  · simp [hx, IntOp.xori] at h'
  · rw [not_or] at hx
    exact ⟨EReal.toReal x, (EReal.coe_toReal hx.1 hx.2).symm⟩

/-- Under the precondition every entry of each of the five argument arrays is a real number. -/
theorem argsK_real [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg0) : Cert.KernelIdeal.S128x64x32x32.Idx → EReal) i = (r : EReal))
    ∧ (∀ i, ∃ r : ℝ, (m ((c.tc : Thread Cert.KernelIdeal.nD Cert.KernelIdeal.τ).loc Cert.KernelIdeal.main_arg1) : Cert.KernelIdeal.S64x3x3.Idx → EReal) i = (r : EReal))
    ∧ (∀ i, ∃ r : ℝ, (m ((c.tc : Thread Cert.KernelIdeal.nD Cert.KernelIdeal.τ).loc Cert.KernelIdeal.main_arg2) : Cert.KernelIdeal.S64x64.Idx → EReal) i = (r : EReal))
    ∧ (∀ i, ∃ r : ℝ, (m ((c.tc : Thread Cert.KernelIdeal.nD Cert.KernelIdeal.τ).loc Cert.KernelIdeal.main_arg3) : Cert.KernelIdeal.S64.Idx → EReal) i = (r : EReal))
    ∧ (∀ i, ∃ r : ℝ, (m ((c.tc : Thread Cert.KernelIdeal.nD Cert.KernelIdeal.τ).loc Cert.KernelIdeal.main_arg4) : Cert.KernelIdeal.S64.Idx → EReal) i = (r : EReal)) := by
  have h0 := congrFun (h c) ValueIdx.ix0
  dsimp only [Cert.Pre_finite_inputs.fn, Cert.Pre_finite_inputs.fn_part1] at h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => real_of_abs_lt_inf _ (Host.reduce_andi_all _ _ _ _ _ e0 i),
    fun i => real_of_abs_lt_inf _ (Host.reduce_andi_all _ _ _ _ _ e1 i),
    fun i => real_of_abs_lt_inf _ (Host.reduce_andi_all _ _ _ _ _ e2 i),
    fun i => real_of_abs_lt_inf _ (Host.reduce_andi_all _ _ _ _ _ e3 i),
    fun i => real_of_abs_lt_inf _ (Host.reduce_andi_all _ _ _ _ _ e4 i)⟩

end Cert.Val
-- ==== Proof.Algebra.lean ====
/- The two ways of following the 1x1 convolution by a batch normalization agree when every entry is a
   real number: the mean and the second moment of the 1x1 convolution's output over (batch, position) are
   linear, respectively quadratic, in the weight row, so they can be read off the channel sums and the Gram
   matrix of the convolved planes; the variance is then a nonnegative real, its offset reciprocal square
   root a real, and a real scale moves freely in and out of the finite sum over channels. -/
import proofs.«151441_g2000606144476369_pallasbulk_1044_2_alg».proof.Proof.Spec
import proofs.«151441_g2000606144476369_pallasbulk_1044_2_alg».proof.Proof.HostSpec
import Mathlib.Algebra.Order.Chebyshev
import Mathlib.Algebra.BigOperators.Ring.Finset
import Mathlib.Data.EReal.Operations

noncomputable section

namespace Cert.Spec

open Idealize.ShloMosaic Idealize.ShloMosaic.ValueIdx
open scoped BigOperators

/-! ### The three literals -/

/-- The count 128 · 1024 = 2^17 is the real number 131072. -/
theorem cntE_eq : cntE = ((131072 : ℝ) : EReal) := by
  simp [Ideal.ofBits, Ideal.ieee, -EReal.coe_mul]; norm_num

/-- Its reciprocal 2^-17. -/
theorem invE_eq : invE = (((131072 : ℝ)⁻¹ : ℝ) : EReal) := by
  simp [Ideal.ofBits, Ideal.ieee, -EReal.coe_mul]; norm_num

/-- The variance's offset is a positive real number: (2^23 + 2606508) · 2^-40. -/
theorem epsE_pos : ∃ e : ℝ, 0 < e ∧ epsE = (e : EReal) := by
  refine ⟨((2 ^ 23 + 2606508 : ℕ) : ℝ) * (2 : ℝ) ^ ((110 : ℤ) - 127 - 23), by positivity, ?_⟩
  simp [Ideal.ofBits, Ideal.ieee, -EReal.coe_mul]

/-! The auxiliary facts: finite sums, the closure of the real numbers, and both normalizations written in the real numbers. -/
namespace Alg

/-! ### Finite sums, and the batch walked in chunks -/

/-- The coercion of the reals into the extended reals goes through a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Batch element 8 i + b, as a bijection from (chunk, place in the chunk) to the batch. -/
def nbEquiv : Fin 16 × Fin 8 ≃ Fin 128 where
  toFun p := nb p.1 p.2
  invFun n := (⟨n.val / 8, by have := n.isLt; omega⟩, ⟨n.val % 8, by omega⟩)
  left_inv := by
    rintro ⟨i, b⟩
    have hi := i.isLt; have hb := b.isLt
    ext <;> simp [nb] <;> omega
  right_inv := by
    intro n
    ext; simp [nb]; omega

/-- Summing chunk by chunk is summing over the batch. -/
theorem sum_nb {α : Type*} [AddCommMonoid α] (f : Fin 128 → α) :
    ∑ i : Fin 16, ∑ b : Fin 8, f (nb i b) = ∑ n : Fin 128, f n := by
  rw [← Fintype.sum_prod_type' (fun i b => f (nb i b))]
  exact Fintype.sum_equiv nbEquiv _ _ (fun _ => rfl)

/-- The reciprocal square root of a positive real is a real number. -/
theorem rsqrt_pos {x : ℝ} (hx : 0 < x) : Ideal.rsqrt ((x : ℝ) : EReal) = (((Real.sqrt x)⁻¹ : ℝ) : EReal) := by
  rw [Ideal.rsqrt_coe, if_neg (not_lt.mpr hx.le), if_neg hx.ne']

/-! ### The real numbers are closed under the operations of the convolution -/
theorem real_add {a b : EReal} (ha : ∃ r : ℝ, a = (r : EReal)) (hb : ∃ r : ℝ, b = (r : EReal)) : ∃ r : ℝ, a + b = (r : EReal) := by
  obtain ⟨x, rfl⟩ := ha; obtain ⟨y, rfl⟩ := hb; exact ⟨x + y, (EReal.coe_add x y).symm⟩
theorem real_mul {a b : EReal} (ha : ∃ r : ℝ, a = (r : EReal)) (hb : ∃ r : ℝ, b = (r : EReal)) : ∃ r : ℝ, a * b = (r : EReal) := by
  obtain ⟨x, rfl⟩ := ha; obtain ⟨y, rfl⟩ := hb; exact ⟨x * y, (EReal.coe_mul x y).symm⟩
theorem real_sub {a b : EReal} (ha : ∃ r : ℝ, a = (r : EReal)) (hb : ∃ r : ℝ, b = (r : EReal)) : ∃ r : ℝ, a - b = (r : EReal) := by
  obtain ⟨x, rfl⟩ := ha; obtain ⟨y, rfl⟩ := hb; exact ⟨x - y, (EReal.coe_sub x y).symm⟩
theorem real_max_zero {a : EReal} (ha : ∃ r : ℝ, a = (r : EReal)) : ∃ r : ℝ, max a 0 = (r : EReal) := by
  rcases max_choice a 0 with h | h
  · rw [h]; exact ha
  · rw [h]; exact ⟨0, EReal.coe_zero.symm⟩

/-! ### Three facts about finite sums of real numbers -/

section RealAlgebra
variable {ι ι₁ ι₂ κ : Type*} [Fintype ι] [Fintype ι₁] [Fintype ι₂] [Fintype κ]

/-- A weighted sum of totals is the total of the weighted sums. -/
theorem lin_sum (a : κ → ℝ) (v : ι → κ → ℝ) :
    ∑ c, a c * ∑ p, v p c = ∑ p, ∑ c, a c * v p c := by
  simp_rw [Finset.mul_sum]
  exact Finset.sum_comm

/-- The quadratic form of the matrix of totals of products is the total of the squared weighted sums. -/
theorem quad_sum (a : κ → ℝ) (v : ι → κ → ℝ) :
    ∑ c', (∑ c, a c * ∑ p, v p c * v p c') * a c' = ∑ p, (∑ c, a c * v p c) * (∑ c, a c * v p c) := by
  have h : ∀ p, (∑ c, a c * v p c) * (∑ c, a c * v p c) = ∑ c', (∑ c, a c * (v p c * v p c')) * a c' := by
    intro p
    rw [Finset.mul_sum]
    refine Finset.sum_congr rfl (fun c' _ => ?_)
    rw [Finset.sum_mul, Finset.sum_mul]
    refine Finset.sum_congr rfl (fun c _ => ?_)
    ring
  simp_rw [h]
  conv_rhs => rw [Finset.sum_comm]
  refine Finset.sum_congr rfl (fun c' _ => ?_)
  rw [← Finset.sum_mul]
  congr 1
  exact lin_sum a (fun p c => v p c * v p c')

/-- The mean of the squares is at least the square of the mean. -/
theorem var_nonneg (y : ι → ℝ) (N : ℝ) (hN : (Fintype.card ι : ℝ) = N) (hpos : 0 < N) :
    0 ≤ (∑ p, y p * y p) * N⁻¹ - ((∑ p, y p) * N⁻¹) * ((∑ p, y p) * N⁻¹) := by
  have h := sq_sum_le_card_mul_sum_sq (s := (Finset.univ : Finset ι)) (f := y)
  rw [Finset.card_univ, hN] at h
  have h2 : (∑ p, y p ^ 2) = ∑ p, y p * y p := Finset.sum_congr rfl (fun p _ => sq (y p))
  rw [h2] at h
  have e : (∑ p, y p * y p) * N⁻¹ - ((∑ p, y p) * N⁻¹) * ((∑ p, y p) * N⁻¹)
      = (N * (∑ p, y p * y p) - (∑ p, y p) ^ 2) * (N⁻¹ * N⁻¹) := by
    field_simp
  rw [e]
  exact mul_nonneg (by linarith) (by positivity)

/-! The same three facts with the total taken over two indices in turn. -/
theorem lin_sum2 (a : κ → ℝ) (v : ι₁ → ι₂ → κ → ℝ) :
    ∑ c, a c * ∑ n, ∑ l, v n l c = ∑ n, ∑ l, ∑ c, a c * v n l c := by
  have h := lin_sum a (fun p : ι₁ × ι₂ => v p.1 p.2)
  simp only [Fintype.sum_prod_type] at h
  exact h

theorem quad_sum2 (a : κ → ℝ) (v : ι₁ → ι₂ → κ → ℝ) :
    ∑ c', (∑ c, a c * ∑ n, ∑ l, v n l c * v n l c') * a c'
      = ∑ n, ∑ l, (∑ c, a c * v n l c) * (∑ c, a c * v n l c) := by
  have h := quad_sum a (fun p : ι₁ × ι₂ => v p.1 p.2)
  simp only [Fintype.sum_prod_type] at h
  exact h

theorem var_nonneg2 (y : ι₁ → ι₂ → ℝ) (N : ℝ) (hN : ((Fintype.card ι₁ * Fintype.card ι₂ : ℕ) : ℝ) = N) (hpos : 0 < N) :
    0 ≤ (∑ n, ∑ l, y n l * y n l) * N⁻¹ - ((∑ n, ∑ l, y n l) * N⁻¹) * ((∑ n, ∑ l, y n l) * N⁻¹) := by
  have h := var_nonneg (fun p : ι₁ × ι₂ => y p.1 p.2) N (by rw [Fintype.card_prod]; exact hN) hpos
  simp only [Fintype.sum_prod_type] at h
  exact h

end RealAlgebra

/-! ### Both normalizations on real entries, written in the real numbers -/

section Transport
variable (C' : Fin 128 → Fin 64 → Fin 1024 → ℝ) (w' : Fin 64 → Fin 64 → ℝ)

/-- The 1x1 convolution's output. -/
def yRe (n : Fin 128) (o : Fin 64) (l : Fin 1024) : ℝ := ∑ c, w' o c * C' n c l
/-- Its mean over (batch, position). -/
def mRe (o : Fin 64) : ℝ := (∑ n, ∑ l, yRe C' w' n o l) * (131072 : ℝ)⁻¹
/-- Its variance over (batch, position): the mean of the squares less the square of the mean. -/
def vRe (o : Fin 64) : ℝ :=
  (∑ n, ∑ l, yRe C' w' n o l * yRe C' w' n o l) * (131072 : ℝ)⁻¹ - mRe C' w' o * mRe C' w' o

theorem yR_coe (n : Fin 128) (o : Fin 64) (l : Fin 1024) :
    yR (fun n c l => ((C' n c l : ℝ) : EReal)) (fun o c => ((w' o c : ℝ) : EReal)) n o l = (yRe C' w' n o l : EReal) := by
  unfold yR yRe
  simp only [coe_sum, EReal.coe_mul]

theorem s1R_coe (o : Fin 64) :
    s1R (fun n c l => ((C' n c l : ℝ) : EReal)) (fun o c => ((w' o c : ℝ) : EReal)) o
      = ((∑ n, ∑ l, yRe C' w' n o l : ℝ) : EReal) := by
  unfold s1R
  simp only [yR_coe, coe_sum]

theorem s2R_coe (o : Fin 64) :
    s2R (fun n c l => ((C' n c l : ℝ) : EReal)) (fun o c => ((w' o c : ℝ) : EReal)) o
      = ((∑ n, ∑ l, yRe C' w' n o l * yRe C' w' n o l : ℝ) : EReal) := by
  unfold s2R
  simp only [yR_coe, coe_sum, EReal.coe_mul]

theorem meanR_coe (o : Fin 64) :
    meanR (fun n c l => ((C' n c l : ℝ) : EReal)) (fun o c => ((w' o c : ℝ) : EReal)) o = (mRe C' w' o : EReal) := by
  unfold meanR mRe
  rw [s1R_coe, invE_eq, EReal.coe_mul]

theorem varR_coe (o : Fin 64) :
    varR (fun n c l => ((C' n c l : ℝ) : EReal)) (fun o c => ((w' o c : ℝ) : EReal)) o = (vRe C' w' o : EReal) := by
  unfold varR vRe
  rw [s2R_coe, meanR_coe, invE_eq]
  simp only [EReal.coe_sub, EReal.coe_mul]

/-- The channel sums, walked chunk by chunk, are the sums over the batch. -/
theorem chsum_coe (c : Fin 64) :
    chsum (fun n c l => ((C' n c l : ℝ) : EReal)) c = ((∑ n, ∑ l, C' n c l : ℝ) : EReal) := by
  unfold chsum
  refine (sum_nb (fun n => ∑ l, ((C' n c l : ℝ) : EReal))).trans ?_
  simp only [coe_sum]

/-- So is the Gram matrix. -/
theorem gram_coe (c c' : Fin 64) :
    gram (fun n c l => ((C' n c l : ℝ) : EReal)) c c' = ((∑ n, ∑ l, C' n c l * C' n c' l : ℝ) : EReal) := by
  unfold gram
  refine (sum_nb (fun n => ∑ l, ((C' n c l : ℝ) : EReal) * ((C' n c' l : ℝ) : EReal))).trans ?_
  simp only [coe_sum, EReal.coe_mul]

/-- The mean read off the channel sums is the mean of the 1x1 convolution's output. -/
theorem meanG_coe (o : Fin 64) :
    meanG (fun o c => ((w' o c : ℝ) : EReal)) (gram (fun n c l => ((C' n c l : ℝ) : EReal)))
      (chsum (fun n c l => ((C' n c l : ℝ) : EReal))) o = (mRe C' w' o : EReal) := by
  unfold meanG
  rw [cntE_eq, Ideal.div_coe (by norm_num : (131072 : ℝ) ≠ 0)]
  simp only [chsum_coe]
  have key : mRe C' w' o = (∑ c, w' o c * ∑ n, ∑ l, C' n c l) * (1 / 131072 : ℝ) := by
    unfold mRe yRe
    have h := lin_sum2 (w' o) (fun n l c => C' n c l)
    beta_reduce at h
    rw [h, one_div]
  rw [key]
  simp only [coe_sum, EReal.coe_mul]

/-- The second moment read off the Gram matrix is the mean of the squares of the 1x1 convolution's output. -/
theorem e2G_coe (o : Fin 64) :
    e2G (fun o c => ((w' o c : ℝ) : EReal)) (gram (fun n c l => ((C' n c l : ℝ) : EReal)))
      (chsum (fun n c l => ((C' n c l : ℝ) : EReal))) o
      = (((∑ n, ∑ l, yRe C' w' n o l * yRe C' w' n o l) * (131072 : ℝ)⁻¹ : ℝ) : EReal) := by
  unfold e2G
  rw [cntE_eq, Ideal.div_coe (by norm_num : (131072 : ℝ) ≠ 0)]
  simp only [gram_coe]
  have key : (∑ n, ∑ l, yRe C' w' n o l * yRe C' w' n o l) * (131072 : ℝ)⁻¹
      = (∑ c', (∑ c, w' o c * ∑ n, ∑ l, C' n c l * C' n c' l) * w' o c') * (1 / 131072 : ℝ) := by
    unfold yRe
    have h := quad_sum2 (w' o) (fun n l c => C' n c l)
    beta_reduce at h
    rw [h, one_div]
  rw [key]
  simp only [coe_sum, EReal.coe_mul]

/-- Hence the two variances are one real number. -/
theorem varG_coe (o : Fin 64) :
    varG (fun o c => ((w' o c : ℝ) : EReal)) (gram (fun n c l => ((C' n c l : ℝ) : EReal)))
      (chsum (fun n c l => ((C' n c l : ℝ) : EReal))) o = (vRe C' w' o : EReal) := by
  unfold varG vRe
  simp only [e2G_coe, meanG_coe, EReal.coe_sub, EReal.coe_mul]

/-- That variance is not negative. -/
theorem vRe_nonneg (o : Fin 64) : 0 ≤ vRe C' w' o := by
  unfold vRe mRe
  exact var_nonneg2 (fun n l => yRe C' w' n o l) 131072 (by norm_num [Fintype.card_fin]) (by norm_num)

end Transport

/-! ### The scales and the outputs, given the reciprocal square root as a real number -/

section Outputs
variable (C' : Fin 128 → Fin 64 → Fin 1024 → ℝ) (w' : Fin 64 → Fin 64 → ℝ) (γ' β' : Fin 64 → ℝ)

/-- The scale from the Gram matrix and the channel sums. -/
theorem scaleG_coe (o : Fin 64) (e s : ℝ) (hE : epsE = (e : EReal)) (hpos : 0 < vRe C' w' o + e)
    (hs : s = (Real.sqrt (vRe C' w' o + e))⁻¹) :
    scaleG (fun o c => ((w' o c : ℝ) : EReal)) (fun o => ((γ' o : ℝ) : EReal))
      (gram (fun n c l => ((C' n c l : ℝ) : EReal))) (chsum (fun n c l => ((C' n c l : ℝ) : EReal))) o
      = ((γ' o * s : ℝ) : EReal) := by
  unfold scaleG
  rw [varG_coe, hE, ← EReal.coe_add, rsqrt_pos hpos, ← hs]
  simp only [EReal.coe_mul]

/-- The scale from the 1x1 convolution's own sums. -/
theorem scaleR_coe (o : Fin 64) (e s : ℝ) (hE : epsE = (e : EReal)) (hpos : 0 < vRe C' w' o + e)
    (hs : s = (Real.sqrt (vRe C' w' o + e))⁻¹) :
    scaleR (fun n c l => ((C' n c l : ℝ) : EReal)) (fun o c => ((w' o c : ℝ) : EReal))
      (fun o => ((γ' o : ℝ) : EReal)) o = ((s * γ' o : ℝ) : EReal) := by
  unfold scaleR
  rw [varR_coe, hE, ← EReal.coe_add, rsqrt_pos hpos, ← hs]
  simp only [EReal.coe_mul]

/-- The first normalization as a coerced real number. -/
theorem outK_coe (n : Fin 128) (o : Fin 64) (l : Fin 1024) (s : ℝ)
    (hK : scaleG (fun o c => ((w' o c : ℝ) : EReal)) (fun o => ((γ' o : ℝ) : EReal))
      (gram (fun n c l => ((C' n c l : ℝ) : EReal))) (chsum (fun n c l => ((C' n c l : ℝ) : EReal))) o
      = ((γ' o * s : ℝ) : EReal)) :
    outK (fun n c l => ((C' n c l : ℝ) : EReal)) (fun o c => ((w' o c : ℝ) : EReal))
      (fun o => ((γ' o : ℝ) : EReal)) (fun o => ((β' o : ℝ) : EReal)) n o l
      = ((∑ c, (γ' o * s * w' o c) * C' n c l + (β' o - mRe C' w' o * (γ' o * s)) : ℝ) : EReal) := by
  unfold outK outG shiftG
  rw [hK, meanG_coe]
  simp only [coe_sum, EReal.coe_add, EReal.coe_sub, EReal.coe_mul]

/-- The second normalization as a coerced real number. -/
theorem outR_coe (n : Fin 128) (o : Fin 64) (l : Fin 1024) (s : ℝ)
    (hR : scaleR (fun n c l => ((C' n c l : ℝ) : EReal)) (fun o c => ((w' o c : ℝ) : EReal))
      (fun o => ((γ' o : ℝ) : EReal)) o = ((s * γ' o : ℝ) : EReal)) :
    outR (fun n c l => ((C' n c l : ℝ) : EReal)) (fun o c => ((w' o c : ℝ) : EReal))
      (fun o => ((γ' o : ℝ) : EReal)) (fun o => ((β' o : ℝ) : EReal)) n o l
      = ((yRe C' w' n o l * (s * γ' o) + (β' o - mRe C' w' o * (s * γ' o)) : ℝ) : EReal) := by
  unfold outR shiftR
  rw [hR, meanR_coe, yR_coe]
  simp only [EReal.coe_add, EReal.coe_sub, EReal.coe_mul]

/-- In the real numbers the scale moves through the finite sum over channels. -/
theorem out_real (n : Fin 128) (o : Fin 64) (l : Fin 1024) (s m : ℝ) :
    ∑ c, (γ' o * s * w' o c) * C' n c l + (β' o - m * (γ' o * s))
      = yRe C' w' n o l * (s * γ' o) + (β' o - m * (s * γ' o)) := by
  have h : ∑ c, (γ' o * s * w' o c) * C' n c l = (∑ c, w' o c * C' n c l) * (s * γ' o) := by
    rw [Finset.sum_mul]
    exact Finset.sum_congr rfl (fun c _ => by ring)
  unfold yRe
  rw [h]
  ring

end Outputs

end Alg

open Alg

/-! ### One plane's convolution is real, and the two normalizations agree -/

/-- One plane's convolution of real entries is a real number. -/
theorem cdcRow_real (x : Fin 1024 → EReal) (wd : Fin 9 → EReal) (kd : EReal) (M : Fin 9 → Fin 1024 → EReal)
    (hx : ∀ j, ∃ r : ℝ, x j = (r : EReal)) (hwd : ∀ t, ∃ r : ℝ, wd t = (r : EReal)) (hkd : ∃ r : ℝ, kd = (r : EReal)) (hM : ∀ t j, ∃ r : ℝ, M t j = (r : EReal)) (l : Fin 1024) :
    ∃ r : ℝ, cdcRow x wd kd M l = (r : EReal) := by
  have hr : ∀ j, ∃ r : ℝ, max (x j) 0 = (r : EReal) := fun j => real_max_zero (hx j)
  unfold cdcRow
  simp only []
  repeat' first
    | exact hr _
    | exact hwd _
    | exact hM _ _
    | exact hkd
    | apply real_sub
    | apply real_add
    | apply real_mul

/-- With every entry a real number, the normalization computed from the Gram matrix and the channel sums is the one computed from the sums and square sums of the 1x1 convolution's output. -/
theorem outK_eq_outR (C : Fin 128 → Fin 64 → Fin 1024 → EReal) (w : Fin 64 → Fin 64 → EReal) (γ β : Fin 64 → EReal)
    (hC : ∀ n c l, ∃ r : ℝ, C n c l = (r : EReal)) (hw : ∀ o c, ∃ r : ℝ, w o c = (r : EReal)) (hγ : ∀ o, ∃ r : ℝ, γ o = (r : EReal)) (hβ : ∀ o, ∃ r : ℝ, β o = (r : EReal))
    (n : Fin 128) (o : Fin 64) (l : Fin 1024) : outK C w γ β n o l = outR C w γ β n o l := by
  choose C' hC' using hC
  choose w' hw' using hw
  choose γ' hγ' using hγ
  choose β' hβ' using hβ
  obtain rfl : C = fun n c l => ((C' n c l : ℝ) : EReal) := by funext n c l; exact hC' n c l
  obtain rfl : w = fun o c => ((w' o c : ℝ) : EReal) := by funext o c; exact hw' o c
  obtain rfl : γ = fun o => ((γ' o : ℝ) : EReal) := funext hγ'
  obtain rfl : β = fun o => ((β' o : ℝ) : EReal) := funext hβ'
  obtain ⟨e, he, hE⟩ := epsE_pos
  -- the variance plus its offset is positive, so its reciprocal square root is a real number s
  have hpos : 0 < vRe C' w' o + e := by have := vRe_nonneg C' w' o; linarith
  obtain ⟨s, hs⟩ : ∃ s : ℝ, s = (Real.sqrt (vRe C' w' o + e))⁻¹ := ⟨_, rfl⟩
  rw [outK_coe C' w' γ' β' n o l s (scaleG_coe C' w' γ' o e s hE hpos hs),
      outR_coe C' w' γ' β' n o l s (scaleR_coe C' w' γ' o e s hE hpos hs)]
  exact congrArg (fun r : ℝ => (r : EReal)) (out_real C' w' γ' β' n o l s (mRe C' w' o))

/-! ### Which words denote real numbers -/

/-- A single-precision word whose exponent field is not all ones denotes a real number: such a word is a zero,
    a subnormal or a normal number, never an infinity and never a NaN. -/
theorem f32_real (b : BitVec 32) (h : (b.extractLsb' 23 8).toNat ≠ 2 ^ 8 - 1) :
    ∃ r : ℝ, Ideal.ofBits .f32 b = (r : EReal) := by
  show ∃ r : ℝ, Ideal.ieee 8 23 b = (r : EReal)
  unfold Ideal.ieee
  simp only [if_neg h]
  split_ifs <;> exact ⟨_, rfl⟩

/-- θ (exponent field 126) is a real number. -/
theorem thetaE_real : ∃ r : ℝ, thetaE = (r : EReal) := f32_real _ (by decide)

/-- 1 − θ (exponent field 125) is a real number. -/
theorem omtE_real : ∃ r : ℝ, omtE = (r : EReal) := f32_real _ (by decide)

/-- The 1x1 weight times (1 − θ), on real weights, is real. -/
theorem Wof_real (wp : (⟨2, ![64, 64]⟩ : Shape).Idx → EReal) (h : ∀ i, ∃ r : ℝ, wp i = (r : EReal)) (o c : Fin 64) :
    ∃ r : ℝ, Wof wp o c = (r : EReal) := by
  unfold Wof
  exact real_mul omtE_real (h _)

end Cert.Spec

end
-- ==== Proof.Bridge.lean ====
/-
  The two programs agree. From memories that agree on the five arguments, and under the precondition that every
  argument entry is finite, both programs run to completion, leave their arguments as launched, and end with the
  same result array.

  Index by index the kernel's result is the batch normalization of the 1x1 convolution computed from the Gram matrix
  and the channel sums of the convolved planes, the reference's the one computed from the sums and square sums of the
  1x1 convolution's own output. The convolved planes are the same in both (same input, same taps, same centre factor,
  and one constant border mask), and under the precondition all their entries are real numbers, as are the weights,
  the scale and the shift; over the reals the two normalizations are equal.
-/
import proofs.«151441_g2000606144476369_pallasbulk_1044_2_alg».proof.Defs
import proofs.«151441_g2000606144476369_pallasbulk_1044_2_alg».proof.Proof.Gen.KernelIdeal
import proofs.«151441_g2000606144476369_pallasbulk_1044_2_alg».proof.Proof.Gen.ReferenceIdeal
import proofs.«151441_g2000606144476369_pallasbulk_1044_2_alg».proof.Proof.Gen.Pre_finite_inputs
import proofs.«151441_g2000606144476369_pallasbulk_1044_2_alg».proof.Proof.KRun
import proofs.«151441_g2000606144476369_pallasbulk_1044_2_alg».proof.Proof.RRun
import proofs.«151441_g2000606144476369_pallasbulk_1044_2_alg».proof.Proof.KVal
import proofs.«151441_g2000606144476369_pallasbulk_1044_2_alg».proof.Proof.RVal
import proofs.«151441_g2000606144476369_pallasbulk_1044_2_alg».proof.Proof.HostEq
import proofs.«151441_g2000606144476369_pallasbulk_1044_2_alg».proof.Proof.KdTerm
import proofs.«151441_g2000606144476369_pallasbulk_1044_2_alg».proof.Proof.PreReal
import proofs.«151441_g2000606144476369_pallasbulk_1044_2_alg».proof.Proof.Algebra
import proofs.«151441_g2000606144476369_pallasbulk_1044_2_alg».proof.Proof.HostSpec
import proofs.«151441_g2000606144476369_pallasbulk_1044_2_alg».proof.Proof.Spec
import Idealize.ShloMosaic.Lib.ValueIdx

noncomputable section

namespace Cert.Val

open Idealize.ShloMosaic Idealize.ShloMosaic.ValueIdx Idealize.SL.Sem Cert.Spec

/-- From arguments that agree the two programs convolve the same planes: the input, the tap weights and hence the
    centre factor are the same arrays, and the two border masks are one constant. -/
theorem CR_eq_CK
    (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (c : Dev Cert.KernelIdeal.nD) :
    Cert.ReferenceIdeal.Val.CR m' g' c = Cert.KernelIdeal.Val.CK m g c := by
  funext n ch l
  unfold Cert.ReferenceIdeal.Val.CR Cert.KernelIdeal.Val.CK
  rw [(hagree c).1, (hagree c).2.1, ← mask_eq (Cert.KernelIdeal.Hand.W0 m g c) (Cert.ReferenceIdeal.Hand.W0 m' g' c)]

/-- Under the precondition every convolved plane entry is a real number: the rectified input, the taps, the centre
    factor (θ times a finite sum of taps) and the mask entries are all real. -/
theorem CK_real
    (m : (ℓ : Loc Cert.KernelIdeal.nD Cert.KernelIdeal.τ Cert.KernelIdeal.sig) → Buf (Elt Ideal) ℓ) (g : Dev Cert.KernelIdeal.nD → PrngReg)
    (hpre : Cert.Pre_KernelIdeal (hPre_finite_inputs := Cert.Pre_finite_inputs.Gen.facts) m) (c : Dev Cert.KernelIdeal.nD)
    (n : Fin 128) (ch : Fin 64) (l : Fin 1024) : ∃ r : ℝ, Cert.KernelIdeal.Val.CK m g c n ch l = (r : EReal) := by
  have hA := (Cert.Val.argsK_real (hPre_finite_inputs := Cert.Pre_finite_inputs.Gen.facts) m hpre c)
  unfold Cert.KernelIdeal.Val.CK
  refine cdcRow_real _ _ _ _ (fun j => ?_) (fun t => ?_) ?_ (fun t j => ?_) l
  · unfold Xof; exact hA.1 _
  · unfold WDof; exact hA.2.1 _
  · exact kdTerm_real _ thetaE_real hA.2.1 _
  · exact maskK_real (Cert.KernelIdeal.Hand.W0 m g c) t j

/-- From arguments that agree, the two programs' result arrays are the same array: index by index the reference's is
    the normalization from the 1x1 convolution's own sums, the kernel's the one from the Gram matrix and the channel
    sums, of the same real planes, weights, scale and shift. -/
theorem result_eq
    (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hpre : Cert.Pre_KernelIdeal (hPre_finite_inputs := Cert.Pre_finite_inputs.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (c : Dev Cert.KernelIdeal.nD) :
    Cert.ReferenceIdeal.Hand.W4 (F := Ideal) m' g' c (Proc.devRef .tc Cert.ReferenceIdeal.main_v225)
      = Cert.KernelIdeal.Hand.W5 (F := Ideal) m g c (Proc.devRef .tc Cert.KernelIdeal.main_v253) := by
  have hA := (Cert.Val.argsK_real (hPre_finite_inputs := Cert.Pre_finite_inputs.Gen.facts) m hpre c)
  funext idx
  obtain ⟨n, o, hh, ww, rfl⟩ : ∃ (n : Fin 128) (o : Fin 64) (hh ww : Fin 32), idx = ix4 n o hh ww :=
    ⟨idx 0, idx 1, idx 2, idx 3, eq_ix4 idx⟩
  refine (Cert.ReferenceIdeal.Val.resR_apply m' g' c n o hh ww).trans (Eq.trans ?_ (Cert.KernelIdeal.Val.resK_apply m g c n o hh ww).symm)
  rw [CR_eq_CK m g m' g' hagree c, (hagree c).2.2.1, (hagree c).2.2.2.1, (hagree c).2.2.2.2]
  exact (outK_eq_outR _ _ _ _ (CK_real m g hpre c) (fun o' c' => Wof_real _ hA.2.2.1 o' c')
    (fun o' => by unfold Gof; exact hA.2.2.2.1 _) (fun o' => by unfold Gof; exact hA.2.2.2.2 _) _ _ _).symm

/-- Both programs run, end with equal results and leave their arguments as launched. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => Cert.KernelIdeal.Hand.W5 (F := Ideal) m g c (Proc.devRef .tc Cert.KernelIdeal.main_v253), Cert.KernelIdeal.Hand.run m g, ?_⟩
  exact (θ_run Cert.ReferenceIdeal.defs _ _).mono
    (fun r h c => ⟨(h c).1.trans (result_eq m g m' g' hpre hagree c), (h c).2⟩)
    (Cert.ReferenceIdeal.Hand.run m' g')

end Cert.Val

end
-- ==== Proof.lean ====
/- The kernel computes, for x of shape [128, 64, 32, 32], the rectified input's depthwise dilated 3x3
   central-difference convolution, a 1x1 convolution and a training-mode batch normalization; it takes the
   normalization's statistics from the Gram matrix and the channel sums of the convolved planes and folds the
   scale into the 1x1 weight, where the reference sums the 1x1 convolution's output and its squares and scales
   afterwards. Over the extended reals, with every input entry a real number, the two agree: the mean and the
   second moment of a linear image are the linear and the quadratic form of the channel sums and the Gram
   matrix; the variance is nonnegative, so the scale is a real number and moves inside the channel sum.

   The three frames are the runs of the three programs with the result dropped; the idealization rewrote
   nothing, so `preserves` is trivial; the algebraic conjunct is assembled in `Bridge`. -/
import proofs.«151441_g2000606144476369_pallasbulk_1044_2_alg».proof.Defs
import proofs.«151441_g2000606144476369_pallasbulk_1044_2_alg».proof.Proof.Gen.Kernel
import proofs.«151441_g2000606144476369_pallasbulk_1044_2_alg».proof.Proof.Gen.KernelIdeal
import proofs.«151441_g2000606144476369_pallasbulk_1044_2_alg».proof.Proof.Gen.ReferenceIdeal
import proofs.«151441_g2000606144476369_pallasbulk_1044_2_alg».proof.Proof.Gen.Pre_finite_inputs
import proofs.«151441_g2000606144476369_pallasbulk_1044_2_alg».proof.Proof.BKRun
import proofs.«151441_g2000606144476369_pallasbulk_1044_2_alg».proof.Proof.KRun
import proofs.«151441_g2000606144476369_pallasbulk_1044_2_alg».proof.Proof.RRun
import proofs.«151441_g2000606144476369_pallasbulk_1044_2_alg».proof.Proof.Bridge
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m g _ => (θ_run (Cert.Kernel.defs (F := Bits)) _ _).mono (fun _ h c => (h c).2) (Cert.Kernel.Hand.run (F := Bits) m g),
  fun m g _ => (θ_run (Cert.KernelIdeal.defs (F := Ideal)) _ _).mono (fun _ h c => (h c).2) (Cert.KernelIdeal.Hand.run (F := Ideal) m g),
  fun m g _ => (θ_run (Cert.ReferenceIdeal.defs (F := Ideal)) _ _).mono (fun _ h c => (h c).2) (Cert.ReferenceIdeal.Hand.run (F := Ideal) m g),
  trivial,
  Cert.Val.algebraic⟩

end Cert.Proof

end
